-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S256x512 : Shape := ⟨2, ![256, 512]⟩
abbrev S8 : Shape := ⟨1, ![8]⟩
abbrev S_ : Shape := ⟨0, ![]⟩
abbrev S1x32x512 : Shape := ⟨3, ![1, 32, 512]⟩
abbrev S32x512 : Shape := ⟨2, ![32, 512]⟩
abbrev S1 : Shape := ⟨1, ![1]⟩
abbrev S1x512 : Shape := ⟨2, ![1, 512]⟩
abbrev S32 : Shape := ⟨1, ![32]⟩
abbrev S32x1 : Shape := ⟨2, ![32, 1]⟩

abbrev nBuf : Space → Nat
  | .hbm => 3
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S1x1024x512, .f32⟩
  | .local _ .vmem, ⟨1, _⟩ => ⟨S512, .f32⟩
  | .local _ .vmem, ⟨2, _⟩ => ⟨S512x512, .f32⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v15 : BitVec 32 := Scalar.muli v6 c2_i32_7
  let v16 : BitVec 32 := Scalar.addi c0_i32 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v17 : BitVec 32 := Scalar.muli v5 c1_i32_8
  let v18 : BitVec 32 := Scalar.addi v16 v17
  v18.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v19 : BitVec 32 := Scalar.muli v2 c2_i32_10
  let v20 : BitVec 32 := Scalar.addi c0_i32_11 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v21 : BitVec 32 := Scalar.muli v7 c1_i32_12
  let v22 : BitVec 32 := Scalar.addi v20 v21
  v22.toNat
def k0_off1 (d0 : Dev nD) : Fin 3 → Nat :=
  let c0 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v8 : BitVec 32 := Scalar.muli v6 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v23 : Index := Scalar.indexCast v10
  let c0_13 : Index := 0#32
  ![0, v23.toNat, 0]
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v30 : BitVec 32 := Scalar.muli v6 c2_i32_19
  let v31 : BitVec 32 := Scalar.addi c0_i32_20 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v32 : BitVec 32 := Scalar.muli v5 c1_i32_21
  let v33 : BitVec 32 := Scalar.addi v31 v32
  v33.toNat
def k0_off2 (d0 : Dev nD) (c32_i32 : BitVec 32) : Fin 3 → Nat :=
  let c0_26 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v8 : BitVec 32 := Scalar.muli v6 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v40 : BitVec 32 := Scalar.addi v10 c32_i32
  let v41 : Index := Scalar.indexCast v40
  let c0_27 : Index := 0#32
  ![0, v41.toNat, 0]
def k0_dev4 (d0 : Dev nD) : Nat :=
  let c0_i32_32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_31 : BitVec 32 := 2#32
  let v48 : BitVec 32 := Scalar.muli v6 c2_i32_31
  let v49 : BitVec 32 := Scalar.addi c0_i32_32 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v50 : BitVec 32 := Scalar.muli v5 c1_i32_33
  let v51 : BitVec 32 := Scalar.addi v49 v50
  v51.toNat
def k0_dev5 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v66 : BitVec 32 := Scalar.muli v6 c2_i32_43
  let v67 : BitVec 32 := Scalar.addi c0_i32_44 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v68 : BitVec 32 := Scalar.muli v5 c1_i32_45
  let v69 : BitVec 32 := Scalar.addi v67 v68
  v69.toNat
def k0_dev6 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v84 : BitVec 32 := Scalar.muli v6 c2_i32_54
  let v85 : BitVec 32 := Scalar.addi c0_i32_55 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v86 : BitVec 32 := Scalar.muli v5 c1_i32_56
  let v87 : BitVec 32 := Scalar.addi v85 v86
  v87.toNat
def k0_dev7 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v102 : BitVec 32 := Scalar.muli v6 c2_i32_65
  let v103 : BitVec 32 := Scalar.addi c0_i32_66 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v104 : BitVec 32 := Scalar.muli v5 c1_i32_67
  let v105 : BitVec 32 := Scalar.addi v103 v104
  v105.toNat
def k0_dev8 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v120 : BitVec 32 := Scalar.muli v6 c2_i32_76
  let v121 : BitVec 32 := Scalar.addi c0_i32_77 v120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v122 : BitVec 32 := Scalar.muli v5 c1_i32_78
  let v123 : BitVec 32 := Scalar.addi v121 v122
  v123.toNat
def k0_dev9 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v138 : BitVec 32 := Scalar.muli v6 c2_i32_87
  let v139 : BitVec 32 := Scalar.addi c0_i32_88 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v140 : BitVec 32 := Scalar.muli v5 c1_i32_89
  let v141 : BitVec 32 := Scalar.addi v139 v140
  v141.toNat
def k0_dev10 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v156 : BitVec 32 := Scalar.muli v6 c2_i32_98
  let v157 : BitVec 32 := Scalar.addi c0_i32_99 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v158 : BitVec 32 := Scalar.muli v5 c1_i32_100
  let v159 : BitVec 32 := Scalar.addi v157 v158
  v159.toNat
def k0_off3 (d0 : Dev nD) (c0_i32_115 : BitVec 32) : Fin 3 → Nat :=
  let c0_116 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_5 : BitVec 32 := 256#32
  let v12 : BitVec 32 := Scalar.muli v5 c256_i32_5
  let v13 : BitVec 32 := Scalar.addi v11 v12
  let v177 : BitVec 32 := Scalar.addi v13 c0_i32_115
  let v178 : Index := Scalar.indexCast v177
  let c0_117 : Index := 0#32
  ![0, v178.toNat, 0]
def k0_off4 (d0 : Dev nD) (c0_i32_123 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_122 : BitVec 32 := 256#32
  let v196 : BitVec 32 := Scalar.muli v5 c256_i32_122
  let v197 : BitVec 32 := Scalar.addi v196 c0_i32_123
  let v198 : Index := Scalar.indexCast v197
  let c0_124 : Index := 0#32
  ![v198.toNat, 0]
def k0_dev11 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v204 : BitVec 32 := Scalar.muli v2 c2_i32_131
  let v205 : BitVec 32 := Scalar.addi c0_i32_132 v204
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_133 : BitVec 32 := 1#32
  let v206 : BitVec 32 := Scalar.muli v7 c1_i32_133
  let v207 : BitVec 32 := Scalar.addi v205 v206
  v207.toNat
def k0_dev12 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v249 : BitVec 32 := Scalar.muli v2 c2_i32_162
  let v250 : BitVec 32 := Scalar.addi c0_i32_163 v249
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_164 : BitVec 32 := 1#32
  let v251 : BitVec 32 := Scalar.muli v7 c1_i32_164
  let v252 : BitVec 32 := Scalar.addi v250 v251
  v252.toNat
def k0_dev13 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v294 : BitVec 32 := Scalar.muli v2 c2_i32_193
  let v295 : BitVec 32 := Scalar.addi c0_i32_194 v294
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_195 : BitVec 32 := 1#32
  let v296 : BitVec 32 := Scalar.muli v7 c1_i32_195
  let v297 : BitVec 32 := Scalar.addi v295 v296
  v297.toNat
def k0_dev14 (d0 : Dev nD) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v339 : BitVec 32 := Scalar.muli v2 c2_i32_224
  let v340 : BitVec 32 := Scalar.addi c0_i32_225 v339
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_226 : BitVec 32 := 1#32
  let v341 : BitVec 32 := Scalar.muli v7 c1_i32_226
  let v342 : BitVec 32 := Scalar.addi v340 v341
  v342.toNat
def k0_dev15 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v384 : BitVec 32 := Scalar.muli v2 c2_i32_255
  let v385 : BitVec 32 := Scalar.addi c0_i32_256 v384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_257 : BitVec 32 := 1#32
  let v386 : BitVec 32 := Scalar.muli v7 c1_i32_257
  let v387 : BitVec 32 := Scalar.addi v385 v386
  v387.toNat
def k0_dev16 (d0 : Dev nD) : Nat :=
  let c0_i32_287 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_286 : BitVec 32 := 2#32
  let v429 : BitVec 32 := Scalar.muli v2 c2_i32_286
  let v430 : BitVec 32 := Scalar.addi c0_i32_287 v429
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_288 : BitVec 32 := 1#32
  let v431 : BitVec 32 := Scalar.muli v7 c1_i32_288
  let v432 : BitVec 32 := Scalar.addi v430 v431
  v432.toNat
def k0_dev17 (d0 : Dev nD) : Nat :=
  let c0_i32_318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_317 : BitVec 32 := 2#32
  let v474 : BitVec 32 := Scalar.muli v2 c2_i32_317
  let v475 : BitVec 32 := Scalar.addi c0_i32_318 v474
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_319 : BitVec 32 := 1#32
  let v476 : BitVec 32 := Scalar.muli v7 c1_i32_319
  let v477 : BitVec 32 := Scalar.addi v475 v476
  v477.toNat
def k0_dev18 (d0 : Dev nD) : Nat :=
  let c0_i32_349 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_348 : BitVec 32 := 2#32
  let v519 : BitVec 32 := Scalar.muli v2 c2_i32_348
  let v520 : BitVec 32 := Scalar.addi c0_i32_349 v519
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_350 : BitVec 32 := 1#32
  let v521 : BitVec 32 := Scalar.muli v7 c1_i32_350
  let v522 : BitVec 32 := Scalar.addi v520 v521
  v522.toNat
def k0_off5 (d0 : Dev nD) (c0_i32_367 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_366 : BitVec 32 := 256#32
  let v539 : BitVec 32 := Scalar.muli v7 c256_i32_366
  let v540 : BitVec 32 := Scalar.addi v539 c0_i32_367
  let v541 : Index := Scalar.indexCast v540
  let c0_368 : Index := 0#32
  ![v541.toNat, 0]
abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_2 : (2#32 : BitVec 32).msb = false
  hamt_1 : (1#32 : BitVec 32).msb = false
  h_S1x32x512 : 0 < S1x32x512.numel
  shapeCasts_S1x32x512_S32x512 : S1x32x512.ShapeCasts S32x512
  bitsLt_bf16_f32 : FTy.bits .bf16 < FTy.bits .f32
  inb_S256x512_S32x512_0_0 : ∀ a, (![0, 0] : Fin 2 → Nat) a + S32x512.size a ≤ S256x512.size a
  h_S32x512 : 0 < S32x512.numel
  shapeCasts_S32x512_S32x512 : S32x512.ShapeCasts S32x512
  packedbf16_S256x512_S32x512_0_0 : (Rect.unit (s := S256x512) ![0, 0] S32x512.size inb_S256x512_S32x512_0_0).PackedRows (EltTy.packing .bf16)
  inb_S8_S1_0 : ∀ a, (![0] : Fin 1 → Nat) a + S1.size a ≤ S8.size a
  squeezes_S1_S_ : S1.Squeezes S_
  wordsbf16_S256x512_S32x512_0_0 : (Rect.unit (s := S256x512) ![0, 0] S32x512.size inb_S256x512_S32x512_0_0).WholeWords (EltTy.packing .bf16)
  inb_S256x512_S32x512_32_0 : ∀ a, (![32, 0] : Fin 2 → Nat) a + S32x512.size a ≤ S256x512.size a
  packedbf16_S256x512_S32x512_32_0 : (Rect.unit (s := S256x512) ![32, 0] S32x512.size inb_S256x512_S32x512_32_0).PackedRows (EltTy.packing .bf16)
  inb_S8_S1_1 : ∀ a, (![1] : Fin 1 → Nat) a + S1.size a ≤ S8.size a
  wordsbf16_S256x512_S32x512_32_0 : (Rect.unit (s := S256x512) ![32, 0] S32x512.size inb_S256x512_S32x512_32_0).WholeWords (EltTy.packing .bf16)
  inb_S256x512_S32x512_64_0 : ∀ a, (![64, 0] : Fin 2 → Nat) a + S32x512.size a ≤ S256x512.size a
  packedbf16_S256x512_S32x512_64_0 : (Rect.unit (s := S256x512) ![64, 0] S32x512.size inb_S256x512_S32x512_64_0).PackedRows (EltTy.packing .bf16)
  inb_S8_S1_2 : ∀ a, (![2] : Fin 1 → Nat) a + S1.size a ≤ S8.size a
  wordsbf16_S256x512_S32x512_64_0 : (Rect.unit (s := S256x512) ![64, 0] S32x512.size inb_S256x512_S32x512_64_0).WholeWords (EltTy.packing .bf16)
  inb_S256x512_S32x512_96_0 : ∀ a, (![96, 0] : Fin 2 → Nat) a + S32x512.size a ≤ S256x512.size a
  packedbf16_S256x512_S32x512_96_0 : (Rect.unit (s := S256x512) ![96, 0] S32x512.size inb_S256x512_S32x512_96_0).PackedRows (EltTy.packing .bf16)
  inb_S8_S1_3 : ∀ a, (![3] : Fin 1 → Nat) a + S1.size a ≤ S8.size a
  wordsbf16_S256x512_S32x512_96_0 : (Rect.unit (s := S256x512) ![96, 0] S32x512.size inb_S256x512_S32x512_96_0).WholeWords (EltTy.packing .bf16)
  inb_S256x512_S32x512_128_0 : ∀ a, (![128, 0] : Fin 2 → Nat) a + S32x512.size a ≤ S256x512.size a
  packedbf16_S256x512_S32x512_128_0 : (Rect.unit (s := S256x512) ![128, 0] S32x512.size inb_S256x512_S32x512_128_0).PackedRows (EltTy.packing .bf16)
  inb_S8_S1_4 : ∀ a, (![4] : Fin 1 → Nat) a + S1.size a ≤ S8.size a
  wordsbf16_S256x512_S32x512_128_0 : (Rect.unit (s := S256x512) ![128, 0] S32x512.size inb_S256x512_S32x512_128_0).WholeWords (EltTy.packing .bf16)
  inb_S256x512_S32x512_160_0 : ∀ a, (![160, 0] : Fin 2 → Nat) a + S32x512.size a ≤ S256x512.size a
  packedbf16_S256x512_S32x512_160_0 : (Rect.unit (s := S256x512) ![160, 0] S32x512.size inb_S256x512_S32x512_160_0).PackedRows (EltTy.packing .bf16)
  inb_S8_S1_5 : ∀ a, (![5] : Fin 1 → Nat) a + S1.size a ≤ S8.size a
  wordsbf16_S256x512_S32x512_160_0 : (Rect.unit (s := S256x512) ![160, 0] S32x512.size inb_S256x512_S32x512_160_0).WholeWords (EltTy.packing .bf16)
  inb_S256x512_S32x512_192_0 : ∀ a, (![192, 0] : Fin 2 → Nat) a + S32x512.size a ≤ S256x512.size a
  packedbf16_S256x512_S32x512_192_0 : (Rect.unit (s := S256x512) ![192, 0] S32x512.size inb_S256x512_S32x512_192_0).PackedRows (EltTy.packing .bf16)
  inb_S8_S1_6 : ∀ a, (![6] : Fin 1 → Nat) a + S1.size a ≤ S8.size a
  wordsbf16_S256x512_S32x512_192_0 : (Rect.unit (s := S256x512) ![192, 0] S32x512.size inb_S256x512_S32x512_192_0).WholeWords (EltTy.packing .bf16)
  inb_S256x512_S32x512_224_0 : ∀ a, (![224, 0] : Fin 2 → Nat) a + S32x512.size a ≤ S256x512.size a
  packedbf16_S256x512_S32x512_224_0 : (Rect.unit (s := S256x512) ![224, 0] S32x512.size inb_S256x512_S32x512_224_0).PackedRows (EltTy.packing .bf16)
  inb_S8_S1_7 : ∀ a, (![7] : Fin 1 → Nat) a + S1.size a ≤ S8.size a
  wordsbf16_S256x512_S32x512_224_0 : (Rect.unit (s := S256x512) ![224, 0] S32x512.size inb_S256x512_S32x512_224_0).WholeWords (EltTy.packing .bf16)
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  reduces_S32x512_S32 : S32x512.Reduces [1] S32
  shapeCasts_S32_S32x1 : S32.ShapeCasts S32x1
  broadcasts_S32x1_S32x512 : S32x1.Broadcasts S32x512
  broadcasts_S1x512_S32x512 : S1x512.Broadcasts S32x512
  hcc0_scratch4 : 3 + S8.numel ≤ 35
  hcc0_scratch5 : 11 + S8.numel ≤ 35
  hcc0_scratch6 : 19 + S8.numel ≤ 35
  hcc0_scratch7 : 27 + S8.numel ≤ 35
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1x32x512.size a ≤ S1x1024x512.size a
  k0_dev3_lt : ∀ d0 : Dev nD, (k0_dev3 d0) < nD
  k0_off2_inb : ∀ d0 : Dev nD, ∀ (r : Fin 7), ∀ a, (k0_off2 d0 (BitVec.ofNat 32 (32 + 32 * r.val))) a + S1x32x512.size a ≤ S1x1024x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ (r : Fin 8), ∀ a, (k0_off3 d0 (BitVec.ofNat 32 (32 * r.val))) a + S1x32x512.size a ≤ S1x1024x512.size a
  k0_off4_inb : ∀ d0 : Dev nD, ∀ (r : Fin 8), ∀ a, (k0_off4 d0 (BitVec.ofNat 32 (32 * r.val))) a + S32x512.size a ≤ S512x512.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off5_inb : ∀ d0 : Dev nD, ∀ (r : Fin 8), ∀ a, (k0_off5 d0 (BitVec.ofNat 32 (32 * r.val))) a + S32x512.size a ≤ S512x512.size a
  hstage0_0 : ∀ j, (stage0_0 j).IsWhole
  hstage0_1 : ∀ j, (stage0_1 j).IsWhole
  hstage0_2 : ∀ j, (stage0_2 j).IsWhole

variable [Facts₀]

abbrev cc0_scratch4 : DmaSems sig S8 := SemArray.consecutive 3 S8 hcc0_scratch4
abbrev cc0_scratch5 : DmaSems sig S8 := SemArray.consecutive 11 S8 hcc0_scratch5
abbrev cc0_scratch6 : DmaSems sig S8 := SemArray.consecutive 19 S8 hcc0_scratch6
abbrev cc0_scratch7 : DmaSems sig S8 := SemArray.consecutive 27 S8 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Mesh.lean ====
/-
  The 2 × 2 mesh of the reduce-scatter / normalise / all-gather kernel: device d = 2·x + y. The partner across the
  x axis, xp, holds the other summand of every row; the partner across the y axis, yp, normalises the other
  half of this device's 512 result rows. Both are involutions without fixed points, and they commute.
  Also here: the seven VMEM buffers a device works in, their eight 32-row chunks, the four families of eight
  DMA semaphores, and the semaphore cells (device, semaphore) the protocol is stated over.
-/
import proofs.«900597_g7700000000000598_dist_rsrms_v7x_xy2x2_x_m512_d512_f32_1_alg».proof.Proof.Gen.KernelIdeal
import proofs.«900597_g7700000000000598_dist_rsrms_v7x_xy2x2_x_m512_d512_f32_1_alg».proof.Proof.Gen.KernelIdeal.Skeleton
import proofs.«900597_g7700000000000598_dist_rsrms_v7x_xy2x2_x_m512_d512_f32_1_alg».proof.Proof.Gen.KernelIdeal.Launch
import proofs.«900597_g7700000000000598_dist_rsrms_v7x_xy2x2_x_m512_d512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy of the rounds algebra and the protocol's own -/

abbrev UU : Type := UR sig nD τ × UR sig nD τ

abbrev EP : Emb (UR sig nD τ) (MT nD τ sig Unit (Elt F) ℕ UU ℕ) := embL
abbrev ER : Emb (UR sig nD τ) (MT nD τ sig Unit (Elt F) ℕ UU ℕ) := embR

/-! ## The two partners -/

/-- The partner across the x axis: (x, y) ↦ (1 − x, y). -/
def xp (c : Dev nD) : Dev nD := ⟨((c.val % 2) + 2) - 2 * (c.val / 2), by have := c.isLt; revert this; generalize c.val = v; decide +revert⟩
/-- The partner across the y axis: (x, y) ↦ (x, 1 − y). -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem xp_yp (c : Dev nD) : xp (yp c) = yp (xp c) := by revert c; decide

def xpE : Dev nD ≃ Dev nD := ⟨xp, xp, xp_xp, xp_xp⟩
def ypE : Dev nD ≃ Dev nD := ⟨yp, yp, yp_yp, yp_yp⟩

/-- The kernel's device chains: the first signal and the eight x transfers name xp, the second signal and the
    eight y transfers name yp. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)

/-! ## Buffers, chunks, semaphores, cells -/

/-- The staged block of partial sums, the staged gamma, the staged result block. -/
abbrev xM : Memref sig .tc .vmem S1x1024x512 .f32 := Memref.whole cc0_stg0_0
abbrev gM : Memref sig .tc .vmem S512 .f32 := Memref.whole cc0_stg1_0
abbrev oM : Memref sig .tc .vmem S512x512 .f32 := Memref.whole cc0_stg2_0
/-- The four bf16 scratch buffers of 256 rows: sent across x, received across x, sent across y, received across y. -/
abbrev xsM : Memref sig .tc .vmem S256x512 .bf16 := Memref.whole cc0_scratch0
abbrev xrM : Memref sig .tc .vmem S256x512 .bf16 := Memref.whole cc0_scratch1
abbrev ysM : Memref sig .tc .vmem S256x512 .bf16 := Memref.whole cc0_scratch2
abbrev yrM : Memref sig .tc .vmem S256x512 .bf16 := Memref.whole cc0_scratch3

theorem ck_inb (k : Fin 8) : ∀ a, (![32 * k.val, 0] : Fin 2 → Nat) a + S32x512.size a ≤ S256x512.size a := by
  revert k; decide
/-- Chunk k of a 256-row buffer: rows 32 k … 32 k + 31. -/
abbrev ck (k : Fin 8) : Rect S256x512 := Rect.unit (s := S256x512) ![32 * k.val, 0] S32x512.size (ck_inb k)
/-- The chunk as a memref of its own. -/
abbrev sl (M : Memref sig .tc .vmem S256x512 .bf16) (k : Fin 8) : Memref sig .tc .vmem S32x512 .bf16 := M.slice (ck k) (fun _ => rfl)

theorem s1_inb (k : Fin 8) : ∀ a, (![k.val] : Fin 1 → Nat) a + S1.size a ≤ S8.size a := by revert k; decide
/-- Semaphore k of a family of eight. -/
abbrev sm (A : DmaSems sig S8) (k : Fin 8) : DmaSem sig := ((A.slice (Rect.unit (s := S8) ![k.val] S1.size (s1_inb k))).squeeze S_ squeezes_S1_S_).sem

/-- The runtime's barrier semaphore of collective id 0. -/
abbrev barS : Sem sig := (SemArray.scalar (sig.barrier 0 rfl) : Sems sig S_).sem

abbrev barCell (c : Dev nD) : GSem nD τ sig := ((c : Thread nD τ), .reg barS)
/-- The DMA cells of device c: x-send, x-receive, y-send, y-receive of chunk k. -/
abbrev xsCell (c : Dev nD) (k : Fin 8) : GSem nD τ sig := ((c : Thread nD τ), .dma (sm cc0_scratch4 k))
abbrev xrCell (c : Dev nD) (k : Fin 8) : GSem nD τ sig := ((c : Thread nD τ), .dma (sm cc0_scratch5 k))
abbrev ysCell (c : Dev nD) (k : Fin 8) : GSem nD τ sig := ((c : Thread nD τ), .dma (sm cc0_scratch6 k))
abbrev yrCell (c : Dev nD) (k : Fin 8) : GSem nD τ sig := ((c : Thread nD τ), .dma (sm cc0_scratch7 k))

/-- The semaphore numbers: families at 3, 11, 19, 27 of the pool of 35. -/
theorem sm4_val (k : Fin 8) : (sm cc0_scratch4 k).val = 3 + k.val := by revert k; decide
theorem sm5_val (k : Fin 8) : (sm cc0_scratch5 k).val = 11 + k.val := by revert k; decide
theorem sm6_val (k : Fin 8) : (sm cc0_scratch6 k).val = 19 + k.val := by revert k; decide
theorem sm7_val (k : Fin 8) : (sm cc0_scratch7 k).val = 27 + k.val := by revert k; decide

/-- A chunk's credit on a DMA semaphore. -/
abbrev N32 : ℕ := (sl xsM 0).view.dmaCredit
theorem N32_pos : 0 < N32 := View.dmaCredit_pos _ (by decide)

end Cert.KernelIdeal.Hand

end
-- ==== Proof.Spec.lean ====
/-
  The arithmetic of one normalised row, on the extended reals, in the two forms the two programs use.
  For a row s of 512 sums and weights γ the reference computes  s j / sqrt ((Σ s²) / 512 + ε) · γ j,
  the kernel  s j · rsqrt ((Σ s²) · 2⁻⁹ + ε) · γ j.  On a row of real numbers Σ s² is a nonnegative real, so the
  radicand is a positive real, dividing by 512 is multiplying by 2⁻⁹, and dividing by the root is multiplying by the
  reciprocal root: the two forms agree. (At an infinite entry they need not: that is where finiteness is used.)
-/
import Idealize.ShloMosaic.PureOps.Ideal
import Idealize.ShloMosaic.PureOps.Ideal.Laws

noncomputable section

namespace Cert.Spec

open Idealize.ShloMosaic

/-- The three float literals of the two programs, as their exact binary values. -/
def eps : EReal := Ideal.ofBits .f32 0x358637BD#32
def c512 : EReal := Ideal.ofBits .f32 0x44000000#32
def cInv512 : EReal := Ideal.ofBits .f32 0x3B000000#32

/-- The reference's arithmetic on one row. -/
def normEntry (s γ : Fin 512 → EReal) (j : Fin 512) : EReal :=
  Ideal.div (s j) (Ideal.sqrt (Ideal.div (∑ j', s j' * s j') c512 + eps)) * γ j

/-- The kernel's arithmetic on one row. -/
def kernEntry (s γ : Fin 512 → EReal) (j : Fin 512) : EReal :=
  s j * Ideal.rsqrt ((∑ j', s j' * s j') * cInv512 + eps) * γ j

/-- The divisor's pattern (exponent field 136, significand field 0) denotes 2²³ · 2⁻¹⁴ = 512. -/
theorem c512_eq : c512 = ((512 : ℝ) : EReal) := by
  simp [c512, Ideal.ofBits, Ideal.ieee, -EReal.coe_mul]; norm_num

/-- The folded reciprocal's pattern (exponent field 118, significand field 0) denotes 2²³ · 2⁻³² = 2⁻⁹ = 1/512. -/
theorem cInv512_eq : cInv512 = ((1 / 512 : ℝ) : EReal) := by
  simp [cInv512, Ideal.ofBits, Ideal.ieee, -EReal.coe_mul]; norm_num

/-- The stabiliser's pattern (exponent field 107, significand field 407485) denotes the positive dyadic real
    8796093 · 2⁻⁴³ (about 10⁻⁶); only its sign is used. -/
theorem eps_eq : ∃ e : ℝ, 0 < e ∧ eps = (e : EReal) := by
  refine ⟨8796093 * (2 : ℝ) ^ (-43 : Int), by positivity, ?_⟩
  simp [eps, Ideal.ofBits, Ideal.ieee, -EReal.coe_mul]

/-- A finite sum of squares of reals, formed in the extended reals, is the real sum of squares. -/
theorem coe_sum_sq (r : Fin 512 → ℝ) :
    (∑ j, (r j : EReal) * (r j : EReal)) = ((∑ j, r j * r j : ℝ) : EReal) := by
  have h : ∀ t : Finset (Fin 512),
      (∑ j ∈ t, (r j : EReal) * (r j : EReal)) = ((∑ j ∈ t, r j * r j : ℝ) : EReal) := by
    intro t
    induction t using Finset.induction_on with
    | empty => simp
    | insert a t ha ih => rw [Finset.sum_insert ha, Finset.sum_insert ha, ih, EReal.coe_add, EReal.coe_mul]
  exact h _

/-- On a row of reals the two forms agree. -/
theorem kernEntry_eq_normEntry (s γ : Fin 512 → EReal) (hs : ∀ j, ∃ r : ℝ, s j = (r : EReal)) (j : Fin 512) :
    kernEntry s γ j = normEntry s γ j := by
  choose r hr using hs
  obtain ⟨e, he, hε⟩ := eps_eq
  -- the sum of squares is a nonnegative real S
  have hsum : (∑ j', s j' * s j') = ((∑ j', r j' * r j' : ℝ) : EReal) := by
    simp only [hr]; exact coe_sum_sq r
  have hS0 : 0 ≤ ∑ j', r j' * r j' := Finset.sum_nonneg (fun j' _ => mul_self_nonneg (r j'))
  -- both radicands are the positive real v = S · (1/512) + e
  have hv0 : 0 < (∑ j', r j' * r j') * (1 / 512) + e := by positivity
  unfold kernEntry normEntry
  rw [hsum, c512_eq, cInv512_eq, hε, Ideal.div_coe (by norm_num : (512 : ℝ) ≠ 0), ← EReal.coe_mul,
    ← EReal.coe_add]
  -- at a positive real the root is the real root and the reciprocal root its inverse
  rw [Ideal.sqrt_coe, Ideal.rsqrt_coe, if_neg (not_lt.mpr hv0.le), if_neg (not_lt.mpr hv0.le),
    if_neg hv0.ne', Ideal.div_coe (Real.sqrt_pos.mpr hv0).ne']
  simp only [one_div]

/-- Both forms depend on the row and the weights only through their values. -/
theorem kernEntry_congr (s s' γ γ' : Fin 512 → EReal) (hs : ∀ j, s j = s' j) (hγ : ∀ j, γ j = γ' j) (j : Fin 512) :
    kernEntry s γ j = kernEntry s' γ' j := by
  rw [funext hs, funext hγ]

theorem normEntry_congr (s s' γ γ' : Fin 512 → EReal) (hs : ∀ j, s j = s' j) (hγ : ∀ j, γ j = γ' j) (j : Fin 512) :
    normEntry s γ j = normEntry s' γ' j := by
  rw [funext hs, funext hγ]

/-- The sum of two reals, formed in the extended reals, is a real. -/
theorem real_add (a b : EReal) (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

end Cert.Spec

end
-- ==== Proof.Pays.lean ====
/-
  The arithmetic of one chunk of 32 rows, under uniform names. Every chunk computes the same five functions,
  whatever the places at which its text happens to be cut:
    cvt      32 rows of partial sums, cast to bf16 (what is sent across the x axis);
    gRow     the weight vector as a one-row matrix;
    outRows  the 32 normalised rows: with s = own rows + received rows, row by row
             s · rsqrt ((Σ s²) · 2⁻⁹ + ε) · γ;
    ysRows   the same rows cast to bf16 (what is sent across the y axis);
    ext      32 received bf16 rows cast back to f32.
  First the definitions and, for every composition of payloads the body meets, the equation that it is one of the
  five. Then, on the extended reals, the two facts the value argument needs: casting to bf16 and back changes
  nothing, and one entry of the normalised rows is the row arithmetic of the specification.
-/
import proofs.«900597_g7700000000000598_dist_rsrms_v7x_xy2x2_x_m512_d512_f32_1_alg».proof.Proof.Mesh
import proofs.«900597_g7700000000000598_dist_rsrms_v7x_xy2x2_x_m512_d512_f32_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic
open Idealize.ShloMosaic.ValueIdx

variable {F : FTy → Type} [FloatOps F]

/-! ## The five functions -/

/-- 32 rows of partial sums, cast to bf16. -/
def cvt (x : Vec F S1x32x512 .f32) : FVec F S32x512 .bf16 :=
  shapeCast S32x512 (truncf .bf16 (shapeCast S32x512 x shapeCasts_S1x32x512_S32x512) bitsLt_bf16_f32)
    shapeCasts_S32x512_S32x512

/-- The weights as a one-row matrix. -/
def gRow (g : Vec F S512 .f32) : FVec F S1x512 .f32 :=
  shapeCast S1x512 (shapeCast S512 g shapeCasts_S512_S512) shapeCasts_S512_S1x512

/-- The sum of this device's 32 rows and the partner's, received as bf16. -/
def sumRows (xa : Vec F S1x32x512 .f32) (xr : Vec F S32x512 .bf16) : FVec F S32x512 .f32 :=
  addf (shapeCast S32x512 xa shapeCasts_S1x32x512_S32x512) (extf .f32 xr bitsLt_bf16_f32)

/-- Per row, the scale rsqrt ((Σ s²) · 2⁻⁹ + ε), as a column. -/
def scaleCol (s : FVec F S32x512 .f32) : FVec F S32x1 .f32 :=
  rsqrt (addf
    (mulf
      (shapeCast S32x1 (multiReduction .add [1] S32 (mulf s s) 0x00000000#32 reduces_S32x512_S32 (.inl rfl) rfl)
        shapeCasts_S32_S32x1)
      (broadcast S32x1 (Scalar.ofBits .f32 0x3B000000#32)))
    (broadcast S32x1 (Scalar.ofBits .f32 0x358637BD#32)))

/-- The 32 normalised rows. -/
def outRows (g : FVec F S1x512 .f32) (xa : Vec F S1x32x512 .f32) (xr : Vec F S32x512 .bf16) : FVec F S32x512 .f32 :=
  mulf
    (mulf (sumRows xa xr) (broadcastTo S32x512 (scaleCol (sumRows xa xr)) broadcasts_S32x1_S32x512))
    (broadcastTo S32x512 g broadcasts_S1x512_S32x512)

/-- The normalised rows cast to bf16. -/
def ysRows (g : FVec F S1x512 .f32) (xa : Vec F S1x32x512 .f32) (xr : Vec F S32x512 .bf16) : FVec F S32x512 .bf16 :=
  shapeCast S32x512 (truncf .bf16 (outRows g xa xr) bitsLt_bf16_f32) shapeCasts_S32x512_S32x512

/-- 32 received bf16 rows cast back to f32. -/
def ext (v : Vec F S32x512 .bf16) : FVec F S32x512 .f32 := extf .f32 v bitsLt_bf16_f32

/-! ## The payloads are these five functions

The eight casts of partial rows (the third is cut in two), the weights' reshape, the eight normalisations (the first,
fourth and seventh are cut after the sum of squares), their eight casts to bf16 (the third and sixth are cut before
the last reshape) and the eight casts back: the same pure operations in the same order, so each equation holds by
unfolding. -/

theorem pay1_eq (x : Vec F S1x32x512 .f32) : k0_pay1 x = cvt x := rfl
theorem pay2_eq (x : Vec F S1x32x512 .f32) : k0_pay2 x = cvt x := rfl
theorem pay4_pay3_eq (x : Vec F S1x32x512 .f32) : k0_pay4 (k0_pay3 x) = cvt x := rfl
theorem pay5_eq (x : Vec F S1x32x512 .f32) : k0_pay5 x = cvt x := rfl
theorem pay6_eq (x : Vec F S1x32x512 .f32) : k0_pay6 x = cvt x := rfl
theorem pay7_eq (x : Vec F S1x32x512 .f32) : k0_pay7 x = cvt x := rfl
theorem pay8_eq (x : Vec F S1x32x512 .f32) : k0_pay8 x = cvt x := rfl
theorem pay9_eq (x : Vec F S1x32x512 .f32) : k0_pay9 x = cvt x := rfl

theorem pay10_eq (g : Vec F S512 .f32) : k0_pay10 g = gRow g := rfl

theorem pay14_eq (g : FVec F S1x512 .f32) (xa : Vec F S1x32x512 .f32) (xr : Vec F S32x512 .bf16) :
    k0_pay14 g (k0_pay11 xa xr) (k0_pay12 xa xr) (k0_pay13 (F := F)) = outRows g xa xr := rfl
theorem pay16_eq (g : FVec F S1x512 .f32) (xa : Vec F S1x32x512 .f32) (xr : Vec F S32x512 .bf16) :
    k0_pay16 g xa xr = outRows g xa xr := rfl
theorem pay18_eq (g : FVec F S1x512 .f32) (xa : Vec F S1x32x512 .f32) (xr : Vec F S32x512 .bf16) :
    k0_pay18 g xa xr = outRows g xa xr := rfl
theorem pay24_eq (g : FVec F S1x512 .f32) (xa : Vec F S1x32x512 .f32) (xr : Vec F S32x512 .bf16) :
    k0_pay24 g (k0_pay21 xa xr) (k0_pay22 xa xr) (k0_pay23 (F := F)) = outRows g xa xr := rfl
theorem pay26_eq (g : FVec F S1x512 .f32) (xa : Vec F S1x32x512 .f32) (xr : Vec F S32x512 .bf16) :
    k0_pay26 g xa xr = outRows g xa xr := rfl
theorem pay28_eq (g : FVec F S1x512 .f32) (xa : Vec F S1x32x512 .f32) (xr : Vec F S32x512 .bf16) :
    k0_pay28 g xa xr = outRows g xa xr := rfl
theorem pay34_eq (g : FVec F S1x512 .f32) (xa : Vec F S1x32x512 .f32) (xr : Vec F S32x512 .bf16) :
    k0_pay34 g (k0_pay31 xa xr) (k0_pay32 xa xr) (k0_pay33 (F := F)) = outRows g xa xr := rfl
theorem pay36_eq (g : FVec F S1x512 .f32) (xa : Vec F S1x32x512 .f32) (xr : Vec F S32x512 .bf16) :
    k0_pay36 g xa xr = outRows g xa xr := rfl

theorem pay15_eq (g : FVec F S1x512 .f32) (xa : Vec F S1x32x512 .f32) (xr : Vec F S32x512 .bf16) :
    k0_pay15 g (k0_pay11 xa xr) (k0_pay12 xa xr) (k0_pay13 (F := F)) = ysRows g xa xr := rfl
theorem pay17_eq (g : FVec F S1x512 .f32) (xa : Vec F S1x32x512 .f32) (xr : Vec F S32x512 .bf16) :
    k0_pay17 g xa xr = ysRows g xa xr := rfl
theorem pay20_pay19_eq (g : FVec F S1x512 .f32) (xa : Vec F S1x32x512 .f32) (xr : Vec F S32x512 .bf16) :
    k0_pay20 (k0_pay19 g xa xr) = ysRows g xa xr := rfl
theorem pay25_eq (g : FVec F S1x512 .f32) (xa : Vec F S1x32x512 .f32) (xr : Vec F S32x512 .bf16) :
    k0_pay25 g (k0_pay21 xa xr) (k0_pay22 xa xr) (k0_pay23 (F := F)) = ysRows g xa xr := rfl
theorem pay27_eq (g : FVec F S1x512 .f32) (xa : Vec F S1x32x512 .f32) (xr : Vec F S32x512 .bf16) :
    k0_pay27 g xa xr = ysRows g xa xr := rfl
theorem pay30_pay29_eq (g : FVec F S1x512 .f32) (xa : Vec F S1x32x512 .f32) (xr : Vec F S32x512 .bf16) :
    k0_pay30 (k0_pay29 g xa xr) = ysRows g xa xr := rfl
theorem pay35_eq (g : FVec F S1x512 .f32) (xa : Vec F S1x32x512 .f32) (xr : Vec F S32x512 .bf16) :
    k0_pay35 g (k0_pay31 xa xr) (k0_pay32 xa xr) (k0_pay33 (F := F)) = ysRows g xa xr := rfl
theorem pay37_eq (g : FVec F S1x512 .f32) (xa : Vec F S1x32x512 .f32) (xr : Vec F S32x512 .bf16) :
    k0_pay37 g xa xr = ysRows g xa xr := rfl

theorem pay38_eq (v : Vec F S32x512 .bf16) : k0_pay38 v = ext v := rfl
theorem pay39_eq (v : Vec F S32x512 .bf16) : k0_pay39 v = ext v := rfl
theorem pay40_eq (v : Vec F S32x512 .bf16) : k0_pay40 v = ext v := rfl
theorem pay41_eq (v : Vec F S32x512 .bf16) : k0_pay41 v = ext v := rfl
theorem pay42_eq (v : Vec F S32x512 .bf16) : k0_pay42 v = ext v := rfl
theorem pay43_eq (v : Vec F S32x512 .bf16) : k0_pay43 v = ext v := rfl
theorem pay44_eq (v : Vec F S32x512 .bf16) : k0_pay44 v = ext v := rfl
theorem pay45_eq (v : Vec F S32x512 .bf16) : k0_pay45 v = ext v := rfl

/-! ## Three layout operations read at an index

The column forms of a keep-dimensions row reduction: a vector of row values viewed as a column, and a column
spread over the lanes; and the source index of a row reduction. -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of the lane reduction over row `r` with lane `k` is `(r, k)`. -/
theorem lift_row (r : Fin 32) (k : Fin (S32x512.size 1)) :
    reduces_S32x512_S32.lift (ix1 r) k = ix2 r (k : Fin 512) := by
  funext c
  refine Fin.ext ?_
  match c with
  | ⟨0, _⟩ => rfl
  | ⟨1, _⟩ => rfl

/-! ## On the extended reals -/

/-- The lane reduction of a 32 × 512 array at row `r` is the sum over the row. -/
theorem rowSum_apply (s : FVec Ideal S32x512 .f32) (r : Fin 32) :
    multiReduction (F := Ideal) .add [1] S32 s 0x00000000#32 reduces_S32x512_S32 (.inl rfl) rfl (ix1 r)
      = ∑ k : Fin 512, s (ix2 r k) :=
  (Ideal.multiReduction_add_single s 0x00000000#32 reduces_S32x512_S32 (.inl rfl) rfl (ix1 r)).trans
    (Finset.sum_congr rfl fun k _ => congrArg s (lift_row r k))

/-- Casting rows to bf16 changes nothing. -/
theorem cvt_apply (x : Vec Ideal S1x32x512 .f32) (r : Fin 32) (j : Fin 512) :
    cvt x (ix2 r j) = x (ix3 (0 : Fin 1) r j) := by
  unfold cvt
  rw [shapeCast_self, truncf_apply, shapeCast_1ab_ab_apply]

/-- The weights' row reads the weight of its lane. -/
theorem gRow_apply (γ : Vec Ideal S512 .f32) (u : Fin 1) (j : Fin 512) : gRow γ (ix2 u j) = γ (ix1 j) := by
  unfold gRow
  rw [shapeCast_a_1a_apply, shapeCast_self]

/-- An entry of the summed rows is the sum of the two devices' entries. -/
theorem sumRows_apply (xa xb : Vec Ideal S1x32x512 .f32) (r : Fin 32) (j : Fin 512) :
    sumRows xa (cvt xb) (ix2 r j) = xa (ix3 (0 : Fin 1) r j) + xb (ix3 (0 : Fin 1) r j) := by
  unfold sumRows
  rw [addf_apply, shapeCast_1ab_ab_apply, extf_apply, cvt_apply]

/-- The scale of row `r`. -/
theorem scaleCol_apply (s : FVec Ideal S32x512 .f32) (r : Fin 32) (u : Fin 1) :
    scaleCol s (ix2 r u)
      = Ideal.rsqrt ((∑ k : Fin 512, s (ix2 r k) * s (ix2 r k)) * Cert.Spec.cInv512 + Cert.Spec.eps) := by
  unfold scaleCol
  show Ideal.rsqrt (shapeCast S32x1 (multiReduction (F := Ideal) .add [1] S32 (mulf s s) 0x00000000#32
      reduces_S32x512_S32 (.inl rfl) rfl) shapeCasts_S32_S32x1 (ix2 r u) * Cert.Spec.cInv512 + Cert.Spec.eps) = _
  rw [shapeCast_a_a1_apply, rowSum_apply]
  rfl

/-- A cast back to f32 changes nothing. -/
theorem ext_apply (v : Vec Ideal S32x512 .bf16) (i : S32x512.Idx) : ext v i = v i := rfl

/-- Casting the normalised rows to bf16 and back changes nothing. -/
theorem ext_ysRows (g : FVec Ideal S1x512 .f32) (xa : Vec Ideal S1x32x512 .f32) (xr : Vec Ideal S32x512 .bf16) :
    ext (ysRows g xa xr) = outRows g xa xr := by
  unfold ext ysRows
  rw [shapeCast_self]
  rfl

/-- One entry of the normalised rows is the specification's row arithmetic on the sum of the two devices' rows. -/
theorem outRows_apply (γ : Vec Ideal S512 .f32) (xa xb : Vec Ideal S1x32x512 .f32) (r : Fin 32) (j : Fin 512) :
    outRows (gRow γ) xa (cvt xb) (ix2 r j)
      = Cert.Spec.kernEntry (fun j' => xa (ix3 0 r j') + xb (ix3 0 r j')) (fun j' => γ (ix1 j')) j := by
  unfold outRows Cert.Spec.kernEntry
  rw [mulf_apply, mulf_apply, broadcastTo_1b_ab_apply, broadcastTo_a1_ab_apply, gRow_apply, scaleCol_apply,
    sumRows_apply]
  simp only [sumRows_apply]

end Cert.KernelIdeal.Hand

end
-- ==== Proof.Proto.lean ====
/-
  The protocol of the DMA semaphores, as a schedule of the rounds discipline. Every one of a device's 32 DMA cells
  (x-send, x-receive, y-send, y-receive of chunk k) has ONE round with ONE duty of a chunk's credit:
    x-send k of c   : paid by c's own transfer once chunk k of its send buffer has been read out; hands the chunk back;
    x-receive k of c: paid by xp c's transfer; hands c chunk k of its receive buffer holding xp c's 32 partial rows
                      32 k … 32 k + 31 of c's quarter, cast to bf16;
    y-send k, y-receive k: the same across y, the rows being the 32 normalised rows.
  A payload names the chunk's contents: some buffer contents whose read through the chunk is the named vector.
-/
import proofs.«900597_g7700000000000598_dist_rsrms_v7x_xy2x2_x_m512_d512_f32_1_alg».proof.Proof.Mesh
import proofs.«900597_g7700000000000598_dist_rsrms_v7x_xy2x2_x_m512_d512_f32_1_alg».proof.Proof.Pays

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the buffers hold -/

/-- Device c's staged block of partial sums and its staged gamma: the launch contents of its argument arrays. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))

/-- Row offsets into the block of 1024 rows: the partner's quarter 512 (1 − x) + 256 y, and the device's own
    512 x + 256 y, at chunk k. -/
def offP (c : Dev nD) (k : Fin 8) : Fin 3 → Nat := ![0, (256 * (c.val % 2) + 32 * k.val + 512) - 512 * (c.val / 2), 0]
def offM (c : Dev nD) (k : Fin 8) : Fin 3 → Nat := ![0, 512 * (c.val / 2) + 256 * (c.val % 2) + 32 * k.val, 0]
theorem offP_inb (c : Dev nD) (k : Fin 8) : ∀ a, offP c k a + S1x32x512.size a ≤ S1x1024x512.size a := by
  revert c k; decide
theorem offM_inb (c : Dev nD) (k : Fin 8) : ∀ a, offM c k a + S1x32x512.size a ≤ S1x1024x512.size a := by
  revert c k; decide

/-- The 32 rows of c's block at chunk k of the partner's quarter, and of its own. -/
def rowsP (c : Dev nD) (k : Fin 8) : Vec F S1x32x512 .f32 :=
  (xM : Memref sig .tc .vmem S1x1024x512 .f32).view.readAt (Elt F) (Rect.unit (s := S1x1024x512) (offP c k) S1x32x512.size (offP_inb c k)).toLoadRect (xstg m c)
def rowsM (c : Dev nD) (k : Fin 8) : Vec F S1x32x512 .f32 :=
  (xM : Memref sig .tc .vmem S1x1024x512 .f32).view.readAt (Elt F) (Rect.unit (s := S1x1024x512) (offM c k) S1x32x512.size (offM_inb c k)).toLoadRect (xstg m c)

/-- What c sends across x as chunk k, what it receives, the 32 normalised rows it computes, what it sends across y,
    what it receives across y. -/
def XS (c : Dev nD) (k : Fin 8) : FVec F S32x512 .bf16 := cvt (rowsP m c k)
def XR (c : Dev nD) (k : Fin 8) : FVec F S32x512 .bf16 := XS m (xp c) k
def OUT (c : Dev nD) (k : Fin 8) : FVec F S32x512 .f32 := outRows (gRow (gstg m c)) (rowsM m c k) (XR m c k)
def YS (c : Dev nD) (k : Fin 8) : FVec F S32x512 .bf16 := ysRows (gRow (gstg m c)) (rowsM m c k) (XR m c k)
def YR (c : Dev nD) (k : Fin 8) : FVec F S32x512 .bf16 := YS m (yp c) k

/-! ## The result block: sixteen slabs of 32 rows -/

/-- Row offsets into the result block of 512 rows: the device's own quarter 256 y, and the partner's 256 (1 − y), at chunk k. -/
def offO (c : Dev nD) (k : Fin 8) : Fin 2 → Nat := ![256 * (c.val % 2) + 32 * k.val, 0]
def offG (c : Dev nD) (k : Fin 8) : Fin 2 → Nat := ![(32 * k.val + 256) - 256 * (c.val % 2), 0]
theorem offO_inb (c : Dev nD) (k : Fin 8) : ∀ a, offO c k a + S32x512.size a ≤ S512x512.size a := by revert c k; decide
theorem offG_inb (c : Dev nD) (k : Fin 8) : ∀ a, offG c k a + S32x512.size a ≤ S512x512.size a := by revert c k; decide
/-- The slab the device normalises itself at chunk k, and the one it receives from yp. -/
abbrev slO (c : Dev nD) (k : Fin 8) : Rect S512x512 := Rect.unit (s := S512x512) (offO c k) S32x512.size (offO_inb c k)
abbrev slG (c : Dev nD) (k : Fin 8) : Rect S512x512 := Rect.unit (s := S512x512) (offG c k) S32x512.size (offG_inb c k)

/-- What the result block holds in the end: row r of the device's own quarter is row r mod 32 of the chunk r / 32 it
    normalised; row r of the other quarter is the same row of what yp normalised, cast to bf16 and back. -/
def outFinal (c : Dev nD) : (cc0_stg2_0 : Ref sig .tc).ty.Contents (Elt F) := fun i =>
  if (i 0).val / 256 = c.val % 2 then
    OUT m c ⟨((i 0).val % 256) / 32, by have := (i 0).isLt; omega⟩ (ValueIdx.ix2 (n0 := 32) (n1 := 512) ⟨(i 0).val % 32, Nat.mod_lt _ (by decide)⟩ ⟨(i 1).val, (i 1).isLt⟩)
  else
    ext (YR m c ⟨((i 0).val % 256) / 32, by have := (i 0).isLt; omega⟩) (ValueIdx.ix2 (n0 := 32) (n1 := 512) ⟨(i 0).val % 32, Nat.mod_lt _ (by decide)⟩ ⟨(i 1).val, (i 1).isLt⟩)

/-! ## Chunks held at named contents -/

/-- Chunk k of buffer M on device c, held at the full share, the buffer's contents there f. -/
abbrev chk (c : Dev nD) (M : Memref sig .tc .vmem S256x512 .bf16) (k : Fin 8) (f : Buf (Elt F) ((M.access (ck k)).loc (c : Thread nD τ))) : sProp 𝕄 :=
  (M.access (ck k)).loc (c : Thread nD τ) ↦[(M.access (ck k)).set]{fullShare} f
/-- Chunk k of buffer M on device c holds the vector v. -/
def chunkAt (c : Dev nD) (M : Memref sig .tc .vmem S256x512 .bf16) (k : Fin 8) (v : FVec F S32x512 .bf16) : sProp 𝕄 :=
  iprop(∃ f : Buf (Elt F) ((M.access (ck k)).loc (c : Thread nD τ)), ⌜(M.access (ck k)).read (Elt F) f = v⌝ ∗ chk c M k f)
/-- Chunk k of buffer M on device c, at any contents. -/
def chunkAny (c : Dev nD) (M : Memref sig .tc .vmem S256x512 .bf16) (k : Fin 8) : sProp 𝕄 :=
  iprop(∃ f : Buf (Elt F) ((M.access (ck k)).loc (c : Thread nD τ)), chk c M k f)

omit [FloatOps F] in
instance chunkAt_storable (c : Dev nD) (M) (k : Fin 8) (v) : BI.Storable (upEmb : UEmb _ 𝕄) (chunkAt (F := F) c M k v) := by
  unfold chunkAt; infer_instance
omit [FloatOps F] in
instance chunkAny_storable (c : Dev nD) (M) (k : Fin 8) : BI.Storable (upEmb : UEmb _ 𝕄) (chunkAny (F := F) c M k) := by
  unfold chunkAny; infer_instance

/-! ## The schedule -/

/-- The four families of DMA semaphores, by number: 3 + k, 11 + k, 19 + k, 27 + k. -/
def famOf (s : DmaSem sig) : Option (Fin 4 × Fin 8) :=
  if h : 3 ≤ s.val ∧ s.val < 35 then some (⟨(s.val - 3) / 8, by omega⟩, ⟨(s.val - 3) % 8, Nat.mod_lt _ (by decide)⟩) else none

/-- The payload of a DMA cell of device c, by family and chunk. -/
def payOf (c : Dev nD) : Fin 4 × Fin 8 → sProp 𝕄
  | (⟨0, _⟩, k) => chunkAt c xsM k (XS m c k)
  | (⟨1, _⟩, k) => chunkAt c xrM k (XR m c k)
  | (⟨2, _⟩, k) => chunkAt c ysM k (YS m c k)
  | (⟨_ + 3, _⟩, k) => chunkAt c yrM k (YR m c k)

def cellPay (g : GSem nD τ sig) : sProp 𝕄 :=
  match g.2 with
  | .dma s => match famOf s with
    | some fk => payOf m g.1.1 fk
    | none => iprop(emp)
  | _ => iprop(emp)

abbrev IsXfer (g : GSem nD τ sig) : Prop := g.1.2 = .tc ∧ ∃ s, g.2 = .dma s ∧ (famOf s).isSome

instance (g : GSem nD τ sig) : Decidable (IsXfer g) := by unfold IsXfer; infer_instance

def dmaRd : Rounds.Schedule (GSem nD τ sig) Unit 𝕄 where
  duties g r := if r = 0 ∧ IsXfer g then {()} else ∅
  amount _ _ _ := N32
  payload g _ _ := cellPay m g
  amount_pos _ _ _ _ := N32_pos

end Cert.KernelIdeal.Hand

end
-- ==== Proof.Steps.lean ====
/-
  One rule per kind of step a device takes on a 32-row chunk of one of its four bf16 buffers: a load of the chunk,
  a store of the chunk, the remote transfer of a chunk into the partner's chunk, and the wait on one DMA cell.
  A chunk is held as the elements of its rectangle of the buffer, at the full share.
-/
import proofs.«900597_g7700000000000598_dist_rsrms_v7x_xy2x2_x_m512_d512_f32_1_alg».proof.Proof.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-- A load of the chunk reads the chunk's contents. -/
theorem wp_chunk_load (c : Dev nD) (M : Memref sig .tc .vmem S256x512 .bf16) (k : Fin 8) {hl : M.view.LoadsAt (ck k).toLoadRect}
    {α : Type} {kk : ((ck k).toLoadRect.shape.Idx → Elt F .bf16) → Prog (TpuEff nD τ sig (Elt F) Λ₀ .tc) α} {Q : α → sProp 𝕄}
    (f : Buf (Elt F) ((M.access (ck k)).loc (c : Thread nD τ))) :
    chk c M k f ⊢ iprop((chk c M k f -∗ wp frame (wpE (defs₀ (F := F)) 𝒱₀ c none) Set.univ (kk ((M.access (ck k)).read (Elt F) f)) Q)
      -∗ wp frame (wpE (defs₀ (F := F)) 𝒱₀ c none) Set.univ (.op (.load M (ck k).toLoadRect hl) kk) Q) :=
  wp_load_rect 𝒱₀ (c : Thread nD τ) none Set.univ subset_rfl

/-- A store of a whole chunk: the chunk then reads as what was stored. -/
theorem wp_chunk_store (c : Dev nD) (M : Memref sig .tc .vmem S256x512 .bf16) (k : Fin 8) {w : (ck k).shape.Idx → Elt F .bf16}
    {hx : (M.access (ck k)).Stores Finset.univ} {hm : (Finset.univ : Finset (ck k).shape.Idx) = Finset.univ ∨ ∀ a, (ck k).stride a = 1}
    {α : Type} {kk : PUnit → Prog (TpuEff nD τ sig (Elt F) Λ₀ .tc) α} {Q : α → sProp 𝕄}
    (f : Buf (Elt F) ((M.access (ck k)).loc (c : Thread nD τ))) :
    chk c M k f ⊢ iprop((chk c M k ((M.access (ck k)).write (Elt F) f w Finset.univ) -∗ wp frame (wpE (defs₀ (F := F)) 𝒱₀ c none) Set.univ (kk ⟨⟩) Q)
      -∗ wp frame (wpE (defs₀ (F := F)) 𝒱₀ c none) Set.univ (.op (.store M (ck k) w Finset.univ hx hm) kk) Q) :=
  wp_store 𝒱₀ (c : Thread nD τ) none Set.univ (by rw [View.setOn_univ])

/-! ## The schedule's tables at a DMA cell -/

theorem duties_xfer (g : GSem nD τ sig) (h : IsXfer g) : (dmaRd (F := F) m).duties g 0 = {()} := by
  dsimp only [dmaRd]; exact if_pos ⟨rfl, h⟩
theorem duties_later (g : GSem nD τ sig) : ∀ r, 1 ≤ r → (dmaRd (F := F) m).duties g r = ∅ :=
  fun r hr => by dsimp only [dmaRd]; rw [if_neg fun h => by omega]
theorem amount_xfer (g : GSem nD τ sig) (r : ℕ) (d : Unit) : (dmaRd (F := F) m).amount g r d = N32 := rfl
theorem expect_xfer (g : GSem nD τ sig) (h : IsXfer g) : (dmaRd (F := F) m).expect g 0 = N32 := by
  unfold Schedule.expect Schedule.amountOf; rw [duties_xfer m g h, Finset.sum_singleton]; rfl
theorem payload_xfer (g : GSem nD τ sig) (r : ℕ) (d : Unit) : (dmaRd (F := F) m).payload g r d = cellPay m g := rfl
theorem rest_xfer (g : GSem nD τ sig) (h : IsXfer g) :
    bigSep ((dmaRd (F := F) m).duties g 0 \ ∅) (fun d => (dmaRd (F := F) m).payload g 0 d) = cellPay m g := by
  rw [Finset.sdiff_empty, duties_xfer m g h, bigSep_singleton]; rfl

/-- The wait on one of the device's own DMA cells, owing O at levels above it: the cell's one round is consumed and its
    payload taken. -/
theorem wp_dma_wait (c : Dev nD) (s : DmaSem sig) (h : IsXfer ((c : Thread nD τ), .dma s)) {κ : ℕ}
    {sp sp' : Space} {sh sh' : Shape} {e e' : EltTy} {src : Memref sig .tc sp' sh' e'} {κ' : Kind} {dst : Memref sig κ' sp sh e}
    {hsrc : src.view.WordExact} {hdst : dst.view.WordExact} (hcr : dst.view.dmaCredit = N32)
    {O : CellTallies nD τ sig Unit} {W : Waits sig Unit}
    {α : Type} {kk : PUnit → Prog (TpuEff nD τ sig (Elt F) Λ₀ .tc) α} {Q : α → sProp 𝕄} :
    iprop(cellInv ER (dmaRd m) κ ((c : Thread nD τ), .dma s) ∗ cred (tallyAt ((c : Thread nD τ), .dma s) () N32) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ atPos ER ((c : Thread nD τ), .dma s) 1 ∅ 0 ∗ cellPay m ((c : Thread nD τ), .dma s))
            -∗ wp frame (wpE (defs₀ (F := F)) 𝒱₀ c none) Set.univ (kk ⟨⟩) Q)
          -∗ wp frame (wpE (defs₀ (F := F)) 𝒱₀ c none) Set.univ (.op (.waitDma2 s src dst hsrc hdst) kk) Q) := by
  iintro H Hk
  iapply (Rounds.wp_wait_rest_token 𝒱₀ ER (dmaRd m) (c : Thread nD τ) none (κ := κ)
      (by intro K; rw [wpE_waitDma2_eq 𝒱₀ (c : Thread nD τ) none Set.univ, hcr]) (Set.mem_univ _) () (O := O) (W := W) (R := 0) (m := 0) (T := ∅)
      (by rw [Nat.zero_add, expect_xfer m _ h])) $$ H
  iintro ⟨HO, Hat, -, Hpay⟩
  iapply Hk
  isplitl [HO]; · iexact HO
  isplitl [Hat]; · iexact Hat
  iapply (Entails.of_eq (rest_xfer m _ h)); iexact Hpay

/-- A chunk held at contents that read as v is the chunk at v. -/
theorem chunkAt_intro (c : Dev nD) (M : Memref sig .tc .vmem S256x512 .bf16) (k : Fin 8) (f : Buf (Elt F) ((M.access (ck k)).loc (c : Thread nD τ)))
    (v : FVec F S32x512 .bf16) (hv : (M.access (ck k)).read (Elt F) f = v) : chk c M k f ⊢ chunkAt c M k v := by
  unfold chunkAt
  iintro H
  iexists f
  isplitr
  · ipureintro; exact hv
  · iexact H

/-- A chunk held at any contents. -/
theorem chunkAny_intro (c : Dev nD) (M : Memref sig .tc .vmem S256x512 .bf16) (k : Fin 8) (f : Buf (Elt F) ((M.access (ck k)).loc (c : Thread nD τ))) :
    chk c M k f ⊢ chunkAny c M k := by
  unfold chunkAny
  iintro H
  iexists f
  iexact H

/-- The remote transfer of chunk k of Ms on c, reading as v, into chunk k of Md on c': it pays the departure duty of c's
    cell sS (the chunk comes back with it) and the arrival duty of c''s cell sR (c' receives its chunk reading as v). -/
theorem wp_chunk_send (c c' n : Dev nD) (hn : n = c') (Ms Md : Memref sig .tc .vmem S256x512 .bf16) (k : Fin 8) (sS sR : DmaSem sig)
    (hS : IsXfer ((c : Thread nD τ), .dma sS)) (hR : IsXfer ((c' : Thread nD τ), .dma sR))
    {hsc : (sl Md k : Memref sig (Dev.tc n : Thread nD τ).2.kind .vmem S32x512 .bf16).view.ref.isScScratch = false}
    {hsrc : (sl Ms k).view.WordExact} {hdst : (sl Md k).view.WordExact}
    {hsem : DmaTarget.Typed .vmem (.dma sR) (.remote (Dev.tc n : Thread nD τ) (sl Md k) (.dma sS) hsc)}
    (fs : Buf (Elt F) ((Ms.access (ck k)).loc (c : Thread nD τ))) (fd : Buf (Elt F) ((Md.access (ck k)).loc (c' : Thread nD τ)))
    (v : FVec F S32x512 .bf16) (hv : (Ms.access (ck k)).read (Elt F) fs = v)
    (hp₁ : chunkAt c Ms k v ⊢ cellPay m ((c : Thread nD τ), .dma sS))
    (hp₂ : chunkAt c' Md k v ⊢ cellPay m ((c' : Thread nD τ), .dma sR))
    {κ₁ κ₂ : ℕ} (O : CellTallies nD τ sig Unit) {W : Waits sig Unit}
    {α : Type} {kk : PUnit → Prog (TpuEff nD τ sig (Elt F) Λ₀ .tc) α} {Q : α → sProp 𝕄} :
    iprop(cellInv ER (dmaRd m) κ₁ ((c : Thread nD τ), .dma sS) ∗ cellInv ER (dmaRd m) κ₂ ((c' : Thread nD τ), .dma sR)
        ∗ chk c Ms k fs ∗ chk c' Md k fd
        ∗ owes (c : Thread nD τ) (O + tallyAt ((c' : Thread nD τ), .dma sR) () N32) W
        ∗ dutyTok ER ((c : Thread nD τ), .dma sS) 0 () ∗ reached ER ((c : Thread nD τ), .dma sS) 0
        ∗ dutyTok ER ((c' : Thread nD τ), .dma sR) 0 () ∗ reached ER ((c' : Thread nD τ), .dma sR) 0)
      ⊢ iprop(((cred (tallyAt ((c : Thread nD τ), .dma sS) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl Ms k) (.remote (Dev.tc n : Thread nD τ) (sl Md k) (.dma sS) hsc) (.dma sR) hsrc hdst hsem) kk) Q) := by
  subst hn
  exact Rounds.wp_send_pointsTo 𝒱₀ ER (dmaRd m) (c : Thread nD τ) none (c' := (Dev.tc n : Thread nD τ)) (src := sl Ms k) (dst := sl Md k) (q := fullShare) (sS := .dma sS) (sem := .dma sR) (κ₁ := κ₁) (κ₂ := κ₂)
    (r₁ := 0) (r₂ := 0) (d₁ := ()) (d₂ := ()) (fs := fs) (fd := fd)
    (by rw [duties_xfer m _ hS]; exact Finset.mem_singleton_self _) (by rw [duties_xfer m _ hR]; exact Finset.mem_singleton_self _)
    () () N32 rfl rfl rfl O rfl (W := W)
    ((chunkAt_intro c Ms k fs v hv).trans hp₁)
    ((chunkAt_intro n Md k _ v (by rw [show ((sl Md k).view.write (Elt F) fd ((sl Ms k).view.read (Elt F) fs) Finset.univ) = (Md.access (ck k)).write (Elt F) fd ((Ms.access (ck k)).read (Elt F) fs) Finset.univ from rfl, View.read_write_univ]; exact hv)).trans hp₂)

end Cert.KernelIdeal.Hand

end
-- ==== Proof.BarCell.lean ====
/-
  The entry handshake runs on one semaphore per device, the barrier cell. Device c's barrier cell receives
  one signal of 2 units from its x partner and one signal of 1 unit from its y partner, and c waits 2 first
  and, much later, waits 1. The counter arithmetic decides what each wait may take: a wait of 2 fires only
  once the 2-unit signal has landed (the other signal brings 1 < 2), and the later wait of 1 only once both
  have. This module states that as an invariant of the cell over four Booleans

      bX — the 2-unit signal has landed        bY — the 1-unit signal has landed
      b1 — the wait of 2 is done               b2 — the wait of 1 is done

  with the counter at 2·bX + bY − 2·b1 − b2, and proves the four rules: the two signals, the two waits.
  Each party's one-shot right to its step is an exclusive token; a token already inside the invariant
  contradicts the same token in the stepping party's hand, which fixes the Booleans at each step.
-/
import proofs.«900597_g7700000000000598_dist_rsrms_v7x_xy2x2_x_m512_d512_f32_1_alg».proof.Proof.Mesh

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The one-shot tokens -/

/-- Held by the x partner of c until its 2-unit signal to c. -/
abbrev tX (c : Dev nD) : sProp 𝕄 := dutyTok (ER (F := F)) (barCell c) 0 ()
/-- Held by the y partner of c until its 1-unit signal to c. -/
abbrev tY (c : Dev nD) : sProp 𝕄 := dutyTok (ER (F := F)) (barCell c) 1 ()
/-- c's right to its wait of 2. -/
abbrev tW1 (c : Dev nD) : sProp 𝕄 := dutyTok (ER (F := F)) (barCell c) 2 ()
/-- c's right to its wait of 1. -/
abbrev tW2 (c : Dev nD) : sProp 𝕄 := dutyTok (ER (F := F)) (barCell c) 3 ()
/-- Lies in the invariant until the wait of 2, which hands it to c: the proof that the first wait is done. -/
abbrev tZ (c : Dev nD) : sProp 𝕄 := dutyTok (ER (F := F)) (barCell c) 4 ()

/-! ## The invariant -/

/-- The counter of the barrier cell in the state (bX, bY, b1, b2). -/
def barCount (bX bY b1 b2 : Bool) : ℕ := 2 * bX.toNat + bY.toNat - 2 * b1.toNat - b2.toNat

/-- A wait happens after the landing it consumes: the wait of 2 after the 2-unit landing, the wait of 1
    after the 1-unit landing and after the wait of 2. -/
def barOrd (bX bY b1 b2 : Bool) : Prop := (b1 = true → bX = true) ∧ (b2 = true → bY = true ∧ b1 = true)

/-- What the barrier cell's invariant holds in the state (bX, bY, b1, b2): the counter; the token of each
    step that has happened; until the wait of 2 the token tZ and, once it has landed, what the 2-unit signal
    hands over; until the wait of 1, once it has landed, what the 1-unit signal hands over. -/
def barSt (PX PY : Dev nD → sProp 𝕄) (c : Dev nD) (bX bY b1 b2 : Bool) : sProp 𝕄 :=
  iprop(semVal (barCell c) (barCount bX bY b1 b2)
    ∗ ⌜barOrd bX bY b1 b2⌝
    ∗ (if bX then tX c else iprop(emp))
    ∗ (if bY then tY c else iprop(emp))
    ∗ (if b1 then tW1 c else iprop(tZ c ∗ (if bX then PX c else iprop(emp))))
    ∗ (if b2 then tW2 c else (if bY then PY c else iprop(emp))))

/-- The body of the barrier cell's invariant: some state. PX c is what the x partner's signal hands c,
    PY c what the y partner's does. -/
def barBody (PX PY : Dev nD → sProp 𝕄) (c : Dev nD) : sProp 𝕄 :=
  iprop(∃ bX : Bool, ∃ bY : Bool, ∃ b1 : Bool, ∃ b2 : Bool, barSt PX PY c bX bY b1 b2)

instance bar_storable_ite (b : Bool) (P Q : sProp 𝕄) [Storable (upEmb : UEmb _ 𝕄) P] [Storable (upEmb : UEmb _ 𝕄) Q] :
    Storable (upEmb : UEmb _ 𝕄) (if b then P else Q) := by
  cases b
  · simpa only [Bool.false_eq_true, if_false] using (inferInstance : Storable (upEmb : UEmb _ 𝕄) Q)
  · simpa only [if_true] using (inferInstance : Storable (upEmb : UEmb _ 𝕄) P)

set_option synthInstance.maxSize 1024 in
instance barSt_storable (PX PY : Dev nD → sProp 𝕄)
    [∀ c, Storable (upEmb : UEmb _ 𝕄) (PX c)] [∀ c, Storable (upEmb : UEmb _ 𝕄) (PY c)] (c : Dev nD) (bX bY b1 b2 : Bool) :
    Storable (upEmb : UEmb _ 𝕄) (barSt PX PY c bX bY b1 b2) := by
  unfold barSt; infer_instance

instance barBody_storable (PX PY : Dev nD → sProp 𝕄)
    [∀ c, Storable (upEmb : UEmb _ 𝕄) (PX c)] [∀ c, Storable (upEmb : UEmb _ 𝕄) (PY c)] (c : Dev nD) :
    Storable (upEmb : UEmb _ 𝕄) (barBody PX PY c) := by
  unfold barBody; infer_instance

/-- Name κ carries the barrier cell's invariant. -/
abbrev barInv (PX PY : Dev nD → sProp 𝕄) (κ : ℕ) (c : Dev nD) : sProp 𝕄 := inv κ (barBody PX PY c)

/-- A state is a body. -/
theorem barBody_of (PX PY : Dev nD → sProp 𝕄) (c : Dev nD) (bX bY b1 b2 : Bool) :
    barSt PX PY c bX bY b1 b2 ⊢ barBody PX PY c := by
  unfold barBody
  iintro H
  iexists bX, bY, b1, b2
  iexact H

/-- The state before anything has happened: the counter at zero and the token that marks the first wait as
    not yet done. -/
theorem barBody_intro (PX PY : Dev nD → sProp 𝕄) (c : Dev nD) :
    iprop(semVal (barCell c) 0 ∗ tZ (F := F) c) ⊢ barBody PX PY c := by
  refine BIBase.Entails.trans ?_ (barBody_of PX PY c false false false false)
  unfold barSt
  simp only [↓reduceIte, Bool.false_eq_true]
  iintro ⟨Hv, Hz⟩
  isplitl [Hv]; · iexact Hv
  isplitr; · ipureintro; simp [barOrd]
  isplitr; · iempintro
  isplitr; · iempintro
  isplitl [Hz]
  · isplitl [Hz]; · iexact Hz
    iempintro
  iempintro

/-- Allocation of the invariant from the state before anything has happened. -/
theorem bar_alloc (PX PY : Dev nD → sProp 𝕄)
    [∀ c, Storable (upEmb : UEmb _ 𝕄) (PX c)] [∀ c, Storable (upEmb : UEmb _ 𝕄) (PY c)] (c : Dev nD) :
    iprop(semVal (barCell c) 0 ∗ tZ (F := F) c) ⊢ |={Set.univ}=> ∃ κ : ℕ, barInv PX PY κ c :=
  (barBody_intro PX PY c).trans inv_alloc

/-! ## The counter's arithmetic -/

/-- The 2-unit landing, before either wait. -/
theorem barCount_landX (bY : Bool) : barCount false bY false false + 2 = barCount true bY false false := by
  cases bY <;> rfl

/-- The 1-unit landing, before the wait of 1; the wait of 2 comes after the 2-unit landing. -/
theorem barCount_landY {bX b1 : Bool} (h : barOrd bX false b1 false) :
    barCount bX false b1 false + 1 = barCount bX true b1 false := by
  cases bX <;> cases b1 <;> simp_all [barOrd, barCount]

/-- A wait of 2 cannot fire on the 1-unit signal alone. -/
theorem not_two_le (bY : Bool) : ¬ 2 ≤ barCount false bY false false := by
  cases bY <;> simp [barCount]

theorem barCount_wait2 (bY : Bool) : barCount true bY false false - 2 = barCount true bY true false := by
  cases bY <;> rfl

/-- After the wait of 2 the counter is what the 1-unit signal brought. -/
theorem not_one_le : ¬ 1 ≤ barCount true false true false := by simp [barCount]

theorem barCount_wait1 : barCount true true true false - 1 = barCount true true true true := rfl

/-! ## The four steps on a state

Each is stated at the footprint of the machine's step on the counter: the counter at its value now, and
from the counter at the value after the step the invariant's body again, with what the step takes out. -/

/-- The landing of the x partner's signal: the signaller holds tX d, so the signal has not landed yet and
    neither wait has fired; the counter rises by 2, and tX d and what the signal hands over go in. -/
theorem barSt_landX (PX PY : Dev nD → sProp 𝕄) (d : Dev nD) (bX bY b1 b2 : Bool) :
    iprop(barSt PX PY d bX bY b1 b2 ∗ tX (F := F) d ∗ PX d)
      ⊢ ∃ v, semVal (barCell d) v ∗ (semVal (barCell d) (v + 2) -∗ barBody PX PY d) := by
  unfold barSt
  cases bX
  · cases b1
    · cases b2
      · simp only [↓reduceIte, Bool.false_eq_true]
        iintro ⟨⟨Hv, -, -, HY, ⟨Hz, -⟩, H2⟩, Ht, HP⟩
        iexists _
        isplitl [Hv]; · iexact Hv
        iintro Hv
        iapply (barBody_of PX PY d true bY false false)
        unfold barSt
        simp only [↓reduceIte, Bool.false_eq_true]
        rw [← barCount_landX bY]
        isplitl [Hv]; · iexact Hv
        isplitr; · ipureintro; simp [barOrd]
        isplitl [Ht]; · iexact Ht
        isplitl [HY]; · iexact HY
        isplitl [Hz HP]
        · isplitl [Hz] <;> iassumption
        iexact H2
      · iintro ⟨⟨-, %hb, -⟩, -⟩
        simp [barOrd] at hb
    · iintro ⟨⟨-, %hb, -⟩, -⟩
      simp [barOrd] at hb
  · simp only [↓reduceIte]
    iintro ⟨⟨-, -, HX, -⟩, Ht, -⟩
    iexfalso
    iapply (dutyTok_dutyTok_false (ER (F := F)))
    isplitl [Ht] <;> iassumption

/-- The landing of the y partner's signal: the signaller holds tY d, so the signal has not landed yet and
    the wait of 1 has not fired; the counter rises by 1, and tY d and what the signal hands over go in. -/
theorem barSt_landY (PX PY : Dev nD → sProp 𝕄) (d : Dev nD) (bX bY b1 b2 : Bool) :
    iprop(barSt PX PY d bX bY b1 b2 ∗ tY (F := F) d ∗ PY d)
      ⊢ ∃ v, semVal (barCell d) v ∗ (semVal (barCell d) (v + 1) -∗ barBody PX PY d) := by
  unfold barSt
  cases bY
  · cases b2
    · simp only [↓reduceIte, Bool.false_eq_true]
      iintro ⟨⟨Hv, %hb, HX, -, H1, -⟩, Ht, HP⟩
      iexists _
      isplitl [Hv]; · iexact Hv
      iintro Hv
      iapply (barBody_of PX PY d bX true b1 false)
      unfold barSt
      simp only [↓reduceIte, Bool.false_eq_true]
      rw [← barCount_landY hb]
      isplitl [Hv]; · iexact Hv
      isplitr; · ipureintro; simpa [barOrd] using hb
      isplitl [HX]; · iexact HX
      isplitl [Ht]; · iexact Ht
      isplitl [H1]; · iexact H1
      iexact HP
    · iintro ⟨⟨-, %hb, -⟩, -⟩
      simp [barOrd] at hb
  · simp only [↓reduceIte]
    iintro ⟨⟨-, -, -, HY, -⟩, Ht, -⟩
    iexfalso
    iapply (dutyTok_dutyTok_false (ER (F := F)))
    isplitl [Ht] <;> iassumption

/-- The wait of 2: the waiter holds tW1 c, so neither wait has fired; the counter covers 2 only if the
    2-unit signal has landed; tW1 c goes in, and tZ c and what that signal handed over come out. -/
theorem barSt_wait2 (PX PY : Dev nD → sProp 𝕄) (c : Dev nD) (bX bY b1 b2 : Bool) :
    iprop(barSt PX PY c bX bY b1 b2 ∗ tW1 (F := F) c)
      ⊢ ∃ v, semVal (barCell c) v ∗ (⌜2 ≤ v⌝ -∗ semVal (barCell c) (v - 2) -∗ (barBody PX PY c ∗ tZ c ∗ PX c)) := by
  unfold barSt
  cases b1
  · cases b2
    · cases bX
      · iintro ⟨⟨Hv, -⟩, -⟩
        iexists _
        isplitl [Hv]; · iexact Hv
        iintro %hle
        exact absurd hle (not_two_le bY)
      · simp only [↓reduceIte, Bool.false_eq_true]
        iintro ⟨⟨Hv, -, HX, HY, ⟨Hz, HP⟩, H2⟩, Ht⟩
        iexists _
        isplitl [Hv]; · iexact Hv
        iintro - Hv
        isplitr [Hz HP]
        · iapply (barBody_of PX PY c true bY true false)
          unfold barSt
          simp only [↓reduceIte, Bool.false_eq_true]
          rw [← barCount_wait2 bY]
          isplitl [Hv]; · iexact Hv
          isplitr; · ipureintro; simp [barOrd]
          isplitl [HX]; · iexact HX
          isplitl [HY]; · iexact HY
          isplitl [Ht]; · iexact Ht
          iexact H2
        isplitl [Hz] <;> iassumption
    · iintro ⟨⟨-, %hb, -⟩, -⟩
      simp [barOrd] at hb
  · simp only [↓reduceIte]
    iintro ⟨⟨-, -, -, -, H1, -⟩, Ht⟩
    iexfalso
    iapply (dutyTok_dutyTok_false (ER (F := F)))
    isplitl [Ht] <;> iassumption

/-- The wait of 1: the waiter holds tZ c, so the wait of 2 is done, and tW2 c, so the wait of 1 is not; the
    counter, which is then what the 1-unit signal brought, covers 1 only if that signal has landed; tW2 c
    goes in and what that signal handed over comes out. -/
theorem barSt_wait1 (PX PY : Dev nD → sProp 𝕄) (c : Dev nD) (bX bY b1 b2 : Bool) :
    iprop(barSt PX PY c bX bY b1 b2 ∗ tW2 (F := F) c ∗ tZ (F := F) c)
      ⊢ ∃ v, semVal (barCell c) v ∗ (⌜1 ≤ v⌝ -∗ semVal (barCell c) (v - 1) -∗ (barBody PX PY c ∗ PY c)) := by
  unfold barSt
  cases b1
  · simp only [↓reduceIte, Bool.false_eq_true]
    iintro ⟨⟨-, -, -, -, ⟨Hz', -⟩, -⟩, -, Hz⟩
    iexfalso
    iapply (dutyTok_dutyTok_false (ER (F := F)))
    isplitl [Hz] <;> iassumption
  · cases b2
    · cases bX
      · iintro ⟨⟨-, %hb, -⟩, -⟩
        simp [barOrd] at hb
      · cases bY
        · iintro ⟨⟨Hv, -⟩, -⟩
          iexists _
          isplitl [Hv]; · iexact Hv
          iintro %hle
          exact absurd hle not_one_le
        · simp only [↓reduceIte, Bool.false_eq_true]
          iintro ⟨⟨Hv, -, HX, HY, H1, HP⟩, Ht, -⟩
          iexists _
          isplitl [Hv]; · iexact Hv
          iintro - Hv
          isplitr [HP]
          · iapply (barBody_of PX PY c true true true true)
            unfold barSt
            simp only [↓reduceIte]
            rw [← barCount_wait1]
            isplitl [Hv]; · iexact Hv
            isplitr; · ipureintro; simp [barOrd]
            isplitl [HX]; · iexact HX
            isplitl [HY]; · iexact HY
            isplitl [H1]; · iexact H1
            iexact Ht
          iexact HP
    · simp only [↓reduceIte]
      iintro ⟨⟨-, -, -, -, -, H2⟩, Ht, -⟩
      iexfalso
      iapply (dutyTok_dutyTok_false (ER (F := F)))
      isplitl [Ht] <;> iassumption

/-! ## The rules at the head of a program -/

/-- The landing update of the x partner's signal, with the token and what it hands over in hand. -/
theorem bar_landX (PX PY : Dev nD → sProp 𝕄) (κ : ℕ) (d : Dev nD) :
    iprop(barInv PX PY κ d ∗ tX (F := F) d ∗ PX d) ⊢ landingUpdate (barCell d) 2 iprop(emp) := by
  rw [landingUpdate_def]
  iintro ⟨Hg, Ht, HP⟩ -
  imod (inv_acc (Set.mem_univ κ)) $$ Hg with ⟨Hb, Hclose⟩
  unfold barBody
  icases Hb with ⟨%bX, %bY, %b1, %b2, Hst⟩
  ihave H := (barSt_landX PX PY d bX bY b1 b2) $$ [Hst Ht HP]
  · isplitl [Hst]; · iexact Hst
    isplitl [Ht] <;> iassumption
  icases H with ⟨%v, Hv, Hnext⟩
  imodintro
  rw [raiseSpec_apply]
  iexists v
  isplitl [Hv]; · iexact Hv
  iintro Hv
  ihave Hb := Hnext $$ Hv
  unfold barBody
  ihave Hc := Hclose $$ Hb
  imod Hc
  imodintro
  iempintro

/-- The landing update of the y partner's signal. -/
theorem bar_landY (PX PY : Dev nD → sProp 𝕄) (κ : ℕ) (d : Dev nD) :
    iprop(barInv PX PY κ d ∗ tY (F := F) d ∗ PY d) ⊢ landingUpdate (barCell d) 1 iprop(emp) := by
  rw [landingUpdate_def]
  iintro ⟨Hg, Ht, HP⟩ -
  imod (inv_acc (Set.mem_univ κ)) $$ Hg with ⟨Hb, Hclose⟩
  unfold barBody
  icases Hb with ⟨%bX, %bY, %b1, %b2, Hst⟩
  ihave H := (barSt_landY PX PY d bX bY b1 b2) $$ [Hst Ht HP]
  · isplitl [Hst]; · iexact Hst
    isplitl [Ht] <;> iassumption
  icases H with ⟨%v, Hv, Hnext⟩
  imodintro
  rw [raiseSpec_apply]
  iexists v
  isplitl [Hv]; · iexact Hv
  iintro Hv
  ihave Hb := Hnext $$ Hv
  unfold barBody
  ihave Hc := Hclose $$ Hb
  imod Hc
  imodintro
  iempintro

/-- Thread c signals 2 units to device d's barrier cell as d's x partner: it pays the units off what it
    owes, and hands in its token and what the signal hands d. It learns nothing about the cell. -/
theorem wp_bar_signalX {Λ : Labels} {defs : Defs nD τ sig (Elt F) Λ} (𝒱 : Variants) (PX PY : Dev nD → sProp 𝕄)
    (c : Thread nD τ) (bd : Option 𝒱.V) {Γ : PendingWaitsCtx sig Unit} {α : Type} {Q : α → sProp 𝕄}
    {d : Dev nD} {k : PUnit → Prog (TpuEff nD τ sig (Elt F) Λ c.2) α} {κ : ℕ}
    {O₀ : CellTallies nD τ sig Unit} (O : CellTallies nD τ sig Unit)
    (hO : O₀ = O + tallyAt (barCell d) () 2) {W : Waits sig Unit} {Es : Set ℕ}
    (hr : τ.routes c (d : Thread nD τ) = true := by routes) :
    iprop(barInv PX PY κ d ∗ owes c O₀ W ∗ tX (F := F) d ∗ PX d)
      ⊢ iprop((owes c O W -∗ wp frame (wpE' defs 𝒱 c bd Γ) Es (k ⟨⟩) Q)
          -∗ wp frame (wpE' defs 𝒱 c bd Γ) Es (.op (.semSignal (d : Thread nD τ) barS 2) k) Q) := by
  iintro ⟨Hg, HL, Ht, HP⟩ Hk
  iapply (wp_semSignal 𝒱 c bd Es () O hO hr) $$ HL [Hg Ht HP]
  · iapply (bar_landX PX PY κ d)
    isplitl [Hg]; · iexact Hg
    isplitl [Ht] <;> iassumption
  iexact Hk

/-- Thread c signals 1 unit to device d's barrier cell as d's y partner. -/
theorem wp_bar_signalY {Λ : Labels} {defs : Defs nD τ sig (Elt F) Λ} (𝒱 : Variants) (PX PY : Dev nD → sProp 𝕄)
    (c : Thread nD τ) (bd : Option 𝒱.V) {Γ : PendingWaitsCtx sig Unit} {α : Type} {Q : α → sProp 𝕄}
    {d : Dev nD} {k : PUnit → Prog (TpuEff nD τ sig (Elt F) Λ c.2) α} {κ : ℕ}
    {O₀ : CellTallies nD τ sig Unit} (O : CellTallies nD τ sig Unit)
    (hO : O₀ = O + tallyAt (barCell d) () 1) {W : Waits sig Unit} {Es : Set ℕ}
    (hr : τ.routes c (d : Thread nD τ) = true := by routes) :
    iprop(barInv PX PY κ d ∗ owes c O₀ W ∗ tY (F := F) d ∗ PY d)
      ⊢ iprop((owes c O W -∗ wp frame (wpE' defs 𝒱 c bd Γ) Es (k ⟨⟩) Q)
          -∗ wp frame (wpE' defs 𝒱 c bd Γ) Es (.op (.semSignal (d : Thread nD τ) barS 1) k) Q) := by
  iintro ⟨Hg, HL, Ht, HP⟩ Hk
  iapply (wp_semSignal 𝒱 c bd Es () O hO hr) $$ HL [Hg Ht HP]
  · iapply (bar_landY PX PY κ d)
    isplitl [Hg]; · iexact Hg
    isplitl [Ht] <;> iassumption
  iexact Hk

/-- Device cd's wait of 2 on its barrier cell, covered by credit tokens at the one index: it hands in its
    right to this wait and comes back with the proof that the wait is done and with what its x partner's
    signal handed over. -/
theorem wp_bar_wait2 {Λ : Labels} {defs : Defs nD τ sig (Elt F) Λ} (𝒱 : Variants) (PX PY : Dev nD → sProp 𝕄)
    (cd : Dev nD) (bd : Option 𝒱.V) {Γ : PendingWaitsCtx sig Unit} {α : Type} {Q : α → sProp 𝕄}
    {w : TpuEff nD τ sig (Elt F) Λ (cd : Thread nD τ).2 PUnit} {Es : Set ℕ} {κ : ℕ}
    (hw : ∀ K : PUnit → sProp 𝕄, wpE' defs 𝒱 (cd : Thread nD τ) bd Γ Es w K = waitSpec (cd : Thread nD τ) Es (.reg barS) 2 K)
    (hE : κ ∈ Es)
    {k : PUnit → Prog (TpuEff nD τ sig (Elt F) Λ (cd : Thread nD τ).2) α}
    {O : CellTallies nD τ sig Unit} {W : Waits sig Unit} :
    iprop(barInv PX PY κ cd ∗ cred (tallyAt (barCell cd) () 2) ∗ owes (cd : Thread nD τ) O W
        ∗ MayWait (cd : Thread nD τ) (.reg barS) () O ∗ tW1 (F := F) cd)
      ⊢ iprop(((owes (cd : Thread nD τ) O (insert (SemLoc.reg barS, ()) W) ∗ tZ (F := F) cd ∗ PX cd)
            -∗ wp frame (wpE' defs 𝒱 (cd : Thread nD τ) bd Γ) Es (k ⟨⟩) Q)
          -∗ wp frame (wpE' defs 𝒱 (cd : Thread nD τ) bd Γ) Es (.op w k) Q) := by
  rw [Finset.insert_eq, Finset.union_comm]
  iintro ⟨Hg, Hc, HL, Hlev, Ht⟩ Hk
  iapply (Idealize.ShloMosaic.wp_wait 𝒱 (cd : Thread nD τ) bd Es hw {(SemLoc.reg barS, ())} (κ := Finsupp.single () 2)
    (by rw [Util.total_single]) (image_single_subset (SemLoc.reg barS) () 2)) $$ [Hc HL Hlev]
  · isplitl [Hc]; · iexact Hc
    isplitl [HL] <;> iassumption
  imod (inv_acc hE) $$ Hg with ⟨Hb, Hclose⟩
  unfold barBody
  icases Hb with ⟨%bX, %bY, %b1, %b2, Hst⟩
  ihave H := (barSt_wait2 PX PY cd bX bY b1 b2) $$ [Hst Ht]
  · isplitl [Hst] <;> iassumption
  icases H with ⟨%v, Hv, Hnext⟩
  imodintro
  iapply lowerSpec_intro $$ Hv
  iintro %hle Hv
  ihave Hb := Hnext $$ %hle Hv
  icases Hb with ⟨Hb, Hz, HP⟩
  unfold barBody
  ihave Hc := Hclose $$ Hb
  imod Hc
  imodintro
  iintro HL
  iapply Hk
  isplitl [HL]; · iexact HL
  isplitl [Hz] <;> iassumption

/-- Device cd's wait of 1 on its barrier cell, after its wait of 2: it hands in its right to this wait and
    the proof that the wait of 2 is done, and comes back with what its y partner's signal handed over. -/
theorem wp_bar_wait1 {Λ : Labels} {defs : Defs nD τ sig (Elt F) Λ} (𝒱 : Variants) (PX PY : Dev nD → sProp 𝕄)
    (cd : Dev nD) (bd : Option 𝒱.V) {Γ : PendingWaitsCtx sig Unit} {α : Type} {Q : α → sProp 𝕄}
    {w : TpuEff nD τ sig (Elt F) Λ (cd : Thread nD τ).2 PUnit} {Es : Set ℕ} {κ : ℕ}
    (hw : ∀ K : PUnit → sProp 𝕄, wpE' defs 𝒱 (cd : Thread nD τ) bd Γ Es w K = waitSpec (cd : Thread nD τ) Es (.reg barS) 1 K)
    (hE : κ ∈ Es)
    {k : PUnit → Prog (TpuEff nD τ sig (Elt F) Λ (cd : Thread nD τ).2) α}
    {O : CellTallies nD τ sig Unit} {W : Waits sig Unit} :
    iprop(barInv PX PY κ cd ∗ cred (tallyAt (barCell cd) () 1) ∗ owes (cd : Thread nD τ) O W
        ∗ MayWait (cd : Thread nD τ) (.reg barS) () O ∗ tW2 (F := F) cd ∗ tZ (F := F) cd)
      ⊢ iprop(((owes (cd : Thread nD τ) O (insert (SemLoc.reg barS, ()) W) ∗ PY cd)
            -∗ wp frame (wpE' defs 𝒱 (cd : Thread nD τ) bd Γ) Es (k ⟨⟩) Q)
          -∗ wp frame (wpE' defs 𝒱 (cd : Thread nD τ) bd Γ) Es (.op w k) Q) := by
  rw [Finset.insert_eq, Finset.union_comm]
  iintro ⟨Hg, Hc, HL, Hlev, Ht, Hz⟩ Hk
  iapply (Idealize.ShloMosaic.wp_wait 𝒱 (cd : Thread nD τ) bd Es hw {(SemLoc.reg barS, ())} (κ := Finsupp.single () 1)
    (by rw [Util.total_single]) (image_single_subset (SemLoc.reg barS) () 1)) $$ [Hc HL Hlev]
  · isplitl [Hc]; · iexact Hc
    isplitl [HL] <;> iassumption
  imod (inv_acc hE) $$ Hg with ⟨Hb, Hclose⟩
  unfold barBody
  icases Hb with ⟨%bX, %bY, %b1, %b2, Hst⟩
  ihave H := (barSt_wait1 PX PY cd bX bY b1 b2) $$ [Hst Ht Hz]
  · isplitl [Hst]; · iexact Hst
    isplitl [Ht] <;> iassumption
  icases H with ⟨%v, Hv, Hnext⟩
  imodintro
  iapply lowerSpec_intro $$ Hv
  iintro %hle Hv
  ihave Hb := Hnext $$ %hle Hv
  icases Hb with ⟨Hb, HP⟩
  unfold barBody
  ihave Hc := Hclose $$ Hb
  imod Hc
  imodintro
  iintro HL
  iapply Hk
  isplitl [HL] <;> iassumption

/-- info: 'Cert.KernelIdeal.Hand.bar_alloc' depends on axioms: [propext, Classical.choice, Quot.sound] -/
#guard_msgs in #print axioms bar_alloc

/-- info: 'Cert.KernelIdeal.Hand.wp_bar_signalX' depends on axioms: [propext, Classical.choice, Quot.sound] -/
#guard_msgs in #print axioms wp_bar_signalX

/-- info: 'Cert.KernelIdeal.Hand.wp_bar_signalY' depends on axioms: [propext, Classical.choice, Quot.sound] -/
#guard_msgs in #print axioms wp_bar_signalY

/-- info: 'Cert.KernelIdeal.Hand.wp_bar_wait2' depends on axioms: [propext, Classical.choice, Quot.sound] -/
#guard_msgs in #print axioms wp_bar_wait2

/-- info: 'Cert.KernelIdeal.Hand.wp_bar_wait1' depends on axioms: [propext, Classical.choice, Quot.sound] -/
#guard_msgs in #print axioms wp_bar_wait1

end Cert.KernelIdeal.Hand

end
-- ==== Proof.Ghost.lean ====
/-
  What a device holds when its kernel body starts, and what it must hold when it ends.
  Levels: a barrier cell at 1, an x-receive cell at 2, a y-receive cell at 3, everything else at 0. A device waits on
  its barrier while it still owes only x- and y-receive units, on an x-receive cell while it owes only y-receive units,
  and on everything else owing nothing: every wait is below what is owed.
  What a device owes, in the order it pays: 2 units to xp's barrier, 1 to yp's, a chunk's credit to each of xp's eight
  x-receive cells, then to each of yp's eight y-receive cells.
-/
import proofs.«900597_g7700000000000598_dist_rsrms_v7x_xy2x2_x_m512_d512_f32_1_alg».proof.Proof.Steps
import proofs.«900597_g7700000000000598_dist_rsrms_v7x_xy2x2_x_m512_d512_f32_1_alg».proof.Proof.BarCell

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Levels -/

def L (g : GSem nD τ sig) : Finset Unit := if g.1.2 = .tc then {()} else ∅

/-- The family of a semaphore location: 0 x-send, 1 x-receive, 2 y-send, 3 y-receive; none for the barrier and the staging semaphores. -/
def famNum (sm : SemLoc sig) : Option (Fin 4) :=
  match sm with
  | .dma s => (famOf s).map Prod.fst
  | _ => none

def lv (g : GSem nD τ sig) (_ : Unit) : ℕ :=
  if g.2 = .reg barS then 1 else if famNum g.2 = some 1 then 2 else if famNum g.2 = some 3 then 3 else 0

/-! ## What a device owes, in paying order -/

def steps (c : Dev nD) : List (GSem nD τ sig × ℕ) :=
  [(barCell (xp c), 2), (barCell (yp c), 1),
   (xrCell (xp c) 0, N32), (xrCell (xp c) 1, N32), (xrCell (xp c) 2, N32), (xrCell (xp c) 3, N32),
   (xrCell (xp c) 4, N32), (xrCell (xp c) 5, N32), (xrCell (xp c) 6, N32), (xrCell (xp c) 7, N32),
   (yrCell (yp c) 0, N32), (yrCell (yp c) 1, N32), (yrCell (yp c) 2, N32), (yrCell (yp c) 3, N32),
   (yrCell (yp c) 4, N32), (yrCell (yp c) 5, N32), (yrCell (yp c) 6, N32), (yrCell (yp c) 7, N32)]

def owedFrom (l : List (GSem nD τ sig × ℕ)) : CellTallies nD τ sig Unit :=
  l.foldr (fun s acc => acc + tallyAt s.1 () s.2) 0

/-- What device c still owes after its first i payments. -/
def owedAt (c : Dev nD) (i : ℕ) : CellTallies nD τ sig Unit := owedFrom ((steps c).drop i)

/-! ## The barrier's payloads -/

/-- Eight chunks of a buffer, each at any contents. -/
def anyChunks (c : Dev nD) (M : Memref sig .tc .vmem S256x512 .bf16) : sProp 𝕄 :=
  iprop(chunkAny c M 0 ∗ chunkAny c M 1 ∗ chunkAny c M 2 ∗ chunkAny c M 3 ∗ chunkAny c M 4 ∗ chunkAny c M 5 ∗ chunkAny c M 6 ∗ chunkAny c M 7)

/-- Eight chunks held at whatever contents are eight chunks at any contents. -/
theorem anyChunks_of (c : Dev nD) (M : Memref sig .tc .vmem S256x512 .bf16) (f0 f1 f2 f3 f4 f5 f6 f7 : Buf (Elt F) (M.view.loc (c : Thread nD τ))) :
    (iprop(chk c M 0 f0 ∗ chk c M 1 f1 ∗ chk c M 2 f2 ∗ chk c M 3 f3 ∗ chk c M 4 f4 ∗ chk c M 5 f5 ∗ chk c M 6 f6 ∗ chk c M 7 f7) : sProp 𝕄) ⊢ anyChunks c M := by
  unfold anyChunks
  iintro ⟨H0, H1, H2, H3, H4, H5, H6, H7⟩
  isplitl [H0]; · iapply (chunkAny_intro c M 0 f0) $$ H0
  isplitl [H1]; · iapply (chunkAny_intro c M 1 f1) $$ H1
  isplitl [H2]; · iapply (chunkAny_intro c M 2 f2) $$ H2
  isplitl [H3]; · iapply (chunkAny_intro c M 3 f3) $$ H3
  isplitl [H4]; · iapply (chunkAny_intro c M 4 f4) $$ H4
  isplitl [H5]; · iapply (chunkAny_intro c M 5 f5) $$ H5
  isplitl [H6]; · iapply (chunkAny_intro c M 6 f6) $$ H6
  iapply (chunkAny_intro c M 7 f7) $$ H7

/-- What xp c's signal hands c: xp c's x-receive buffer, in chunks; what yp c's hands c: yp c's y-receive buffer. -/
def PX (c : Dev nD) : sProp 𝕄 := anyChunks (xp c) xrM
def PY (c : Dev nD) : sProp 𝕄 := anyChunks (yp c) yrM

instance anyChunks_storable (c : Dev nD) (M) : BI.Storable (upEmb : UEmb _ 𝕄) (anyChunks (F := F) c M) := by
  unfold anyChunks; infer_instance
instance PX_storable (c : Dev nD) : BI.Storable (upEmb : UEmb _ 𝕄) (PX (F := F) c) := by unfold PX; infer_instance
instance PY_storable (c : Dev nD) : BI.Storable (upEmb : UEmb _ 𝕄) (PY (F := F) c) := by unfold PY; infer_instance

/-! ## The persistent part -/

variable (K : GSem nD τ sig → ℕ) (KB : Dev nD → ℕ)

/-- For chunk k: the invariants of c's own four cells and of the two cells it pays into, and that round 0 of the
    four cells it pays duties of is reached. -/
def persAt (c : Dev nD) (k : Fin 8) : sProp 𝕄 :=
  iprop(cellInv ER (dmaRd m) (K (xsCell c k)) (xsCell c k) ∗ cellInv ER (dmaRd m) (K (xrCell c k)) (xrCell c k)
    ∗ cellInv ER (dmaRd m) (K (ysCell c k)) (ysCell c k) ∗ cellInv ER (dmaRd m) (K (yrCell c k)) (yrCell c k)
    ∗ cellInv ER (dmaRd m) (K (xrCell (xp c) k)) (xrCell (xp c) k) ∗ cellInv ER (dmaRd m) (K (yrCell (yp c) k)) (yrCell (yp c) k)
    ∗ reached ER (xsCell c k) 0 ∗ reached ER (ysCell c k) 0 ∗ reached ER (xrCell (xp c) k) 0 ∗ reached ER (yrCell (yp c) k) 0)

def Pers (c : Dev nD) : sProp 𝕄 :=
  iprop((bigSep Finset.univ fun k : Fin 8 => persAt m K c k)
    ∗ barInv PX PY (KB c) c ∗ barInv PX PY (KB (xp c)) (xp c) ∗ barInv PX PY (KB (yp c)) (yp c) ∗ levAts L lv)

instance persAt_persistent (c : Dev nD) (k : Fin 8) : BI.Persistent (persAt m K c k) := by unfold persAt; infer_instance
instance Pers_persistent (c : Dev nD) : BI.Persistent (Pers m K KB c) := by unfold Pers; infer_instance

theorem Pers_at (c : Dev nD) (k : Fin 8) : Pers m K KB c ⊢ persAt m K c k := by
  unfold Pers
  iintro ⟨H, -⟩
  iapply (show (bigSep Finset.univ fun k : Fin 8 => persAt m K c k) ⊢ persAt m K c k from bigSep_elim (Finset.mem_univ k)) $$ H

/-! ## The linear part, chunk by chunk -/

/-- For chunk k: c's positions on its four cells, the four duty tokens it pays with, and the credit on its two
    receive cells. -/
def kit (c : Dev nD) (k : Fin 8) : sProp 𝕄 :=
  iprop(atPos ER (xsCell c k) 0 ∅ 0 ∗ atPos ER (xrCell c k) 0 ∅ 0 ∗ atPos ER (ysCell c k) 0 ∅ 0 ∗ atPos ER (yrCell c k) 0 ∅ 0
    ∗ dutyTok ER (xsCell c k) 0 () ∗ dutyTok ER (xrCell (xp c) k) 0 () ∗ dutyTok ER (ysCell c k) 0 () ∗ dutyTok ER (yrCell (yp c) k) 0 ()
    ∗ cred (tallyAt (xrCell c k) () N32) ∗ cred (tallyAt (yrCell c k) () N32))

def kits (c : Dev nD) : sProp 𝕄 :=
  iprop(kit c 0 ∗ kit c 1 ∗ kit c 2 ∗ kit c 3 ∗ kit c 4 ∗ kit c 5 ∗ kit c 6 ∗ kit c 7)

/-- The barrier's linear part: the two tokens c pays with, its two wait rights, its three units of credit. -/
def barKit (c : Dev nD) : sProp 𝕄 :=
  iprop(tX (F := F) (xp c) ∗ tY (F := F) (yp c) ∗ tW1 (F := F) c ∗ tW2 (F := F) c
    ∗ cred (tallyAt (barCell c) () 2) ∗ cred (tallyAt (barCell c) () 1))

/-- The ghost state device c starts from, at some names. -/
def ghost (c : Dev nD) : sProp 𝕄 := iprop(Pers m K KB c ∗ kits c ∗ barKit c)

def start (c : Dev nD) : sProp 𝕄 := iprop(∃ K KB, ghost m K KB c)

/-- The four scratch buffers whole, at any contents. -/
def scratch (c : Dev nD) : sProp 𝕄 :=
  iprop((∃ f, xsM.view.loc (c : Thread nD τ) ↦{fullShare} f) ∗ (∃ f, xrM.view.loc (c : Thread nD τ) ↦{fullShare} f)
    ∗ (∃ f, ysM.view.loc (c : Thread nD τ) ↦{fullShare} f) ∗ (∃ f, yrM.view.loc (c : Thread nD τ) ↦{fullShare} f))

/-- The 32 own cells' counters back at zero. -/
def zeros (c : Dev nD) : sProp 𝕄 :=
  bigSep Finset.univ fun k : Fin 8 => iprop(semVal (xsCell c k) 0 ∗ semVal (xrCell c k) 0 ∗ semVal (ysCell c k) 0 ∗ semVal (yrCell c k) 0)

def Φ₀ (c : Dev nD) : sProp 𝕄 := iprop(start m c ∗ scratch c)
def Φ₁ (c : Dev nD) : sProp 𝕄 := iprop(scratch c ∗ zeros c)

/-! ## The pipeline's proof data -/

/-- One grid point. After it the block of partial sums and gamma are as staged, and the result block's staging buffer
    holds the sixteen slabs; before it the core holds its ghost state and the scratch buffers, after it the scratch
    buffers and its 32 counters at zero; it owes everything before and nothing after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outFinal m c
  Φ t := match t with
    | ⟨0, _⟩ => Φ₀ m c
    | ⟨_ + 1, _⟩ => Φ₁ c
  q _ := fullShare
  owed t := match t with
    | ⟨0, _⟩ => owedAt c 0
    | ⟨_ + 1, _⟩ => 0

end Cert.KernelIdeal.Hand

end
-- ==== Proof.Ledger.lean ====
/-
  The ledger of one device: what it still owes after each of its eighteen payments, at which levels the owed units
  sit, and hence that each of its waits is below everything it still owes.
  A device pays, in order: 2 units to the x-partner's barrier, 1 to the y-partner's, a chunk's credit to each of the
  x-partner's eight x-receive cells, then to each of the y-partner's eight y-receive cells. Barrier cells sit at
  level 1, x-receive cells at 2, y-receive cells at 3, every other semaphore at 0. So whatever is owed sits at level 1
  or above; after the two signals at 2 or above; after the eight x transfers at 3. The staging waits (level 0) come
  first, the barrier waits (level 1) after the signals, the x-receive waits (level 2) after the x transfers, and the
  waits on send cells (level 0) and y-receive cells owe nothing that matters: every wait is below what is owed.
  At launch the owed units are matched by credit on the cells they are owed to: a device's barrier holds the 2 units
  of its x-partner and the 1 of its y-partner, each receive cell a chunk's credit.
-/
import proofs.«900597_g7700000000000598_dist_rsrms_v7x_xy2x2_x_m512_d512_f32_1_alg».proof.Proof.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The eighteen payments -/

theorem owed_s0 (c : Dev nD) : owedAt c 0 = owedAt c 1 + tallyAt (barCell (xp c)) () 2 := rfl
theorem owed_s1 (c : Dev nD) : owedAt c 1 = owedAt c 2 + tallyAt (barCell (yp c)) () 1 := rfl
theorem owed_x (c : Dev nD) (k : Fin 8) :
    owedAt c (2 + k.val) = owedAt c (3 + k.val) + tallyAt (xrCell (xp c) k) () N32 := by
  fin_cases k <;> rfl
theorem owed_y (c : Dev nD) (k : Fin 8) :
    owedAt c (10 + k.val) = owedAt c (11 + k.val) + tallyAt (yrCell (yp c) k) () N32 := by
  fin_cases k <;> rfl
theorem owed_end (c : Dev nD) : owedAt c 18 = 0 := rfl

/-! ## The levels at the cells -/

theorem L_tc (c : Dev nD) (sm : SemLoc sig) : L ((c : Thread nD τ), sm) = {()} := if_pos rfl
theorem L_of_tc {g : GSem nD τ sig} (h : g.1.2 = .tc) : L g = {()} := if_pos h

theorem lv_bar (d : Dev nD) : lv (barCell d) () = 1 := if_pos rfl
theorem lv_xs (d : Dev nD) (k : Fin 8) : lv (xsCell d k) () = 0 := by revert d k; decide
theorem lv_xr (d : Dev nD) (k : Fin 8) : lv (xrCell d k) () = 2 := by revert d k; decide
theorem lv_ys (d : Dev nD) (k : Fin 8) : lv (ysCell d k) () = 0 := by revert d k; decide
theorem lv_yr (d : Dev nD) (k : Fin 8) : lv (yrCell d k) () = 3 := by revert d k; decide
theorem lv_stage (d : Dev nD) (q : DmaSem sig) (hq : q = cc0_sem0_0 ∨ q = cc0_sem1_0 ∨ q = cc0_sem2_0) :
    lv ((d : Thread nD τ), .dma q) () = 0 := by
  rcases hq with rfl | rfl | rfl <;> rfl

/-! ## Where the owed units sit -/

/-- A positive entry of the tallies of a list of payments is at the cell of one of them. -/
theorem owedFrom_pos {l : List (GSem nD τ sig × ℕ)} {g : GSem nD τ sig} {u : Unit} (h : 0 < owedFrom l g u) :
    ∃ s ∈ l, g = s.1 := by
  induction l with
  | nil => exact absurd h (Nat.lt_irrefl 0)
  | cons s l ih =>
    have e : owedFrom (s :: l) = owedFrom l + tallyAt s.1 () s.2 := rfl
    rw [e, Pi.add_apply, Finsupp.add_apply, tallyAt_apply] at h
    by_cases hg : g = s.1 ∧ u = ()
    · exact ⟨s, List.mem_cons_self, hg.1⟩
    · rw [if_neg hg, Nat.add_zero] at h
      obtain ⟨s', hs', e'⟩ := ih h
      exact ⟨s', List.mem_cons_of_mem _ hs', e'⟩

/-- Every payment goes to a TensorCore's cell at level 1 or above; from the third on at 2 or above; from the
    eleventh on at 3. -/
theorem steps_lv (c : Dev nD) : ∀ s ∈ steps c, s.1.1.2 = .tc ∧ 1 ≤ lv s.1 () := by revert c; decide
theorem steps_lv2 (c : Dev nD) : ∀ s ∈ (steps c).drop 2, s.1.1.2 = .tc ∧ 2 ≤ lv s.1 () := by revert c; decide
theorem steps_lv10 (c : Dev nD) : ∀ s ∈ (steps c).drop 10, s.1.1.2 = .tc ∧ 3 ≤ lv s.1 () := by revert c; decide

/-- Where a device's owed units sit after its first i payments. -/
theorem owed_pos (c : Dev nD) (i : ℕ) {g : GSem nD τ sig} {u : Unit} (h : 0 < owedAt c i g u) :
    g.1.2 = .tc ∧ 1 ≤ lv g u ∧ (2 ≤ i → 2 ≤ lv g u) ∧ (10 ≤ i → 3 ≤ lv g u) := by
  obtain ⟨s, hs, rfl⟩ := owedFrom_pos h
  refine ⟨(steps_lv c s (List.mem_of_mem_drop hs)).1, (steps_lv c s (List.mem_of_mem_drop hs)).2, fun hi => ?_, fun hi => ?_⟩
  · have e : (steps c).drop i = ((steps c).drop 2).drop (i - 2) := by rw [List.drop_drop]; congr 1; omega
    rw [e] at hs
    exact (steps_lv2 c s (List.mem_of_mem_drop hs)).2
  · have e : (steps c).drop i = ((steps c).drop 10).drop (i - 10) := by rw [List.drop_drop]; congr 1; omega
    rw [e] at hs
    exact (steps_lv10 c s (List.mem_of_mem_drop hs)).2

/-! ## Every wait is below what is owed -/

omit [FloatOps F] in
/-- A wait at level b or below, owing the tallies after i payments, all of which sit above b. -/
theorem mayWait_of_lv (c : Dev nD) (sm : SemLoc sig) (i b : ℕ) (hsm : lv ((c : Thread nD τ), sm) () ≤ b)
    (hb : ∀ {g : GSem nD τ sig} {u : Unit}, 0 < owedAt c i g u → b < lv g u) :
    (levAts L lv : sProp 𝕄) ⊢ MayWait (c : Thread nD τ) sm () (owedAt c i) :=
  MayOwe.of_cut (L := L) (lev := lv) b
    (fun p hp => by rw [Finset.mem_singleton.mp hp, L_tc]; exact Finset.mem_singleton_self _)
    (fun g u hg => by rw [L_of_tc (owed_pos c i hg).1]; exact Finset.mem_singleton_self _)
    (fun p hp => by rw [Finset.mem_singleton.mp hp]; exact hsm)
    (fun g u hg => hb hg)

omit [FloatOps F] in
/-- The wait for the x-partner's two units comes after both signals: only receive cells are owed. -/
theorem mayWait_bar2 (c : Dev nD) : (levAts L lv : sProp 𝕄) ⊢ MayWait (c : Thread nD τ) (.reg barS) () (owedAt c 2) :=
  mayWait_of_lv c _ 2 1 (le_of_eq (lv_bar c)) fun hg => (owed_pos c 2 hg).2.2.1 (le_refl 2)

omit [FloatOps F] in
/-- The wait for the y-partner's unit comes after the eight x transfers: only y-receive cells are owed. -/
theorem mayWait_bar1 (c : Dev nD) : (levAts L lv : sProp 𝕄) ⊢ MayWait (c : Thread nD τ) (.reg barS) () (owedAt c 10) :=
  mayWait_of_lv c _ 10 1 (le_of_eq (lv_bar c)) fun hg => lt_of_lt_of_le (by decide) ((owed_pos c 10 hg).2.2.2 (le_refl 10))

omit [FloatOps F] in
/-- The waits on the x-receive cells come after the eight x transfers too. -/
theorem mayWait_xr (c : Dev nD) (k : Fin 8) (i : ℕ) (hi : 10 ≤ i) :
    (levAts L lv : sProp 𝕄) ⊢ MayWait (c : Thread nD τ) (.dma (sm cc0_scratch5 k)) () (owedAt c i) :=
  mayWait_of_lv c _ i 2 (le_of_eq (lv_xr c k)) fun hg => (owed_pos c i hg).2.2.2 hi

omit [FloatOps F] in
/-- The staging waits sit at level 0, below everything a device ever owes. -/
theorem mayWait_stage (c : Dev nD) (q : DmaSem sig) (hq : q = cc0_sem0_0 ∨ q = cc0_sem1_0 ∨ q = cc0_sem2_0)
    (O : CellTallies nD τ sig Unit) (hO : O = owedAt c 0 ∨ O = 0) :
    (levAts L lv : sProp 𝕄) ⊢ MayWait (c : Thread nD τ) (.dma q) () O := by
  rcases hO with rfl | rfl
  · exact mayWait_of_lv c _ 0 0 (le_of_eq (lv_stage c q hq)) fun hg => (owed_pos c 0 hg).2.1
  · rw [MayWait_zero]; iintro -; iempintro

/-- The pipeline's own waits are staging waits, before the body owing everything and after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch credit

What the four devices owe one cell, summed: a device's barrier is owed 2 by its x-partner and 1 by its y-partner,
its x-receive cell k a chunk's credit by its x-partner, its y-receive cell k by its y-partner. -/

omit [FloatOps F] in
theorem bar_eq_iff {a b : Dev nD} : barCell a = barCell b ↔ a = b :=
  ⟨fun h => Fin.ext (congrArg (fun g : GSem nD τ sig => g.1.1.val) h), fun h => h ▸ rfl⟩

theorem sm5_inj : ∀ k j : Fin 8, sm cc0_scratch5 k = sm cc0_scratch5 j → k = j := by decide
theorem sm7_inj : ∀ k j : Fin 8, sm cc0_scratch7 k = sm cc0_scratch7 j → k = j := by decide
theorem sm5_ne_sm7 : ∀ k j : Fin 8, sm cc0_scratch5 k ≠ sm cc0_scratch7 j := by decide

theorem xr_eq_iff {a b : Dev nD} {k j : Fin 8} : xrCell a k = xrCell b j ↔ a = b ∧ k = j :=
  ⟨fun h => ⟨Fin.ext (congrArg (fun g : GSem nD τ sig => g.1.1.val) h), sm5_inj k j (SemLoc.dma.inj (congrArg Prod.snd h))⟩,
    fun ⟨h1, h2⟩ => h1 ▸ h2 ▸ rfl⟩
theorem yr_eq_iff {a b : Dev nD} {k j : Fin 8} : yrCell a k = yrCell b j ↔ a = b ∧ k = j :=
  ⟨fun h => ⟨Fin.ext (congrArg (fun g : GSem nD τ sig => g.1.1.val) h), sm7_inj k j (SemLoc.dma.inj (congrArg Prod.snd h))⟩,
    fun ⟨h1, h2⟩ => h1 ▸ h2 ▸ rfl⟩

theorem bar_ne_xr (a b : Dev nD) (k : Fin 8) : barCell a ≠ xrCell b k := fun h => by
  have e : (SemLoc.reg barS : SemLoc sig) = .dma (sm cc0_scratch5 k) := congrArg Prod.snd h
  cases e
theorem bar_ne_yr (a b : Dev nD) (k : Fin 8) : barCell a ≠ yrCell b k := fun h => by
  have e : (SemLoc.reg barS : SemLoc sig) = .dma (sm cc0_scratch7 k) := congrArg Prod.snd h
  cases e
theorem xr_ne_yr (a b : Dev nD) (k j : Fin 8) : xrCell a k ≠ yrCell b j := fun h =>
  sm5_ne_sm7 k j (SemLoc.dma.inj (congrArg Prod.snd h))

/-- Everything a device owes at launch, family by family. -/
theorem owedAt0_eq (d : Dev nD) :
    owedAt d 0 = tallyAt (barCell (xp d)) () 2 + tallyAt (barCell (yp d)) () 1
      + (∑ k : Fin 8, tallyAt (xrCell (xp d) k) () N32) + ∑ k : Fin 8, tallyAt (yrCell (yp d) k) () N32 := by
  show owedFrom (steps d) = _
  rw [Fin.sum_univ_eight, Fin.sum_univ_eight]
  simp only [owedFrom, steps, List.foldr]
  abel

/-- What device d owes device c's barrier: 2 if d is c's x-partner, 1 if it is c's y-partner. -/
theorem owed0_bar (d c : Dev nD) :
    owedAt d 0 (barCell c) () = (if d = xp c then 2 else 0) + (if d = yp c then 1 else 0) := by
  rw [owedAt0_eq]
  simp only [Pi.add_apply, Finsupp.add_apply, Finset.sum_apply, Finsupp.finsetSum_apply]
  rw [Finset.sum_eq_zero (fun k _ => by rw [tallyAt_ne_cell (bar_ne_xr _ _ _)]; rfl),
    Finset.sum_eq_zero (fun k _ => by rw [tallyAt_ne_cell (bar_ne_yr _ _ _)]; rfl), Nat.add_zero, Nat.add_zero,
    tallyAt_apply, tallyAt_apply]
  congr 1
  · by_cases h : d = xp c
    · subst h; rw [xp_xp, if_pos ⟨rfl, rfl⟩, if_pos rfl]
    · rw [if_neg (fun ⟨h1, _⟩ => h (by rw [← xp_xp d]; exact congrArg xp (bar_eq_iff.mp h1).symm)), if_neg h]
  · by_cases h : d = yp c
    · subst h; rw [yp_yp, if_pos ⟨rfl, rfl⟩, if_pos rfl]
    · rw [if_neg (fun ⟨h1, _⟩ => h (by rw [← yp_yp d]; exact congrArg yp (bar_eq_iff.mp h1).symm)), if_neg h]

/-- What device d owes device c's x-receive cell k: a chunk's credit if d is c's x-partner. -/
theorem owed0_xr (d c : Dev nD) (k : Fin 8) : owedAt d 0 (xrCell c k) () = if d = xp c then N32 else 0 := by
  rw [owedAt0_eq]
  simp only [Pi.add_apply, Finsupp.add_apply, Finset.sum_apply, Finsupp.finsetSum_apply]
  rw [tallyAt_ne_cell (bar_ne_xr _ _ _).symm, tallyAt_ne_cell (bar_ne_xr _ _ _).symm,
    Finset.sum_eq_zero (s := Finset.univ) (f := fun j : Fin 8 => tallyAt (yrCell (yp d) j) () N32 (xrCell c k) ())
      (fun j _ => by rw [tallyAt_ne_cell (xr_ne_yr _ _ _ _)]; rfl),
    Finsupp.zero_apply, Nat.zero_add, Nat.zero_add, Nat.add_zero]
  by_cases h : d = xp c
  · subst h
    rw [if_pos rfl, Finset.sum_eq_single k (fun j _ hj => by
      rw [tallyAt_apply, if_neg (fun ⟨h1, _⟩ => hj (xr_eq_iff.mp h1).2.symm)]) (fun hk => absurd (Finset.mem_univ k) hk),
      xp_xp, tallyAt_self]
  · rw [if_neg h]
    exact Finset.sum_eq_zero fun j _ => by
      rw [tallyAt_apply, if_neg (fun ⟨h1, _⟩ => h (by rw [← xp_xp d]; exact congrArg xp (xr_eq_iff.mp h1).1.symm))]

/-- What device d owes device c's y-receive cell k: a chunk's credit if d is c's y-partner. -/
theorem owed0_yr (d c : Dev nD) (k : Fin 8) : owedAt d 0 (yrCell c k) () = if d = yp c then N32 else 0 := by
  rw [owedAt0_eq]
  simp only [Pi.add_apply, Finsupp.add_apply, Finset.sum_apply, Finsupp.finsetSum_apply]
  rw [tallyAt_ne_cell (bar_ne_yr _ _ _).symm, tallyAt_ne_cell (bar_ne_yr _ _ _).symm,
    Finset.sum_eq_zero (s := Finset.univ) (f := fun j : Fin 8 => tallyAt (xrCell (xp d) j) () N32 (yrCell c k) ())
      (fun j _ => by rw [tallyAt_ne_cell (xr_ne_yr _ _ _ _).symm]; rfl),
    Finsupp.zero_apply, Nat.zero_add, Nat.zero_add, Nat.zero_add]
  by_cases h : d = yp c
  · subst h
    rw [if_pos rfl, Finset.sum_eq_single k (fun j _ hj => by
      rw [tallyAt_apply, if_neg (fun ⟨h1, _⟩ => hj (yr_eq_iff.mp h1).2.symm)]) (fun hk => absurd (Finset.mem_univ k) hk),
      yp_yp, tallyAt_self]
  · rw [if_neg h]
    exact Finset.sum_eq_zero fun j _ => by
      rw [tallyAt_apply, if_neg (fun ⟨h1, _⟩ => h (by rw [← yp_yp d]; exact congrArg yp (yr_eq_iff.mp h1).1.symm))]

theorem launch_bar (c : Dev nD) :
    tallyOn (barCell c) (launchCredit (Pipeline.owing fun d => owedAt d 0) 0 (barCell c))
      = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib,
    Finset.sum_ite_eq' Finset.univ (xp c) fun _ => 2, Finset.sum_ite_eq' Finset.univ (yp c) fun _ => 1,
    if_pos (Finset.mem_univ _), if_pos (Finset.mem_univ _)]

theorem launch_xr (c : Dev nD) (k : Fin 8) :
    tallyOn (xrCell c k) (launchCredit (Pipeline.owing fun d => owedAt d 0) 0 (xrCell c k))
      = (tallyAt (xrCell c k) () N32 : CellTallies nD τ sig Unit) := by
  unfold tallyAt; refine congrArg _ (Finsupp.ext fun u => ?_); cases u
  rw [Pipeline.launchCredit_owing, Finsupp.single_eq_same, Finset.sum_congr rfl fun d _ => owed0_xr d c k,
    Finset.sum_ite_eq' Finset.univ (xp c) fun _ => N32, if_pos (Finset.mem_univ _)]

theorem launch_yr (c : Dev nD) (k : Fin 8) :
    tallyOn (yrCell c k) (launchCredit (Pipeline.owing fun d => owedAt d 0) 0 (yrCell c k))
      = (tallyAt (yrCell c k) () N32 : CellTallies nD τ sig Unit) := by
  unfold tallyAt; refine congrArg _ (Finsupp.ext fun u => ?_); cases u
  rw [Pipeline.launchCredit_owing, Finsupp.single_eq_same, Finset.sum_congr rfl fun d _ => owed0_yr d c k,
    Finset.sum_ite_eq' Finset.univ (yp c) fun _ => N32, if_pos (Finset.mem_univ _)]

/-- The sixteen receive semaphores: eight across x, eight across y. -/
def rcvSem : Fin 8 ⊕ Fin 8 → SemLoc sig :=
  Sum.elim (fun k => .dma (sm cc0_scratch5 k)) (fun k => .dma (sm cc0_scratch7 k))

theorem rcvSem_inj : Function.Injective rcvSem := by
  rintro (k | k) (j | j) h
  · exact congrArg Sum.inl (sm5_inj k j (SemLoc.dma.inj h))
  · exact absurd (SemLoc.dma.inj h) (sm5_ne_sm7 k j)
  · exact absurd (SemLoc.dma.inj h).symm (sm5_ne_sm7 j k)
  · exact congrArg Sum.inr (sm7_inj k j (SemLoc.dma.inj h))

theorem rcvSem_ne_bar (p : Fin 8 ⊕ Fin 8) : rcvSem p ≠ .reg barS := by
  rcases p with k | k <;> exact fun h => by cases h

omit [FloatOps F] in
/-- The credit on the sixteen receive cells out of a device's launch credit without its barrier's. -/
theorem creds_recv (c : Dev nD) :
    (bigSep ((Finset.univ : Finset (SemLoc sig)).erase (.reg barS)) fun sm : SemLoc sig =>
        cred (tallyOn ((c.tc : Thread nD τ), sm) (launchCredit (Pipeline.owing fun d => owedAt d 0) 0 ((c.tc : Thread nD τ), sm))) : sProp 𝕄)
      ⊢ bigSep Finset.univ fun k : Fin 8 => iprop(cred (tallyAt (xrCell c k) () N32) ∗ cred (tallyAt (yrCell c k) () N32)) := by
  refine (bigSep_subset (t := Finset.univ.map ⟨rcvSem, rcvSem_inj⟩) (fun x hx => ?_)).trans ?_
  · obtain ⟨p, -, rfl⟩ := Finset.mem_map.mp hx
    exact Finset.mem_erase.mpr ⟨rcvSem_ne_bar p, Finset.mem_univ _⟩
  · rw [bigSep_map, bigSep_univ_sum, bigSep_sep']
    refine sep_mono (bigSep_mono fun k _ => ?_) (bigSep_mono fun k _ => ?_)
    · show (cred (tallyOn (xrCell c k) (launchCredit (Pipeline.owing fun d => owedAt d 0) 0 (xrCell c k))) : sProp 𝕄) ⊢ _
      rw [launch_xr]
    · show (cred (tallyOn (yrCell c k) (launchCredit (Pipeline.owing fun d => owedAt d 0) 0 (yrCell c k))) : sProp 𝕄) ⊢ _
      rw [launch_yr]

omit [FloatOps F] in
/-- A device's launch credit: its barrier's three units as 2 + 1, and a chunk's credit on each receive cell. -/
theorem creds (c : Dev nD) :
    (Pipeline.launchCred (fun d => owedAt d 0) c : sProp 𝕄) ⊢ iprop(cred (tallyAt (barCell c) () 2) ∗ cred (tallyAt (barCell c) () 1)
      ∗ bigSep Finset.univ fun k : Fin 8 => iprop(cred (tallyAt (xrCell c k) () N32) ∗ cred (tallyAt (yrCell c k) () N32))) := by
  unfold Pipeline.launchCred
  rw [bigSep_univ_at _ (SemLoc.reg barS), launch_bar, ← tallyAt_add (barCell c) () 2 1]
  iintro ⟨Hb, Hrest⟩
  ihave Hb' := (cred_add _ _).1 $$ Hb; icases Hb' with ⟨H2, H1⟩
  iframe H2 H1
  iapply (creds_recv c) $$ Hrest

end Cert.KernelIdeal.Hand

end
-- ==== Proof.Launch.lean ====
/-
  The launch: from "each device's kernel body is proved" to the run of the whole program on the 2 × 2 mesh, every
  result array named.
  The launch element mints, for every device, the round state, the owner's position and the one duty token of each
  of its 32 DMA cells, and the five one-shot tokens of its barrier cell. One update for the whole mesh allocates every
  cell's invariant — the 32 rounds cells of each device from their counters at zero, its barrier cell from its
  counter at zero and the token that marks the first wait as not yet done — and deals the tokens across the mesh:
  the arrival token of an x-receive cell goes to the x partner, that of a y-receive cell to the y partner, the two
  signal tokens of a barrier cell to the two partners.
-/
import proofs.«900597_g7700000000000598_dist_rsrms_v7x_xy2x2_x_m512_d512_f32_1_alg».proof.Proof.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own cells -/

/-- The kernel's own 32 DMA semaphores, by chunk and family: x-send, x-receive, y-send, y-receive. -/
abbrev osem (kf : Fin 8 × Fin 4) : SemLoc sig := match kf.2 with
  | 0 => .dma (sm cc0_scratch4 kf.1) | 1 => .dma (sm cc0_scratch5 kf.1) | 2 => .dma (sm cc0_scratch6 kf.1) | 3 => .dma (sm cc0_scratch7 kf.1)

theorem ownSemFacts : Pipeline.OwnSemFacts cfg0.spec osem := by decide

abbrev dcell (x : Dev nD × (Fin 8 × Fin 4)) : GSem nD τ sig := ((x.1 : Thread nD τ), osem x.2)

/-- The four families are the four cells of a chunk. -/
example (c : Dev nD) (k : Fin 8) : dcell (c, (k, 0)) = xsCell c k := rfl
example (c : Dev nD) (k : Fin 8) : dcell (c, (k, 1)) = xrCell c k := rfl
example (c : Dev nD) (k : Fin 8) : dcell (c, (k, 2)) = ysCell c k := rfl
example (c : Dev nD) (k : Fin 8) : dcell (c, (k, 3)) = yrCell c k := rfl

theorem osem_injective : Function.Injective osem := by decide

theorem dcell_injective : Function.Injective dcell := by
  rintro ⟨c, kf⟩ ⟨c', kf'⟩ h
  have h1 : c = c' := by have := congrArg (fun g : GSem nD τ sig => g.1.1) h; exact this
  subst h1
  have h2 : osem kf = osem kf' := congrArg Prod.snd h
  rw [osem_injective h2]

def dmaCells : Finset (GSem nD τ sig) := Finset.univ.map ⟨dcell, dcell_injective⟩

/-! ## The tokens the launch element mints -/

/-- The (cell, round, duty) triples minted: the one duty of each DMA cell, and the five one-shot tokens of each
    barrier cell. -/
abbrev tokOf : (Dev nD × (Fin 8 × Fin 4)) ⊕ (Dev nD × Fin 5) → GSem nD τ sig × ℕ × Unit
  | .inl x => (dcell x, 0, ())
  | .inr y => (barCell y.1, y.2.val, ())

theorem tokOf_injective : Function.Injective tokOf := by
  rintro (x | y) (x' | y') h
  · exact congrArg Sum.inl (dcell_injective (congrArg (fun t : GSem nD τ sig × ℕ × Unit => t.1) h))
  · exfalso
    have h2 : osem x.2 = .reg barS := congrArg (fun t : GSem nD τ sig × ℕ × Unit => t.1.2) h
    revert h2; generalize x.2 = kf; revert kf; decide
  · exfalso
    have h2 : SemLoc.reg barS = osem x'.2 := congrArg (fun t : GSem nD τ sig × ℕ × Unit => t.1.2) h
    revert h2; generalize x'.2 = kf; revert kf; decide
  · obtain ⟨c, r⟩ := y
    obtain ⟨c', r'⟩ := y'
    have h1 : c = c' := by have := congrArg (fun t : GSem nD τ sig × ℕ × Unit => t.1.1.1) h; exact this
    have h2 : r.val = r'.val := congrArg (fun t : GSem nD τ sig × ℕ × Unit => t.2.1) h
    rw [h1, Fin.ext h2]

def allToks : Finset (GSem nD τ sig × ℕ × Unit) := Finset.univ.map ⟨tokOf, tokOf_injective⟩

/-- The launch element: the pipeline library's copy, and the protocol's. -/
def u₀ : UU :=
  (initOf (Pipeline.cells cfgs cellOf_inj) (Pipeline.launchToks cfgs cellOf_inj), initOf dmaCells allToks)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Over a device's 32 DMA cells: chunk by chunk, the four families in turn. -/
theorem bigSep_cells (c : Dev nD) (Φ : GSem nD τ sig → sProp 𝕄) :
    (bigSep Finset.univ fun kf : Fin 8 × Fin 4 => Φ (dcell (c, kf)))
      = bigSep Finset.univ fun k : Fin 8 => iprop(Φ (xsCell c k) ∗ Φ (xrCell c k) ∗ Φ (ysCell c k) ∗ Φ (yrCell c k)) := by
  rw [bigSep_univ_prod]
  exact bigSep_congr fun k _ => by rw [bigSep_fin4]

/-- Over all the mesh's DMA cells: device by device. -/
theorem bigSep_dmaCells (Φ : GSem nD τ sig → sProp 𝕄) :
    bigSep dmaCells Φ = bigSep Finset.univ fun c : Dev nD => bigSep Finset.univ fun kf : Fin 8 × Fin 4 => Φ (dcell (c, kf)) := by
  unfold dmaCells; rw [bigSep_map, bigSep_univ_prod]; rfl

variable (m : (ℓ : Loc nD τ sig) → Buf (Elt F) ℓ)

/-- The five one-shot tokens of device c's barrier cell. -/
def barMint (c : Dev nD) : sProp 𝕄 := iprop(tX (F := F) c ∗ tY (F := F) c ∗ tW1 (F := F) c ∗ tW2 (F := F) c ∗ tZ (F := F) c)

/-- What the launch element deals device c: of each of its 32 DMA cells the round state at counter zero, the owner's
    position with the fact that round 0 is reached and the duty token, and the five tokens of its barrier cell. -/
def G (c : Dev nD) : sProp 𝕄 :=
  iprop((bigSep Finset.univ fun kf : Fin 8 × Fin 4 => roundState ER (dmaRd m) (dcell (c, kf)) 0)
    ∗ (bigSep Finset.univ fun kf : Fin 8 × Fin 4 => iprop(atPos ER (dcell (c, kf)) 0 ∅ 0 ∗ reached ER (dcell (c, kf)) 0))
    ∗ (bigSep Finset.univ fun kf : Fin 8 × Fin 4 => dutyTok ER (dcell (c, kf)) 0 ())
    ∗ barMint (F := F) c)

theorem fund_all : BI.own (ER (initOf dmaCells allToks)) ⊢ (|==> bigSep Finset.univ (G m) : sProp 𝕄) := by
  have hT : bigSep allToks (fun x => (dutyTok ER x.1 x.2.1 x.2.2 : sProp 𝕄))
      = iprop((bigSep Finset.univ fun c : Dev nD => bigSep Finset.univ fun kf : Fin 8 × Fin 4 => dutyTok ER (dcell (c, kf)) 0 ())
          ∗ bigSep Finset.univ fun c : Dev nD => barMint (F := F) c) := by
    unfold allToks; rw [bigSep_map, bigSep_univ_sum, bigSep_univ_prod, bigSep_univ_prod]
    congr 1
    exact bigSep_congr fun c _ => by unfold barMint; rw [bigSep_fin5] <;> rfl
  iintro HX
  imod (Rounds.fund ER (dmaRd m) dmaCells allToks) $$ HX with ⟨Hst, Hr, Hat, Htok⟩
  imodintro
  ihave Hst' := (Entails.of_eq (bigSep_dmaCells fun g => roundState ER (dmaRd m) g 0)) $$ Hst
  ihave Hat' := (Entails.of_eq (bigSep_dmaCells fun g => atPos ER g 0 ∅ 0)) $$ Hat
  ihave Hr' := (Entails.of_eq (bigSep_dmaCells fun g => reached ER g 0)) $$ Hr
  ihave Htok' := (Entails.of_eq hT) $$ Htok
  icases Htok' with ⟨Ht1, Ht2⟩
  unfold G; simp only [bigSep_sep']
  isplitl [Hst']; · iexact Hst'
  isplitl [Hat' Hr']
  · isplitl [Hat'] <;> iassumption
  isplitl [Ht1]; · iexact Ht1
  iexact Ht2

/-! ## Allocation: every cell's invariant -/

instance payOf_storable (c : Dev nD) (fk : Fin 4 × Fin 8) : BI.Storable (upEmb : UEmb _ 𝕄) (payOf m c fk) := by
  obtain ⟨f, k⟩ := fk
  fin_cases f <;> exact chunkAt_storable _ _ _ _

instance cellPay_storable (g : GSem nD τ sig) : BI.Storable (upEmb : UEmb _ 𝕄) (cellPay m g) := by
  unfold cellPay
  split
  · split
    · exact payOf_storable m _ _
    · infer_instance
  · infer_instance

instance dmaRd_payload_storable (g : GSem nD τ sig) (r : ℕ) (d : Unit) :
    BI.Storable (upEmb : UEmb _ 𝕄) ((dmaRd m).payload g r d) := cellPay_storable m g

omit [FloatOps F] in
/-- The kernel's own semaphores are the 32 DMA cells; -/
theorem ownSems0_eq (c : Dev nD) : (Pipeline.ownSems0 (Ix := Unit) (Name := ℕ) (U := UU) (Lvl := ℕ) (Val := Elt F) (τ := τ) osem c : sProp 𝕄)
    = bigSep Finset.univ fun kf : Fin 8 × Fin 4 => semVal (dcell (c, kf)) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The tokens of device c's barrier cell that are dealt on: the two signal tokens and the two wait rights. -/
def barOwn (c : Dev nD) : sProp 𝕄 := iprop(tX (F := F) c ∗ tY (F := F) c ∗ tW1 (F := F) c ∗ tW2 (F := F) c)

/-- Device c's cells allocated: each of its 32 DMA cells from its counter and round state at zero, its barrier cell
    from its counter at zero and the token that marks the first wait as not yet done. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun kf : Fin 8 × Fin 4 => iprop(∃ κ : ℕ, cellInv ER (dmaRd m) κ (dcell (c, kf))))
          ∗ (∃ κ : ℕ, barInv (F := F) PX PY κ c)
          ∗ (bigSep Finset.univ fun kf : Fin 8 × Fin 4 => iprop(atPos ER (dcell (c, kf)) 0 ∅ 0 ∗ reached ER (dcell (c, kf)) 0))
          ∗ (bigSep Finset.univ fun kf : Fin 8 × Fin 4 => dutyTok ER (dcell (c, kf)) 0 ())
          ∗ barOwn (F := F) c) := by
  unfold G barMint barOwn
  rw [ownSems0_eq, unscopedSems0_eq]
  iintro ⟨Hos, Hus, Hst, Hat, Htok, HtX, HtY, HtW1, HtW2, HtZ⟩
  imod (show iprop((bigSep Finset.univ fun kf : Fin 8 × Fin 4 => semVal (dcell (c, kf)) 0)
        ∗ bigSep Finset.univ fun kf : Fin 8 × Fin 4 => roundState ER (dmaRd m) (dcell (c, kf)) 0)
      ⊢ (|={Set.univ}=> bigSep Finset.univ fun kf : Fin 8 × Fin 4 => iprop(∃ κ : ℕ, cellInv ER (dmaRd m) κ (dcell (c, kf))) : sProp 𝕄) from by
        rw [← bigSep_sep']
        exact (bigSep_mono fun kf _ => (Rounds.body_intro ER (dmaRd m) (dcell (c, kf))).trans inv_alloc).trans (bigSep_fupd _ _)) $$ [Hos Hst] with Hinv
  · isplitl [Hos] <;> iassumption
  imod (bar_alloc (F := F) PX PY c) $$ [Hus HtZ] with Hbar
  · isplitl [Hus] <;> iassumption
  imodintro
  isplitl [Hinv]; · iexact Hinv
  isplitl [Hbar]; · iexact Hbar
  isplitl [Hat]; · iexact Hat
  isplitl [Htok]; · iexact Htok
  isplitl [HtX]; · iexact HtX
  isplitl [HtY]; · iexact HtY
  isplitl [HtW1] <;> iassumption

/-! ## The records every device reads -/

variable (K : GSem nD τ sig → ℕ) (KB : Dev nD → ℕ)

/-- At the names K and KB: every DMA cell's invariant, that round 0 of every DMA cell is reached, every barrier
    cell's invariant. -/
def records : sProp 𝕄 :=
  iprop((bigSep dmaCells fun g => cellInv ER (dmaRd m) (K g) g) ∗ (bigSep dmaCells fun g => reached ER g 0)
    ∗ bigSep Finset.univ fun c : Dev nD => barInv (F := F) PX PY (KB c) c)

instance records_persistent : BI.Persistent (records m K KB) := by unfold records; infer_instance

theorem mem_dmaCells (x : Dev nD × (Fin 8 × Fin 4)) : dcell x ∈ dmaCells := Finset.mem_map.mpr ⟨x, Finset.mem_univ _, rfl⟩
theorem xs_mem (c : Dev nD) (k : Fin 8) : xsCell c k ∈ dmaCells := mem_dmaCells (c, (k, 0))
theorem xr_mem (c : Dev nD) (k : Fin 8) : xrCell c k ∈ dmaCells := mem_dmaCells (c, (k, 1))
theorem ys_mem (c : Dev nD) (k : Fin 8) : ysCell c k ∈ dmaCells := mem_dmaCells (c, (k, 2))
theorem yr_mem (c : Dev nD) (k : Fin 8) : yrCell c k ∈ dmaCells := mem_dmaCells (c, (k, 3))

theorem inv_at {g : GSem nD τ sig} (hg : g ∈ dmaCells) : records m K KB ⊢ cellInv ER (dmaRd m) (K g) g := by
  unfold records
  iintro ⟨H, -⟩
  iapply (show (bigSep dmaCells fun g => cellInv ER (dmaRd m) (K g) g) ⊢ cellInv ER (dmaRd m) (K g) g from bigSep_elim hg) $$ H

theorem reached_at {g : GSem nD τ sig} (hg : g ∈ dmaCells) : records m K KB ⊢ reached ER g 0 := by
  unfold records
  iintro ⟨-, H, -⟩
  iapply (show (bigSep dmaCells fun g => (reached ER g 0 : sProp 𝕄)) ⊢ reached ER g 0 from bigSep_elim hg) $$ H

theorem bar_at (c : Dev nD) : records m K KB ⊢ barInv (F := F) PX PY (KB c) c := by
  unfold records
  iintro ⟨-, -, H⟩
  iapply (show (bigSep Finset.univ fun c : Dev nD => barInv (F := F) PX PY (KB c) c) ⊢ barInv (F := F) PX PY (KB c) c from bigSep_elim (Finset.mem_univ c)) $$ H

theorem persAt_intro (c : Dev nD) (k : Fin 8) : records m K KB ⊢ persAt m K c k := by
  unfold persAt
  iintro #H
  isplitr; · iapply (inv_at m K KB (xs_mem c k)); iexact H
  isplitr; · iapply (inv_at m K KB (xr_mem c k)); iexact H
  isplitr; · iapply (inv_at m K KB (ys_mem c k)); iexact H
  isplitr; · iapply (inv_at m K KB (yr_mem c k)); iexact H
  isplitr; · iapply (inv_at m K KB (xr_mem (xp c) k)); iexact H
  isplitr; · iapply (inv_at m K KB (yr_mem (yp c) k)); iexact H
  isplitr; · iapply (reached_at m K KB (xs_mem c k)); iexact H
  isplitr; · iapply (reached_at m K KB (ys_mem c k)); iexact H
  isplitr; · iapply (reached_at m K KB (xr_mem (xp c) k)); iexact H
  iapply (reached_at m K KB (yr_mem (yp c) k)); iexact H

/-- The persistent part of a device's ghost state but for the level facts, which arrive device by device. -/
def Pers₀ (c : Dev nD) : sProp 𝕄 :=
  iprop((bigSep Finset.univ fun k : Fin 8 => persAt m K c k)
    ∗ barInv PX PY (KB c) c ∗ barInv PX PY (KB (xp c)) (xp c) ∗ barInv PX PY (KB (yp c)) (yp c))

instance Pers₀_persistent (c : Dev nD) : BI.Persistent (Pers₀ m K KB c) := by unfold Pers₀; infer_instance

theorem Pers₀_intro (c : Dev nD) : records m K KB ⊢ Pers₀ m K KB c := by
  unfold Pers₀
  iintro #H
  isplitr; · iapply (bigSep_intro_persistent (R := records m K KB) fun k _ => persAt_intro m K KB c k); iexact H
  isplitr; · iapply (bar_at m K KB c); iexact H
  isplitr; · iapply (bar_at m K KB (xp c)); iexact H
  iapply (bar_at m K KB (yp c)); iexact H

/-! ## The dealing across the mesh -/

/-- The four duty tokens device c pays chunk k with: the departure tokens of its own two send cells, the arrival
    tokens of its partners' receive cells. -/
def payTok (c : Dev nD) (k : Fin 8) : sProp 𝕄 :=
  iprop(dutyTok ER (xsCell c k) 0 () ∗ dutyTok ER (xrCell (xp c) k) 0 () ∗ dutyTok ER (ysCell c k) 0 () ∗ dutyTok ER (yrCell (yp c) k) 0 ())

/-- The barrier's tokens in c's hand: the two it pays with and its two wait rights. -/
def barToks (c : Dev nD) : sProp 𝕄 :=
  iprop(tX (F := F) (xp c) ∗ tY (F := F) (yp c) ∗ tW1 (F := F) c ∗ tW2 (F := F) c)

/-- An x-receive cell's token goes to the x partner, a y-receive cell's to the y partner. -/
theorem toks_around :
    (bigSep Finset.univ fun c : Dev nD => bigSep Finset.univ fun kf : Fin 8 × Fin 4 => (dutyTok ER (dcell (c, kf)) 0 () : sProp 𝕄))
      ⊢ bigSep Finset.univ fun c : Dev nD => bigSep Finset.univ fun k : Fin 8 => payTok (F := F) c k := by
  rw [bigSep_congr (s := Finset.univ) fun (c : Dev nD) _ => bigSep_cells c fun g => (dutyTok ER g 0 () : sProp 𝕄)]
  unfold payTok
  simp only [bigSep_sep']
  rw [bigSep_univ_equiv xpE (fun c : Dev nD => bigSep Finset.univ fun k : Fin 8 => (dutyTok ER (xrCell c k) 0 () : sProp 𝕄)),
    bigSep_univ_equiv ypE (fun c : Dev nD => bigSep Finset.univ fun k : Fin 8 => (dutyTok ER (yrCell c k) 0 () : sProp 𝕄))]
  iintro ⟨H1, H2, H3, H4⟩
  isplitl [H1]; · iexact H1
  isplitl [H2]; · iexact H2
  isplitl [H3]; · iexact H3
  iexact H4

/-- A barrier cell's two signal tokens go to its two partners. -/
theorem bar_around :
    (bigSep Finset.univ fun c : Dev nD => barOwn (F := F) c) ⊢ bigSep Finset.univ fun c : Dev nD => barToks (F := F) c := by
  unfold barOwn barToks
  simp only [bigSep_sep']
  rw [bigSep_univ_equiv xpE (fun c : Dev nD => tX (F := F) c), bigSep_univ_equiv ypE (fun c : Dev nD => tY (F := F) c)]
  iintro ⟨H1, H2, H3, H4⟩
  isplitl [H1]; · iexact H1
  isplitl [H2]; · iexact H2
  isplitl [H3]; · iexact H3
  iexact H4

/-! ## The global step -/

/-- What the global step makes of the dealt resources: at some names, the invariants device c works with, its
    positions on its 32 cells and the tokens of the duties it pays. -/
def G' (c : Dev nD) : sProp 𝕄 :=
  iprop(∃ K KB, Pers₀ m K KB c
    ∗ (bigSep Finset.univ fun kf : Fin 8 × Fin 4 => atPos ER (dcell (c, kf)) 0 ∅ 0)
    ∗ (bigSep Finset.univ fun k : Fin 8 => payTok (F := F) c k) ∗ barToks (F := F) c)

/-- What stays with device c, or comes to it, of the linear resources. -/
def linear (c : Dev nD) : sProp 𝕄 :=
  iprop((bigSep Finset.univ fun kf : Fin 8 × Fin 4 => atPos ER (dcell (c, kf)) 0 ∅ 0)
    ∗ (bigSep Finset.univ fun k : Fin 8 => payTok (F := F) c k) ∗ barToks (F := F) c)

theorem ghost_intro (c : Dev nD) : iprop(records m K KB ∗ linear (F := F) c) ⊢ G' m c := by
  unfold linear G'
  iintro ⟨#HR, Hat, Hpay, Hbar⟩
  iexists K, KB
  isplitr; · iapply (Pers₀_intro m K KB c); iexact HR
  isplitl [Hat]; · iexact Hat
  isplitl [Hpay] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun kf : Fin 8 × Fin 4 => iprop(∃ κ : ℕ, cellInv ER (dmaRd m) κ (dcell (c, kf))))
          ∗ (∃ κ : ℕ, barInv (F := F) PX PY κ c)
          ∗ (bigSep Finset.univ fun kf : Fin 8 × Fin 4 => iprop(atPos ER (dcell (c, kf)) 0 ∅ 0 ∗ reached ER (dcell (c, kf)) 0))
          ∗ (bigSep Finset.univ fun kf : Fin 8 × Fin 4 => dutyTok ER (dcell (c, kf)) 0 ())
          ∗ barOwn (F := F) c) : sProp 𝕄)
      ⊢ bigSep Finset.univ (G' m) := by
  simp only [bigSep_sep']
  rw [← bigSep_dmaCells (fun g => iprop(∃ κ : ℕ, cellInv ER (dmaRd m) κ g)), ← bigSep_dmaCells (fun g => (reached ER g 0 : sProp 𝕄))]
  iintro ⟨HI, HB, ⟨Hat, #HR⟩, Htok, Hbar⟩
  ihave HK := (BI.bigSep_exists_pi dmaCells (fun (g : GSem nD τ sig) (κ : ℕ) => (cellInv ER (dmaRd m) κ g : sProp 𝕄))) $$ HI
  icases HK with ⟨%K, #HI⟩
  ihave HKB := (BI.bigSep_exists_pi Finset.univ (fun (c : Dev nD) (κ : ℕ) => (barInv (F := F) PX PY κ c : sProp 𝕄))) $$ HB
  icases HKB with ⟨%KB, #HB⟩
  ihave Htk := (toks_around (F := F)) $$ Htok
  ihave Hbk := (bar_around (F := F)) $$ Hbar
  iapply (bigSep_with_persistent (R := records m K KB) fun c _ => ghost_intro m K KB c)
  isplitr
  · unfold records
    isplitr; · iexact HI
    isplitr; · iexact HR
    iexact HB
  · unfold linear
    simp only [bigSep_sep']
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem share_eq (c : Dev nD) (w : Fin cfg0.W) : (dats m 0 c).share w = fullShare := by unfold Dat.share; split <;> rfl

omit [FloatOps F] in
/-- Chunk k's linear part from its three pieces. -/
theorem kit_intro (c : Dev nD) (k : Fin 8) :
    iprop((atPos ER (xsCell c k) 0 ∅ 0 ∗ atPos ER (xrCell c k) 0 ∅ 0 ∗ atPos ER (ysCell c k) 0 ∅ 0 ∗ atPos ER (yrCell c k) 0 ∅ 0)
        ∗ payTok (F := F) c k ∗ (cred (tallyAt (xrCell c k) () N32) ∗ cred (tallyAt (yrCell c k) () N32)))
      ⊢ kit (F := F) c k := by
  unfold payTok kit
  iintro ⟨⟨A1, A2, A3, A4⟩, ⟨T1, T2, T3, T4⟩, C1, C2⟩
  isplitl [A1]; · iexact A1
  isplitl [A2]; · iexact A2
  isplitl [A3]; · iexact A3
  isplitl [A4]; · iexact A4
  isplitl [T1]; · iexact T1
  isplitl [T2]; · iexact T2
  isplitl [T3]; · iexact T3
  isplitl [T4]; · iexact T4
  isplitl [C1] <;> iassumption

theorem kits_intro (c : Dev nD) :
    iprop((bigSep Finset.univ fun kf : Fin 8 × Fin 4 => atPos ER (dcell (c, kf)) 0 ∅ 0)
        ∗ (bigSep Finset.univ fun k : Fin 8 => payTok (F := F) c k)
        ∗ (bigSep Finset.univ fun k : Fin 8 => iprop(cred (tallyAt (xrCell c k) () N32) ∗ cred (tallyAt (yrCell c k) () N32))))
      ⊢ kits (F := F) c := by
  rw [bigSep_cells c (fun g => (atPos ER g 0 ∅ 0 : sProp 𝕄)), ← bigSep_sep', ← bigSep_sep']
  have e : (bigSep Finset.univ fun k : Fin 8 => kit (F := F) c k) = kits c := by unfold kits; rw [bigSep_fin8]
  rw [← e]
  exact bigSep_mono fun k _ => kit_intro c k

/-- Each device sorts what it is handed: the level facts complete its persistent part, its launch credit its linear
    parts. -/
theorem start_intro (ρ : Dev nD → PrngReg)
    (creds : ∀ c, (Pipeline.launchCred (fun d => owedAt d 0) c : sProp 𝕄)
      ⊢ iprop(cred (tallyAt (barCell c) () 2) ∗ cred (tallyAt (barCell c) () 1)
          ∗ bigSep Finset.univ fun k : Fin 8 => iprop(cred (tallyAt (xrCell c k) () N32) ∗ cred (tallyAt (yrCell c k) () N32))))
    (c : Dev nD) :
    iprop(Pipeline.unscopedRestP Pipeline.Prefetch.none cfg0.spec c (fun b => m ((c : Thread nD τ).loc b)) ∗ levAts L lv
        ∗ Pipeline.launchCred (fun d => owedAt d 0) c ∗ prngReg c (ρ c) ∗ G' m c)
      ⊢ |={Set.univ}=> iprop(start m c ∗ emp) := by
  unfold G'
  iintro ⟨-, #Hlev, Hcr, -, ⟨%K, %KB, #HP, Hat, Hpay, Hbar⟩⟩
  ihave Hc := (creds c) $$ Hcr
  icases Hc with ⟨H2, H1, HN⟩
  imodintro
  isplitl
  · unfold start ghost
    iexists K, KB
    isplitr
    · unfold Pers Pers₀
      icases HP with ⟨P1, P2, P3, P4⟩
      isplitr; · iexact P1
      isplitr; · iexact P2
      isplitr; · iexact P3
      isplitr; · iexact P4
      iexact Hlev
    isplitl [Hat Hpay HN]
    · iapply (kits_intro (F := F) c)
      isplitl [Hat]; · iexact Hat
      isplitl [Hpay] <;> iassumption
    · unfold barKit barToks
      icases Hbar with ⟨B1, B2, B3, B4⟩
      isplitl [B1]; · iexact B1
      isplitl [B2]; · iexact B2
      isplitl [B3]; · iexact B3
      isplitl [B4]; · iexact B4
      isplitl [H2] <;> iassumption
  · iempintro

/-- The first point's invariant: what the device starts from, and its four scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; iexact H0
  isplitl [H1]; · iexists f1; iexact H1
  isplitl [H2]; · iexists f2; iexact H2
  iexists f3; iexact H3

/-- The last point's invariant gives back the kernel's own semaphores at zero and the scratch buffers. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq, bigSep_cells c (fun g => (semVal g 0 : sProp 𝕄))]
  unfold Φ₁ scratch zeros
  iintro ⟨⟨⟨%f0, H0⟩, ⟨%f1, H1⟩, ⟨%f2, H2⟩, ⟨%f3, H3⟩⟩, Hz⟩
  isplitr; · iempintro
  isplitl [Hz]; · iexact Hz
  isplitl [H0]; · iexists f0; iexact H0
  isplitl [H1]; · iexists f1; iexact H1
  isplitl [H2]; · iexists f2; iexact H2
  iexists f3; iexact H3

/-! ## The run -/

set_option maxRecDepth 8000 in
/-- At the compiled 2 × 2 mesh, for any float values, from any memory with zero counters: given each device's body
    obligation, its launch credit and its level facts, every weakly fair execution of @main terminates, and every
    final state has each windowed array of each device at the contents the proof data name. -/
theorem run_main (ρ : Dev nD → PrngReg)
    (creds : ∀ c, (Pipeline.launchCred (fun d => owedAt d 0) c : sProp 𝕄)
      ⊢ iprop(cred (tallyAt (barCell c) () 2) ∗ cred (tallyAt (barCell c) () 1)
          ∗ bigSep Finset.univ fun k : Fin 8 => iprop(cred (tallyAt (xrCell c k) () N32) ∗ cred (tallyAt (yrCell c k) () N32))))
    (waits : ∀ c, (levAts L lv : sProp 𝕄) ⊢ Pipeline.cellsWaits cfgs (dats m) () 0 c)
    (hbody : ∀ c, BodyObligation (dats (F := F) m 0 c) (defs₀ (F := F)) Variants.none () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := fun d => owedAt d 0) (howed₀ := fun _ => rfl) (howedN := fun _ => rfl)
    (L := L) (lv := lv) (hL := fun g h => if_neg h) (hwaits := waits)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ creds) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The block of partial sums and gamma hold after the run what they held. -/
theorem finalA_x (c : Dev nD) : (dats m 0 c).arrAt (0 : Fin 3) cfg0.N = m ((c : Thread nD τ).loc main_arg0) :=
  (dats (F := F) m 0 c).arrAt_in (0 : Fin 3) rfl _
theorem finalA_g (c : Dev nD) : (dats m 0 c).arrAt (1 : Fin 3) cfg0.N = m ((c : Thread nD τ).loc main_arg1) :=
  (dats (F := F) m 0 c).arrAt_in (1 : Fin 3) rfl _

/-- The result array holds after the run the sixteen slabs: the one grid point writes the whole staged result block
    back over the whole array. -/
theorem finalA_out (c : Dev nD) : (dats m 0 c).arrAt (2 : Fin 3) cfg0.N = outFinal m c := by
  have h := (dats (F := F) m 0 c).arrAt_succ (2 : Fin 3) t0_0
  rw [flush0_2 t0_0, if_pos rfl] at h
  refine (show (dats m 0 c).arrAt (2 : Fin 3) cfg0.N = (dats m 0 c).arrAt (2 : Fin 3) (t0_0.val + 1) from by rw [show cfg0.N = t0_0.val + 1 from N_0]).trans (h.trans ?_)
  exact Memref.write_access_unit_zero_univ (Elt F) main_v1 (funext fun a => by fin_cases a <;> rfl) _ _ _

/-- info: 'Cert.KernelIdeal.Hand.run_main' depends on axioms: [propext, Classical.choice, Quot.sound] -/
#guard_msgs in #print axioms run_main

/-- info: 'Cert.KernelIdeal.Hand.finalA_x' depends on axioms: [propext, Classical.choice, Quot.sound] -/
#guard_msgs in #print axioms finalA_x

/-- info: 'Cert.KernelIdeal.Hand.finalA_g' depends on axioms: [propext, Classical.choice, Quot.sound] -/
#guard_msgs in #print axioms finalA_g

/-- info: 'Cert.KernelIdeal.Hand.finalA_out' depends on axioms: [propext, Classical.choice, Quot.sound] -/
#guard_msgs in #print axioms finalA_out

end Cert.KernelIdeal.Hand

end
-- ==== Proof.Moves.lean ====
/-
  The moves of the protocol on chunk k, each one rule: the transfer of the chunk across x and across y, and the wait on
  each of the four cells, which also closes the cell (its one round is over) and hands its counter back at zero.
-/
import proofs.«900597_g7700000000000598_dist_rsrms_v7x_xy2x2_x_m512_d512_f32_1_alg».proof.Proof.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The four families -/

theorem famOf_xs (k : Fin 8) : famOf (sm cc0_scratch4 k) = some (0, k) := by revert k; decide
theorem famOf_xr (k : Fin 8) : famOf (sm cc0_scratch5 k) = some (1, k) := by revert k; decide
theorem famOf_ys (k : Fin 8) : famOf (sm cc0_scratch6 k) = some (2, k) := by revert k; decide
theorem famOf_yr (k : Fin 8) : famOf (sm cc0_scratch7 k) = some (3, k) := by revert k; decide

theorem isXfer_xs (c : Dev nD) (k : Fin 8) : IsXfer (xsCell c k) := ⟨rfl, _, rfl, by rw [famOf_xs]; rfl⟩
theorem isXfer_xr (c : Dev nD) (k : Fin 8) : IsXfer (xrCell c k) := ⟨rfl, _, rfl, by rw [famOf_xr]; rfl⟩
theorem isXfer_ys (c : Dev nD) (k : Fin 8) : IsXfer (ysCell c k) := ⟨rfl, _, rfl, by rw [famOf_ys]; rfl⟩
theorem isXfer_yr (c : Dev nD) (k : Fin 8) : IsXfer (yrCell c k) := ⟨rfl, _, rfl, by rw [famOf_yr]; rfl⟩

theorem cellPay_xs (c : Dev nD) (k : Fin 8) : cellPay m (xsCell c k) = chunkAt c xsM k (XS m c k) := by
  unfold cellPay; dsimp only; rw [famOf_xs]; rfl
theorem cellPay_xr (c : Dev nD) (k : Fin 8) : cellPay m (xrCell c k) = chunkAt c xrM k (XR m c k) := by
  unfold cellPay; dsimp only; rw [famOf_xr]; rfl
theorem cellPay_ys (c : Dev nD) (k : Fin 8) : cellPay m (ysCell c k) = chunkAt c ysM k (YS m c k) := by
  unfold cellPay; dsimp only; rw [famOf_ys]; rfl
theorem cellPay_yr (c : Dev nD) (k : Fin 8) : cellPay m (yrCell c k) = chunkAt c yrM k (YR m c k) := by
  unfold cellPay; dsimp only; rw [famOf_yr]; rfl

/-! ## The wait on a DMA cell, closing it -/

/-- The wait on one of the device's own DMA cells: its one round is consumed, its payload taken, and — no later round
    having a duty — the cell is closed and its counter comes back at zero. -/
theorem wp_dma_wait_close (c : Dev nD) (s : DmaSem sig) (h : IsXfer ((c : Thread nD τ), .dma s)) {κ : ℕ}
    {sp sp' : Space} {sh sh' : Shape} {e e' : EltTy} {src : Memref sig .tc sp' sh' e'} {κ' : Kind} {dst : Memref sig κ' sp sh e}
    {hsrc : src.view.WordExact} {hdst : dst.view.WordExact} (hcr : dst.view.dmaCredit = N32)
    {O : CellTallies nD τ sig Unit} {W : Waits sig Unit}
    {α : Type} {kk : PUnit → Prog (TpuEff nD τ sig (Elt F) Λ₀ .tc) α} {Q : α → sProp 𝕄} :
    iprop(cellInv ER (dmaRd m) κ ((c : Thread nD τ), .dma s) ∗ cred (tallyAt ((c : Thread nD τ), .dma s) () N32) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ semVal ((c : Thread nD τ), .dma s) 0 ∗ cellPay m ((c : Thread nD τ), .dma s))
            -∗ wp frame (wpE (defs₀ (F := F)) 𝒱₀ c none) Set.univ (kk ⟨⟩) Q)
          -∗ wp frame (wpE (defs₀ (F := F)) 𝒱₀ c none) Set.univ (.op (.waitDma2 s src dst hsrc hdst) kk) Q) := by
  iintro ⟨#HI, Hc, HO, Hw, Hat⟩ Hk
  iapply (wp_dma_wait m c s h (κ := κ) hcr (O := O) (W := W)) $$ [Hc HO Hw Hat]
  · isplitr; · iexact HI
    isplitl [Hc]; · iexact Hc
    isplitl [HO]; · iexact HO
    isplitl [Hw]; · iexact Hw
    iexact Hat
  iintro ⟨HO, Hat, Hpay⟩
  imod (Rounds.cell_close ER (dmaRd m) (Set.mem_univ κ) (fun h => h) (R := 0 + 1) (duties_later m _)) $$ [Hat] with Hz
  · isplitr; · iexact HI
    iexact Hat
  iapply Hk
  isplitl [HO]; · iexact HO
  isplitl [Hz]; · iexact Hz
  iexact Hpay

end Cert.KernelIdeal.Hand

end
-- ==== Proof.MovesXY.lean ====
/- The transfer of chunk k across each mesh axis, and the wait on each of the four cells of chunk k, from chunk k's persistent facts. -/
import proofs.«900597_g7700000000000598_dist_rsrms_v7x_xy2x2_x_m512_d512_f32_1_alg».proof.Proof.Moves

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The transfers -/

/-- The transfer of chunk k across x: c's chunk, reading as the vector it is to send, goes into the partner's chunk. -/
theorem wp_xsend (K : GSem nD τ sig → ℕ) (c : Dev nD) (k : Fin 8) (n : Dev nD) (hn : n = xp c)
    {hsc : (sl xrM k : Memref sig (Dev.tc n : Thread nD τ).2.kind .vmem S32x512 .bf16).view.ref.isScScratch = false}
    {hsrc : (sl xsM k).view.WordExact} {hdst : (sl xrM k).view.WordExact}
    {hsem : DmaTarget.Typed .vmem (.dma (sm cc0_scratch5 k)) (.remote (Dev.tc n : Thread nD τ) (sl xrM k) (.dma (sm cc0_scratch4 k)) hsc)}
    {fs : Buf (Elt F) ((xsM.access (ck k)).loc (c : Thread nD τ))} {fd : Buf (Elt F) ((xrM.access (ck k)).loc (xp c : Thread nD τ))}
    (O : CellTallies nD τ sig Unit) {W : Waits sig Unit}
    {α : Type} {kk : PUnit → Prog (TpuEff nD τ sig (Elt F) Λ₀ .tc) α} {Q : α → sProp 𝕄} :
    iprop((persAt m K c k ∗ chk c xsM k fs ∗ chk (xp c) xrM k fd
        ∗ owes (c : Thread nD τ) (O + tallyAt (xrCell (xp c) k) () N32) W
        ∗ dutyTok ER (xsCell c k) 0 () ∗ dutyTok ER (xrCell (xp c) k) 0 ())
        ∗ ⌜(xsM.access (ck k)).read (Elt F) fs = XS m c k⌝)
      ⊢ iprop(((cred (tallyAt (xsCell c k) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl xsM k) (.remote (Dev.tc n : Thread nD τ) (sl xrM k) (.dma (sm cc0_scratch4 k)) hsc) (.dma (sm cc0_scratch5 k)) hsrc hdst hsem) kk) Q) := by
  unfold persAt
  iintro ⟨⟨⟨#I1, #I2, #I3, #I4, #I5, #I6, #R1, #R2, #R3, #R4⟩, Hs, Hd, HO, T1, T2⟩, %hv⟩ Hk
  iapply (wp_chunk_send m c (xp c) n hn xsM xrM k (sm cc0_scratch4 k) (sm cc0_scratch5 k) (isXfer_xs c k) (isXfer_xr (xp c) k) fs fd (XS m c k) hv
      (Entails.of_eq (cellPay_xs m c k).symm)
      (Entails.of_eq (by rw [cellPay_xr]; unfold XR; rw [xp_xp])) (κ₁ := K (xsCell c k)) (κ₂ := K (xrCell (xp c) k)) O (W := W)) $$ [Hs Hd HO T1 T2]
  · isplitr; · iexact I1
    isplitr; · iexact I5
    isplitl [Hs]; · iexact Hs
    isplitl [Hd]; · iexact Hd
    isplitl [HO]; · iexact HO
    isplitl [T1]; · iexact T1
    isplitr; · iexact R1
    isplitl [T2]; · iexact T2
    iexact R3
  iexact Hk

/-- The transfer of chunk k across y: c's chunk, reading as the vector it is to send, goes into the partner's chunk. -/
theorem wp_ysend (K : GSem nD τ sig → ℕ) (c : Dev nD) (k : Fin 8) (n : Dev nD) (hn : n = yp c)
    {hsc : (sl yrM k : Memref sig (Dev.tc n : Thread nD τ).2.kind .vmem S32x512 .bf16).view.ref.isScScratch = false}
    {hsrc : (sl ysM k).view.WordExact} {hdst : (sl yrM k).view.WordExact}
    {hsem : DmaTarget.Typed .vmem (.dma (sm cc0_scratch7 k)) (.remote (Dev.tc n : Thread nD τ) (sl yrM k) (.dma (sm cc0_scratch6 k)) hsc)}
    {fs : Buf (Elt F) ((ysM.access (ck k)).loc (c : Thread nD τ))} {fd : Buf (Elt F) ((yrM.access (ck k)).loc (yp c : Thread nD τ))}
    (O : CellTallies nD τ sig Unit) {W : Waits sig Unit}
    {α : Type} {kk : PUnit → Prog (TpuEff nD τ sig (Elt F) Λ₀ .tc) α} {Q : α → sProp 𝕄} :
    iprop((persAt m K c k ∗ chk c ysM k fs ∗ chk (yp c) yrM k fd
        ∗ owes (c : Thread nD τ) (O + tallyAt (yrCell (yp c) k) () N32) W
        ∗ dutyTok ER (ysCell c k) 0 () ∗ dutyTok ER (yrCell (yp c) k) 0 ())
        ∗ ⌜(ysM.access (ck k)).read (Elt F) fs = YS m c k⌝)
      ⊢ iprop(((cred (tallyAt (ysCell c k) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl ysM k) (.remote (Dev.tc n : Thread nD τ) (sl yrM k) (.dma (sm cc0_scratch6 k)) hsc) (.dma (sm cc0_scratch7 k)) hsrc hdst hsem) kk) Q) := by
  unfold persAt
  iintro ⟨⟨⟨#I1, #I2, #I3, #I4, #I5, #I6, #R1, #R2, #R3, #R4⟩, Hs, Hd, HO, T1, T2⟩, %hv⟩ Hk
  iapply (wp_chunk_send m c (yp c) n hn ysM yrM k (sm cc0_scratch6 k) (sm cc0_scratch7 k) (isXfer_ys c k) (isXfer_yr (yp c) k) fs fd (YS m c k) hv
      (Entails.of_eq (cellPay_ys m c k).symm)
      (Entails.of_eq (by rw [cellPay_yr]; unfold YR; rw [yp_yp])) (κ₁ := K (ysCell c k)) (κ₂ := K (yrCell (yp c) k)) O (W := W)) $$ [Hs Hd HO T1 T2]
  · isplitr; · iexact I3
    isplitr; · iexact I6
    isplitl [Hs]; · iexact Hs
    isplitl [Hd]; · iexact Hd
    isplitl [HO]; · iexact HO
    isplitl [T1]; · iexact T1
    isplitr; · iexact R2
    isplitl [T2]; · iexact T2
    iexact R4
  iexact Hk

/-! ## The waits -/

/-- The wait on c's xs cell of chunk k, owing nothing: the chunk comes with it, the cell's counter back at zero. -/
theorem wp_wait_xs (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (xsCell c k) () N32) ∗ owes (c : Thread nD τ) O W
        ∗ MayWait (c : Thread nD τ) (.dma (sm cc0_scratch4 k)) () O ∗ atPos ER (xsCell c k) 0 ∅ 0)
      ⊢ iprop(((owes (c : Thread nD τ) O (insert (SemLoc.dma (sm cc0_scratch4 k), ()) W) ∗ semVal (xsCell c k) 0 ∗ chunkAt c xsM k (XS m c k))
            -∗ wp frame (wpE (defs₀ (F := F)) 𝒱₀ c none) Set.univ (kk ⟨⟩) Q)
          -∗ wp frame (wpE (defs₀ (F := F)) 𝒱₀ c none) Set.univ (.op (.waitDma2 (sm cc0_scratch4 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch4 k) (isXfer_xs c k) (κ := K (xsCell c k)) (show dst.view.dmaCredit = N32 from rfl) (O := O) (W := W)) $$ [Hc HO Hw Hat]
  · isplitr; · iexact I1
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_xs m c k)); iexact Hpay

/-- The wait on c's xr cell of chunk k, below what c still owes: the chunk comes with it, the cell's counter back at zero. -/
theorem wp_wait_xr (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (xrCell c k) () N32) ∗ owes (c : Thread nD τ) O W
        ∗ MayWait (c : Thread nD τ) (.dma (sm cc0_scratch5 k)) () O ∗ atPos ER (xrCell c k) 0 ∅ 0)
      ⊢ iprop(((owes (c : Thread nD τ) O (insert (SemLoc.dma (sm cc0_scratch5 k), ()) W) ∗ semVal (xrCell c k) 0 ∗ chunkAt c xrM k (XR m c k))
            -∗ wp frame (wpE (defs₀ (F := F)) 𝒱₀ c none) Set.univ (kk ⟨⟩) Q)
          -∗ wp frame (wpE (defs₀ (F := F)) 𝒱₀ c none) Set.univ (.op (.waitDma2 (sm cc0_scratch5 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch5 k) (isXfer_xr c k) (κ := K (xrCell c k)) (show dst.view.dmaCredit = N32 from rfl) (O := O) (W := W)) $$ [Hc HO Hw Hat]
  · isplitr; · iexact I2
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_xr m c k)); iexact Hpay

/-- The wait on c's ys cell of chunk k, owing nothing: the chunk comes with it, the cell's counter back at zero. -/
theorem wp_wait_ys (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (ysCell c k) () N32) ∗ owes (c : Thread nD τ) O W
        ∗ MayWait (c : Thread nD τ) (.dma (sm cc0_scratch6 k)) () O ∗ atPos ER (ysCell c k) 0 ∅ 0)
      ⊢ iprop(((owes (c : Thread nD τ) O (insert (SemLoc.dma (sm cc0_scratch6 k), ()) W) ∗ semVal (ysCell c k) 0 ∗ chunkAt c ysM k (YS m c k))
            -∗ wp frame (wpE (defs₀ (F := F)) 𝒱₀ c none) Set.univ (kk ⟨⟩) Q)
          -∗ wp frame (wpE (defs₀ (F := F)) 𝒱₀ c none) Set.univ (.op (.waitDma2 (sm cc0_scratch6 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch6 k) (isXfer_ys c k) (κ := K (ysCell c k)) (show dst.view.dmaCredit = N32 from rfl) (O := O) (W := W)) $$ [Hc HO Hw Hat]
  · isplitr; · iexact I3
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_ys m c k)); iexact Hpay

/-- The wait on c's yr cell of chunk k, below what c still owes: the chunk comes with it, the cell's counter back at zero. -/
theorem wp_wait_yr (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (yrCell c k) () N32) ∗ owes (c : Thread nD τ) O W
        ∗ MayWait (c : Thread nD τ) (.dma (sm cc0_scratch7 k)) () O ∗ atPos ER (yrCell c k) 0 ∅ 0)
      ⊢ iprop(((owes (c : Thread nD τ) O (insert (SemLoc.dma (sm cc0_scratch7 k), ()) W) ∗ semVal (yrCell c k) 0 ∗ chunkAt c yrM k (YR m c k))
            -∗ wp frame (wpE (defs₀ (F := F)) 𝒱₀ c none) Set.univ (kk ⟨⟩) Q)
          -∗ wp frame (wpE (defs₀ (F := F)) 𝒱₀ c none) Set.univ (.op (.waitDma2 (sm cc0_scratch7 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch7 k) (isXfer_yr c k) (κ := K (yrCell c k)) (show dst.view.dmaCredit = N32 from rfl) (O := O) (W := W)) $$ [Hc HO Hw Hat]
  · isplitr; · iexact I4
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_yr m c k)); iexact Hpay

end Cert.KernelIdeal.Hand

end
-- ==== Proof.Vals.lean ====
/-
  What the loads read. The printed row offsets are the closed forms offP / offM (and the result block's offO / offG),
  so a load of 32 rows of the staged block at a printed offset reads rowsP c k or rowsM c k, and the load of the
  staged gamma reads gamma.
-/
import proofs.«900597_g7700000000000598_dist_rsrms_v7x_xy2x2_x_m512_d512_f32_1_alg».proof.Proof.MovesXY

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The printed offsets in closed form -/

theorem off1_P : ∀ c : Dev nD, k0_off1 c = offP c 0 := by decide +kernel
theorem off2_P : ∀ (c : Dev nD) (r : Fin 7), k0_off2 c (BitVec.ofNat 32 (32 + 32 * r.val)) = offP c ⟨r.val + 1, by omega⟩ := by decide +kernel
theorem off3_M : ∀ (c : Dev nD) (r : Fin 8), k0_off3 c (BitVec.ofNat 32 (32 * r.val)) = offM c r := by decide +kernel
theorem off4_O : ∀ (c : Dev nD) (r : Fin 8), k0_off4 c (BitVec.ofNat 32 (32 * r.val)) = offO c r := by decide +kernel
theorem off5_G : ∀ (c : Dev nD) (r : Fin 8), k0_off5 c (BitVec.ofNat 32 (32 * r.val)) = offG c r := by decide +kernel

/-! ## The row loads -/

/-- A load of 32 rows depends on the row offset only through its value. -/
theorem readAt_rows_congr {off off' : Fin 3 → Nat} (e : off = off') (h : ∀ a, off a + S1x32x512.size a ≤ S1x1024x512.size a)
    (h' : ∀ a, off' a + S1x32x512.size a ≤ S1x1024x512.size a) {c : Dev nD} (f : Buf (Elt F) (xM.view.loc (c : Thread nD τ))) :
    View.readAt (Elt F) (xM : Memref sig .tc .vmem S1x1024x512 .f32).view (Rect.unit (s := S1x1024x512) off S1x32x512.size h).toLoadRect f
      = View.readAt (Elt F) (xM : Memref sig .tc .vmem S1x1024x512 .f32).view (Rect.unit (s := S1x1024x512) off' S1x32x512.size h').toLoadRect f := by
  subst e; rfl

theorem rows_off1 (c : Dev nD) (h : ∀ a, k0_off1 c a + S1x32x512.size a ≤ S1x1024x512.size a) (f : Buf (Elt F) (xM.view.loc (c : Thread nD τ))) (hf : f = xstg m c) :
    View.readAt (Elt F) (xM : Memref sig .tc .vmem S1x1024x512 .f32).view (Rect.unit (s := S1x1024x512) (k0_off1 c) S1x32x512.size h).toLoadRect f = rowsP m c 0 := by
  subst hf; exact readAt_rows_congr (c := c) (off1_P c) h (offP_inb c 0) _

theorem rows_off2 (c : Dev nD) (r : Fin 7) (h : ∀ a, k0_off2 c (BitVec.ofNat 32 (32 + 32 * r.val)) a + S1x32x512.size a ≤ S1x1024x512.size a)
    (f : Buf (Elt F) (xM.view.loc (c : Thread nD τ))) (hf : f = xstg m c) :
    View.readAt (Elt F) (xM : Memref sig .tc .vmem S1x1024x512 .f32).view (Rect.unit (s := S1x1024x512) (k0_off2 c (BitVec.ofNat 32 (32 + 32 * r.val))) S1x32x512.size h).toLoadRect f
      = rowsP m c ⟨r.val + 1, by omega⟩ := by
  subst hf; exact readAt_rows_congr (c := c) (off2_P c r) h (offP_inb c _) _

theorem rows_off3 (c : Dev nD) (r : Fin 8) (h : ∀ a, k0_off3 c (BitVec.ofNat 32 (32 * r.val)) a + S1x32x512.size a ≤ S1x1024x512.size a)
    (f : Buf (Elt F) (xM.view.loc (c : Thread nD τ))) (hf : f = xstg m c) :
    View.readAt (Elt F) (xM : Memref sig .tc .vmem S1x1024x512 .f32).view (Rect.unit (s := S1x1024x512) (k0_off3 c (BitVec.ofNat 32 (32 * r.val))) S1x32x512.size h).toLoadRect f
      = rowsM m c r := by
  subst hf; exact readAt_rows_congr (c := c) (off3_M c r) h (offM_inb c r) _

end Cert.KernelIdeal.Hand

end
-- ==== Proof.Chunks.lean ====
/-
  Buffers held chunk by chunk. Each of the four 256-row scratch buffers is the disjoint union of its eight 32-row
  chunks, and the 512-row result block is the disjoint union of sixteen 32-row slabs: the eight of the device's own
  quarter and the eight of its partner's. So a buffer held whole is its chunks held side by side, and chunks held
  side by side, at whatever contents each, are the buffer held whole at the contents glued from them.
-/
import proofs.«900597_g7700000000000598_dist_rsrms_v7x_xy2x2_x_m512_d512_f32_1_alg».proof.Proof.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Eight summands, sixteen summands -/

/-- A separating conjunction over eight indices, written out. -/
theorem bigSep_univ_eight {M : Type _} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-! ## A location's elements in eight disjoint parts -/

/-- Elements in eight pairwise disjoint parts, held at one valuation: the union held is the parts held side by side. -/
theorem pt_split8 {ℓ : Loc nD τ sig} (K : Fin 8 → Finset (Idx ℓ)) (hd : ∀ k k', k ≠ k' → Disjoint (K k) (K k'))
    (q : PosShare TreeShare) (f : Buf (Elt F) ℓ) :
    (ℓ ↦[Finset.univ.biUnion K]{q} f : sProp 𝕄)
      = iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f)
          ∗ (ℓ ↦[K 6]{q} f) ∗ (ℓ ↦[K 7]{q} f)) := by
  rw [pointsTo_biUnion Finset.univ K (fun t _ t' _ h => hd t t' h), bigSep_univ_eight]

/-- Eight pairwise disjoint parts held side by side, each at its own valuation: the union is held at some valuation
    that agrees with each on its part. -/
theorem pt_join8 {ℓ : Loc nD τ sig} (K : Fin 8 → Finset (Idx ℓ)) (hd : ∀ k k', k ≠ k' → Disjoint (K k) (K k'))
    (q : PosShare TreeShare) (fs : Fin 8 → Buf (Elt F) ℓ) :
    (iprop((ℓ ↦[K 0]{q} fs 0) ∗ (ℓ ↦[K 1]{q} fs 1) ∗ (ℓ ↦[K 2]{q} fs 2) ∗ (ℓ ↦[K 3]{q} fs 3) ∗ (ℓ ↦[K 4]{q} fs 4)
          ∗ (ℓ ↦[K 5]{q} fs 5) ∗ (ℓ ↦[K 6]{q} fs 6) ∗ (ℓ ↦[K 7]{q} fs 7)) : sProp 𝕄)
      ⊢ iprop(∃ g, ⌜∀ t, ∀ i ∈ K t, g i = fs t i⌝ ∗ ℓ ↦[Finset.univ.biUnion K]{q} g) := by
  rw [← bigSep_univ_eight (fun t => (ℓ ↦[K t]{q} fs t : sProp 𝕄))]
  refine (pointsTo_biUnion_join Finset.univ K fs (fs 0) (fun t _ t' _ h => hd t t' h)).trans ?_
  iintro ⟨%g, %hg, H⟩
  iexists g
  isplitr
  · ipureintro; exact fun t i hi => hg t (Finset.mem_univ t) i hi
  · iexact H

/-! ## The eight chunks of a 256-row buffer -/

/-- Different chunks have no row in common. -/
theorem ck_disjoint (k k' : Fin 8) (h : k ≠ k') : Disjoint (ck k).set (ck k').set :=
  Rect.unit_disjoint (⟨0, by decide⟩ : Fin S256x512.rank) (by revert k k'; decide)

/-- Every row is in chunk (row / 32). -/
theorem ck_cover (x : S256x512.Idx) : ∃ k : Fin 8, x ∈ (ck k).set := by
  have h0 : (x 0).val < 256 := (x 0).isLt
  have h1 : (x 1).val < 512 := (x 1).isLt
  refine ⟨⟨(x 0).val / 32, by omega⟩, Rect.mem_set_unit.mpr ?_⟩
  refine Fin.forall_fin_two.mpr ⟨?_, ?_⟩
  · show 32 * ((x 0).val / 32) ≤ (x 0).val ∧ (x 0).val < 32 * ((x 0).val / 32) + 32
    omega
  · show 0 ≤ (x 1).val ∧ (x 1).val < 0 + 512
    omega

/-- The elements of a buffer under its eight chunks: pairwise disjoint, and together the elements under the buffer. -/
theorem chk_disjoint (M : Memref sig .tc .vmem S256x512 .bf16) (k k' : Fin 8) (h : k ≠ k') :
    Disjoint (M.access (ck k)).set (M.access (ck k')).set := by
  rw [View.set_slice, View.set_slice]
  exact (Finset.disjoint_map _).mpr (ck_disjoint k k' h)

theorem chk_cover (M : Memref sig .tc .vmem S256x512 .bf16) :
    (Finset.univ : Finset (Fin 8)).biUnion (fun k => (M.access (ck k)).set) = M.view.set := by
  ext i
  constructor
  · intro hi
    obtain ⟨k, -, hk⟩ := Finset.mem_biUnion.mp hi
    exact View.set_slice_subset _ _ hk
  · intro hi
    obtain ⟨x, -, rfl⟩ := Finset.mem_map.mp hi
    obtain ⟨k, hk⟩ := ck_cover x
    refine Finset.mem_biUnion.mpr ⟨k, Finset.mem_univ k, ?_⟩
    rw [View.set_slice]
    exact Finset.mem_map_of_mem _ hk

/-! ## A 256-row buffer and its eight chunks -/

/-- A buffer held whole is its eight chunks held side by side. -/
theorem split8 (c : Dev nD) (M : Memref sig .tc .vmem S256x512 .bf16) (hM : M.IsWhole)
    (f : Buf (Elt F) (M.view.loc (c : Thread nD τ))) :
    (M.view.loc (c : Thread nD τ) ↦{fullShare} f : sProp 𝕄)
      ⊢ iprop(chk c M 0 f ∗ chk c M 1 f ∗ chk c M 2 f ∗ chk c M 3 f ∗ chk c M 4 f ∗ chk c M 5 f ∗ chk c M 6 f ∗ chk c M 7 f) := by
  refine Entails.of_eq ?_
  rw [← hM.set_eq_univ, ← chk_cover M]
  exact pt_split8 (ℓ := M.view.loc (c : Thread nD τ)) (fun k => (M.access (ck k)).set) (chk_disjoint M) fullShare f

/-- Eight chunks held side by side, each at its own contents, are the buffer held whole at some contents. -/
theorem join8 (c : Dev nD) (M : Memref sig .tc .vmem S256x512 .bf16) (hM : M.IsWhole)
    (f : Fin 8 → Buf (Elt F) (M.view.loc (c : Thread nD τ))) :
    (iprop(chk c M 0 (f 0) ∗ chk c M 1 (f 1) ∗ chk c M 2 (f 2) ∗ chk c M 3 (f 3) ∗ chk c M 4 (f 4) ∗ chk c M 5 (f 5)
        ∗ chk c M 6 (f 6) ∗ chk c M 7 (f 7)) : sProp 𝕄)
      ⊢ iprop(∃ g, M.view.loc (c : Thread nD τ) ↦{fullShare} g) := by
  refine (pt_join8 (ℓ := M.view.loc (c : Thread nD τ)) (fun k => (M.access (ck k)).set) (chk_disjoint M) fullShare f).trans ?_
  iintro ⟨%g, -, H⟩
  iexists g
  rw [chk_cover M, hM.set_eq_univ]
  iexact H

/-! ## The sixteen slabs of the result block -/

/-- Separating conjunction is associative, as an equation. -/
theorem sep_assoc_eq {M : Type _} [URA M] (a b c : sProp M) : iprop((a ∗ b) ∗ c) = iprop(a ∗ b ∗ c) :=
  Entails.antisymm Idealize.SL.BI.sep_assoc Idealize.SL.BI.sep_assoc'

/-- A cast along a type equation is injective. -/
theorem cast_cancel {α β : Type} (h : α = β) {a b : α} (e : cast h a = cast h b) : a = b := by
  subst h; exact e

/-- Contents that read the same through a view agree on every element under the view. -/
theorem agree_of_read_eq {κ : Kind} {sp : Space} {S : Shape} {e : EltTy} (v : View sig κ sp S e)
    {f g : v.ty.Contents (Elt F)} (h : v.read (Elt F) f = v.read (Elt F) g) : ∀ i ∈ v.set, f i = g i := by
  intro i hi
  obtain ⟨y, rfl⟩ := View.exists_emb_of_mem_set v hi
  have hy := congrFun h y
  rw [View.read_apply, View.read_apply] at hy
  exact cast_cancel _ hy

/-- A slab of the result block on device c: the elements of the rectangle r, at the full share. -/
abbrev slab (c : Dev nD) (r : Rect S512x512) (f : Buf (Elt F) ((oM.access r).loc (c : Thread nD τ))) : sProp 𝕄 :=
  (oM.access r).loc (c : Thread nD τ) ↦[(oM.access r).set]{fullShare} f

/-- Slabs of one quarter at different chunks, and slabs of different quarters, share no row. -/
theorem slO_disjoint (c : Dev nD) (k k' : Fin 8) (h : k ≠ k') : Disjoint (slO c k).set (slO c k').set :=
  Rect.unit_disjoint (⟨0, by decide⟩ : Fin S512x512.rank) (by revert c k k'; decide)
theorem slG_disjoint (c : Dev nD) (k k' : Fin 8) (h : k ≠ k') : Disjoint (slG c k).set (slG c k').set :=
  Rect.unit_disjoint (⟨0, by decide⟩ : Fin S512x512.rank) (by revert c k k'; decide)
theorem slO_slG_disjoint (c : Dev nD) (k k' : Fin 8) : Disjoint (slO c k).set (slG c k').set :=
  Rect.unit_disjoint (⟨0, by decide⟩ : Fin S512x512.rank) (by revert c k k'; decide)

/-- Row r is in the own quarter's slab (r mod 256) / 32 when r / 256 is the device's y coordinate, else in the
    other quarter's slab of that number. -/
theorem sl_cover (c : Dev nD) (x : S512x512.Idx) : (∃ k : Fin 8, x ∈ (slO c k).set) ∨ (∃ k : Fin 8, x ∈ (slG c k).set) := by
  have h0 : (x 0).val < 512 := (x 0).isLt
  have h1 : (x 1).val < 512 := (x 1).isLt
  have hy : c.val % 2 < 2 := Nat.mod_lt _ (by decide)
  by_cases hq : (x 0).val / 256 = c.val % 2
  · refine Or.inl ⟨⟨((x 0).val % 256) / 32, by omega⟩, Rect.mem_set_unit.mpr (Fin.forall_fin_two.mpr ⟨?_, ?_⟩)⟩
    · show 256 * (c.val % 2) + 32 * (((x 0).val % 256) / 32) ≤ (x 0).val
        ∧ (x 0).val < 256 * (c.val % 2) + 32 * (((x 0).val % 256) / 32) + 32
      omega
    · show 0 ≤ (x 1).val ∧ (x 1).val < 0 + 512
      omega
  · refine Or.inr ⟨⟨((x 0).val % 256) / 32, by omega⟩, Rect.mem_set_unit.mpr (Fin.forall_fin_two.mpr ⟨?_, ?_⟩)⟩
    · show (32 * (((x 0).val % 256) / 32) + 256) - 256 * (c.val % 2) ≤ (x 0).val
        ∧ (x 0).val < (32 * (((x 0).val % 256) / 32) + 256) - 256 * (c.val % 2) + 32
      omega
    · show 0 ≤ (x 1).val ∧ (x 1).val < 0 + 512
      omega

/-- The elements of the result block under the own quarter's eight slabs, and under the other quarter's. -/
abbrev QO (c : Dev nD) : Finset (Idx (oM.view.loc (c : Thread nD τ))) :=
  (Finset.univ : Finset (Fin 8)).biUnion (fun k => (oM.access (slO c k)).set)
abbrev QG (c : Dev nD) : Finset (Idx (oM.view.loc (c : Thread nD τ))) :=
  (Finset.univ : Finset (Fin 8)).biUnion (fun k => (oM.access (slG c k)).set)

theorem slabO_disjoint (c : Dev nD) (k k' : Fin 8) (h : k ≠ k') :
    Disjoint (oM.access (slO c k)).set (oM.access (slO c k')).set := by
  rw [View.set_slice_whole, View.set_slice_whole]; exact slO_disjoint c k k' h
theorem slabG_disjoint (c : Dev nD) (k k' : Fin 8) (h : k ≠ k') :
    Disjoint (oM.access (slG c k)).set (oM.access (slG c k')).set := by
  rw [View.set_slice_whole, View.set_slice_whole]; exact slG_disjoint c k k' h

theorem QO_QG_disjoint (c : Dev nD) : Disjoint (QO c) (QG c) := by
  refine (Finset.disjoint_biUnion_left _ _ _).mpr fun k _ => (Finset.disjoint_biUnion_right _ _ _).mpr fun k' _ => ?_
  rw [View.set_slice_whole, View.set_slice_whole]; exact slO_slG_disjoint c k k'

theorem QO_QG_cover (c : Dev nD) : QO c ∪ QG c = Finset.univ := by
  refine Finset.eq_univ_iff_forall.mpr fun x => ?_
  rcases sl_cover c x with ⟨k, hk⟩ | ⟨k, hk⟩
  · refine Finset.mem_union_left _ (Finset.mem_biUnion.mpr ⟨k, Finset.mem_univ k, ?_⟩)
    rw [View.set_slice_whole]; exact hk
  · refine Finset.mem_union_right _ (Finset.mem_biUnion.mpr ⟨k, Finset.mem_univ k, ?_⟩)
    rw [View.set_slice_whole]; exact hk

/-- The result block held whole is its sixteen slabs held side by side: the own quarter's eight, then the other's. -/
theorem split16_eq (c : Dev nD) (f : Buf (Elt F) (oM.view.loc (c : Thread nD τ))) :
    (oM.view.loc (c : Thread nD τ) ↦{fullShare} f : sProp 𝕄)
      = iprop(slab c (slO c 0) f ∗ slab c (slO c 1) f ∗ slab c (slO c 2) f ∗ slab c (slO c 3) f ∗ slab c (slO c 4) f
          ∗ slab c (slO c 5) f ∗ slab c (slO c 6) f ∗ slab c (slO c 7) f
          ∗ slab c (slG c 0) f ∗ slab c (slG c 1) f ∗ slab c (slG c 2) f ∗ slab c (slG c 3) f ∗ slab c (slG c 4) f
          ∗ slab c (slG c 5) f ∗ slab c (slG c 6) f ∗ slab c (slG c 7) f) := by
  have hu : (oM.view.loc (c : Thread nD τ) ↦[QO c ∪ QG c]{fullShare} f : sProp 𝕄)
      ⊣⊢ iprop((oM.view.loc (c : Thread nD τ) ↦[QO c]{fullShare} f) ∗ oM.view.loc (c : Thread nD τ) ↦[QG c]{fullShare} f) :=
    pointsTo_union (QO_QG_disjoint c)
  rw [← QO_QG_cover c, BI.equiv_iff.mp ⟨hu.1, hu.2⟩,
    pt_split8 (ℓ := oM.view.loc (c : Thread nD τ)) (fun k => (oM.access (slO c k)).set) (slabO_disjoint c) fullShare f,
    pt_split8 (ℓ := oM.view.loc (c : Thread nD τ)) (fun k => (oM.access (slG c k)).set) (slabG_disjoint c) fullShare f]
  simp only [sep_assoc_eq]

theorem split16 (c : Dev nD) (f : Buf (Elt F) (oM.view.loc (c : Thread nD τ))) :
    (oM.view.loc (c : Thread nD τ) ↦{fullShare} f : sProp 𝕄)
      ⊢ iprop(slab c (slO c 0) f ∗ slab c (slO c 1) f ∗ slab c (slO c 2) f ∗ slab c (slO c 3) f ∗ slab c (slO c 4) f
          ∗ slab c (slO c 5) f ∗ slab c (slO c 6) f ∗ slab c (slO c 7) f
          ∗ slab c (slG c 0) f ∗ slab c (slG c 1) f ∗ slab c (slG c 2) f ∗ slab c (slG c 3) f ∗ slab c (slG c 4) f
          ∗ slab c (slG c 5) f ∗ slab c (slG c 6) f ∗ slab c (slG c 7) f) :=
  Entails.of_eq (split16_eq c f)

/-! ## What the sixteen slabs read in the end -/

variable (m : (ℓ : Loc nD τ sig) → Buf (Elt F) ℓ)

/-- The final contents at row 256 y + 32 k + r of the own quarter: row r of the rows the device normalised at chunk k. -/
theorem outFinal_O (c : Dev nD) (k : Fin 8) (x : S32x512.Idx) (i : (cc0_stg2_0 : Ref sig .tc).ty.Idx)
    (h0 : (i 0).val = 256 * (c.val % 2) + 32 * k.val + (x 0).val) (h1 : (i 1).val = (x 1).val) :
    outFinal m c i = OUT m c k x := by
  have hx0 : (x 0).val < 32 := (x 0).isLt
  have hk : k.val < 8 := k.isLt
  have hy : c.val % 2 < 2 := Nat.mod_lt _ (by decide)
  have hc : ∀ (k' : Fin 8) (x' : S32x512.Idx), k' = k → x' = x → OUT m c k' x' = OUT m c k x := by
    rintro _ _ rfl rfl; rfl
  unfold outFinal
  rw [if_pos (by omega)]
  refine hc _ _ (Fin.ext (by show ((i 0).val % 256) / 32 = k.val; omega)) ?_
  rw [ValueIdx.eq_ix2 x]
  congr 1
  · exact Fin.ext (by show (i 0).val % 32 = (x 0).val; omega)
  · exact Fin.ext h1

/-- At row 256 (1 − y) + 32 k + r of the other quarter: row r of what the partner across y normalised at chunk k,
    cast to bf16 and back. -/
theorem outFinal_G (c : Dev nD) (k : Fin 8) (x : S32x512.Idx) (i : (cc0_stg2_0 : Ref sig .tc).ty.Idx)
    (h0 : (i 0).val = (32 * k.val + 256) - 256 * (c.val % 2) + (x 0).val) (h1 : (i 1).val = (x 1).val) :
    outFinal m c i = ext (YR m c k) x := by
  have hx0 : (x 0).val < 32 := (x 0).isLt
  have hk : k.val < 8 := k.isLt
  have hy : c.val % 2 < 2 := Nat.mod_lt _ (by decide)
  have hc : ∀ (k' : Fin 8) (x' : S32x512.Idx), k' = k → x' = x → ext (YR m c k') x' = ext (YR m c k) x := by
    rintro _ _ rfl rfl; rfl
  unfold outFinal
  rw [if_neg (by omega)]
  refine hc _ _ (Fin.ext (by show ((i 0).val % 256) / 32 = k.val; omega)) ?_
  rw [ValueIdx.eq_ix2 x]
  congr 1
  · exact Fin.ext (by show (i 0).val % 32 = (x 0).val; omega)
  · exact Fin.ext h1

/-- Through the own quarter's slab k the final contents read as the 32 rows normalised at chunk k. -/
theorem read_outFinal_O (c : Dev nD) (k : Fin 8) : (oM.access (slO c k)).read (Elt F) (outFinal m c) = OUT m c k := by
  funext x
  rw [View.read_apply]
  refine (cast_eq _ _).trans ?_
  exact outFinal_O m c k x _ (by show 256 * (c.val % 2) + 32 * k.val + 1 * (x 0).val = _; omega)
    (by show 0 + 1 * (x 1).val = _; omega)

/-- Through the other quarter's slab k they read as the 32 rows received across y at chunk k, cast back. -/
theorem read_outFinal_G (c : Dev nD) (k : Fin 8) : (oM.access (slG c k)).read (Elt F) (outFinal m c) = ext (YR m c k) := by
  funext x
  rw [View.read_apply]
  refine (cast_eq _ _).trans ?_
  exact outFinal_G m c k x _ (by show (32 * k.val + 256) - 256 * (c.val % 2) + 1 * (x 0).val = _; omega)
    (by show 0 + 1 * (x 1).val = _; omega)

/-- Sixteen slabs held side by side, the own quarter's reading as the normalised rows and the other quarter's as the
    rows received across y, are the result block held whole at its final contents. -/
theorem join16 (c : Dev nD) (f g : Fin 8 → Buf (Elt F) (oM.view.loc (c : Thread nD τ)))
    (hO : ∀ k, (oM.access (slO c k)).read (Elt F) (f k) = OUT m c k)
    (hG : ∀ k, (oM.access (slG c k)).read (Elt F) (g k) = ext (YR m c k)) :
    (iprop(slab c (slO c 0) (f 0) ∗ slab c (slO c 1) (f 1) ∗ slab c (slO c 2) (f 2) ∗ slab c (slO c 3) (f 3)
        ∗ slab c (slO c 4) (f 4) ∗ slab c (slO c 5) (f 5) ∗ slab c (slO c 6) (f 6) ∗ slab c (slO c 7) (f 7)
        ∗ slab c (slG c 0) (g 0) ∗ slab c (slG c 1) (g 1) ∗ slab c (slG c 2) (g 2) ∗ slab c (slG c 3) (g 3)
        ∗ slab c (slG c 4) (g 4) ∗ slab c (slG c 5) (g 5) ∗ slab c (slG c 6) (g 6) ∗ slab c (slG c 7) (g 7)) : sProp 𝕄)
      ⊢ (oM.view.loc (c : Thread nD τ) ↦{fullShare} outFinal m c) := by
  have eO : ∀ k, (slab c (slO c k) (f k) : sProp 𝕄) = slab c (slO c k) (outFinal m c) := fun k =>
    pointsTo_congr (agree_of_read_eq _ ((hO k).trans (read_outFinal_O m c k).symm))
  have eG : ∀ k, (slab c (slG c k) (g k) : sProp 𝕄) = slab c (slG c k) (outFinal m c) := fun k =>
    pointsTo_congr (agree_of_read_eq _ ((hG k).trans (read_outFinal_G m c k).symm))
  rw [eO 0, eO 1, eO 2, eO 3, eO 4, eO 5, eO 6, eO 7, eG 0, eG 1, eG 2, eG 3, eG 4, eG 5, eG 6, eG 7]
  exact Entails.of_eq (split16_eq c (outFinal m c)).symm

end Cert.KernelIdeal.Hand

end
-- ==== Proof.BodyDefs.lean ====
/-
  The body's precondition and postcondition at the one grid point, as the pipeline's body obligation states them:
  the invariant before, what the core owes, and the three staged buffers whole at their named contents.
-/
import proofs.«900597_g7700000000000598_dist_rsrms_v7x_xy2x2_x_m512_d512_f32_1_alg».proof.Proof.Vals
import proofs.«900597_g7700000000000598_dist_rsrms_v7x_xy2x2_x_m512_d512_f32_1_alg».proof.Proof.Chunks
import proofs.«900597_g7700000000000598_dist_rsrms_v7x_xy2x2_x_m512_d512_f32_1_alg».proof.Proof.Ledger

noncomputable section

namespace Cert.KernelIdeal.Hand

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staged buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, and what it must leave. -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (gstg m c) ∗ stg c cc0_stg2_0 (outFinal m c))

theorem Pers_bar (K : GSem nD τ sig → ℕ) (KB : Dev nD → ℕ) (c : Dev nD) :
    Pers m K KB c ⊢ iprop(barInv PX PY (KB c) c ∗ barInv PX PY (KB (xp c)) (xp c) ∗ barInv PX PY (KB (yp c)) (yp c) ∗ levAts L lv) := by
  unfold Pers
  iintro ⟨-, H⟩
  iexact H

end Cert.KernelIdeal.Hand

end
-- ==== Proof.Slabs.lean ====
/-
  The loads and stores of the kernel body on the 512-row result block, held as sixteen 32-row slabs. A load or a
  store names its 32 rows by a row offset computed from the device's coordinates; the slab in hand is named by the
  offset in closed form. The two offsets are equal, and a step depends on the offset only through its value: each
  rule here is the step's rule at the offset in hand, stated for any offset equal to it.
  Also here: three reading facts — the staged gamma read whole, and a slab or a chunk read back after a store of
  all its elements.
-/
import proofs.«900597_g7700000000000598_dist_rsrms_v7x_xy2x2_x_m512_d512_f32_1_alg».proof.Proof.BodyDefs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores on a slab -/

/-- A load of 32 rows of the result block at an offset equal to the one the slab in hand is named by reads the
    slab's contents. -/
theorem wp_slab_load (c : Dev nD) {off : Fin 2 → Nat} {h : ∀ a, off a + S32x512.size a ≤ S512x512.size a}
    (off' : Fin 2 → Nat) (h' : ∀ a, off' a + S32x512.size a ≤ S512x512.size a) (e : off = off')
    {hl : oM.view.LoadsAt (Rect.unit (s := S512x512) off S32x512.size h).toLoadRect}
    {α : Type} {kk : ((Rect.unit (s := S512x512) off S32x512.size h).toLoadRect.shape.Idx → Elt F .f32) → Prog (TpuEff nD τ sig (Elt F) Λ₀ .tc) α}
    {Q : α → sProp 𝕄}
    (f : Buf (Elt F) ((oM.access (Rect.unit (s := S512x512) off' S32x512.size h')).loc (c : Thread nD τ))) :
    slab c (Rect.unit (s := S512x512) off' S32x512.size h') f
      ⊢ iprop((slab c (Rect.unit (s := S512x512) off' S32x512.size h') f
            -∗ wp frame (wpE (defs₀ (F := F)) 𝒱₀ c none) Set.univ (kk ((oM.access (Rect.unit (s := S512x512) off' S32x512.size h')).read (Elt F) f)) Q)
          -∗ wp frame (wpE (defs₀ (F := F)) 𝒱₀ c none) Set.univ (.op (.load oM (Rect.unit (s := S512x512) off S32x512.size h).toLoadRect hl) kk) Q) := by
  subst e
  exact wp_load_rect 𝒱₀ (c : Thread nD τ) none Set.univ subset_rfl

/-- A store of 32 whole rows of the result block at an offset equal to the one the slab in hand is named by: the
    slab then holds what was stored. -/
theorem wp_slab_store (c : Dev nD) {off : Fin 2 → Nat} {h : ∀ a, off a + S32x512.size a ≤ S512x512.size a}
    (off' : Fin 2 → Nat) (h' : ∀ a, off' a + S32x512.size a ≤ S512x512.size a) (e : off = off')
    {w : (Rect.unit (s := S512x512) off S32x512.size h).shape.Idx → Elt F .f32}
    {hx : (oM.access (Rect.unit (s := S512x512) off S32x512.size h)).Stores Finset.univ}
    {hm : (Finset.univ : Finset (Rect.unit (s := S512x512) off S32x512.size h).shape.Idx) = Finset.univ ∨ ∀ a, (Rect.unit (s := S512x512) off S32x512.size h).stride a = 1}
    {α : Type} {kk : PUnit → Prog (TpuEff nD τ sig (Elt F) Λ₀ .tc) α} {Q : α → sProp 𝕄}
    (f : Buf (Elt F) ((oM.access (Rect.unit (s := S512x512) off' S32x512.size h')).loc (c : Thread nD τ))) :
    slab c (Rect.unit (s := S512x512) off' S32x512.size h') f
      ⊢ iprop((slab c (Rect.unit (s := S512x512) off' S32x512.size h') ((oM.access (Rect.unit (s := S512x512) off' S32x512.size h')).write (Elt F) f w Finset.univ)
            -∗ wp frame (wpE (defs₀ (F := F)) 𝒱₀ c none) Set.univ (kk ⟨⟩) Q)
          -∗ wp frame (wpE (defs₀ (F := F)) 𝒱₀ c none) Set.univ (.op (.store oM (Rect.unit (s := S512x512) off S32x512.size h) w Finset.univ hx hm) kk) Q) := by
  subst e
  exact wp_store 𝒱₀ (c : Thread nD τ) none Set.univ (by rw [View.setOn_univ])

/-! ## Reading facts -/

variable (m : (ℓ : Loc nD τ sig) → Buf (Elt F) ℓ)

omit [FloatOps F] in
theorem hz1 : (![0] : Fin 1 → Nat) = fun _ => 0 := funext fun a => by fin_cases a; rfl

/-- The staged gamma read whole is the staged gamma. -/
theorem read_gamma (c : Dev nD) (h : ∀ a, (![0] : Fin 1 → Nat) a + S512.size a ≤ S512.size a) :
    View.readAt (Elt F) gM.view (Rect.unit (s := S512) ![0] S512.size h).toLoadRect (gstg m c) = gstg m c :=
  Memref.readAt_unit_zero (Elt F) cc0_stg1_0 hz1 _ _

omit [FloatOps F] in
/-- A slab read back after a store of all its elements holds what was stored. -/
theorem slab_read_write (r : Rect S512x512) (f : (oM.access r).ty.Contents (Elt F)) (w : r.shape.Idx → Elt F .f32) :
    (oM.access r).read (Elt F) ((oM.access r).write (Elt F) f w Finset.univ) = w :=
  View.read_write_univ f w

omit [FloatOps F] in
/-- A chunk read back after a store of all its elements holds what was stored. -/
theorem chunk_read_write (M : Memref sig .tc .vmem S256x512 .bf16) (k : Fin 8) (f : (M.access (ck k)).ty.Contents (Elt F))
    (w : (ck k).shape.Idx → Elt F .bf16) :
    (M.access (ck k)).read (Elt F) ((M.access (ck k)).write (Elt F) f w Finset.univ) = w :=
  View.read_write_univ f w

/-! ## A slab at named contents -/

/-- The slab r of the result block on device c holds the vector v. -/
def slabAt (c : Dev nD) (r : Rect S512x512) (v : r.shape.Idx → Elt F .f32) : sProp 𝕄 :=
  iprop(∃ f : Buf (Elt F) ((oM.access r).loc (c : Thread nD τ)), ⌜(oM.access r).read (Elt F) f = v⌝ ∗ slab c r f)

omit [FloatOps F] in
/-- A slab held at contents that read as v is the slab at v. -/
theorem slabAt_of (c : Dev nD) (r : Rect S512x512) (v : r.shape.Idx → Elt F .f32)
    {f : Buf (Elt F) ((oM.access r).loc (c : Thread nD τ))} :
    iprop(slab c r f ∗ ⌜(oM.access r).read (Elt F) f = v⌝) ⊢ slabAt c r v := by
  unfold slabAt
  iintro ⟨H, %hv⟩
  iexists f
  isplitr
  · ipureintro; exact hv
  · iexact H

omit [FloatOps F] in
/-- The slab at v is held at some contents that read as v. -/
theorem slabAt_open (c : Dev nD) (r : Rect S512x512) (v : r.shape.Idx → Elt F .f32) :
    slabAt c r v ⊢ iprop(∃ f : Buf (Elt F) ((oM.access r).loc (c : Thread nD τ)), ⌜(oM.access r).read (Elt F) f = v⌝ ∗ slab c r f) := by
  unfold slabAt
  exact BIBase.Entails.rfl

/-- The two uses: the own quarter's slab at the rows the device normalised, the other quarter's at the rows received. -/
example (m : (ℓ : Loc nD τ sig) → Buf (Elt F) ℓ) (c : Dev nD) (k : Fin 8) : sProp 𝕄 := slabAt c (slO c k) (OUT m c k)
example (m : (ℓ : Loc nD τ sig) → Buf (Elt F) ℓ) (c : Dev nD) (k : Fin 8) : sProp 𝕄 := slabAt c (slG c k) (ext (YR m c k))

/-- info: 'Cert.KernelIdeal.Hand.wp_slab_load' depends on axioms: [propext, Classical.choice, Quot.sound] -/
#guard_msgs in #print axioms wp_slab_load

/-- info: 'Cert.KernelIdeal.Hand.wp_slab_store' depends on axioms: [propext, Classical.choice, Quot.sound] -/
#guard_msgs in #print axioms wp_slab_store

/-- info: 'Cert.KernelIdeal.Hand.read_gamma' depends on axioms: [propext, Classical.choice, Quot.sound] -/
#guard_msgs in #print axioms read_gamma

/-- info: 'Cert.KernelIdeal.Hand.slab_read_write' depends on axioms: [propext, Classical.choice, Quot.sound] -/
#guard_msgs in #print axioms slab_read_write

/-- info: 'Cert.KernelIdeal.Hand.chunk_read_write' depends on axioms: [propext, Classical.choice, Quot.sound] -/
#guard_msgs in #print axioms chunk_read_write

/-- info: 'Cert.KernelIdeal.Hand.slabAt_of' depends on axioms: [propext, Classical.choice, Quot.sound] -/
#guard_msgs in #print axioms slabAt_of

/-- info: 'Cert.KernelIdeal.Hand.slabAt_open' depends on axioms: [propext, Classical.choice, Quot.sound] -/
#guard_msgs in #print axioms slabAt_open

end Cert.KernelIdeal.Hand

end
-- ==== Proof.Finish.lean ====
/-
  The end of the body. When the program has returned, the core holds the staged block of partial sums and the staged
  weights untouched, the result block as its sixteen slabs, each of the four scratch buffers as its eight chunks, its
  32 counters at zero, and owes nothing. Glued together these are what the body must leave: the scratch buffers whole
  at whatever contents, the counters, the three staged buffers whole at their named contents, and nothing owed.
-/
import proofs.«900597_g7700000000000598_dist_rsrms_v7x_xy2x2_x_m512_d512_f32_1_alg».proof.Proof.Slabs

noncomputable section

namespace Cert.KernelIdeal.Hand

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Eight chunks of a buffer held side by side, each at some named contents, are the buffer held whole at some contents. -/
theorem chunks_whole (c : Dev nD) (M : Memref sig .tc .vmem S256x512 .bf16) (hM : M.IsWhole) (v : Fin 8 → FVec F S32x512 .bf16) :
    (iprop(chunkAt c M 0 (v 0) ∗ chunkAt c M 1 (v 1) ∗ chunkAt c M 2 (v 2) ∗ chunkAt c M 3 (v 3) ∗ chunkAt c M 4 (v 4) ∗ chunkAt c M 5 (v 5) ∗ chunkAt c M 6 (v 6) ∗ chunkAt c M 7 (v 7)) : sProp 𝕄)
      ⊢ iprop(∃ g, M.view.loc (c : Thread nD τ) ↦{fullShare} g) := by
  unfold chunkAt
  iintro ⟨⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩⟩
  iapply (join8 c M hM ![f0, f1, f2, f3, f4, f5, f6, f7])
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the core holds when the program has returned is what the body must leave. -/
theorem finish (c : Dev nD) (W' : Waits sig Unit) (fo fg : Fin 8 → Buf (Elt F) (oM.view.loc (c : Thread nD τ)))
    (hO : ∀ k, (oM.access (slO c k)).read (Elt F) (fo k) = OUT m c k)
    (hG : ∀ k, (oM.access (slG c k)).read (Elt F) (fg k) = ext (YR m c k)) :
    (iprop((xM.view.loc (c : Thread nD τ) ↦{fullShare} xstg m c) ∗ (gM.view.loc (c : Thread nD τ) ↦{fullShare} gstg m c)
      ∗ (slab c (slO c 0) (fo 0) ∗ slab c (slO c 1) (fo 1) ∗ slab c (slO c 2) (fo 2) ∗ slab c (slO c 3) (fo 3) ∗ slab c (slO c 4) (fo 4) ∗ slab c (slO c 5) (fo 5) ∗ slab c (slO c 6) (fo 6) ∗ slab c (slO c 7) (fo 7)
        ∗ slab c (slG c 0) (fg 0) ∗ slab c (slG c 1) (fg 1) ∗ slab c (slG c 2) (fg 2) ∗ slab c (slG c 3) (fg 3) ∗ slab c (slG c 4) (fg 4) ∗ slab c (slG c 5) (fg 5) ∗ slab c (slG c 6) (fg 6) ∗ slab c (slG c 7) (fg 7))
      ∗ (chunkAt c xsM 0 (XS m c 0) ∗ chunkAt c xsM 1 (XS m c 1) ∗ chunkAt c xsM 2 (XS m c 2) ∗ chunkAt c xsM 3 (XS m c 3) ∗ chunkAt c xsM 4 (XS m c 4) ∗ chunkAt c xsM 5 (XS m c 5) ∗ chunkAt c xsM 6 (XS m c 6) ∗ chunkAt c xsM 7 (XS m c 7))
      ∗ (chunkAt c xrM 0 (XR m c 0) ∗ chunkAt c xrM 1 (XR m c 1) ∗ chunkAt c xrM 2 (XR m c 2) ∗ chunkAt c xrM 3 (XR m c 3) ∗ chunkAt c xrM 4 (XR m c 4) ∗ chunkAt c xrM 5 (XR m c 5) ∗ chunkAt c xrM 6 (XR m c 6) ∗ chunkAt c xrM 7 (XR m c 7))
      ∗ (chunkAt c ysM 0 (YS m c 0) ∗ chunkAt c ysM 1 (YS m c 1) ∗ chunkAt c ysM 2 (YS m c 2) ∗ chunkAt c ysM 3 (YS m c 3) ∗ chunkAt c ysM 4 (YS m c 4) ∗ chunkAt c ysM 5 (YS m c 5) ∗ chunkAt c ysM 6 (YS m c 6) ∗ chunkAt c ysM 7 (YS m c 7))
      ∗ (chunkAt c yrM 0 (YR m c 0) ∗ chunkAt c yrM 1 (YR m c 1) ∗ chunkAt c yrM 2 (YR m c 2) ∗ chunkAt c yrM 3 (YR m c 3) ∗ chunkAt c yrM 4 (YR m c 4) ∗ chunkAt c yrM 5 (YR m c 5) ∗ chunkAt c yrM 6 (YR m c 6) ∗ chunkAt c yrM 7 (YR m c 7))
      ∗ ((semVal (xsCell c 0) 0 ∗ semVal (xrCell c 0) 0 ∗ semVal (ysCell c 0) 0 ∗ semVal (yrCell c 0) 0) ∗ (semVal (xsCell c 1) 0 ∗ semVal (xrCell c 1) 0 ∗ semVal (ysCell c 1) 0 ∗ semVal (yrCell c 1) 0) ∗ (semVal (xsCell c 2) 0 ∗ semVal (xrCell c 2) 0 ∗ semVal (ysCell c 2) 0 ∗ semVal (yrCell c 2) 0) ∗ (semVal (xsCell c 3) 0 ∗ semVal (xrCell c 3) 0 ∗ semVal (ysCell c 3) 0 ∗ semVal (yrCell c 3) 0) ∗ (semVal (xsCell c 4) 0 ∗ semVal (xrCell c 4) 0 ∗ semVal (ysCell c 4) 0 ∗ semVal (yrCell c 4) 0) ∗ (semVal (xsCell c 5) 0 ∗ semVal (xrCell c 5) 0 ∗ semVal (ysCell c 5) 0 ∗ semVal (yrCell c 5) 0) ∗ (semVal (xsCell c 6) 0 ∗ semVal (xrCell c 6) 0 ∗ semVal (ysCell c 6) 0 ∗ semVal (yrCell c 6) 0) ∗ (semVal (xsCell c 7) 0 ∗ semVal (xrCell c 7) 0 ∗ semVal (ysCell c 7) 0 ∗ semVal (yrCell c 7) 0))
      ∗ owes (c : Thread nD τ) (owedAt c 18) W') : sProp 𝕄)
      ⊢ bodyPost m c := by
  unfold bodyPost Φ₁ scratch zeros Dat.owesAt Pipeline.owesWithin
  rw [show (dats m 0 c).owed t0_0.succ = 0 from rfl, owed_end, bigSep_univ_eight]
  iintro ⟨Hx, Hg, Hsl, Hxs, Hxr, Hys, Hyr, Hz, HO⟩
  ihave Hout := (join16 m c fo fg hO hG) $$ Hsl
  ihave Hxs' := (chunks_whole c xsM (Memref.isWhole_whole _) (XS m c)) $$ Hxs
  ihave Hxr' := (chunks_whole c xrM (Memref.isWhole_whole _) (XR m c)) $$ Hxr
  ihave Hys' := (chunks_whole c ysM (Memref.isWhole_whole _) (YS m c)) $$ Hys
  ihave Hyr' := (chunks_whole c yrM (Memref.isWhole_whole _) (YR m c)) $$ Hyr
  isplitl [Hxs' Hxr' Hys' Hyr' Hz]
  · isplitl [Hxs' Hxr' Hys' Hyr']
    · isplitl [Hxs']; · iexact Hxs'
      isplitl [Hxr']; · iexact Hxr'
      isplitl [Hys']; · iexact Hys'
      iexact Hyr'
    · iexact Hz
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

/-- The same, with the sixteen slabs each held at contents that read as its named rows. -/
theorem finish2 (c : Dev nD) (W' : Waits sig Unit) :
    (iprop((xM.view.loc (c : Thread nD τ) ↦{fullShare} xstg m c) ∗ (gM.view.loc (c : Thread nD τ) ↦{fullShare} gstg m c)
      ∗ (slabAt c (slO c 0) (OUT m c 0) ∗ slabAt c (slO c 1) (OUT m c 1) ∗ slabAt c (slO c 2) (OUT m c 2) ∗ slabAt c (slO c 3) (OUT m c 3) ∗ slabAt c (slO c 4) (OUT m c 4) ∗ slabAt c (slO c 5) (OUT m c 5) ∗ slabAt c (slO c 6) (OUT m c 6) ∗ slabAt c (slO c 7) (OUT m c 7) ∗ slabAt c (slG c 0) (ext (YR m c 0)) ∗ slabAt c (slG c 1) (ext (YR m c 1)) ∗ slabAt c (slG c 2) (ext (YR m c 2)) ∗ slabAt c (slG c 3) (ext (YR m c 3)) ∗ slabAt c (slG c 4) (ext (YR m c 4)) ∗ slabAt c (slG c 5) (ext (YR m c 5)) ∗ slabAt c (slG c 6) (ext (YR m c 6)) ∗ slabAt c (slG c 7) (ext (YR m c 7)))
      ∗ (chunkAt c xsM 0 (XS m c 0) ∗ chunkAt c xsM 1 (XS m c 1) ∗ chunkAt c xsM 2 (XS m c 2) ∗ chunkAt c xsM 3 (XS m c 3) ∗ chunkAt c xsM 4 (XS m c 4) ∗ chunkAt c xsM 5 (XS m c 5) ∗ chunkAt c xsM 6 (XS m c 6) ∗ chunkAt c xsM 7 (XS m c 7))
      ∗ (chunkAt c xrM 0 (XR m c 0) ∗ chunkAt c xrM 1 (XR m c 1) ∗ chunkAt c xrM 2 (XR m c 2) ∗ chunkAt c xrM 3 (XR m c 3) ∗ chunkAt c xrM 4 (XR m c 4) ∗ chunkAt c xrM 5 (XR m c 5) ∗ chunkAt c xrM 6 (XR m c 6) ∗ chunkAt c xrM 7 (XR m c 7))
      ∗ (chunkAt c ysM 0 (YS m c 0) ∗ chunkAt c ysM 1 (YS m c 1) ∗ chunkAt c ysM 2 (YS m c 2) ∗ chunkAt c ysM 3 (YS m c 3) ∗ chunkAt c ysM 4 (YS m c 4) ∗ chunkAt c ysM 5 (YS m c 5) ∗ chunkAt c ysM 6 (YS m c 6) ∗ chunkAt c ysM 7 (YS m c 7))
      ∗ (chunkAt c yrM 0 (YR m c 0) ∗ chunkAt c yrM 1 (YR m c 1) ∗ chunkAt c yrM 2 (YR m c 2) ∗ chunkAt c yrM 3 (YR m c 3) ∗ chunkAt c yrM 4 (YR m c 4) ∗ chunkAt c yrM 5 (YR m c 5) ∗ chunkAt c yrM 6 (YR m c 6) ∗ chunkAt c yrM 7 (YR m c 7))
      ∗ ((semVal (xsCell c 0) 0 ∗ semVal (xrCell c 0) 0 ∗ semVal (ysCell c 0) 0 ∗ semVal (yrCell c 0) 0) ∗ (semVal (xsCell c 1) 0 ∗ semVal (xrCell c 1) 0 ∗ semVal (ysCell c 1) 0 ∗ semVal (yrCell c 1) 0) ∗ (semVal (xsCell c 2) 0 ∗ semVal (xrCell c 2) 0 ∗ semVal (ysCell c 2) 0 ∗ semVal (yrCell c 2) 0) ∗ (semVal (xsCell c 3) 0 ∗ semVal (xrCell c 3) 0 ∗ semVal (ysCell c 3) 0 ∗ semVal (yrCell c 3) 0) ∗ (semVal (xsCell c 4) 0 ∗ semVal (xrCell c 4) 0 ∗ semVal (ysCell c 4) 0 ∗ semVal (yrCell c 4) 0) ∗ (semVal (xsCell c 5) 0 ∗ semVal (xrCell c 5) 0 ∗ semVal (ysCell c 5) 0 ∗ semVal (yrCell c 5) 0) ∗ (semVal (xsCell c 6) 0 ∗ semVal (xrCell c 6) 0 ∗ semVal (ysCell c 6) 0 ∗ semVal (yrCell c 6) 0) ∗ (semVal (xsCell c 7) 0 ∗ semVal (xrCell c 7) 0 ∗ semVal (ysCell c 7) 0 ∗ semVal (yrCell c 7) 0))
      ∗ owes (c : Thread nD τ) (owedAt c 18) W') : sProp 𝕄)
      ⊢ bodyPost m c := by
  iintro ⟨Hx, Hg, ⟨S0, S1, S2, S3, S4, S5, S6, S7, G0, G1, G2, G3, G4, G5, G6, G7⟩, Hxs, Hxr, Hys, Hyr, Hz, HO⟩
  ihave S0' := (slabAt_open c (slO c 0) (OUT m c 0)) $$ S0; icases S0' with ⟨%f0, %hf0, S0⟩
  ihave S1' := (slabAt_open c (slO c 1) (OUT m c 1)) $$ S1; icases S1' with ⟨%f1, %hf1, S1⟩
  ihave S2' := (slabAt_open c (slO c 2) (OUT m c 2)) $$ S2; icases S2' with ⟨%f2, %hf2, S2⟩
  ihave S3' := (slabAt_open c (slO c 3) (OUT m c 3)) $$ S3; icases S3' with ⟨%f3, %hf3, S3⟩
  ihave S4' := (slabAt_open c (slO c 4) (OUT m c 4)) $$ S4; icases S4' with ⟨%f4, %hf4, S4⟩
  ihave S5' := (slabAt_open c (slO c 5) (OUT m c 5)) $$ S5; icases S5' with ⟨%f5, %hf5, S5⟩
  ihave S6' := (slabAt_open c (slO c 6) (OUT m c 6)) $$ S6; icases S6' with ⟨%f6, %hf6, S6⟩
  ihave S7' := (slabAt_open c (slO c 7) (OUT m c 7)) $$ S7; icases S7' with ⟨%f7, %hf7, S7⟩
  ihave G0' := (slabAt_open c (slG c 0) (ext (YR m c 0))) $$ G0; icases G0' with ⟨%g0, %hg0, G0⟩
  ihave G1' := (slabAt_open c (slG c 1) (ext (YR m c 1))) $$ G1; icases G1' with ⟨%g1, %hg1, G1⟩
  ihave G2' := (slabAt_open c (slG c 2) (ext (YR m c 2))) $$ G2; icases G2' with ⟨%g2, %hg2, G2⟩
  ihave G3' := (slabAt_open c (slG c 3) (ext (YR m c 3))) $$ G3; icases G3' with ⟨%g3, %hg3, G3⟩
  ihave G4' := (slabAt_open c (slG c 4) (ext (YR m c 4))) $$ G4; icases G4' with ⟨%g4, %hg4, G4⟩
  ihave G5' := (slabAt_open c (slG c 5) (ext (YR m c 5))) $$ G5; icases G5' with ⟨%g5, %hg5, G5⟩
  ihave G6' := (slabAt_open c (slG c 6) (ext (YR m c 6))) $$ G6; icases G6' with ⟨%g6, %hg6, G6⟩
  ihave G7' := (slabAt_open c (slG c 7) (ext (YR m c 7))) $$ G7; icases G7' with ⟨%g7, %hg7, G7⟩
  iapply (finish m c W' (fun k : Fin 8 => match k with | ⟨0, _⟩ => f0 | ⟨1, _⟩ => f1 | ⟨2, _⟩ => f2 | ⟨3, _⟩ => f3 | ⟨4, _⟩ => f4 | ⟨5, _⟩ => f5 | ⟨6, _⟩ => f6 | ⟨7, _⟩ => f7)
    (fun k : Fin 8 => match k with | ⟨0, _⟩ => g0 | ⟨1, _⟩ => g1 | ⟨2, _⟩ => g2 | ⟨3, _⟩ => g3 | ⟨4, _⟩ => g4 | ⟨5, _⟩ => g5 | ⟨6, _⟩ => g6 | ⟨7, _⟩ => g7)
    (by intro k; fin_cases k <;> assumption) (by intro k; fin_cases k <;> assumption))
  isplitl [Hx]; · iexact Hx
  isplitl [Hg]; · iexact Hg
  isplitl [S0 S1 S2 S3 S4 S5 S6 S7 G0 G1 G2 G3 G4 G5 G6 G7]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [Hxs]; · iexact Hxs
  isplitl [Hxr]; · iexact Hxr
  isplitl [Hys]; · iexact Hys
  isplitl [Hyr]; · iexact Hyr
  isplitl [Hz]; · iexact Hz
  iexact HO

end Cert.KernelIdeal.Hand

end
-- ==== Proof.Body.lean ====
/-
  The kernel body on device c, from the invariant before the one grid point to the invariant after it.
  Device c signals 2 units to xp c's barrier, handing over its own x-receive buffer, and 1 unit to yp c's, handing over
  its y-receive buffer. It casts the first 32 rows of xp c's quarter of its block into chunk 0 of its x-send buffer and
  waits 2 on its own barrier: the 2-unit signal must have landed, so xp c's x-receive buffer is now c's to write. Chunk
  by chunk it sends those rows across x. Then, chunk by chunk: it waits for xp c's rows (they hold xp c's partial sums of
  the rows c owns), adds them to its own, normalises the 32 rows, stores them into its quarter of the result block and,
  cast to bf16, into its y-send buffer, and sends that chunk across y — before the first such transfer it waits 1 on its
  barrier, which yields yp c's y-receive buffer. Then, chunk by chunk, it waits for yp c's normalised rows and stores
  them, cast back, into the other quarter of the result block. Last it waits for its sixteen transfers to have left.
  Every wait sits below what c still owes: the barrier while only receive cells are owed, an x-receive cell while only
  y-receive cells are owed, everything else owing nothing. What each buffer holds is named at every step, so the result
  block ends at outFinal m c.
-/
import proofs.«900597_g7700000000000598_dist_rsrms_v7x_xy2x2_x_m512_d512_f32_1_alg».proof.Proof.BodyDefs
import proofs.«900597_g7700000000000598_dist_rsrms_v7x_xy2x2_x_m512_d512_f32_1_alg».proof.Proof.Slabs
import proofs.«900597_g7700000000000598_dist_rsrms_v7x_xy2x2_x_m512_d512_f32_1_alg».proof.Proof.Finish

noncomputable section

namespace Cert.KernelIdeal.Hand

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The payloads of the barrier and of a DMA cell, opened. -/
theorem PX_open (c : Dev nD) : (PX (F := F) c) ⊢ iprop(∃ f0 f1 f2 f3 f4 f5 f6 f7, chk (xp c) xrM 0 f0 ∗ chk (xp c) xrM 1 f1 ∗ chk (xp c) xrM 2 f2 ∗ chk (xp c) xrM 3 f3
    ∗ chk (xp c) xrM 4 f4 ∗ chk (xp c) xrM 5 f5 ∗ chk (xp c) xrM 6 f6 ∗ chk (xp c) xrM 7 f7) := by
  unfold PX anyChunks chunkAny
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists f0, f1, f2, f3, f4, f5, f6, f7
  iframe ∗
theorem PY_open (c : Dev nD) : (PY (F := F) c) ⊢ iprop(∃ f0 f1 f2 f3 f4 f5 f6 f7, chk (yp c) yrM 0 f0 ∗ chk (yp c) yrM 1 f1 ∗ chk (yp c) yrM 2 f2 ∗ chk (yp c) yrM 3 f3
    ∗ chk (yp c) yrM 4 f4 ∗ chk (yp c) yrM 5 f5 ∗ chk (yp c) yrM 6 f6 ∗ chk (yp c) yrM 7 f7) := by
  unfold PY anyChunks chunkAny
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists f0, f1, f2, f3, f4, f5, f6, f7
  iframe ∗
theorem chunkAt_open (c : Dev nD) (M : Memref sig .tc .vmem S256x512 .bf16) (k : Fin 8) (v : FVec F S32x512 .bf16) :
    chunkAt c M k v ⊢ iprop(∃ f : Buf (Elt F) ((M.access (ck k)).loc (c : Thread nD τ)), ⌜(M.access (ck k)).read (Elt F) f = v⌝ ∗ chk c M k f) := by
  unfold chunkAt; exact .rfl

/-- The normalised rows and their bf16 copy, from the gamma row and c's own rows as the program spells them. -/
theorem OUT_of (c : Dev nD) (k : Fin 8) (g : FVec F S1x512 .f32) (xa : Vec F S1x32x512 .f32) (hg : g = gRow (gstg m c)) (hxa : xa = rowsM m c k) :
    outRows g xa (XR m c k) = OUT m c k := by subst hg; subst hxa; rfl
theorem YS_of (c : Dev nD) (k : Fin 8) (g : FVec F S1x512 .f32) (xa : Vec F S1x32x512 .f32) (hg : g = gRow (gstg m c)) (hxa : xa = rowsM m c k) :
    ysRows g xa (XR m c k) = YS m c k := by subst hg; subst hxa; rfl

/-- Owing nothing, every wait is allowed. -/
theorem mayWait_end_eq (c : Dev nD) (sm : SemLoc sig) : (MayWait (c : Thread nD τ) sm () (owedAt c 18) : sProp 𝕄) = iprop(emp) := by
  rw [owed_end c, MayWait_zero]; rfl

/-- Run the straight-line stretch at the head of the program, if there is one. -/
local macro "sx" : tactic => `(tactic| first | sl_exec_parts | skip)

/-- A returned value bound into a continuation is the continuation at that value. -/
theorem ret_bind_eq {E : Type → Type} {α β : Type} (a : α) (k : α → Prog E β) : (Prog.ret a).bind k = k a := rfl

set_option maxHeartbeats 16000000 in
set_option maxRecDepth 8192 in
/-- The body, run from bodyPre to bodyPost: the straight-line stretches by symbolic execution, each step on a chunk and
    each step of the protocol by its rule, in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body xM (Memref.isWhole_whole _) gM (Memref.isWhole_whole _) oM (Memref.isWhole_whole _) xsM (Memref.isWhole_whole _) xrM (Memref.isWhole_whole _)
            ysM (Memref.isWhole_whole _) yrM (Memref.isWhole_whole _) cc0_scratch4 cc0_scratch5 cc0_scratch6 cc0_scratch7) Kt := by
  unfold bodyPre Φ₀ start ghost kits kit barKit scratch
  iintro ⟨⟨⟨⟨%K, %KB, #HP,
      ⟨⟨Pxs0, Pxr0, Pys0, Pyr0, Txs0, Txr0, Tys0, Tyr0, Cxr0, Cyr0⟩, ⟨Pxs1, Pxr1, Pys1, Pyr1, Txs1, Txr1, Tys1, Tyr1, Cxr1, Cyr1⟩,
       ⟨Pxs2, Pxr2, Pys2, Pyr2, Txs2, Txr2, Tys2, Tyr2, Cxr2, Cyr2⟩, ⟨Pxs3, Pxr3, Pys3, Pyr3, Txs3, Txr3, Tys3, Tyr3, Cxr3, Cyr3⟩,
       ⟨Pxs4, Pxr4, Pys4, Pyr4, Txs4, Txr4, Tys4, Tyr4, Cxr4, Cyr4⟩, ⟨Pxs5, Pxr5, Pys5, Pyr5, Txs5, Txr5, Tys5, Tyr5, Cxr5, Cyr5⟩,
       ⟨Pxs6, Pxr6, Pys6, Pyr6, Txs6, Txr6, Tys6, Tyr6, Cxr6, Cyr6⟩, ⟨Pxs7, Pxr7, Pys7, Pyr7, Txs7, Txr7, Tys7, Tyr7, Cxr7, Cyr7⟩⟩,
      ⟨HtX, HtY, HtW1, HtW2, HcB2, HcB1⟩⟩, ⟨%fxs, Hxs⟩, ⟨%fxr, Hxr⟩, ⟨%fys, Hys⟩, ⟨%fyr, Hyr⟩⟩,
    Ho, ⟨%d0, %g0, %hg0, Hx⟩, ⟨%d1, %g1, %hg1, Hg⟩, ⟨%d2, %g2, %hg2, Hout⟩⟩, Hk⟩
  have hx : g0 = xstg m c := by rw [hg0]; unfold Dat.before; rw [if_pos (fetch0_0 t0_0)]; rfl
  have hgm : g1 = gstg m c := by rw [hg1]; unfold Dat.before; rw [if_pos (fetch0_1 t0_0)]; rfl
  subst hx; subst hgm
  ihave #HP0 := (Pers_at m K KB c 0) $$ HP
  ihave #HP1 := (Pers_at m K KB c 1) $$ HP
  ihave #HP2 := (Pers_at m K KB c 2) $$ HP
  ihave #HP3 := (Pers_at m K KB c 3) $$ HP
  ihave #HP4 := (Pers_at m K KB c 4) $$ HP
  ihave #HP5 := (Pers_at m K KB c 5) $$ HP
  ihave #HP6 := (Pers_at m K KB c 6) $$ HP
  ihave #HP7 := (Pers_at m K KB c 7) $$ HP
  ihave HB := (Pers_bar m K KB c) $$ HP
  icases HB with ⟨#HIb, #HIbx, #HIby, #Hlev⟩
  unfold Dat.owesAt Pipeline.owesWithin
  icases Ho with ⟨%W, %hW, HO⟩
  rw [show (dats m 0 c).owed t0_0.castSucc = owedAt c 0 from rfl]
  ihave H8 := (split8 c xsM (Memref.isWhole_whole _) fxs) $$ Hxs
  icases H8 with ⟨Hxs0, Hxs1, Hxs2, Hxs3, Hxs4, Hxs5, Hxs6, Hxs7⟩
  ihave H8 := (split8 c xrM (Memref.isWhole_whole _) fxr) $$ Hxr
  icases H8 with ⟨Hxr0, Hxr1, Hxr2, Hxr3, Hxr4, Hxr5, Hxr6, Hxr7⟩
  ihave H8 := (split8 c ysM (Memref.isWhole_whole _) fys) $$ Hys
  icases H8 with ⟨Hys0, Hys1, Hys2, Hys3, Hys4, Hys5, Hys6, Hys7⟩
  ihave H8 := (split8 c yrM (Memref.isWhole_whole _) fyr) $$ Hyr
  icases H8 with ⟨Hyr0, Hyr1, Hyr2, Hyr3, Hyr4, Hyr5, Hyr6, Hyr7⟩
  have hd1 : (⟨k0_dev1 (c : Thread nD τ).1, k0_dev1_lt _⟩ : Dev nD) = xp c := dev1_eq c
  have hd2 : (⟨k0_dev2 (c : Thread nD τ).1, k0_dev2_lt _⟩ : Dev nD) = yp c := dev2_eq c
  ihave Hx := (Entails.of_eq (show (((c : Thread nD τ).loc cc0_stg0_0 ↦{fullShare} xstg m c) : sProp 𝕄) = (xM.view.loc (c : Thread nD τ) ↦{fullShare} xstg m c) from rfl)) $$ Hx
  ihave Hg := (Entails.of_eq (show (((c : Thread nD τ).loc cc0_stg1_0 ↦{fullShare} gstg m c) : sProp 𝕄) = (gM.view.loc (c : Thread nD τ) ↦{fullShare} gstg m c) from rfl)) $$ Hg
  ihave Hout := (Entails.of_eq (show (((c : Thread nD τ).loc cc0_stg2_0 ↦{fullShare} g2) : sProp 𝕄) = (oM.view.loc (c : Thread nD τ) ↦{fullShare} g2) from rfl)) $$ Hout
  sl_exec_parts
  rw [hd1]
  -- the signal of 2 units to xp c: with it go c's own x-receive chunks
  iapply (wp_bar_signalX 𝒱₀ PX PY (c : Thread nD τ) none (d := xp c) (κ := KB (xp c)) (owedAt c 1) (owed_s0 c)) $$ [HO HtX Hxr0 Hxr1 Hxr2 Hxr3 Hxr4 Hxr5 Hxr6 Hxr7]
  · isplitr; · iexact HIbx
    isplitl [HO]; · iexact HO
    isplitl [HtX]; · iexact HtX
    rw [show PX (F := F) (xp c) = anyChunks c xrM from by unfold PX; rw [xp_xp]]
    iapply (anyChunks_of c xrM fxr fxr fxr fxr fxr fxr fxr fxr)
    iframe
  iintro HO
  sl_exec_parts
  rw [hd2]
  -- the signal of 1 unit to yp c: with it go c's own y-receive chunks
  iapply (wp_bar_signalY 𝒱₀ PX PY (c : Thread nD τ) none (d := yp c) (κ := KB (yp c)) (owedAt c 2) (owed_s1 c)) $$ [HO HtY Hyr0 Hyr1 Hyr2 Hyr3 Hyr4 Hyr5 Hyr6 Hyr7]
  · isplitr; · iexact HIby
    isplitl [HO]; · iexact HO
    isplitl [HtY]; · iexact HtY
    rw [show PY (F := F) (yp c) = anyChunks c yrM from by unfold PY; rw [yp_yp]]
    iapply (anyChunks_of c yrM fyr fyr fyr fyr fyr fyr fyr fyr)
    iframe
  iintro HO
  sl_exec_parts
  -- chunk 0 of the send buffer: the 32 partner rows, cast
  iapply (wp_chunk_load c xsM 0 fxs) $$ Hxs0; iintro Hxs0
  iapply (wp_chunk_store c xsM 0 fxs) $$ Hxs0; iintro Hxs0
  rw [ret_bind_eq]
  sl_exec_parts
  -- the wait of 2 on c's own barrier: xp c's x-receive chunks come with it
  iapply (wp_bar_wait2 𝒱₀ PX PY c none (wpE_semWait_eq 𝒱₀ (c : Thread nD τ) none Set.univ) (Set.mem_univ _) (κ := KB c)) $$ [HcB2 HO HtW1]
  · isplitr; · iexact HIb
    isplitl [HcB2]; · iexact HcB2
    isplitl [HO]; · iexact HO
    isplitr; · iapply (mayWait_bar2 c); iexact Hlev
    iexact HtW1
  iintro ⟨HO, HtZ, HPX⟩
  ihave HPX := (PX_open c) $$ HPX
  icases HPX with ⟨%fp0, %fp1, %fp2, %fp3, %fp4, %fp5, %fp6, %fp7, Hp0, Hp1, Hp2, Hp3, Hp4, Hp5, Hp6, Hp7⟩
  sl_exec_parts
  -- the eight transfers across x: chunk k of the send buffer is the 32 rows 32 k … of the partner's quarter, cast
  rw [show owedAt c 2 = owedAt c 3 + tallyAt (xrCell (xp c) 0) () N32 from owed_x c 0]
  iapply (wp_xsend m K c 0 _ (dev3_eq c) (owedAt c 3)) $$ [Hxs0 Hp0 HO Txs0 Txr0]
  · isplitl [Hxs0 Hp0 HO Txs0 Txr0]; · iframe # ∗
    ipureintro; rw [chunk_read_write, pay1_eq]; exact congrArg cvt (rows_off1 m c _ _ rfl)
  iintro ⟨Cxs0, HO⟩
  sx
  iapply (wp_chunk_load c xsM 1 fxs) $$ Hxs1; iintro Hxs1
  iapply (wp_chunk_store c xsM 1 fxs) $$ Hxs1; iintro Hxs1
  rw [ret_bind_eq]
  sx
  rw [show owedAt c 3 = owedAt c 4 + tallyAt (xrCell (xp c) 1) () N32 from owed_x c 1]
  iapply (wp_xsend m K c 1 _ (dev4_eq c) (owedAt c 4)) $$ [Hxs1 Hp1 HO Txs1 Txr1]
  · isplitl [Hxs1 Hp1 HO Txs1 Txr1]; · iframe # ∗
    ipureintro; rw [chunk_read_write, pay2_eq]; exact congrArg cvt (rows_off2 m c 0 _ _ rfl)
  iintro ⟨Cxs1, HO⟩
  sx
  iapply (wp_chunk_load c xsM 2 fxs) $$ Hxs2; iintro Hxs2
  iapply (wp_chunk_store c xsM 2 fxs) $$ Hxs2; iintro Hxs2
  rw [ret_bind_eq]
  sx
  rw [show owedAt c 4 = owedAt c 5 + tallyAt (xrCell (xp c) 2) () N32 from owed_x c 2]
  iapply (wp_xsend m K c 2 _ (dev5_eq c) (owedAt c 5)) $$ [Hxs2 Hp2 HO Txs2 Txr2]
  · isplitl [Hxs2 Hp2 HO Txs2 Txr2]; · iframe # ∗
    ipureintro; rw [chunk_read_write]; unfold sound_body.sl.r; rw [pay4_pay3_eq]; exact congrArg cvt (rows_off2 m c 1 _ _ rfl)
  iintro ⟨Cxs2, HO⟩
  sx
  iapply (wp_chunk_load c xsM 3 fxs) $$ Hxs3; iintro Hxs3
  iapply (wp_chunk_store c xsM 3 fxs) $$ Hxs3; iintro Hxs3
  rw [ret_bind_eq]
  sx
  rw [show owedAt c 5 = owedAt c 6 + tallyAt (xrCell (xp c) 3) () N32 from owed_x c 3]
  iapply (wp_xsend m K c 3 _ (dev6_eq c) (owedAt c 6)) $$ [Hxs3 Hp3 HO Txs3 Txr3]
  · isplitl [Hxs3 Hp3 HO Txs3 Txr3]; · iframe # ∗
    ipureintro; rw [chunk_read_write, pay5_eq]; exact congrArg cvt (rows_off2 m c 2 _ _ rfl)
  iintro ⟨Cxs3, HO⟩
  sx
  iapply (wp_chunk_load c xsM 4 fxs) $$ Hxs4; iintro Hxs4
  iapply (wp_chunk_store c xsM 4 fxs) $$ Hxs4; iintro Hxs4
  rw [ret_bind_eq]
  sx
  rw [show owedAt c 6 = owedAt c 7 + tallyAt (xrCell (xp c) 4) () N32 from owed_x c 4]
  iapply (wp_xsend m K c 4 _ (dev7_eq c) (owedAt c 7)) $$ [Hxs4 Hp4 HO Txs4 Txr4]
  · isplitl [Hxs4 Hp4 HO Txs4 Txr4]; · iframe # ∗
    ipureintro; rw [chunk_read_write, pay6_eq]; exact congrArg cvt (rows_off2 m c 3 _ _ rfl)
  iintro ⟨Cxs4, HO⟩
  sx
  iapply (wp_chunk_load c xsM 5 fxs) $$ Hxs5; iintro Hxs5
  iapply (wp_chunk_store c xsM 5 fxs) $$ Hxs5; iintro Hxs5
  rw [ret_bind_eq]
  sx
  rw [show owedAt c 7 = owedAt c 8 + tallyAt (xrCell (xp c) 5) () N32 from owed_x c 5]
  iapply (wp_xsend m K c 5 _ (dev8_eq c) (owedAt c 8)) $$ [Hxs5 Hp5 HO Txs5 Txr5]
  · isplitl [Hxs5 Hp5 HO Txs5 Txr5]; · iframe # ∗
    ipureintro; rw [chunk_read_write, pay7_eq]; exact congrArg cvt (rows_off2 m c 4 _ _ rfl)
  iintro ⟨Cxs5, HO⟩
  sx
  iapply (wp_chunk_load c xsM 6 fxs) $$ Hxs6; iintro Hxs6
  iapply (wp_chunk_store c xsM 6 fxs) $$ Hxs6; iintro Hxs6
  rw [ret_bind_eq]
  sx
  rw [show owedAt c 8 = owedAt c 9 + tallyAt (xrCell (xp c) 6) () N32 from owed_x c 6]
  iapply (wp_xsend m K c 6 _ (dev9_eq c) (owedAt c 9)) $$ [Hxs6 Hp6 HO Txs6 Txr6]
  · isplitl [Hxs6 Hp6 HO Txs6 Txr6]; · iframe # ∗
    ipureintro; rw [chunk_read_write, pay8_eq]; exact congrArg cvt (rows_off2 m c 5 _ _ rfl)
  iintro ⟨Cxs6, HO⟩
  sx
  iapply (wp_chunk_load c xsM 7 fxs) $$ Hxs7; iintro Hxs7
  iapply (wp_chunk_store c xsM 7 fxs) $$ Hxs7; iintro Hxs7
  rw [ret_bind_eq]
  sx
  rw [show owedAt c 9 = owedAt c 10 + tallyAt (xrCell (xp c) 7) () N32 from owed_x c 7]
  iapply (wp_xsend m K c 7 _ (dev10_eq c) (owedAt c 10)) $$ [Hxs7 Hp7 HO Txs7 Txr7]
  · isplitl [Hxs7 Hp7 HO Txs7 Txr7]; · iframe # ∗
    ipureintro; rw [chunk_read_write, pay9_eq]; exact congrArg cvt (rows_off2 m c 6 _ _ rfl)
  iintro ⟨Cxs7, HO⟩
  sx
  -- the result block in sixteen slabs
  ihave H16 := (split16 c g2) $$ Hout
  icases H16 with ⟨Ho0, Ho1, Ho2, Ho3, Ho4, Ho5, Ho6, Ho7, Hg0, Hg1, Hg2, Hg3, Hg4, Hg5, Hg6, Hg7⟩
  -- chunk 0: xp's rows arrive, are added to c's own, normalised, stored and sent on across y
  iapply (wp_wait_xr m K c 0 (O := owedAt c 10)) $$ [Cxr0 HO Pxr0]
  · isplitr; · iexact HP0
    isplitl [Cxr0]; · iexact Cxr0
    isplitl [HO]; · iexact HO
    isplitr; · iapply (mayWait_xr c 0 10 (by omega)); iexact Hlev
    iexact Pxr0
  iintro ⟨HO, Zxr0, Hc⟩
  ihave Hc := (chunkAt_open c xrM 0 (XR m c 0)) $$ Hc
  icases Hc with ⟨%fr0, %hfr0, Hxr0⟩
  sx
  iapply (wp_chunk_load c xrM 0 fr0) $$ Hxr0; iintro Hxr0
  rw [hfr0]
  sx
  iapply (wp_slab_load c (offO c 0) (offO_inb c 0) (off4_O c 0) g2) $$ Ho0; iintro Ho0
  iapply (wp_slab_store c (offO c 0) (offO_inb c 0) (off4_O c 0) g2) $$ Ho0; iintro Ho0
  rw [ret_bind_eq]
  have hG : sound_body.sl.r_1 m c = gRow (gstg m c) := (pay10_eq _).trans (congrArg gRow (read_gamma m c _))
  ihave Ho0 := (slabAt_of c (slO c 0) (OUT m c 0)) $$ [Ho0]
  · isplitl [Ho0]; · iexact Ho0
    ipureintro; rw [slab_read_write]; exact (pay14_eq _ _ _).trans (OUT_of m c 0 _ _ hG (rows_off3 m c 0 _ _ rfl))
  sx
  iapply (wp_chunk_load c ysM 0 fys) $$ Hys0; iintro Hys0
  iapply (wp_chunk_store c ysM 0 fys) $$ Hys0; iintro Hys0
  rw [ret_bind_eq]
  sx
  -- the wait of 1 on c's own barrier: yp c's y-receive chunks come with it
  iapply (wp_bar_wait1 𝒱₀ PX PY c none (wpE_semWait_eq 𝒱₀ (c : Thread nD τ) none Set.univ) (Set.mem_univ _) (κ := KB c)) $$ [HcB1 HO HtW2 HtZ]
  · isplitr; · iexact HIb
    isplitl [HcB1]; · iexact HcB1
    isplitl [HO]; · iexact HO
    isplitr; · iapply (mayWait_bar1 c); iexact Hlev
    isplitl [HtW2]; · iexact HtW2
    iexact HtZ
  iintro ⟨HO, HPY⟩
  ihave HPY := (PY_open c) $$ HPY
  icases HPY with ⟨%fq0, %fq1, %fq2, %fq3, %fq4, %fq5, %fq6, %fq7, Hq0, Hq1, Hq2, Hq3, Hq4, Hq5, Hq6, Hq7⟩
  sx
  rw [show owedAt c 10 = owedAt c 11 + tallyAt (yrCell (yp c) 0) () N32 from owed_y c 0]
  iapply (wp_ysend m K c 0 _ (dev11_eq c) (owedAt c 11)) $$ [Hys0 Hq0 HO Tys0 Tyr0]
  · isplitl [Hys0 Hq0 HO Tys0 Tyr0]; · iframe # ∗
    ipureintro; rw [chunk_read_write]; exact (pay15_eq _ _ _).trans (YS_of m c 0 _ _ hG (rows_off3 m c 0 _ _ rfl))
  iintro ⟨Cys0, HO⟩
  sx
  -- chunk 1
  iapply (wp_wait_xr m K c 1 (O := owedAt c 11)) $$ [Cxr1 HO Pxr1]
  · isplitr; · iexact HP1
    isplitl [Cxr1]; · iexact Cxr1
    isplitl [HO]; · iexact HO
    isplitr; · iapply (mayWait_xr c 1 11 (by omega)); iexact Hlev
    iexact Pxr1
  iintro ⟨HO, Zxr1, Hc⟩
  ihave Hc := (chunkAt_open c xrM 1 (XR m c 1)) $$ Hc
  icases Hc with ⟨%fr1, %hfr1, Hxr1⟩
  sx
  iapply (wp_chunk_load c xrM 1 fr1) $$ Hxr1; iintro Hxr1
  rw [hfr1]
  sx
  iapply (wp_slab_load c (offO c 1) (offO_inb c 1) (off4_O c 1) g2) $$ Ho1; iintro Ho1
  iapply (wp_slab_store c (offO c 1) (offO_inb c 1) (off4_O c 1) g2) $$ Ho1; iintro Ho1
  rw [ret_bind_eq]
  ihave Ho1 := (slabAt_of c (slO c 1) (OUT m c 1)) $$ [Ho1]
  · isplitl [Ho1]; · iexact Ho1
    ipureintro; rw [slab_read_write]; exact (pay16_eq _ _ _).trans (OUT_of m c 1 _ _ hG (rows_off3 m c 1 _ _ rfl))
  sx
  iapply (wp_chunk_load c ysM 1 fys) $$ Hys1; iintro Hys1
  iapply (wp_chunk_store c ysM 1 fys) $$ Hys1; iintro Hys1
  rw [ret_bind_eq]
  sx
  rw [show owedAt c 11 = owedAt c 12 + tallyAt (yrCell (yp c) 1) () N32 from owed_y c 1]
  iapply (wp_ysend m K c 1 _ (dev12_eq c) (owedAt c 12)) $$ [Hys1 Hq1 HO Tys1 Tyr1]
  · isplitl [Hys1 Hq1 HO Tys1 Tyr1]; · iframe # ∗
    ipureintro; rw [chunk_read_write]; exact (pay17_eq _ _ _).trans (YS_of m c 1 _ _ hG (rows_off3 m c 1 _ _ rfl))
  iintro ⟨Cys1, HO⟩
  sx
  -- chunk 2
  iapply (wp_wait_xr m K c 2 (O := owedAt c 12)) $$ [Cxr2 HO Pxr2]
  · isplitr; · iexact HP2
    isplitl [Cxr2]; · iexact Cxr2
    isplitl [HO]; · iexact HO
    isplitr; · iapply (mayWait_xr c 2 12 (by omega)); iexact Hlev
    iexact Pxr2
  iintro ⟨HO, Zxr2, Hc⟩
  ihave Hc := (chunkAt_open c xrM 2 (XR m c 2)) $$ Hc
  icases Hc with ⟨%fr2, %hfr2, Hxr2⟩
  sx
  iapply (wp_chunk_load c xrM 2 fr2) $$ Hxr2; iintro Hxr2
  rw [hfr2]
  sx
  iapply (wp_slab_load c (offO c 2) (offO_inb c 2) (off4_O c 2) g2) $$ Ho2; iintro Ho2
  iapply (wp_slab_store c (offO c 2) (offO_inb c 2) (off4_O c 2) g2) $$ Ho2; iintro Ho2
  rw [ret_bind_eq]
  ihave Ho2 := (slabAt_of c (slO c 2) (OUT m c 2)) $$ [Ho2]
  · isplitl [Ho2]; · iexact Ho2
    ipureintro; rw [slab_read_write]; exact (pay18_eq _ _ _).trans (OUT_of m c 2 _ _ hG (rows_off3 m c 2 _ _ rfl))
  sx
  iapply (wp_chunk_load c ysM 2 fys) $$ Hys2; iintro Hys2
  iapply (wp_chunk_store c ysM 2 fys) $$ Hys2; iintro Hys2
  rw [ret_bind_eq]
  sx
  rw [show owedAt c 12 = owedAt c 13 + tallyAt (yrCell (yp c) 2) () N32 from owed_y c 2]
  iapply (wp_ysend m K c 2 _ (dev13_eq c) (owedAt c 13)) $$ [Hys2 Hq2 HO Tys2 Tyr2]
  · isplitl [Hys2 Hq2 HO Tys2 Tyr2]; · iframe # ∗
    ipureintro; rw [chunk_read_write]; exact (pay20_pay19_eq _ _ _).trans (YS_of m c 2 _ _ hG (rows_off3 m c 2 _ _ rfl))
  iintro ⟨Cys2, HO⟩
  sx
  -- chunk 3
  iapply (wp_wait_xr m K c 3 (O := owedAt c 13)) $$ [Cxr3 HO Pxr3]
  · isplitr; · iexact HP3
    isplitl [Cxr3]; · iexact Cxr3
    isplitl [HO]; · iexact HO
    isplitr; · iapply (mayWait_xr c 3 13 (by omega)); iexact Hlev
    iexact Pxr3
  iintro ⟨HO, Zxr3, Hc⟩
  ihave Hc := (chunkAt_open c xrM 3 (XR m c 3)) $$ Hc
  icases Hc with ⟨%fr3, %hfr3, Hxr3⟩
  sx
  iapply (wp_chunk_load c xrM 3 fr3) $$ Hxr3; iintro Hxr3
  rw [hfr3]
  sx
  iapply (wp_slab_load c (offO c 3) (offO_inb c 3) (off4_O c 3) g2) $$ Ho3; iintro Ho3
  iapply (wp_slab_store c (offO c 3) (offO_inb c 3) (off4_O c 3) g2) $$ Ho3; iintro Ho3
  rw [ret_bind_eq]
  ihave Ho3 := (slabAt_of c (slO c 3) (OUT m c 3)) $$ [Ho3]
  · isplitl [Ho3]; · iexact Ho3
    ipureintro; rw [slab_read_write]; exact (pay24_eq _ _ _).trans (OUT_of m c 3 _ _ hG (rows_off3 m c 3 _ _ rfl))
  sx
  iapply (wp_chunk_load c ysM 3 fys) $$ Hys3; iintro Hys3
  iapply (wp_chunk_store c ysM 3 fys) $$ Hys3; iintro Hys3
  rw [ret_bind_eq]
  sx
  rw [show owedAt c 13 = owedAt c 14 + tallyAt (yrCell (yp c) 3) () N32 from owed_y c 3]
  iapply (wp_ysend m K c 3 _ (dev14_eq c) (owedAt c 14)) $$ [Hys3 Hq3 HO Tys3 Tyr3]
  · isplitl [Hys3 Hq3 HO Tys3 Tyr3]; · iframe # ∗
    ipureintro; rw [chunk_read_write]; exact (pay25_eq _ _ _).trans (YS_of m c 3 _ _ hG (rows_off3 m c 3 _ _ rfl))
  iintro ⟨Cys3, HO⟩
  sx
  -- chunk 4
  iapply (wp_wait_xr m K c 4 (O := owedAt c 14)) $$ [Cxr4 HO Pxr4]
  · isplitr; · iexact HP4
    isplitl [Cxr4]; · iexact Cxr4
    isplitl [HO]; · iexact HO
    isplitr; · iapply (mayWait_xr c 4 14 (by omega)); iexact Hlev
    iexact Pxr4
  iintro ⟨HO, Zxr4, Hc⟩
  ihave Hc := (chunkAt_open c xrM 4 (XR m c 4)) $$ Hc
  icases Hc with ⟨%fr4, %hfr4, Hxr4⟩
  sx
  iapply (wp_chunk_load c xrM 4 fr4) $$ Hxr4; iintro Hxr4
  rw [hfr4]
  sx
  iapply (wp_slab_load c (offO c 4) (offO_inb c 4) (off4_O c 4) g2) $$ Ho4; iintro Ho4
  iapply (wp_slab_store c (offO c 4) (offO_inb c 4) (off4_O c 4) g2) $$ Ho4; iintro Ho4
  rw [ret_bind_eq]
  ihave Ho4 := (slabAt_of c (slO c 4) (OUT m c 4)) $$ [Ho4]
  · isplitl [Ho4]; · iexact Ho4
    ipureintro; rw [slab_read_write]; exact (pay26_eq _ _ _).trans (OUT_of m c 4 _ _ hG (rows_off3 m c 4 _ _ rfl))
  sx
  iapply (wp_chunk_load c ysM 4 fys) $$ Hys4; iintro Hys4
  iapply (wp_chunk_store c ysM 4 fys) $$ Hys4; iintro Hys4
  rw [ret_bind_eq]
  sx
  rw [show owedAt c 14 = owedAt c 15 + tallyAt (yrCell (yp c) 4) () N32 from owed_y c 4]
  iapply (wp_ysend m K c 4 _ (dev15_eq c) (owedAt c 15)) $$ [Hys4 Hq4 HO Tys4 Tyr4]
  · isplitl [Hys4 Hq4 HO Tys4 Tyr4]; · iframe # ∗
    ipureintro; rw [chunk_read_write]; exact (pay27_eq _ _ _).trans (YS_of m c 4 _ _ hG (rows_off3 m c 4 _ _ rfl))
  iintro ⟨Cys4, HO⟩
  sx
  -- chunk 5
  iapply (wp_wait_xr m K c 5 (O := owedAt c 15)) $$ [Cxr5 HO Pxr5]
  · isplitr; · iexact HP5
    isplitl [Cxr5]; · iexact Cxr5
    isplitl [HO]; · iexact HO
    isplitr; · iapply (mayWait_xr c 5 15 (by omega)); iexact Hlev
    iexact Pxr5
  iintro ⟨HO, Zxr5, Hc⟩
  ihave Hc := (chunkAt_open c xrM 5 (XR m c 5)) $$ Hc
  icases Hc with ⟨%fr5, %hfr5, Hxr5⟩
  sx
  iapply (wp_chunk_load c xrM 5 fr5) $$ Hxr5; iintro Hxr5
  rw [hfr5]
  sx
  iapply (wp_slab_load c (offO c 5) (offO_inb c 5) (off4_O c 5) g2) $$ Ho5; iintro Ho5
  iapply (wp_slab_store c (offO c 5) (offO_inb c 5) (off4_O c 5) g2) $$ Ho5; iintro Ho5
  rw [ret_bind_eq]
  ihave Ho5 := (slabAt_of c (slO c 5) (OUT m c 5)) $$ [Ho5]
  · isplitl [Ho5]; · iexact Ho5
    ipureintro; rw [slab_read_write]; exact (pay28_eq _ _ _).trans (OUT_of m c 5 _ _ hG (rows_off3 m c 5 _ _ rfl))
  sx
  iapply (wp_chunk_load c ysM 5 fys) $$ Hys5; iintro Hys5
  iapply (wp_chunk_store c ysM 5 fys) $$ Hys5; iintro Hys5
  rw [ret_bind_eq]
  sx
  rw [show owedAt c 15 = owedAt c 16 + tallyAt (yrCell (yp c) 5) () N32 from owed_y c 5]
  iapply (wp_ysend m K c 5 _ (dev16_eq c) (owedAt c 16)) $$ [Hys5 Hq5 HO Tys5 Tyr5]
  · isplitl [Hys5 Hq5 HO Tys5 Tyr5]; · iframe # ∗
    ipureintro; rw [chunk_read_write]; exact (pay30_pay29_eq _ _ _).trans (YS_of m c 5 _ _ hG (rows_off3 m c 5 _ _ rfl))
  iintro ⟨Cys5, HO⟩
  sx
  -- chunk 6
  iapply (wp_wait_xr m K c 6 (O := owedAt c 16)) $$ [Cxr6 HO Pxr6]
  · isplitr; · iexact HP6
    isplitl [Cxr6]; · iexact Cxr6
    isplitl [HO]; · iexact HO
    isplitr; · iapply (mayWait_xr c 6 16 (by omega)); iexact Hlev
    iexact Pxr6
  iintro ⟨HO, Zxr6, Hc⟩
  ihave Hc := (chunkAt_open c xrM 6 (XR m c 6)) $$ Hc
  icases Hc with ⟨%fr6, %hfr6, Hxr6⟩
  sx
  iapply (wp_chunk_load c xrM 6 fr6) $$ Hxr6; iintro Hxr6
  rw [hfr6]
  sx
  iapply (wp_slab_load c (offO c 6) (offO_inb c 6) (off4_O c 6) g2) $$ Ho6; iintro Ho6
  iapply (wp_slab_store c (offO c 6) (offO_inb c 6) (off4_O c 6) g2) $$ Ho6; iintro Ho6
  rw [ret_bind_eq]
  ihave Ho6 := (slabAt_of c (slO c 6) (OUT m c 6)) $$ [Ho6]
  · isplitl [Ho6]; · iexact Ho6
    ipureintro; rw [slab_read_write]; exact (pay34_eq _ _ _).trans (OUT_of m c 6 _ _ hG (rows_off3 m c 6 _ _ rfl))
  sx
  iapply (wp_chunk_load c ysM 6 fys) $$ Hys6; iintro Hys6
  iapply (wp_chunk_store c ysM 6 fys) $$ Hys6; iintro Hys6
  rw [ret_bind_eq]
  sx
  rw [show owedAt c 16 = owedAt c 17 + tallyAt (yrCell (yp c) 6) () N32 from owed_y c 6]
  iapply (wp_ysend m K c 6 _ (dev17_eq c) (owedAt c 17)) $$ [Hys6 Hq6 HO Tys6 Tyr6]
  · isplitl [Hys6 Hq6 HO Tys6 Tyr6]; · iframe # ∗
    ipureintro; rw [chunk_read_write]; exact (pay35_eq _ _ _).trans (YS_of m c 6 _ _ hG (rows_off3 m c 6 _ _ rfl))
  iintro ⟨Cys6, HO⟩
  sx
  -- chunk 7
  iapply (wp_wait_xr m K c 7 (O := owedAt c 17)) $$ [Cxr7 HO Pxr7]
  · isplitr; · iexact HP7
    isplitl [Cxr7]; · iexact Cxr7
    isplitl [HO]; · iexact HO
    isplitr; · iapply (mayWait_xr c 7 17 (by omega)); iexact Hlev
    iexact Pxr7
  iintro ⟨HO, Zxr7, Hc⟩
  ihave Hc := (chunkAt_open c xrM 7 (XR m c 7)) $$ Hc
  icases Hc with ⟨%fr7, %hfr7, Hxr7⟩
  sx
  iapply (wp_chunk_load c xrM 7 fr7) $$ Hxr7; iintro Hxr7
  rw [hfr7]
  sx
  iapply (wp_slab_load c (offO c 7) (offO_inb c 7) (off4_O c 7) g2) $$ Ho7; iintro Ho7
  iapply (wp_slab_store c (offO c 7) (offO_inb c 7) (off4_O c 7) g2) $$ Ho7; iintro Ho7
  rw [ret_bind_eq]
  ihave Ho7 := (slabAt_of c (slO c 7) (OUT m c 7)) $$ [Ho7]
  · isplitl [Ho7]; · iexact Ho7
    ipureintro; rw [slab_read_write]; exact (pay36_eq _ _ _).trans (OUT_of m c 7 _ _ hG (rows_off3 m c 7 _ _ rfl))
  sx
  iapply (wp_chunk_load c ysM 7 fys) $$ Hys7; iintro Hys7
  iapply (wp_chunk_store c ysM 7 fys) $$ Hys7; iintro Hys7
  rw [ret_bind_eq]
  sx
  rw [show owedAt c 17 = owedAt c 18 + tallyAt (yrCell (yp c) 7) () N32 from owed_y c 7]
  iapply (wp_ysend m K c 7 _ (dev18_eq c) (owedAt c 18)) $$ [Hys7 Hq7 HO Tys7 Tyr7]
  · isplitl [Hys7 Hq7 HO Tys7 Tyr7]; · iframe # ∗
    ipureintro; rw [chunk_read_write]; exact (pay37_eq _ _ _).trans (YS_of m c 7 _ _ hG (rows_off3 m c 7 _ _ rfl))
  iintro ⟨Cys7, HO⟩
  sx
  -- the eight chunks from yp: each is waited for, loaded, cast back and stored into the other quarter of the result block
  iapply (wp_wait_yr m K c 0 (O := owedAt c 18)) $$ [Cyr0 HO Pyr0]
  · isplitr; · iexact HP0
    isplitl [Cyr0]; · iexact Cyr0
    isplitl [HO]; · iexact HO
    isplitr; · rw [mayWait_end_eq]; iempintro
    iexact Pyr0
  iintro ⟨HO, Zyr0, Hc⟩
  ihave Hc := (chunkAt_open c yrM 0 (YR m c 0)) $$ Hc
  icases Hc with ⟨%fy0, %hfy0, Hyr0⟩
  iapply (wp_chunk_load c yrM 0 fy0) $$ Hyr0; iintro Hyr0
  rw [hfy0]
  sx
  iapply (wp_slab_load c (offG c 0) (offG_inb c 0) (off5_G c 0) g2) $$ Hg0; iintro Hg0
  iapply (wp_slab_store c (offG c 0) (offG_inb c 0) (off5_G c 0) g2) $$ Hg0; iintro Hg0
  rw [ret_bind_eq]
  ihave Hg0 := (slabAt_of c (slG c 0) (ext (YR m c 0))) $$ [Hg0]
  · isplitl [Hg0]; · iexact Hg0
    ipureintro; rw [slab_read_write]; exact pay38_eq _
  sx
  iapply (wp_wait_yr m K c 1 (O := owedAt c 18)) $$ [Cyr1 HO Pyr1]
  · isplitr; · iexact HP1
    isplitl [Cyr1]; · iexact Cyr1
    isplitl [HO]; · iexact HO
    isplitr; · rw [mayWait_end_eq]; iempintro
    iexact Pyr1
  iintro ⟨HO, Zyr1, Hc⟩
  ihave Hc := (chunkAt_open c yrM 1 (YR m c 1)) $$ Hc
  icases Hc with ⟨%fy1, %hfy1, Hyr1⟩
  iapply (wp_chunk_load c yrM 1 fy1) $$ Hyr1; iintro Hyr1
  rw [hfy1]
  rw [ret_bind_eq]
  sx
  iapply (wp_slab_load c (offG c 1) (offG_inb c 1) (off5_G c 1) g2) $$ Hg1; iintro Hg1
  iapply (wp_slab_store c (offG c 1) (offG_inb c 1) (off5_G c 1) g2) $$ Hg1; iintro Hg1
  rw [ret_bind_eq]
  ihave Hg1 := (slabAt_of c (slG c 1) (ext (YR m c 1))) $$ [Hg1]
  · isplitl [Hg1]; · iexact Hg1
    ipureintro; rw [slab_read_write]; exact pay39_eq _
  sx
  iapply (wp_wait_yr m K c 2 (O := owedAt c 18)) $$ [Cyr2 HO Pyr2]
  · isplitr; · iexact HP2
    isplitl [Cyr2]; · iexact Cyr2
    isplitl [HO]; · iexact HO
    isplitr; · rw [mayWait_end_eq]; iempintro
    iexact Pyr2
  iintro ⟨HO, Zyr2, Hc⟩
  ihave Hc := (chunkAt_open c yrM 2 (YR m c 2)) $$ Hc
  icases Hc with ⟨%fy2, %hfy2, Hyr2⟩
  iapply (wp_chunk_load c yrM 2 fy2) $$ Hyr2; iintro Hyr2
  rw [hfy2]
  sx
  iapply (wp_slab_load c (offG c 2) (offG_inb c 2) (off5_G c 2) g2) $$ Hg2; iintro Hg2
  iapply (wp_slab_store c (offG c 2) (offG_inb c 2) (off5_G c 2) g2) $$ Hg2; iintro Hg2
  rw [ret_bind_eq]
  ihave Hg2 := (slabAt_of c (slG c 2) (ext (YR m c 2))) $$ [Hg2]
  · isplitl [Hg2]; · iexact Hg2
    ipureintro; rw [slab_read_write]; exact pay40_eq _
  sx
  iapply (wp_wait_yr m K c 3 (O := owedAt c 18)) $$ [Cyr3 HO Pyr3]
  · isplitr; · iexact HP3
    isplitl [Cyr3]; · iexact Cyr3
    isplitl [HO]; · iexact HO
    isplitr; · rw [mayWait_end_eq]; iempintro
    iexact Pyr3
  iintro ⟨HO, Zyr3, Hc⟩
  ihave Hc := (chunkAt_open c yrM 3 (YR m c 3)) $$ Hc
  icases Hc with ⟨%fy3, %hfy3, Hyr3⟩
  iapply (wp_chunk_load c yrM 3 fy3) $$ Hyr3; iintro Hyr3
  rw [hfy3]
  rw [ret_bind_eq]
  sx
  iapply (wp_slab_load c (offG c 3) (offG_inb c 3) (off5_G c 3) g2) $$ Hg3; iintro Hg3
  iapply (wp_slab_store c (offG c 3) (offG_inb c 3) (off5_G c 3) g2) $$ Hg3; iintro Hg3
  rw [ret_bind_eq]
  ihave Hg3 := (slabAt_of c (slG c 3) (ext (YR m c 3))) $$ [Hg3]
  · isplitl [Hg3]; · iexact Hg3
    ipureintro; rw [slab_read_write]; exact pay41_eq _
  sx
  iapply (wp_wait_yr m K c 4 (O := owedAt c 18)) $$ [Cyr4 HO Pyr4]
  · isplitr; · iexact HP4
    isplitl [Cyr4]; · iexact Cyr4
    isplitl [HO]; · iexact HO
    isplitr; · rw [mayWait_end_eq]; iempintro
    iexact Pyr4
  iintro ⟨HO, Zyr4, Hc⟩
  ihave Hc := (chunkAt_open c yrM 4 (YR m c 4)) $$ Hc
  icases Hc with ⟨%fy4, %hfy4, Hyr4⟩
  iapply (wp_chunk_load c yrM 4 fy4) $$ Hyr4; iintro Hyr4
  rw [hfy4]
  sx
  iapply (wp_slab_load c (offG c 4) (offG_inb c 4) (off5_G c 4) g2) $$ Hg4; iintro Hg4
  iapply (wp_slab_store c (offG c 4) (offG_inb c 4) (off5_G c 4) g2) $$ Hg4; iintro Hg4
  rw [ret_bind_eq]
  ihave Hg4 := (slabAt_of c (slG c 4) (ext (YR m c 4))) $$ [Hg4]
  · isplitl [Hg4]; · iexact Hg4
    ipureintro; rw [slab_read_write]; exact pay42_eq _
  sx
  iapply (wp_wait_yr m K c 5 (O := owedAt c 18)) $$ [Cyr5 HO Pyr5]
  · isplitr; · iexact HP5
    isplitl [Cyr5]; · iexact Cyr5
    isplitl [HO]; · iexact HO
    isplitr; · rw [mayWait_end_eq]; iempintro
    iexact Pyr5
  iintro ⟨HO, Zyr5, Hc⟩
  ihave Hc := (chunkAt_open c yrM 5 (YR m c 5)) $$ Hc
  icases Hc with ⟨%fy5, %hfy5, Hyr5⟩
  iapply (wp_chunk_load c yrM 5 fy5) $$ Hyr5; iintro Hyr5
  rw [hfy5]
  rw [ret_bind_eq]
  sx
  iapply (wp_slab_load c (offG c 5) (offG_inb c 5) (off5_G c 5) g2) $$ Hg5; iintro Hg5
  iapply (wp_slab_store c (offG c 5) (offG_inb c 5) (off5_G c 5) g2) $$ Hg5; iintro Hg5
  rw [ret_bind_eq]
  ihave Hg5 := (slabAt_of c (slG c 5) (ext (YR m c 5))) $$ [Hg5]
  · isplitl [Hg5]; · iexact Hg5
    ipureintro; rw [slab_read_write]; exact pay43_eq _
  sx
  iapply (wp_wait_yr m K c 6 (O := owedAt c 18)) $$ [Cyr6 HO Pyr6]
  · isplitr; · iexact HP6
    isplitl [Cyr6]; · iexact Cyr6
    isplitl [HO]; · iexact HO
    isplitr; · rw [mayWait_end_eq]; iempintro
    iexact Pyr6
  iintro ⟨HO, Zyr6, Hc⟩
  ihave Hc := (chunkAt_open c yrM 6 (YR m c 6)) $$ Hc
  icases Hc with ⟨%fy6, %hfy6, Hyr6⟩
  iapply (wp_chunk_load c yrM 6 fy6) $$ Hyr6; iintro Hyr6
  rw [hfy6]
  sx
  iapply (wp_slab_load c (offG c 6) (offG_inb c 6) (off5_G c 6) g2) $$ Hg6; iintro Hg6
  iapply (wp_slab_store c (offG c 6) (offG_inb c 6) (off5_G c 6) g2) $$ Hg6; iintro Hg6
  rw [ret_bind_eq]
  ihave Hg6 := (slabAt_of c (slG c 6) (ext (YR m c 6))) $$ [Hg6]
  · isplitl [Hg6]; · iexact Hg6
    ipureintro; rw [slab_read_write]; exact pay44_eq _
  sx
  iapply (wp_wait_yr m K c 7 (O := owedAt c 18)) $$ [Cyr7 HO Pyr7]
  · isplitr; · iexact HP7
    isplitl [Cyr7]; · iexact Cyr7
    isplitl [HO]; · iexact HO
    isplitr; · rw [mayWait_end_eq]; iempintro
    iexact Pyr7
  iintro ⟨HO, Zyr7, Hc⟩
  ihave Hc := (chunkAt_open c yrM 7 (YR m c 7)) $$ Hc
  icases Hc with ⟨%fy7, %hfy7, Hyr7⟩
  iapply (wp_chunk_load c yrM 7 fy7) $$ Hyr7; iintro Hyr7
  rw [hfy7]
  rw [ret_bind_eq]
  sx
  iapply (wp_slab_load c (offG c 7) (offG_inb c 7) (off5_G c 7) g2) $$ Hg7; iintro Hg7
  iapply (wp_slab_store c (offG c 7) (offG_inb c 7) (off5_G c 7) g2) $$ Hg7; iintro Hg7
  rw [ret_bind_eq]
  ihave Hg7 := (slabAt_of c (slG c 7) (ext (YR m c 7))) $$ [Hg7]
  · isplitl [Hg7]; · iexact Hg7
    ipureintro; rw [slab_read_write]; exact pay45_eq _
  sx
  -- the sixteen send waits, chunk by chunk y then x: each send buffer's chunk comes back, each cell closes
  iapply (wp_wait_ys m K c 0 (O := owedAt c 18)) $$ [Cys0 HO Pys0]
  · isplitr; · iexact HP0
    isplitl [Cys0]; · iexact Cys0
    isplitl [HO]; · iexact HO
    isplitr; · rw [mayWait_end_eq]; iempintro
    iexact Pys0
  iintro ⟨HO, Zys0, Sys0⟩
  sx
  iapply (wp_wait_xs m K c 0 (O := owedAt c 18)) $$ [Cxs0 HO Pxs0]
  · isplitr; · iexact HP0
    isplitl [Cxs0]; · iexact Cxs0
    isplitl [HO]; · iexact HO
    isplitr; · rw [mayWait_end_eq]; iempintro
    iexact Pxs0
  iintro ⟨HO, Zxs0, Sxs0⟩
  sx
  iapply (wp_wait_ys m K c 1 (O := owedAt c 18)) $$ [Cys1 HO Pys1]
  · isplitr; · iexact HP1
    isplitl [Cys1]; · iexact Cys1
    isplitl [HO]; · iexact HO
    isplitr; · rw [mayWait_end_eq]; iempintro
    iexact Pys1
  iintro ⟨HO, Zys1, Sys1⟩
  sx
  iapply (wp_wait_xs m K c 1 (O := owedAt c 18)) $$ [Cxs1 HO Pxs1]
  · isplitr; · iexact HP1
    isplitl [Cxs1]; · iexact Cxs1
    isplitl [HO]; · iexact HO
    isplitr; · rw [mayWait_end_eq]; iempintro
    iexact Pxs1
  iintro ⟨HO, Zxs1, Sxs1⟩
  sx
  iapply (wp_wait_ys m K c 2 (O := owedAt c 18)) $$ [Cys2 HO Pys2]
  · isplitr; · iexact HP2
    isplitl [Cys2]; · iexact Cys2
    isplitl [HO]; · iexact HO
    isplitr; · rw [mayWait_end_eq]; iempintro
    iexact Pys2
  iintro ⟨HO, Zys2, Sys2⟩
  sx
  iapply (wp_wait_xs m K c 2 (O := owedAt c 18)) $$ [Cxs2 HO Pxs2]
  · isplitr; · iexact HP2
    isplitl [Cxs2]; · iexact Cxs2
    isplitl [HO]; · iexact HO
    isplitr; · rw [mayWait_end_eq]; iempintro
    iexact Pxs2
  iintro ⟨HO, Zxs2, Sxs2⟩
  sx
  iapply (wp_wait_ys m K c 3 (O := owedAt c 18)) $$ [Cys3 HO Pys3]
  · isplitr; · iexact HP3
    isplitl [Cys3]; · iexact Cys3
    isplitl [HO]; · iexact HO
    isplitr; · rw [mayWait_end_eq]; iempintro
    iexact Pys3
  iintro ⟨HO, Zys3, Sys3⟩
  sx
  iapply (wp_wait_xs m K c 3 (O := owedAt c 18)) $$ [Cxs3 HO Pxs3]
  · isplitr; · iexact HP3
    isplitl [Cxs3]; · iexact Cxs3
    isplitl [HO]; · iexact HO
    isplitr; · rw [mayWait_end_eq]; iempintro
    iexact Pxs3
  iintro ⟨HO, Zxs3, Sxs3⟩
  sx
  iapply (wp_wait_ys m K c 4 (O := owedAt c 18)) $$ [Cys4 HO Pys4]
  · isplitr; · iexact HP4
    isplitl [Cys4]; · iexact Cys4
    isplitl [HO]; · iexact HO
    isplitr; · rw [mayWait_end_eq]; iempintro
    iexact Pys4
  iintro ⟨HO, Zys4, Sys4⟩
  sx
  iapply (wp_wait_xs m K c 4 (O := owedAt c 18)) $$ [Cxs4 HO Pxs4]
  · isplitr; · iexact HP4
    isplitl [Cxs4]; · iexact Cxs4
    isplitl [HO]; · iexact HO
    isplitr; · rw [mayWait_end_eq]; iempintro
    iexact Pxs4
  iintro ⟨HO, Zxs4, Sxs4⟩
  sx
  iapply (wp_wait_ys m K c 5 (O := owedAt c 18)) $$ [Cys5 HO Pys5]
  · isplitr; · iexact HP5
    isplitl [Cys5]; · iexact Cys5
    isplitl [HO]; · iexact HO
    isplitr; · rw [mayWait_end_eq]; iempintro
    iexact Pys5
  iintro ⟨HO, Zys5, Sys5⟩
  sx
  iapply (wp_wait_xs m K c 5 (O := owedAt c 18)) $$ [Cxs5 HO Pxs5]
  · isplitr; · iexact HP5
    isplitl [Cxs5]; · iexact Cxs5
    isplitl [HO]; · iexact HO
    isplitr; · rw [mayWait_end_eq]; iempintro
    iexact Pxs5
  iintro ⟨HO, Zxs5, Sxs5⟩
  sx
  iapply (wp_wait_ys m K c 6 (O := owedAt c 18)) $$ [Cys6 HO Pys6]
  · isplitr; · iexact HP6
    isplitl [Cys6]; · iexact Cys6
    isplitl [HO]; · iexact HO
    isplitr; · rw [mayWait_end_eq]; iempintro
    iexact Pys6
  iintro ⟨HO, Zys6, Sys6⟩
  sx
  iapply (wp_wait_xs m K c 6 (O := owedAt c 18)) $$ [Cxs6 HO Pxs6]
  · isplitr; · iexact HP6
    isplitl [Cxs6]; · iexact Cxs6
    isplitl [HO]; · iexact HO
    isplitr; · rw [mayWait_end_eq]; iempintro
    iexact Pxs6
  iintro ⟨HO, Zxs6, Sxs6⟩
  sx
  iapply (wp_wait_ys m K c 7 (O := owedAt c 18)) $$ [Cys7 HO Pys7]
  · isplitr; · iexact HP7
    isplitl [Cys7]; · iexact Cys7
    isplitl [HO]; · iexact HO
    isplitr; · rw [mayWait_end_eq]; iempintro
    iexact Pys7
  iintro ⟨HO, Zys7, Sys7⟩
  sx
  iapply (wp_wait_xs m K c 7 (O := owedAt c 18)) $$ [Cxs7 HO Pxs7]
  · isplitr; · iexact HP7
    isplitl [Cxs7]; · iexact Cxs7
    isplitl [HO]; · iexact HO
    isplitr; · rw [mayWait_end_eq]; iempintro
    iexact Pxs7
  iintro ⟨HO, Zxs7, Sxs7⟩
  sx
  -- the receive chunks, held since their loads, at their named contents again
  ihave Hxr0 := (chunkAt_intro c xrM 0 fr0 (XR m c 0) hfr0) $$ Hxr0
  ihave Hxr1 := (chunkAt_intro c xrM 1 fr1 (XR m c 1) hfr1) $$ Hxr1
  ihave Hxr2 := (chunkAt_intro c xrM 2 fr2 (XR m c 2) hfr2) $$ Hxr2
  ihave Hxr3 := (chunkAt_intro c xrM 3 fr3 (XR m c 3) hfr3) $$ Hxr3
  ihave Hxr4 := (chunkAt_intro c xrM 4 fr4 (XR m c 4) hfr4) $$ Hxr4
  ihave Hxr5 := (chunkAt_intro c xrM 5 fr5 (XR m c 5) hfr5) $$ Hxr5
  ihave Hxr6 := (chunkAt_intro c xrM 6 fr6 (XR m c 6) hfr6) $$ Hxr6
  ihave Hxr7 := (chunkAt_intro c xrM 7 fr7 (XR m c 7) hfr7) $$ Hxr7
  ihave Hyr0 := (chunkAt_intro c yrM 0 fy0 (YR m c 0) hfy0) $$ Hyr0
  ihave Hyr1 := (chunkAt_intro c yrM 1 fy1 (YR m c 1) hfy1) $$ Hyr1
  ihave Hyr2 := (chunkAt_intro c yrM 2 fy2 (YR m c 2) hfy2) $$ Hyr2
  ihave Hyr3 := (chunkAt_intro c yrM 3 fy3 (YR m c 3) hfy3) $$ Hyr3
  ihave Hyr4 := (chunkAt_intro c yrM 4 fy4 (YR m c 4) hfy4) $$ Hyr4
  ihave Hyr5 := (chunkAt_intro c yrM 5 fy5 (YR m c 5) hfy5) $$ Hyr5
  ihave Hyr6 := (chunkAt_intro c yrM 6 fy6 (YR m c 6) hfy6) $$ Hyr6
  ihave Hyr7 := (chunkAt_intro c yrM 7 fy7 (YR m c 7) hfy7) $$ Hyr7
  -- the return
  sl_step
  iapply Hk
  iapply (finish2 m c _)
  iframe ∗

end Cert.KernelIdeal.Hand

end
-- ==== Proof.Oblig.lean ====
/-
  The body obligation of the pipeline at the one grid point, from the body's own triple: the obligation's
  precondition is the body's, its postcondition the body's, and the pipeline calls the body at the three staged
  buffers and the four scratch buffers the triple is stated over.
-/
import proofs.«900597_g7700000000000598_dist_rsrms_v7x_xy2x2_x_m512_d512_f32_1_alg».proof.Proof.Body

noncomputable section

namespace Cert.KernelIdeal.Hand

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A whole buffer owned at named contents is the buffer held at all its elements, at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8192 in
/-- The pipeline's body obligation on device c. -/
theorem body_obligation (c : Dev nD) : BodyObligation (dats (F := F) m 0 c) (defs₀ (F := F)) Variants.none () Set.univ := fun t => by
  rw [fin_N0 t]
  rw [bigSep_W0, bigSep_W0]
  simp only [owns_whole_eq]
  show bodyPre m c ⊢ wp frame (wpE (defs₀ (F := F)) 𝒱₀ c none) Set.univ
    (cc0_body xM (Memref.isWhole_whole _) gM (Memref.isWhole_whole _) oM (Memref.isWhole_whole _)
      xsM (Memref.isWhole_whole _) xrM (Memref.isWhole_whole _) ysM (Memref.isWhole_whole _) yrM (Memref.isWhole_whole _)
      cc0_scratch4 cc0_scratch5 cc0_scratch6 cc0_scratch7) (fun _ => bodyPost m c)
  iintro H
  iapply (sound_body m c fun _ => bodyPost m c)
  isplitl [H]
  · iexact H
  · iintro H; iexact H

end Cert.KernelIdeal.Hand

end
-- ==== Proof.Bits.Mesh.lean ====
/-
  The 2 × 2 mesh of the reduce-scatter / normalise / all-gather kernel: device d = 2·x + y. The partner across the
  x axis, xp, holds the other summand of every row; the partner across the y axis, yp, normalises the other
  half of this device's 512 result rows. Both are involutions without fixed points, and they commute.
  Also here: the seven VMEM buffers a device works in, their eight 32-row chunks, the four families of eight
  DMA semaphores, and the semaphore cells (device, semaphore) the protocol is stated over.
-/
import proofs.«900597_g7700000000000598_dist_rsrms_v7x_xy2x2_x_m512_d512_f32_1_alg».proof.Proof.Gen.Kernel
import proofs.«900597_g7700000000000598_dist_rsrms_v7x_xy2x2_x_m512_d512_f32_1_alg».proof.Proof.Gen.Kernel.Skeleton
import proofs.«900597_g7700000000000598_dist_rsrms_v7x_xy2x2_x_m512_d512_f32_1_alg».proof.Proof.Gen.Kernel.Launch
import proofs.«900597_g7700000000000598_dist_rsrms_v7x_xy2x2_x_m512_d512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy of the rounds algebra and the protocol's own -/

abbrev UU : Type := UR sig nD τ × UR sig nD τ

abbrev EP : Emb (UR sig nD τ) (MT nD τ sig Unit (Elt F) ℕ UU ℕ) := embL
abbrev ER : Emb (UR sig nD τ) (MT nD τ sig Unit (Elt F) ℕ UU ℕ) := embR

/-! ## The two partners -/

/-- The partner across the x axis: (x, y) ↦ (1 − x, y). -/
def xp (c : Dev nD) : Dev nD := ⟨((c.val % 2) + 2) - 2 * (c.val / 2), by have := c.isLt; revert this; generalize c.val = v; decide +revert⟩
/-- The partner across the y axis: (x, y) ↦ (x, 1 − y). -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem xp_yp (c : Dev nD) : xp (yp c) = yp (xp c) := by revert c; decide

def xpE : Dev nD ≃ Dev nD := ⟨xp, xp, xp_xp, xp_xp⟩
def ypE : Dev nD ≃ Dev nD := ⟨yp, yp, yp_yp, yp_yp⟩

/-- The kernel's device chains: the first signal and the eight x transfers name xp, the second signal and the
    eight y transfers name yp. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)

/-! ## Buffers, chunks, semaphores, cells -/

/-- The staged block of partial sums, the staged gamma, the staged result block. -/
abbrev xM : Memref sig .tc .vmem S1x1024x512 .f32 := Memref.whole cc0_stg0_0
abbrev gM : Memref sig .tc .vmem S512 .f32 := Memref.whole cc0_stg1_0
abbrev oM : Memref sig .tc .vmem S512x512 .f32 := Memref.whole cc0_stg2_0
/-- The four bf16 scratch buffers of 256 rows: sent across x, received across x, sent across y, received across y. -/
abbrev xsM : Memref sig .tc .vmem S256x512 .bf16 := Memref.whole cc0_scratch0
abbrev xrM : Memref sig .tc .vmem S256x512 .bf16 := Memref.whole cc0_scratch1
abbrev ysM : Memref sig .tc .vmem S256x512 .bf16 := Memref.whole cc0_scratch2
abbrev yrM : Memref sig .tc .vmem S256x512 .bf16 := Memref.whole cc0_scratch3

theorem ck_inb (k : Fin 8) : ∀ a, (![32 * k.val, 0] : Fin 2 → Nat) a + S32x512.size a ≤ S256x512.size a := by
  revert k; decide
/-- Chunk k of a 256-row buffer: rows 32 k … 32 k + 31. -/
abbrev ck (k : Fin 8) : Rect S256x512 := Rect.unit (s := S256x512) ![32 * k.val, 0] S32x512.size (ck_inb k)
/-- The chunk as a memref of its own. -/
abbrev sl (M : Memref sig .tc .vmem S256x512 .bf16) (k : Fin 8) : Memref sig .tc .vmem S32x512 .bf16 := M.slice (ck k) (fun _ => rfl)

theorem s1_inb (k : Fin 8) : ∀ a, (![k.val] : Fin 1 → Nat) a + S1.size a ≤ S8.size a := by revert k; decide
/-- Semaphore k of a family of eight. -/
abbrev sm (A : DmaSems sig S8) (k : Fin 8) : DmaSem sig := ((A.slice (Rect.unit (s := S8) ![k.val] S1.size (s1_inb k))).squeeze S_ squeezes_S1_S_).sem

/-- The runtime's barrier semaphore of collective id 0. -/
abbrev barS : Sem sig := (SemArray.scalar (sig.barrier 0 rfl) : Sems sig S_).sem

abbrev barCell (c : Dev nD) : GSem nD τ sig := ((c : Thread nD τ), .reg barS)
/-- The DMA cells of device c: x-send, x-receive, y-send, y-receive of chunk k. -/
abbrev xsCell (c : Dev nD) (k : Fin 8) : GSem nD τ sig := ((c : Thread nD τ), .dma (sm cc0_scratch4 k))
abbrev xrCell (c : Dev nD) (k : Fin 8) : GSem nD τ sig := ((c : Thread nD τ), .dma (sm cc0_scratch5 k))
abbrev ysCell (c : Dev nD) (k : Fin 8) : GSem nD τ sig := ((c : Thread nD τ), .dma (sm cc0_scratch6 k))
abbrev yrCell (c : Dev nD) (k : Fin 8) : GSem nD τ sig := ((c : Thread nD τ), .dma (sm cc0_scratch7 k))

/-- The semaphore numbers: families at 3, 11, 19, 27 of the pool of 35. -/
theorem sm4_val (k : Fin 8) : (sm cc0_scratch4 k).val = 3 + k.val := by revert k; decide
theorem sm5_val (k : Fin 8) : (sm cc0_scratch5 k).val = 11 + k.val := by revert k; decide
theorem sm6_val (k : Fin 8) : (sm cc0_scratch6 k).val = 19 + k.val := by revert k; decide
theorem sm7_val (k : Fin 8) : (sm cc0_scratch7 k).val = 27 + k.val := by revert k; decide

/-- A chunk's credit on a DMA semaphore. -/
abbrev N32 : ℕ := (sl xsM 0).view.dmaCredit
theorem N32_pos : 0 < N32 := View.dmaCredit_pos _ (by decide)

end Cert.Kernel.Hand

end
-- ==== Proof.Bits.Pays.lean ====
/-
  The arithmetic of one chunk of 32 rows, under uniform names. Every chunk computes the same five functions,
  whatever the places at which its text happens to be cut:
    cvt      32 rows of partial sums, cast to bf16 (what is sent across the x axis);
    gRow     the weight vector as a one-row matrix;
    outRows  the 32 normalised rows: with s = own rows + received rows, row by row
             s · rsqrt ((Σ s²) · 2⁻⁹ + ε) · γ;
    ysRows   the same rows cast to bf16 (what is sent across the y axis);
    ext      32 received bf16 rows cast back to f32.
  First the definitions and, for every composition of payloads the body meets, the equation that it is one of the
  five. Then, on the extended reals, the two facts the value argument needs: casting to bf16 and back changes
  nothing, and one entry of the normalised rows is the row arithmetic of the specification.
-/
import proofs.«900597_g7700000000000598_dist_rsrms_v7x_xy2x2_x_m512_d512_f32_1_alg».proof.Proof.Bits.Mesh
import proofs.«900597_g7700000000000598_dist_rsrms_v7x_xy2x2_x_m512_d512_f32_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Kernel.Hand

open Cert.Kernel Cert.Kernel.Gen
open Idealize.ShloMosaic
open Idealize.ShloMosaic.ValueIdx

variable {F : FTy → Type} [FloatOps F]

/-! ## The five functions -/

/-- 32 rows of partial sums, cast to bf16. -/
def cvt (x : Vec F S1x32x512 .f32) : FVec F S32x512 .bf16 :=
  shapeCast S32x512 (truncf .bf16 (shapeCast S32x512 x shapeCasts_S1x32x512_S32x512) bitsLt_bf16_f32)
    shapeCasts_S32x512_S32x512

/-- The weights as a one-row matrix. -/
def gRow (g : Vec F S512 .f32) : FVec F S1x512 .f32 :=
  shapeCast S1x512 (shapeCast S512 g shapeCasts_S512_S512) shapeCasts_S512_S1x512

/-- The sum of this device's 32 rows and the partner's, received as bf16. -/
def sumRows (xa : Vec F S1x32x512 .f32) (xr : Vec F S32x512 .bf16) : FVec F S32x512 .f32 :=
  addf (shapeCast S32x512 xa shapeCasts_S1x32x512_S32x512) (extf .f32 xr bitsLt_bf16_f32)

/-- Per row, the scale rsqrt ((Σ s²) · 2⁻⁹ + ε), as a column. -/
def scaleCol (s : FVec F S32x512 .f32) : FVec F S32x1 .f32 :=
  rsqrt (addf
    (mulf
      (shapeCast S32x1 (multiReduction .add [1] S32 (mulf s s) 0x00000000#32 reduces_S32x512_S32 (.inl rfl) rfl)
        shapeCasts_S32_S32x1)
      (broadcast S32x1 (Scalar.ofBits .f32 0x3B000000#32)))
    (broadcast S32x1 (Scalar.ofBits .f32 0x358637BD#32)))

/-- The 32 normalised rows. -/
def outRows (g : FVec F S1x512 .f32) (xa : Vec F S1x32x512 .f32) (xr : Vec F S32x512 .bf16) : FVec F S32x512 .f32 :=
  mulf
    (mulf (sumRows xa xr) (broadcastTo S32x512 (scaleCol (sumRows xa xr)) broadcasts_S32x1_S32x512))
    (broadcastTo S32x512 g broadcasts_S1x512_S32x512)

/-- The normalised rows cast to bf16. -/
def ysRows (g : FVec F S1x512 .f32) (xa : Vec F S1x32x512 .f32) (xr : Vec F S32x512 .bf16) : FVec F S32x512 .bf16 :=
  shapeCast S32x512 (truncf .bf16 (outRows g xa xr) bitsLt_bf16_f32) shapeCasts_S32x512_S32x512

/-- 32 received bf16 rows cast back to f32. -/
def ext (v : Vec F S32x512 .bf16) : FVec F S32x512 .f32 := extf .f32 v bitsLt_bf16_f32

/-! ## The payloads are these five functions

The eight casts of partial rows (the third is cut in two), the weights' reshape, the eight normalisations (the first,
fourth and seventh are cut after the sum of squares), their eight casts to bf16 (the third and sixth are cut before
the last reshape) and the eight casts back: the same pure operations in the same order, so each equation holds by
unfolding. -/

theorem pay1_eq (x : Vec F S1x32x512 .f32) : k0_pay1 x = cvt x := rfl
theorem pay2_eq (x : Vec F S1x32x512 .f32) : k0_pay2 x = cvt x := rfl
theorem pay4_pay3_eq (x : Vec F S1x32x512 .f32) : k0_pay4 (k0_pay3 x) = cvt x := rfl
theorem pay5_eq (x : Vec F S1x32x512 .f32) : k0_pay5 x = cvt x := rfl
theorem pay6_eq (x : Vec F S1x32x512 .f32) : k0_pay6 x = cvt x := rfl
theorem pay7_eq (x : Vec F S1x32x512 .f32) : k0_pay7 x = cvt x := rfl
theorem pay8_eq (x : Vec F S1x32x512 .f32) : k0_pay8 x = cvt x := rfl
theorem pay9_eq (x : Vec F S1x32x512 .f32) : k0_pay9 x = cvt x := rfl

theorem pay10_eq (g : Vec F S512 .f32) : k0_pay10 g = gRow g := rfl

theorem pay14_eq (g : FVec F S1x512 .f32) (xa : Vec F S1x32x512 .f32) (xr : Vec F S32x512 .bf16) :
    k0_pay14 g (k0_pay11 xa xr) (k0_pay12 xa xr) (k0_pay13 (F := F)) = outRows g xa xr := rfl
theorem pay16_eq (g : FVec F S1x512 .f32) (xa : Vec F S1x32x512 .f32) (xr : Vec F S32x512 .bf16) :
    k0_pay16 g xa xr = outRows g xa xr := rfl
theorem pay18_eq (g : FVec F S1x512 .f32) (xa : Vec F S1x32x512 .f32) (xr : Vec F S32x512 .bf16) :
    k0_pay18 g xa xr = outRows g xa xr := rfl
theorem pay24_eq (g : FVec F S1x512 .f32) (xa : Vec F S1x32x512 .f32) (xr : Vec F S32x512 .bf16) :
    k0_pay24 g (k0_pay21 xa xr) (k0_pay22 xa xr) (k0_pay23 (F := F)) = outRows g xa xr := rfl
theorem pay26_eq (g : FVec F S1x512 .f32) (xa : Vec F S1x32x512 .f32) (xr : Vec F S32x512 .bf16) :
    k0_pay26 g xa xr = outRows g xa xr := rfl
theorem pay28_eq (g : FVec F S1x512 .f32) (xa : Vec F S1x32x512 .f32) (xr : Vec F S32x512 .bf16) :
    k0_pay28 g xa xr = outRows g xa xr := rfl
theorem pay34_eq (g : FVec F S1x512 .f32) (xa : Vec F S1x32x512 .f32) (xr : Vec F S32x512 .bf16) :
    k0_pay34 g (k0_pay31 xa xr) (k0_pay32 xa xr) (k0_pay33 (F := F)) = outRows g xa xr := rfl
theorem pay36_eq (g : FVec F S1x512 .f32) (xa : Vec F S1x32x512 .f32) (xr : Vec F S32x512 .bf16) :
    k0_pay36 g xa xr = outRows g xa xr := rfl

theorem pay15_eq (g : FVec F S1x512 .f32) (xa : Vec F S1x32x512 .f32) (xr : Vec F S32x512 .bf16) :
    k0_pay15 g (k0_pay11 xa xr) (k0_pay12 xa xr) (k0_pay13 (F := F)) = ysRows g xa xr := rfl
theorem pay17_eq (g : FVec F S1x512 .f32) (xa : Vec F S1x32x512 .f32) (xr : Vec F S32x512 .bf16) :
    k0_pay17 g xa xr = ysRows g xa xr := rfl
theorem pay20_pay19_eq (g : FVec F S1x512 .f32) (xa : Vec F S1x32x512 .f32) (xr : Vec F S32x512 .bf16) :
    k0_pay20 (k0_pay19 g xa xr) = ysRows g xa xr := rfl
theorem pay25_eq (g : FVec F S1x512 .f32) (xa : Vec F S1x32x512 .f32) (xr : Vec F S32x512 .bf16) :
    k0_pay25 g (k0_pay21 xa xr) (k0_pay22 xa xr) (k0_pay23 (F := F)) = ysRows g xa xr := rfl
theorem pay27_eq (g : FVec F S1x512 .f32) (xa : Vec F S1x32x512 .f32) (xr : Vec F S32x512 .bf16) :
    k0_pay27 g xa xr = ysRows g xa xr := rfl
theorem pay30_pay29_eq (g : FVec F S1x512 .f32) (xa : Vec F S1x32x512 .f32) (xr : Vec F S32x512 .bf16) :
    k0_pay30 (k0_pay29 g xa xr) = ysRows g xa xr := rfl
theorem pay35_eq (g : FVec F S1x512 .f32) (xa : Vec F S1x32x512 .f32) (xr : Vec F S32x512 .bf16) :
    k0_pay35 g (k0_pay31 xa xr) (k0_pay32 xa xr) (k0_pay33 (F := F)) = ysRows g xa xr := rfl
theorem pay37_eq (g : FVec F S1x512 .f32) (xa : Vec F S1x32x512 .f32) (xr : Vec F S32x512 .bf16) :
    k0_pay37 g xa xr = ysRows g xa xr := rfl

theorem pay38_eq (v : Vec F S32x512 .bf16) : k0_pay38 v = ext v := rfl
theorem pay39_eq (v : Vec F S32x512 .bf16) : k0_pay39 v = ext v := rfl
theorem pay40_eq (v : Vec F S32x512 .bf16) : k0_pay40 v = ext v := rfl
theorem pay41_eq (v : Vec F S32x512 .bf16) : k0_pay41 v = ext v := rfl
theorem pay42_eq (v : Vec F S32x512 .bf16) : k0_pay42 v = ext v := rfl
theorem pay43_eq (v : Vec F S32x512 .bf16) : k0_pay43 v = ext v := rfl
theorem pay44_eq (v : Vec F S32x512 .bf16) : k0_pay44 v = ext v := rfl
theorem pay45_eq (v : Vec F S32x512 .bf16) : k0_pay45 v = ext v := rfl

/-! ## Three layout operations read at an index

The column forms of a keep-dimensions row reduction: a vector of row values viewed as a column, and a column
spread over the lanes; and the source index of a row reduction. -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of the lane reduction over row `r` with lane `k` is `(r, k)`. -/
theorem lift_row (r : Fin 32) (k : Fin (S32x512.size 1)) :
    reduces_S32x512_S32.lift (ix1 r) k = ix2 r (k : Fin 512) := by
  funext c
  refine Fin.ext ?_
  match c with
  | ⟨0, _⟩ => rfl
  | ⟨1, _⟩ => rfl

/-! ## On the extended reals -/

/-- The lane reduction of a 32 × 512 array at row `r` is the sum over the row. -/
theorem rowSum_apply (s : FVec Ideal S32x512 .f32) (r : Fin 32) :
    multiReduction (F := Ideal) .add [1] S32 s 0x00000000#32 reduces_S32x512_S32 (.inl rfl) rfl (ix1 r)
      = ∑ k : Fin 512, s (ix2 r k) :=
  (Ideal.multiReduction_add_single s 0x00000000#32 reduces_S32x512_S32 (.inl rfl) rfl (ix1 r)).trans
    (Finset.sum_congr rfl fun k _ => congrArg s (lift_row r k))

/-- Casting rows to bf16 changes nothing. -/
theorem cvt_apply (x : Vec Ideal S1x32x512 .f32) (r : Fin 32) (j : Fin 512) :
    cvt x (ix2 r j) = x (ix3 (0 : Fin 1) r j) := by
  unfold cvt
  rw [shapeCast_self, truncf_apply, shapeCast_1ab_ab_apply]

/-- The weights' row reads the weight of its lane. -/
theorem gRow_apply (γ : Vec Ideal S512 .f32) (u : Fin 1) (j : Fin 512) : gRow γ (ix2 u j) = γ (ix1 j) := by
  unfold gRow
  rw [shapeCast_a_1a_apply, shapeCast_self]

/-- An entry of the summed rows is the sum of the two devices' entries. -/
theorem sumRows_apply (xa xb : Vec Ideal S1x32x512 .f32) (r : Fin 32) (j : Fin 512) :
    sumRows xa (cvt xb) (ix2 r j) = xa (ix3 (0 : Fin 1) r j) + xb (ix3 (0 : Fin 1) r j) := by
  unfold sumRows
  rw [addf_apply, shapeCast_1ab_ab_apply, extf_apply, cvt_apply]

/-- The scale of row `r`. -/
theorem scaleCol_apply (s : FVec Ideal S32x512 .f32) (r : Fin 32) (u : Fin 1) :
    scaleCol s (ix2 r u)
      = Ideal.rsqrt ((∑ k : Fin 512, s (ix2 r k) * s (ix2 r k)) * Cert.Spec.cInv512 + Cert.Spec.eps) := by
  unfold scaleCol
  show Ideal.rsqrt (shapeCast S32x1 (multiReduction (F := Ideal) .add [1] S32 (mulf s s) 0x00000000#32
      reduces_S32x512_S32 (.inl rfl) rfl) shapeCasts_S32_S32x1 (ix2 r u) * Cert.Spec.cInv512 + Cert.Spec.eps) = _
  rw [shapeCast_a_a1_apply, rowSum_apply]
  rfl

/-- A cast back to f32 changes nothing. -/
theorem ext_apply (v : Vec Ideal S32x512 .bf16) (i : S32x512.Idx) : ext v i = v i := rfl

/-- Casting the normalised rows to bf16 and back changes nothing. -/
theorem ext_ysRows (g : FVec Ideal S1x512 .f32) (xa : Vec Ideal S1x32x512 .f32) (xr : Vec Ideal S32x512 .bf16) :
    ext (ysRows g xa xr) = outRows g xa xr := by
  unfold ext ysRows
  rw [shapeCast_self]
  rfl

/-- One entry of the normalised rows is the specification's row arithmetic on the sum of the two devices' rows. -/
theorem outRows_apply (γ : Vec Ideal S512 .f32) (xa xb : Vec Ideal S1x32x512 .f32) (r : Fin 32) (j : Fin 512) :
    outRows (gRow γ) xa (cvt xb) (ix2 r j)
      = Cert.Spec.kernEntry (fun j' => xa (ix3 0 r j') + xb (ix3 0 r j')) (fun j' => γ (ix1 j')) j := by
  unfold outRows Cert.Spec.kernEntry
  rw [mulf_apply, mulf_apply, broadcastTo_1b_ab_apply, broadcastTo_a1_ab_apply, gRow_apply, scaleCol_apply,
    sumRows_apply]
  simp only [sumRows_apply]

end Cert.Kernel.Hand

end
-- ==== Proof.Bits.Proto.lean ====
/-
  The protocol of the DMA semaphores, as a schedule of the rounds discipline. Every one of a device's 32 DMA cells
  (x-send, x-receive, y-send, y-receive of chunk k) has ONE round with ONE duty of a chunk's credit:
    x-send k of c   : paid by c's own transfer once chunk k of its send buffer has been read out; hands the chunk back;
    x-receive k of c: paid by xp c's transfer; hands c chunk k of its receive buffer holding xp c's 32 partial rows
                      32 k … 32 k + 31 of c's quarter, cast to bf16;
    y-send k, y-receive k: the same across y, the rows being the 32 normalised rows.
  A payload names the chunk's contents: some buffer contents whose read through the chunk is the named vector.
-/
import proofs.«900597_g7700000000000598_dist_rsrms_v7x_xy2x2_x_m512_d512_f32_1_alg».proof.Proof.Bits.Mesh
import proofs.«900597_g7700000000000598_dist_rsrms_v7x_xy2x2_x_m512_d512_f32_1_alg».proof.Proof.Bits.Pays

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the buffers hold -/

/-- Device c's staged block of partial sums and its staged gamma: the launch contents of its argument arrays. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))

/-- Row offsets into the block of 1024 rows: the partner's quarter 512 (1 − x) + 256 y, and the device's own
    512 x + 256 y, at chunk k. -/
def offP (c : Dev nD) (k : Fin 8) : Fin 3 → Nat := ![0, (256 * (c.val % 2) + 32 * k.val + 512) - 512 * (c.val / 2), 0]
def offM (c : Dev nD) (k : Fin 8) : Fin 3 → Nat := ![0, 512 * (c.val / 2) + 256 * (c.val % 2) + 32 * k.val, 0]
theorem offP_inb (c : Dev nD) (k : Fin 8) : ∀ a, offP c k a + S1x32x512.size a ≤ S1x1024x512.size a := by
  revert c k; decide
theorem offM_inb (c : Dev nD) (k : Fin 8) : ∀ a, offM c k a + S1x32x512.size a ≤ S1x1024x512.size a := by
  revert c k; decide

/-- The 32 rows of c's block at chunk k of the partner's quarter, and of its own. -/
def rowsP (c : Dev nD) (k : Fin 8) : Vec F S1x32x512 .f32 :=
  (xM : Memref sig .tc .vmem S1x1024x512 .f32).view.readAt (Elt F) (Rect.unit (s := S1x1024x512) (offP c k) S1x32x512.size (offP_inb c k)).toLoadRect (xstg m c)
def rowsM (c : Dev nD) (k : Fin 8) : Vec F S1x32x512 .f32 :=
  (xM : Memref sig .tc .vmem S1x1024x512 .f32).view.readAt (Elt F) (Rect.unit (s := S1x1024x512) (offM c k) S1x32x512.size (offM_inb c k)).toLoadRect (xstg m c)

/-- What c sends across x as chunk k, what it receives, the 32 normalised rows it computes, what it sends across y,
    what it receives across y. -/
def XS (c : Dev nD) (k : Fin 8) : FVec F S32x512 .bf16 := cvt (rowsP m c k)
def XR (c : Dev nD) (k : Fin 8) : FVec F S32x512 .bf16 := XS m (xp c) k
def OUT (c : Dev nD) (k : Fin 8) : FVec F S32x512 .f32 := outRows (gRow (gstg m c)) (rowsM m c k) (XR m c k)
def YS (c : Dev nD) (k : Fin 8) : FVec F S32x512 .bf16 := ysRows (gRow (gstg m c)) (rowsM m c k) (XR m c k)
def YR (c : Dev nD) (k : Fin 8) : FVec F S32x512 .bf16 := YS m (yp c) k

/-! ## The result block: sixteen slabs of 32 rows -/

/-- Row offsets into the result block of 512 rows: the device's own quarter 256 y, and the partner's 256 (1 − y), at chunk k. -/
def offO (c : Dev nD) (k : Fin 8) : Fin 2 → Nat := ![256 * (c.val % 2) + 32 * k.val, 0]
def offG (c : Dev nD) (k : Fin 8) : Fin 2 → Nat := ![(32 * k.val + 256) - 256 * (c.val % 2), 0]
theorem offO_inb (c : Dev nD) (k : Fin 8) : ∀ a, offO c k a + S32x512.size a ≤ S512x512.size a := by revert c k; decide
theorem offG_inb (c : Dev nD) (k : Fin 8) : ∀ a, offG c k a + S32x512.size a ≤ S512x512.size a := by revert c k; decide
/-- The slab the device normalises itself at chunk k, and the one it receives from yp. -/
abbrev slO (c : Dev nD) (k : Fin 8) : Rect S512x512 := Rect.unit (s := S512x512) (offO c k) S32x512.size (offO_inb c k)
abbrev slG (c : Dev nD) (k : Fin 8) : Rect S512x512 := Rect.unit (s := S512x512) (offG c k) S32x512.size (offG_inb c k)

/-- What the result block holds in the end: row r of the device's own quarter is row r mod 32 of the chunk r / 32 it
    normalised; row r of the other quarter is the same row of what yp normalised, cast to bf16 and back. -/
def outFinal (c : Dev nD) : (cc0_stg2_0 : Ref sig .tc).ty.Contents (Elt F) := fun i =>
  if (i 0).val / 256 = c.val % 2 then
    OUT m c ⟨((i 0).val % 256) / 32, by have := (i 0).isLt; omega⟩ (ValueIdx.ix2 (n0 := 32) (n1 := 512) ⟨(i 0).val % 32, Nat.mod_lt _ (by decide)⟩ ⟨(i 1).val, (i 1).isLt⟩)
  else
    ext (YR m c ⟨((i 0).val % 256) / 32, by have := (i 0).isLt; omega⟩) (ValueIdx.ix2 (n0 := 32) (n1 := 512) ⟨(i 0).val % 32, Nat.mod_lt _ (by decide)⟩ ⟨(i 1).val, (i 1).isLt⟩)

/-! ## Chunks held at named contents -/

/-- Chunk k of buffer M on device c, held at the full share, the buffer's contents there f. -/
abbrev chk (c : Dev nD) (M : Memref sig .tc .vmem S256x512 .bf16) (k : Fin 8) (f : Buf (Elt F) ((M.access (ck k)).loc (c : Thread nD τ))) : sProp 𝕄 :=
  (M.access (ck k)).loc (c : Thread nD τ) ↦[(M.access (ck k)).set]{fullShare} f
/-- Chunk k of buffer M on device c holds the vector v. -/
def chunkAt (c : Dev nD) (M : Memref sig .tc .vmem S256x512 .bf16) (k : Fin 8) (v : FVec F S32x512 .bf16) : sProp 𝕄 :=
  iprop(∃ f : Buf (Elt F) ((M.access (ck k)).loc (c : Thread nD τ)), ⌜(M.access (ck k)).read (Elt F) f = v⌝ ∗ chk c M k f)
/-- Chunk k of buffer M on device c, at any contents. -/
def chunkAny (c : Dev nD) (M : Memref sig .tc .vmem S256x512 .bf16) (k : Fin 8) : sProp 𝕄 :=
  iprop(∃ f : Buf (Elt F) ((M.access (ck k)).loc (c : Thread nD τ)), chk c M k f)

omit [FloatOps F] in
instance chunkAt_storable (c : Dev nD) (M) (k : Fin 8) (v) : BI.Storable (upEmb : UEmb _ 𝕄) (chunkAt (F := F) c M k v) := by
  unfold chunkAt; infer_instance
omit [FloatOps F] in
instance chunkAny_storable (c : Dev nD) (M) (k : Fin 8) : BI.Storable (upEmb : UEmb _ 𝕄) (chunkAny (F := F) c M k) := by
  unfold chunkAny; infer_instance

/-! ## The schedule -/

/-- The four families of DMA semaphores, by number: 3 + k, 11 + k, 19 + k, 27 + k. -/
def famOf (s : DmaSem sig) : Option (Fin 4 × Fin 8) :=
  if h : 3 ≤ s.val ∧ s.val < 35 then some (⟨(s.val - 3) / 8, by omega⟩, ⟨(s.val - 3) % 8, Nat.mod_lt _ (by decide)⟩) else none

/-- The payload of a DMA cell of device c, by family and chunk. -/
def payOf (c : Dev nD) : Fin 4 × Fin 8 → sProp 𝕄
  | (⟨0, _⟩, k) => chunkAt c xsM k (XS m c k)
  | (⟨1, _⟩, k) => chunkAt c xrM k (XR m c k)
  | (⟨2, _⟩, k) => chunkAt c ysM k (YS m c k)
  | (⟨_ + 3, _⟩, k) => chunkAt c yrM k (YR m c k)

def cellPay (g : GSem nD τ sig) : sProp 𝕄 :=
  match g.2 with
  | .dma s => match famOf s with
    | some fk => payOf m g.1.1 fk
    | none => iprop(emp)
  | _ => iprop(emp)

abbrev IsXfer (g : GSem nD τ sig) : Prop := g.1.2 = .tc ∧ ∃ s, g.2 = .dma s ∧ (famOf s).isSome

instance (g : GSem nD τ sig) : Decidable (IsXfer g) := by unfold IsXfer; infer_instance

def dmaRd : Rounds.Schedule (GSem nD τ sig) Unit 𝕄 where
  duties g r := if r = 0 ∧ IsXfer g then {()} else ∅
  amount _ _ _ := N32
  payload g _ _ := cellPay m g
  amount_pos _ _ _ _ := N32_pos

end Cert.Kernel.Hand

end
-- ==== Proof.Bits.Steps.lean ====
/-
  One rule per kind of step a device takes on a 32-row chunk of one of its four bf16 buffers: a load of the chunk,
  a store of the chunk, the remote transfer of a chunk into the partner's chunk, and the wait on one DMA cell.
  A chunk is held as the elements of its rectangle of the buffer, at the full share.
-/
import proofs.«900597_g7700000000000598_dist_rsrms_v7x_xy2x2_x_m512_d512_f32_1_alg».proof.Proof.Bits.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-- A load of the chunk reads the chunk's contents. -/
theorem wp_chunk_load (c : Dev nD) (M : Memref sig .tc .vmem S256x512 .bf16) (k : Fin 8) {hl : M.view.LoadsAt (ck k).toLoadRect}
    {α : Type} {kk : ((ck k).toLoadRect.shape.Idx → Elt F .bf16) → Prog (TpuEff nD τ sig (Elt F) Λ₀ .tc) α} {Q : α → sProp 𝕄}
    (f : Buf (Elt F) ((M.access (ck k)).loc (c : Thread nD τ))) :
    chk c M k f ⊢ iprop((chk c M k f -∗ wp frame (wpE (defs₀ (F := F)) 𝒱₀ c none) Set.univ (kk ((M.access (ck k)).read (Elt F) f)) Q)
      -∗ wp frame (wpE (defs₀ (F := F)) 𝒱₀ c none) Set.univ (.op (.load M (ck k).toLoadRect hl) kk) Q) :=
  wp_load_rect 𝒱₀ (c : Thread nD τ) none Set.univ subset_rfl

/-- A store of a whole chunk: the chunk then reads as what was stored. -/
theorem wp_chunk_store (c : Dev nD) (M : Memref sig .tc .vmem S256x512 .bf16) (k : Fin 8) {w : (ck k).shape.Idx → Elt F .bf16}
    {hx : (M.access (ck k)).Stores Finset.univ} {hm : (Finset.univ : Finset (ck k).shape.Idx) = Finset.univ ∨ ∀ a, (ck k).stride a = 1}
    {α : Type} {kk : PUnit → Prog (TpuEff nD τ sig (Elt F) Λ₀ .tc) α} {Q : α → sProp 𝕄}
    (f : Buf (Elt F) ((M.access (ck k)).loc (c : Thread nD τ))) :
    chk c M k f ⊢ iprop((chk c M k ((M.access (ck k)).write (Elt F) f w Finset.univ) -∗ wp frame (wpE (defs₀ (F := F)) 𝒱₀ c none) Set.univ (kk ⟨⟩) Q)
      -∗ wp frame (wpE (defs₀ (F := F)) 𝒱₀ c none) Set.univ (.op (.store M (ck k) w Finset.univ hx hm) kk) Q) :=
  wp_store 𝒱₀ (c : Thread nD τ) none Set.univ (by rw [View.setOn_univ])

/-! ## The schedule's tables at a DMA cell -/

theorem duties_xfer (g : GSem nD τ sig) (h : IsXfer g) : (dmaRd (F := F) m).duties g 0 = {()} := by
  dsimp only [dmaRd]; exact if_pos ⟨rfl, h⟩
theorem duties_later (g : GSem nD τ sig) : ∀ r, 1 ≤ r → (dmaRd (F := F) m).duties g r = ∅ :=
  fun r hr => by dsimp only [dmaRd]; rw [if_neg fun h => by omega]
theorem amount_xfer (g : GSem nD τ sig) (r : ℕ) (d : Unit) : (dmaRd (F := F) m).amount g r d = N32 := rfl
theorem expect_xfer (g : GSem nD τ sig) (h : IsXfer g) : (dmaRd (F := F) m).expect g 0 = N32 := by
  unfold Schedule.expect Schedule.amountOf; rw [duties_xfer m g h, Finset.sum_singleton]; rfl
theorem payload_xfer (g : GSem nD τ sig) (r : ℕ) (d : Unit) : (dmaRd (F := F) m).payload g r d = cellPay m g := rfl
theorem rest_xfer (g : GSem nD τ sig) (h : IsXfer g) :
    bigSep ((dmaRd (F := F) m).duties g 0 \ ∅) (fun d => (dmaRd (F := F) m).payload g 0 d) = cellPay m g := by
  rw [Finset.sdiff_empty, duties_xfer m g h, bigSep_singleton]; rfl

/-- The wait on one of the device's own DMA cells, owing O at levels above it: the cell's one round is consumed and its
    payload taken. -/
theorem wp_dma_wait (c : Dev nD) (s : DmaSem sig) (h : IsXfer ((c : Thread nD τ), .dma s)) {κ : ℕ}
    {sp sp' : Space} {sh sh' : Shape} {e e' : EltTy} {src : Memref sig .tc sp' sh' e'} {κ' : Kind} {dst : Memref sig κ' sp sh e}
    {hsrc : src.view.WordExact} {hdst : dst.view.WordExact} (hcr : dst.view.dmaCredit = N32)
    {O : CellTallies nD τ sig Unit} {W : Waits sig Unit}
    {α : Type} {kk : PUnit → Prog (TpuEff nD τ sig (Elt F) Λ₀ .tc) α} {Q : α → sProp 𝕄} :
    iprop(cellInv ER (dmaRd m) κ ((c : Thread nD τ), .dma s) ∗ cred (tallyAt ((c : Thread nD τ), .dma s) () N32) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ atPos ER ((c : Thread nD τ), .dma s) 1 ∅ 0 ∗ cellPay m ((c : Thread nD τ), .dma s))
            -∗ wp frame (wpE (defs₀ (F := F)) 𝒱₀ c none) Set.univ (kk ⟨⟩) Q)
          -∗ wp frame (wpE (defs₀ (F := F)) 𝒱₀ c none) Set.univ (.op (.waitDma2 s src dst hsrc hdst) kk) Q) := by
  iintro H Hk
  iapply (Rounds.wp_wait_rest_token 𝒱₀ ER (dmaRd m) (c : Thread nD τ) none (κ := κ)
      (by intro K; rw [wpE_waitDma2_eq 𝒱₀ (c : Thread nD τ) none Set.univ, hcr]) (Set.mem_univ _) () (O := O) (W := W) (R := 0) (m := 0) (T := ∅)
      (by rw [Nat.zero_add, expect_xfer m _ h])) $$ H
  iintro ⟨HO, Hat, -, Hpay⟩
  iapply Hk
  isplitl [HO]; · iexact HO
  isplitl [Hat]; · iexact Hat
  iapply (Entails.of_eq (rest_xfer m _ h)); iexact Hpay

/-- A chunk held at contents that read as v is the chunk at v. -/
theorem chunkAt_intro (c : Dev nD) (M : Memref sig .tc .vmem S256x512 .bf16) (k : Fin 8) (f : Buf (Elt F) ((M.access (ck k)).loc (c : Thread nD τ)))
    (v : FVec F S32x512 .bf16) (hv : (M.access (ck k)).read (Elt F) f = v) : chk c M k f ⊢ chunkAt c M k v := by
  unfold chunkAt
  iintro H
  iexists f
  isplitr
  · ipureintro; exact hv
  · iexact H

/-- A chunk held at any contents. -/
theorem chunkAny_intro (c : Dev nD) (M : Memref sig .tc .vmem S256x512 .bf16) (k : Fin 8) (f : Buf (Elt F) ((M.access (ck k)).loc (c : Thread nD τ))) :
    chk c M k f ⊢ chunkAny c M k := by
  unfold chunkAny
  iintro H
  iexists f
  iexact H

/-- The remote transfer of chunk k of Ms on c, reading as v, into chunk k of Md on c': it pays the departure duty of c's
    cell sS (the chunk comes back with it) and the arrival duty of c''s cell sR (c' receives its chunk reading as v). -/
theorem wp_chunk_send (c c' n : Dev nD) (hn : n = c') (Ms Md : Memref sig .tc .vmem S256x512 .bf16) (k : Fin 8) (sS sR : DmaSem sig)
    (hS : IsXfer ((c : Thread nD τ), .dma sS)) (hR : IsXfer ((c' : Thread nD τ), .dma sR))
    {hsc : (sl Md k : Memref sig (Dev.tc n : Thread nD τ).2.kind .vmem S32x512 .bf16).view.ref.isScScratch = false}
    {hsrc : (sl Ms k).view.WordExact} {hdst : (sl Md k).view.WordExact}
    {hsem : DmaTarget.Typed .vmem (.dma sR) (.remote (Dev.tc n : Thread nD τ) (sl Md k) (.dma sS) hsc)}
    (fs : Buf (Elt F) ((Ms.access (ck k)).loc (c : Thread nD τ))) (fd : Buf (Elt F) ((Md.access (ck k)).loc (c' : Thread nD τ)))
    (v : FVec F S32x512 .bf16) (hv : (Ms.access (ck k)).read (Elt F) fs = v)
    (hp₁ : chunkAt c Ms k v ⊢ cellPay m ((c : Thread nD τ), .dma sS))
    (hp₂ : chunkAt c' Md k v ⊢ cellPay m ((c' : Thread nD τ), .dma sR))
    {κ₁ κ₂ : ℕ} (O : CellTallies nD τ sig Unit) {W : Waits sig Unit}
    {α : Type} {kk : PUnit → Prog (TpuEff nD τ sig (Elt F) Λ₀ .tc) α} {Q : α → sProp 𝕄} :
    iprop(cellInv ER (dmaRd m) κ₁ ((c : Thread nD τ), .dma sS) ∗ cellInv ER (dmaRd m) κ₂ ((c' : Thread nD τ), .dma sR)
        ∗ chk c Ms k fs ∗ chk c' Md k fd
        ∗ owes (c : Thread nD τ) (O + tallyAt ((c' : Thread nD τ), .dma sR) () N32) W
        ∗ dutyTok ER ((c : Thread nD τ), .dma sS) 0 () ∗ reached ER ((c : Thread nD τ), .dma sS) 0
        ∗ dutyTok ER ((c' : Thread nD τ), .dma sR) 0 () ∗ reached ER ((c' : Thread nD τ), .dma sR) 0)
      ⊢ iprop(((cred (tallyAt ((c : Thread nD τ), .dma sS) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl Ms k) (.remote (Dev.tc n : Thread nD τ) (sl Md k) (.dma sS) hsc) (.dma sR) hsrc hdst hsem) kk) Q) := by
  subst hn
  exact Rounds.wp_send_pointsTo 𝒱₀ ER (dmaRd m) (c : Thread nD τ) none (c' := (Dev.tc n : Thread nD τ)) (src := sl Ms k) (dst := sl Md k) (q := fullShare) (sS := .dma sS) (sem := .dma sR) (κ₁ := κ₁) (κ₂ := κ₂)
    (r₁ := 0) (r₂ := 0) (d₁ := ()) (d₂ := ()) (fs := fs) (fd := fd)
    (by rw [duties_xfer m _ hS]; exact Finset.mem_singleton_self _) (by rw [duties_xfer m _ hR]; exact Finset.mem_singleton_self _)
    () () N32 rfl rfl rfl O rfl (W := W)
    ((chunkAt_intro c Ms k fs v hv).trans hp₁)
    ((chunkAt_intro n Md k _ v (by rw [show ((sl Md k).view.write (Elt F) fd ((sl Ms k).view.read (Elt F) fs) Finset.univ) = (Md.access (ck k)).write (Elt F) fd ((Ms.access (ck k)).read (Elt F) fs) Finset.univ from rfl, View.read_write_univ]; exact hv)).trans hp₂)

end Cert.Kernel.Hand

end
-- ==== Proof.Bits.BarCell.lean ====
/-
  The entry handshake runs on one semaphore per device, the barrier cell. Device c's barrier cell receives
  one signal of 2 units from its x partner and one signal of 1 unit from its y partner, and c waits 2 first
  and, much later, waits 1. The counter arithmetic decides what each wait may take: a wait of 2 fires only
  once the 2-unit signal has landed (the other signal brings 1 < 2), and the later wait of 1 only once both
  have. This module states that as an invariant of the cell over four Booleans

      bX — the 2-unit signal has landed        bY — the 1-unit signal has landed
      b1 — the wait of 2 is done               b2 — the wait of 1 is done

  with the counter at 2·bX + bY − 2·b1 − b2, and proves the four rules: the two signals, the two waits.
  Each party's one-shot right to its step is an exclusive token; a token already inside the invariant
  contradicts the same token in the stepping party's hand, which fixes the Booleans at each step.
-/
import proofs.«900597_g7700000000000598_dist_rsrms_v7x_xy2x2_x_m512_d512_f32_1_alg».proof.Proof.Bits.Mesh

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The one-shot tokens -/

/-- Held by the x partner of c until its 2-unit signal to c. -/
abbrev tX (c : Dev nD) : sProp 𝕄 := dutyTok (ER (F := F)) (barCell c) 0 ()
/-- Held by the y partner of c until its 1-unit signal to c. -/
abbrev tY (c : Dev nD) : sProp 𝕄 := dutyTok (ER (F := F)) (barCell c) 1 ()
/-- c's right to its wait of 2. -/
abbrev tW1 (c : Dev nD) : sProp 𝕄 := dutyTok (ER (F := F)) (barCell c) 2 ()
/-- c's right to its wait of 1. -/
abbrev tW2 (c : Dev nD) : sProp 𝕄 := dutyTok (ER (F := F)) (barCell c) 3 ()
/-- Lies in the invariant until the wait of 2, which hands it to c: the proof that the first wait is done. -/
abbrev tZ (c : Dev nD) : sProp 𝕄 := dutyTok (ER (F := F)) (barCell c) 4 ()

/-! ## The invariant -/

/-- The counter of the barrier cell in the state (bX, bY, b1, b2). -/
def barCount (bX bY b1 b2 : Bool) : ℕ := 2 * bX.toNat + bY.toNat - 2 * b1.toNat - b2.toNat

/-- A wait happens after the landing it consumes: the wait of 2 after the 2-unit landing, the wait of 1
    after the 1-unit landing and after the wait of 2. -/
def barOrd (bX bY b1 b2 : Bool) : Prop := (b1 = true → bX = true) ∧ (b2 = true → bY = true ∧ b1 = true)

/-- What the barrier cell's invariant holds in the state (bX, bY, b1, b2): the counter; the token of each
    step that has happened; until the wait of 2 the token tZ and, once it has landed, what the 2-unit signal
    hands over; until the wait of 1, once it has landed, what the 1-unit signal hands over. -/
def barSt (PX PY : Dev nD → sProp 𝕄) (c : Dev nD) (bX bY b1 b2 : Bool) : sProp 𝕄 :=
  iprop(semVal (barCell c) (barCount bX bY b1 b2)
    ∗ ⌜barOrd bX bY b1 b2⌝
    ∗ (if bX then tX c else iprop(emp))
    ∗ (if bY then tY c else iprop(emp))
    ∗ (if b1 then tW1 c else iprop(tZ c ∗ (if bX then PX c else iprop(emp))))
    ∗ (if b2 then tW2 c else (if bY then PY c else iprop(emp))))

/-- The body of the barrier cell's invariant: some state. PX c is what the x partner's signal hands c,
    PY c what the y partner's does. -/
def barBody (PX PY : Dev nD → sProp 𝕄) (c : Dev nD) : sProp 𝕄 :=
  iprop(∃ bX : Bool, ∃ bY : Bool, ∃ b1 : Bool, ∃ b2 : Bool, barSt PX PY c bX bY b1 b2)

instance bar_storable_ite (b : Bool) (P Q : sProp 𝕄) [Storable (upEmb : UEmb _ 𝕄) P] [Storable (upEmb : UEmb _ 𝕄) Q] :
    Storable (upEmb : UEmb _ 𝕄) (if b then P else Q) := by
  cases b
  · simpa only [Bool.false_eq_true, if_false] using (inferInstance : Storable (upEmb : UEmb _ 𝕄) Q)
  · simpa only [if_true] using (inferInstance : Storable (upEmb : UEmb _ 𝕄) P)

set_option synthInstance.maxSize 1024 in
instance barSt_storable (PX PY : Dev nD → sProp 𝕄)
    [∀ c, Storable (upEmb : UEmb _ 𝕄) (PX c)] [∀ c, Storable (upEmb : UEmb _ 𝕄) (PY c)] (c : Dev nD) (bX bY b1 b2 : Bool) :
    Storable (upEmb : UEmb _ 𝕄) (barSt PX PY c bX bY b1 b2) := by
  unfold barSt; infer_instance

instance barBody_storable (PX PY : Dev nD → sProp 𝕄)
    [∀ c, Storable (upEmb : UEmb _ 𝕄) (PX c)] [∀ c, Storable (upEmb : UEmb _ 𝕄) (PY c)] (c : Dev nD) :
    Storable (upEmb : UEmb _ 𝕄) (barBody PX PY c) := by
  unfold barBody; infer_instance

/-- Name κ carries the barrier cell's invariant. -/
abbrev barInv (PX PY : Dev nD → sProp 𝕄) (κ : ℕ) (c : Dev nD) : sProp 𝕄 := inv κ (barBody PX PY c)

/-- A state is a body. -/
theorem barBody_of (PX PY : Dev nD → sProp 𝕄) (c : Dev nD) (bX bY b1 b2 : Bool) :
    barSt PX PY c bX bY b1 b2 ⊢ barBody PX PY c := by
  unfold barBody
  iintro H
  iexists bX, bY, b1, b2
  iexact H

/-- The state before anything has happened: the counter at zero and the token that marks the first wait as
    not yet done. -/
theorem barBody_intro (PX PY : Dev nD → sProp 𝕄) (c : Dev nD) :
    iprop(semVal (barCell c) 0 ∗ tZ (F := F) c) ⊢ barBody PX PY c := by
  refine BIBase.Entails.trans ?_ (barBody_of PX PY c false false false false)
  unfold barSt
  simp only [↓reduceIte, Bool.false_eq_true]
  iintro ⟨Hv, Hz⟩
  isplitl [Hv]; · iexact Hv
  isplitr; · ipureintro; simp [barOrd]
  isplitr; · iempintro
  isplitr; · iempintro
  isplitl [Hz]
  · isplitl [Hz]; · iexact Hz
    iempintro
  iempintro

/-- Allocation of the invariant from the state before anything has happened. -/
theorem bar_alloc (PX PY : Dev nD → sProp 𝕄)
    [∀ c, Storable (upEmb : UEmb _ 𝕄) (PX c)] [∀ c, Storable (upEmb : UEmb _ 𝕄) (PY c)] (c : Dev nD) :
    iprop(semVal (barCell c) 0 ∗ tZ (F := F) c) ⊢ |={Set.univ}=> ∃ κ : ℕ, barInv PX PY κ c :=
  (barBody_intro PX PY c).trans inv_alloc

/-! ## The counter's arithmetic -/

/-- The 2-unit landing, before either wait. -/
theorem barCount_landX (bY : Bool) : barCount false bY false false + 2 = barCount true bY false false := by
  cases bY <;> rfl

/-- The 1-unit landing, before the wait of 1; the wait of 2 comes after the 2-unit landing. -/
theorem barCount_landY {bX b1 : Bool} (h : barOrd bX false b1 false) :
    barCount bX false b1 false + 1 = barCount bX true b1 false := by
  cases bX <;> cases b1 <;> simp_all [barOrd, barCount]

/-- A wait of 2 cannot fire on the 1-unit signal alone. -/
theorem not_two_le (bY : Bool) : ¬ 2 ≤ barCount false bY false false := by
  cases bY <;> simp [barCount]

theorem barCount_wait2 (bY : Bool) : barCount true bY false false - 2 = barCount true bY true false := by
  cases bY <;> rfl

/-- After the wait of 2 the counter is what the 1-unit signal brought. -/
theorem not_one_le : ¬ 1 ≤ barCount true false true false := by simp [barCount]

theorem barCount_wait1 : barCount true true true false - 1 = barCount true true true true := rfl

/-! ## The four steps on a state

Each is stated at the footprint of the machine's step on the counter: the counter at its value now, and
from the counter at the value after the step the invariant's body again, with what the step takes out. -/

/-- The landing of the x partner's signal: the signaller holds tX d, so the signal has not landed yet and
    neither wait has fired; the counter rises by 2, and tX d and what the signal hands over go in. -/
theorem barSt_landX (PX PY : Dev nD → sProp 𝕄) (d : Dev nD) (bX bY b1 b2 : Bool) :
    iprop(barSt PX PY d bX bY b1 b2 ∗ tX (F := F) d ∗ PX d)
      ⊢ ∃ v, semVal (barCell d) v ∗ (semVal (barCell d) (v + 2) -∗ barBody PX PY d) := by
  unfold barSt
  cases bX
  · cases b1
    · cases b2
      · simp only [↓reduceIte, Bool.false_eq_true]
        iintro ⟨⟨Hv, -, -, HY, ⟨Hz, -⟩, H2⟩, Ht, HP⟩
        iexists _
        isplitl [Hv]; · iexact Hv
        iintro Hv
        iapply (barBody_of PX PY d true bY false false)
        unfold barSt
        simp only [↓reduceIte, Bool.false_eq_true]
        rw [← barCount_landX bY]
        isplitl [Hv]; · iexact Hv
        isplitr; · ipureintro; simp [barOrd]
        isplitl [Ht]; · iexact Ht
        isplitl [HY]; · iexact HY
        isplitl [Hz HP]
        · isplitl [Hz] <;> iassumption
        iexact H2
      · iintro ⟨⟨-, %hb, -⟩, -⟩
        simp [barOrd] at hb
    · iintro ⟨⟨-, %hb, -⟩, -⟩
      simp [barOrd] at hb
  · simp only [↓reduceIte]
    iintro ⟨⟨-, -, HX, -⟩, Ht, -⟩
    iexfalso
    iapply (dutyTok_dutyTok_false (ER (F := F)))
    isplitl [Ht] <;> iassumption

/-- The landing of the y partner's signal: the signaller holds tY d, so the signal has not landed yet and
    the wait of 1 has not fired; the counter rises by 1, and tY d and what the signal hands over go in. -/
theorem barSt_landY (PX PY : Dev nD → sProp 𝕄) (d : Dev nD) (bX bY b1 b2 : Bool) :
    iprop(barSt PX PY d bX bY b1 b2 ∗ tY (F := F) d ∗ PY d)
      ⊢ ∃ v, semVal (barCell d) v ∗ (semVal (barCell d) (v + 1) -∗ barBody PX PY d) := by
  unfold barSt
  cases bY
  · cases b2
    · simp only [↓reduceIte, Bool.false_eq_true]
      iintro ⟨⟨Hv, %hb, HX, -, H1, -⟩, Ht, HP⟩
      iexists _
      isplitl [Hv]; · iexact Hv
      iintro Hv
      iapply (barBody_of PX PY d bX true b1 false)
      unfold barSt
      simp only [↓reduceIte, Bool.false_eq_true]
      rw [← barCount_landY hb]
      isplitl [Hv]; · iexact Hv
      isplitr; · ipureintro; simpa [barOrd] using hb
      isplitl [HX]; · iexact HX
      isplitl [Ht]; · iexact Ht
      isplitl [H1]; · iexact H1
      iexact HP
    · iintro ⟨⟨-, %hb, -⟩, -⟩
      simp [barOrd] at hb
  · simp only [↓reduceIte]
    iintro ⟨⟨-, -, -, HY, -⟩, Ht, -⟩
    iexfalso
    iapply (dutyTok_dutyTok_false (ER (F := F)))
    isplitl [Ht] <;> iassumption

/-- The wait of 2: the waiter holds tW1 c, so neither wait has fired; the counter covers 2 only if the
    2-unit signal has landed; tW1 c goes in, and tZ c and what that signal handed over come out. -/
theorem barSt_wait2 (PX PY : Dev nD → sProp 𝕄) (c : Dev nD) (bX bY b1 b2 : Bool) :
    iprop(barSt PX PY c bX bY b1 b2 ∗ tW1 (F := F) c)
      ⊢ ∃ v, semVal (barCell c) v ∗ (⌜2 ≤ v⌝ -∗ semVal (barCell c) (v - 2) -∗ (barBody PX PY c ∗ tZ c ∗ PX c)) := by
  unfold barSt
  cases b1
  · cases b2
    · cases bX
      · iintro ⟨⟨Hv, -⟩, -⟩
        iexists _
        isplitl [Hv]; · iexact Hv
        iintro %hle
        exact absurd hle (not_two_le bY)
      · simp only [↓reduceIte, Bool.false_eq_true]
        iintro ⟨⟨Hv, -, HX, HY, ⟨Hz, HP⟩, H2⟩, Ht⟩
        iexists _
        isplitl [Hv]; · iexact Hv
        iintro - Hv
        isplitr [Hz HP]
        · iapply (barBody_of PX PY c true bY true false)
          unfold barSt
          simp only [↓reduceIte, Bool.false_eq_true]
          rw [← barCount_wait2 bY]
          isplitl [Hv]; · iexact Hv
          isplitr; · ipureintro; simp [barOrd]
          isplitl [HX]; · iexact HX
          isplitl [HY]; · iexact HY
          isplitl [Ht]; · iexact Ht
          iexact H2
        isplitl [Hz] <;> iassumption
    · iintro ⟨⟨-, %hb, -⟩, -⟩
      simp [barOrd] at hb
  · simp only [↓reduceIte]
    iintro ⟨⟨-, -, -, -, H1, -⟩, Ht⟩
    iexfalso
    iapply (dutyTok_dutyTok_false (ER (F := F)))
    isplitl [Ht] <;> iassumption

/-- The wait of 1: the waiter holds tZ c, so the wait of 2 is done, and tW2 c, so the wait of 1 is not; the
    counter, which is then what the 1-unit signal brought, covers 1 only if that signal has landed; tW2 c
    goes in and what that signal handed over comes out. -/
theorem barSt_wait1 (PX PY : Dev nD → sProp 𝕄) (c : Dev nD) (bX bY b1 b2 : Bool) :
    iprop(barSt PX PY c bX bY b1 b2 ∗ tW2 (F := F) c ∗ tZ (F := F) c)
      ⊢ ∃ v, semVal (barCell c) v ∗ (⌜1 ≤ v⌝ -∗ semVal (barCell c) (v - 1) -∗ (barBody PX PY c ∗ PY c)) := by
  unfold barSt
  cases b1
  · simp only [↓reduceIte, Bool.false_eq_true]
    iintro ⟨⟨-, -, -, -, ⟨Hz', -⟩, -⟩, -, Hz⟩
    iexfalso
    iapply (dutyTok_dutyTok_false (ER (F := F)))
    isplitl [Hz] <;> iassumption
  · cases b2
    · cases bX
      · iintro ⟨⟨-, %hb, -⟩, -⟩
        simp [barOrd] at hb
      · cases bY
        · iintro ⟨⟨Hv, -⟩, -⟩
          iexists _
          isplitl [Hv]; · iexact Hv
          iintro %hle
          exact absurd hle not_one_le
        · simp only [↓reduceIte, Bool.false_eq_true]
          iintro ⟨⟨Hv, -, HX, HY, H1, HP⟩, Ht, -⟩
          iexists _
          isplitl [Hv]; · iexact Hv
          iintro - Hv
          isplitr [HP]
          · iapply (barBody_of PX PY c true true true true)
            unfold barSt
            simp only [↓reduceIte]
            rw [← barCount_wait1]
            isplitl [Hv]; · iexact Hv
            isplitr; · ipureintro; simp [barOrd]
            isplitl [HX]; · iexact HX
            isplitl [HY]; · iexact HY
            isplitl [H1]; · iexact H1
            iexact Ht
          iexact HP
    · simp only [↓reduceIte]
      iintro ⟨⟨-, -, -, -, -, H2⟩, Ht, -⟩
      iexfalso
      iapply (dutyTok_dutyTok_false (ER (F := F)))
      isplitl [Ht] <;> iassumption

/-! ## The rules at the head of a program -/

/-- The landing update of the x partner's signal, with the token and what it hands over in hand. -/
theorem bar_landX (PX PY : Dev nD → sProp 𝕄) (κ : ℕ) (d : Dev nD) :
    iprop(barInv PX PY κ d ∗ tX (F := F) d ∗ PX d) ⊢ landingUpdate (barCell d) 2 iprop(emp) := by
  rw [landingUpdate_def]
  iintro ⟨Hg, Ht, HP⟩ -
  imod (inv_acc (Set.mem_univ κ)) $$ Hg with ⟨Hb, Hclose⟩
  unfold barBody
  icases Hb with ⟨%bX, %bY, %b1, %b2, Hst⟩
  ihave H := (barSt_landX PX PY d bX bY b1 b2) $$ [Hst Ht HP]
  · isplitl [Hst]; · iexact Hst
    isplitl [Ht] <;> iassumption
  icases H with ⟨%v, Hv, Hnext⟩
  imodintro
  rw [raiseSpec_apply]
  iexists v
  isplitl [Hv]; · iexact Hv
  iintro Hv
  ihave Hb := Hnext $$ Hv
  unfold barBody
  ihave Hc := Hclose $$ Hb
  imod Hc
  imodintro
  iempintro

/-- The landing update of the y partner's signal. -/
theorem bar_landY (PX PY : Dev nD → sProp 𝕄) (κ : ℕ) (d : Dev nD) :
    iprop(barInv PX PY κ d ∗ tY (F := F) d ∗ PY d) ⊢ landingUpdate (barCell d) 1 iprop(emp) := by
  rw [landingUpdate_def]
  iintro ⟨Hg, Ht, HP⟩ -
  imod (inv_acc (Set.mem_univ κ)) $$ Hg with ⟨Hb, Hclose⟩
  unfold barBody
  icases Hb with ⟨%bX, %bY, %b1, %b2, Hst⟩
  ihave H := (barSt_landY PX PY d bX bY b1 b2) $$ [Hst Ht HP]
  · isplitl [Hst]; · iexact Hst
    isplitl [Ht] <;> iassumption
  icases H with ⟨%v, Hv, Hnext⟩
  imodintro
  rw [raiseSpec_apply]
  iexists v
  isplitl [Hv]; · iexact Hv
  iintro Hv
  ihave Hb := Hnext $$ Hv
  unfold barBody
  ihave Hc := Hclose $$ Hb
  imod Hc
  imodintro
  iempintro

/-- Thread c signals 2 units to device d's barrier cell as d's x partner: it pays the units off what it
    owes, and hands in its token and what the signal hands d. It learns nothing about the cell. -/
theorem wp_bar_signalX {Λ : Labels} {defs : Defs nD τ sig (Elt F) Λ} (𝒱 : Variants) (PX PY : Dev nD → sProp 𝕄)
    (c : Thread nD τ) (bd : Option 𝒱.V) {Γ : PendingWaitsCtx sig Unit} {α : Type} {Q : α → sProp 𝕄}
    {d : Dev nD} {k : PUnit → Prog (TpuEff nD τ sig (Elt F) Λ c.2) α} {κ : ℕ}
    {O₀ : CellTallies nD τ sig Unit} (O : CellTallies nD τ sig Unit)
    (hO : O₀ = O + tallyAt (barCell d) () 2) {W : Waits sig Unit} {Es : Set ℕ}
    (hr : τ.routes c (d : Thread nD τ) = true := by routes) :
    iprop(barInv PX PY κ d ∗ owes c O₀ W ∗ tX (F := F) d ∗ PX d)
      ⊢ iprop((owes c O W -∗ wp frame (wpE' defs 𝒱 c bd Γ) Es (k ⟨⟩) Q)
          -∗ wp frame (wpE' defs 𝒱 c bd Γ) Es (.op (.semSignal (d : Thread nD τ) barS 2) k) Q) := by
  iintro ⟨Hg, HL, Ht, HP⟩ Hk
  iapply (wp_semSignal 𝒱 c bd Es () O hO hr) $$ HL [Hg Ht HP]
  · iapply (bar_landX PX PY κ d)
    isplitl [Hg]; · iexact Hg
    isplitl [Ht] <;> iassumption
  iexact Hk

/-- Thread c signals 1 unit to device d's barrier cell as d's y partner. -/
theorem wp_bar_signalY {Λ : Labels} {defs : Defs nD τ sig (Elt F) Λ} (𝒱 : Variants) (PX PY : Dev nD → sProp 𝕄)
    (c : Thread nD τ) (bd : Option 𝒱.V) {Γ : PendingWaitsCtx sig Unit} {α : Type} {Q : α → sProp 𝕄}
    {d : Dev nD} {k : PUnit → Prog (TpuEff nD τ sig (Elt F) Λ c.2) α} {κ : ℕ}
    {O₀ : CellTallies nD τ sig Unit} (O : CellTallies nD τ sig Unit)
    (hO : O₀ = O + tallyAt (barCell d) () 1) {W : Waits sig Unit} {Es : Set ℕ}
    (hr : τ.routes c (d : Thread nD τ) = true := by routes) :
    iprop(barInv PX PY κ d ∗ owes c O₀ W ∗ tY (F := F) d ∗ PY d)
      ⊢ iprop((owes c O W -∗ wp frame (wpE' defs 𝒱 c bd Γ) Es (k ⟨⟩) Q)
          -∗ wp frame (wpE' defs 𝒱 c bd Γ) Es (.op (.semSignal (d : Thread nD τ) barS 1) k) Q) := by
  iintro ⟨Hg, HL, Ht, HP⟩ Hk
  iapply (wp_semSignal 𝒱 c bd Es () O hO hr) $$ HL [Hg Ht HP]
  · iapply (bar_landY PX PY κ d)
    isplitl [Hg]; · iexact Hg
    isplitl [Ht] <;> iassumption
  iexact Hk

/-- Device cd's wait of 2 on its barrier cell, covered by credit tokens at the one index: it hands in its
    right to this wait and comes back with the proof that the wait is done and with what its x partner's
    signal handed over. -/
theorem wp_bar_wait2 {Λ : Labels} {defs : Defs nD τ sig (Elt F) Λ} (𝒱 : Variants) (PX PY : Dev nD → sProp 𝕄)
    (cd : Dev nD) (bd : Option 𝒱.V) {Γ : PendingWaitsCtx sig Unit} {α : Type} {Q : α → sProp 𝕄}
    {w : TpuEff nD τ sig (Elt F) Λ (cd : Thread nD τ).2 PUnit} {Es : Set ℕ} {κ : ℕ}
    (hw : ∀ K : PUnit → sProp 𝕄, wpE' defs 𝒱 (cd : Thread nD τ) bd Γ Es w K = waitSpec (cd : Thread nD τ) Es (.reg barS) 2 K)
    (hE : κ ∈ Es)
    {k : PUnit → Prog (TpuEff nD τ sig (Elt F) Λ (cd : Thread nD τ).2) α}
    {O : CellTallies nD τ sig Unit} {W : Waits sig Unit} :
    iprop(barInv PX PY κ cd ∗ cred (tallyAt (barCell cd) () 2) ∗ owes (cd : Thread nD τ) O W
        ∗ MayWait (cd : Thread nD τ) (.reg barS) () O ∗ tW1 (F := F) cd)
      ⊢ iprop(((owes (cd : Thread nD τ) O (insert (SemLoc.reg barS, ()) W) ∗ tZ (F := F) cd ∗ PX cd)
            -∗ wp frame (wpE' defs 𝒱 (cd : Thread nD τ) bd Γ) Es (k ⟨⟩) Q)
          -∗ wp frame (wpE' defs 𝒱 (cd : Thread nD τ) bd Γ) Es (.op w k) Q) := by
  rw [Finset.insert_eq, Finset.union_comm]
  iintro ⟨Hg, Hc, HL, Hlev, Ht⟩ Hk
  iapply (Idealize.ShloMosaic.wp_wait 𝒱 (cd : Thread nD τ) bd Es hw {(SemLoc.reg barS, ())} (κ := Finsupp.single () 2)
    (by rw [Util.total_single]) (image_single_subset (SemLoc.reg barS) () 2)) $$ [Hc HL Hlev]
  · isplitl [Hc]; · iexact Hc
    isplitl [HL] <;> iassumption
  imod (inv_acc hE) $$ Hg with ⟨Hb, Hclose⟩
  unfold barBody
  icases Hb with ⟨%bX, %bY, %b1, %b2, Hst⟩
  ihave H := (barSt_wait2 PX PY cd bX bY b1 b2) $$ [Hst Ht]
  · isplitl [Hst] <;> iassumption
  icases H with ⟨%v, Hv, Hnext⟩
  imodintro
  iapply lowerSpec_intro $$ Hv
  iintro %hle Hv
  ihave Hb := Hnext $$ %hle Hv
  icases Hb with ⟨Hb, Hz, HP⟩
  unfold barBody
  ihave Hc := Hclose $$ Hb
  imod Hc
  imodintro
  iintro HL
  iapply Hk
  isplitl [HL]; · iexact HL
  isplitl [Hz] <;> iassumption

/-- Device cd's wait of 1 on its barrier cell, after its wait of 2: it hands in its right to this wait and
    the proof that the wait of 2 is done, and comes back with what its y partner's signal handed over. -/
theorem wp_bar_wait1 {Λ : Labels} {defs : Defs nD τ sig (Elt F) Λ} (𝒱 : Variants) (PX PY : Dev nD → sProp 𝕄)
    (cd : Dev nD) (bd : Option 𝒱.V) {Γ : PendingWaitsCtx sig Unit} {α : Type} {Q : α → sProp 𝕄}
    {w : TpuEff nD τ sig (Elt F) Λ (cd : Thread nD τ).2 PUnit} {Es : Set ℕ} {κ : ℕ}
    (hw : ∀ K : PUnit → sProp 𝕄, wpE' defs 𝒱 (cd : Thread nD τ) bd Γ Es w K = waitSpec (cd : Thread nD τ) Es (.reg barS) 1 K)
    (hE : κ ∈ Es)
    {k : PUnit → Prog (TpuEff nD τ sig (Elt F) Λ (cd : Thread nD τ).2) α}
    {O : CellTallies nD τ sig Unit} {W : Waits sig Unit} :
    iprop(barInv PX PY κ cd ∗ cred (tallyAt (barCell cd) () 1) ∗ owes (cd : Thread nD τ) O W
        ∗ MayWait (cd : Thread nD τ) (.reg barS) () O ∗ tW2 (F := F) cd ∗ tZ (F := F) cd)
      ⊢ iprop(((owes (cd : Thread nD τ) O (insert (SemLoc.reg barS, ()) W) ∗ PY cd)
            -∗ wp frame (wpE' defs 𝒱 (cd : Thread nD τ) bd Γ) Es (k ⟨⟩) Q)
          -∗ wp frame (wpE' defs 𝒱 (cd : Thread nD τ) bd Γ) Es (.op w k) Q) := by
  rw [Finset.insert_eq, Finset.union_comm]
  iintro ⟨Hg, Hc, HL, Hlev, Ht, Hz⟩ Hk
  iapply (Idealize.ShloMosaic.wp_wait 𝒱 (cd : Thread nD τ) bd Es hw {(SemLoc.reg barS, ())} (κ := Finsupp.single () 1)
    (by rw [Util.total_single]) (image_single_subset (SemLoc.reg barS) () 1)) $$ [Hc HL Hlev]
  · isplitl [Hc]; · iexact Hc
    isplitl [HL] <;> iassumption
  imod (inv_acc hE) $$ Hg with ⟨Hb, Hclose⟩
  unfold barBody
  icases Hb with ⟨%bX, %bY, %b1, %b2, Hst⟩
  ihave H := (barSt_wait1 PX PY cd bX bY b1 b2) $$ [Hst Ht Hz]
  · isplitl [Hst]; · iexact Hst
    isplitl [Ht] <;> iassumption
  icases H with ⟨%v, Hv, Hnext⟩
  imodintro
  iapply lowerSpec_intro $$ Hv
  iintro %hle Hv
  ihave Hb := Hnext $$ %hle Hv
  icases Hb with ⟨Hb, HP⟩
  unfold barBody
  ihave Hc := Hclose $$ Hb
  imod Hc
  imodintro
  iintro HL
  iapply Hk
  isplitl [HL] <;> iassumption

/-- info: 'Cert.Kernel.Hand.bar_alloc' depends on axioms: [propext, Classical.choice, Quot.sound] -/
#guard_msgs in #print axioms bar_alloc

/-- info: 'Cert.Kernel.Hand.wp_bar_signalX' depends on axioms: [propext, Classical.choice, Quot.sound] -/
#guard_msgs in #print axioms wp_bar_signalX

/-- info: 'Cert.Kernel.Hand.wp_bar_signalY' depends on axioms: [propext, Classical.choice, Quot.sound] -/
#guard_msgs in #print axioms wp_bar_signalY

/-- info: 'Cert.Kernel.Hand.wp_bar_wait2' depends on axioms: [propext, Classical.choice, Quot.sound] -/
#guard_msgs in #print axioms wp_bar_wait2

/-- info: 'Cert.Kernel.Hand.wp_bar_wait1' depends on axioms: [propext, Classical.choice, Quot.sound] -/
#guard_msgs in #print axioms wp_bar_wait1

end Cert.Kernel.Hand

end
-- ==== Proof.Bits.Ghost.lean ====
/-
  What a device holds when its kernel body starts, and what it must hold when it ends.
  Levels: a barrier cell at 1, an x-receive cell at 2, a y-receive cell at 3, everything else at 0. A device waits on
  its barrier while it still owes only x- and y-receive units, on an x-receive cell while it owes only y-receive units,
  and on everything else owing nothing: every wait is below what is owed.
  What a device owes, in the order it pays: 2 units to xp's barrier, 1 to yp's, a chunk's credit to each of xp's eight
  x-receive cells, then to each of yp's eight y-receive cells.
-/
import proofs.«900597_g7700000000000598_dist_rsrms_v7x_xy2x2_x_m512_d512_f32_1_alg».proof.Proof.Bits.Steps
import proofs.«900597_g7700000000000598_dist_rsrms_v7x_xy2x2_x_m512_d512_f32_1_alg».proof.Proof.Bits.BarCell

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Levels -/

def L (g : GSem nD τ sig) : Finset Unit := if g.1.2 = .tc then {()} else ∅

/-- The family of a semaphore location: 0 x-send, 1 x-receive, 2 y-send, 3 y-receive; none for the barrier and the staging semaphores. -/
def famNum (sm : SemLoc sig) : Option (Fin 4) :=
  match sm with
  | .dma s => (famOf s).map Prod.fst
  | _ => none

def lv (g : GSem nD τ sig) (_ : Unit) : ℕ :=
  if g.2 = .reg barS then 1 else if famNum g.2 = some 1 then 2 else if famNum g.2 = some 3 then 3 else 0

/-! ## What a device owes, in paying order -/

def steps (c : Dev nD) : List (GSem nD τ sig × ℕ) :=
  [(barCell (xp c), 2), (barCell (yp c), 1),
   (xrCell (xp c) 0, N32), (xrCell (xp c) 1, N32), (xrCell (xp c) 2, N32), (xrCell (xp c) 3, N32),
   (xrCell (xp c) 4, N32), (xrCell (xp c) 5, N32), (xrCell (xp c) 6, N32), (xrCell (xp c) 7, N32),
   (yrCell (yp c) 0, N32), (yrCell (yp c) 1, N32), (yrCell (yp c) 2, N32), (yrCell (yp c) 3, N32),
   (yrCell (yp c) 4, N32), (yrCell (yp c) 5, N32), (yrCell (yp c) 6, N32), (yrCell (yp c) 7, N32)]

def owedFrom (l : List (GSem nD τ sig × ℕ)) : CellTallies nD τ sig Unit :=
  l.foldr (fun s acc => acc + tallyAt s.1 () s.2) 0

/-- What device c still owes after its first i payments. -/
def owedAt (c : Dev nD) (i : ℕ) : CellTallies nD τ sig Unit := owedFrom ((steps c).drop i)

/-! ## The barrier's payloads -/

/-- Eight chunks of a buffer, each at any contents. -/
def anyChunks (c : Dev nD) (M : Memref sig .tc .vmem S256x512 .bf16) : sProp 𝕄 :=
  iprop(chunkAny c M 0 ∗ chunkAny c M 1 ∗ chunkAny c M 2 ∗ chunkAny c M 3 ∗ chunkAny c M 4 ∗ chunkAny c M 5 ∗ chunkAny c M 6 ∗ chunkAny c M 7)

/-- Eight chunks held at whatever contents are eight chunks at any contents. -/
theorem anyChunks_of (c : Dev nD) (M : Memref sig .tc .vmem S256x512 .bf16) (f0 f1 f2 f3 f4 f5 f6 f7 : Buf (Elt F) (M.view.loc (c : Thread nD τ))) :
    (iprop(chk c M 0 f0 ∗ chk c M 1 f1 ∗ chk c M 2 f2 ∗ chk c M 3 f3 ∗ chk c M 4 f4 ∗ chk c M 5 f5 ∗ chk c M 6 f6 ∗ chk c M 7 f7) : sProp 𝕄) ⊢ anyChunks c M := by
  unfold anyChunks
  iintro ⟨H0, H1, H2, H3, H4, H5, H6, H7⟩
  isplitl [H0]; · iapply (chunkAny_intro c M 0 f0) $$ H0
  isplitl [H1]; · iapply (chunkAny_intro c M 1 f1) $$ H1
  isplitl [H2]; · iapply (chunkAny_intro c M 2 f2) $$ H2
  isplitl [H3]; · iapply (chunkAny_intro c M 3 f3) $$ H3
  isplitl [H4]; · iapply (chunkAny_intro c M 4 f4) $$ H4
  isplitl [H5]; · iapply (chunkAny_intro c M 5 f5) $$ H5
  isplitl [H6]; · iapply (chunkAny_intro c M 6 f6) $$ H6
  iapply (chunkAny_intro c M 7 f7) $$ H7

/-- What xp c's signal hands c: xp c's x-receive buffer, in chunks; what yp c's hands c: yp c's y-receive buffer. -/
def PX (c : Dev nD) : sProp 𝕄 := anyChunks (xp c) xrM
def PY (c : Dev nD) : sProp 𝕄 := anyChunks (yp c) yrM

instance anyChunks_storable (c : Dev nD) (M) : BI.Storable (upEmb : UEmb _ 𝕄) (anyChunks (F := F) c M) := by
  unfold anyChunks; infer_instance
instance PX_storable (c : Dev nD) : BI.Storable (upEmb : UEmb _ 𝕄) (PX (F := F) c) := by unfold PX; infer_instance
instance PY_storable (c : Dev nD) : BI.Storable (upEmb : UEmb _ 𝕄) (PY (F := F) c) := by unfold PY; infer_instance

/-! ## The persistent part -/

variable (K : GSem nD τ sig → ℕ) (KB : Dev nD → ℕ)

/-- For chunk k: the invariants of c's own four cells and of the two cells it pays into, and that round 0 of the
    four cells it pays duties of is reached. -/
def persAt (c : Dev nD) (k : Fin 8) : sProp 𝕄 :=
  iprop(cellInv ER (dmaRd m) (K (xsCell c k)) (xsCell c k) ∗ cellInv ER (dmaRd m) (K (xrCell c k)) (xrCell c k)
    ∗ cellInv ER (dmaRd m) (K (ysCell c k)) (ysCell c k) ∗ cellInv ER (dmaRd m) (K (yrCell c k)) (yrCell c k)
    ∗ cellInv ER (dmaRd m) (K (xrCell (xp c) k)) (xrCell (xp c) k) ∗ cellInv ER (dmaRd m) (K (yrCell (yp c) k)) (yrCell (yp c) k)
    ∗ reached ER (xsCell c k) 0 ∗ reached ER (ysCell c k) 0 ∗ reached ER (xrCell (xp c) k) 0 ∗ reached ER (yrCell (yp c) k) 0)

def Pers (c : Dev nD) : sProp 𝕄 :=
  iprop((bigSep Finset.univ fun k : Fin 8 => persAt m K c k)
    ∗ barInv PX PY (KB c) c ∗ barInv PX PY (KB (xp c)) (xp c) ∗ barInv PX PY (KB (yp c)) (yp c) ∗ levAts L lv)

instance persAt_persistent (c : Dev nD) (k : Fin 8) : BI.Persistent (persAt m K c k) := by unfold persAt; infer_instance
instance Pers_persistent (c : Dev nD) : BI.Persistent (Pers m K KB c) := by unfold Pers; infer_instance

theorem Pers_at (c : Dev nD) (k : Fin 8) : Pers m K KB c ⊢ persAt m K c k := by
  unfold Pers
  iintro ⟨H, -⟩
  iapply (show (bigSep Finset.univ fun k : Fin 8 => persAt m K c k) ⊢ persAt m K c k from bigSep_elim (Finset.mem_univ k)) $$ H

/-! ## The linear part, chunk by chunk -/

/-- For chunk k: c's positions on its four cells, the four duty tokens it pays with, and the credit on its two
    receive cells. -/
def kit (c : Dev nD) (k : Fin 8) : sProp 𝕄 :=
  iprop(atPos ER (xsCell c k) 0 ∅ 0 ∗ atPos ER (xrCell c k) 0 ∅ 0 ∗ atPos ER (ysCell c k) 0 ∅ 0 ∗ atPos ER (yrCell c k) 0 ∅ 0
    ∗ dutyTok ER (xsCell c k) 0 () ∗ dutyTok ER (xrCell (xp c) k) 0 () ∗ dutyTok ER (ysCell c k) 0 () ∗ dutyTok ER (yrCell (yp c) k) 0 ()
    ∗ cred (tallyAt (xrCell c k) () N32) ∗ cred (tallyAt (yrCell c k) () N32))

def kits (c : Dev nD) : sProp 𝕄 :=
  iprop(kit c 0 ∗ kit c 1 ∗ kit c 2 ∗ kit c 3 ∗ kit c 4 ∗ kit c 5 ∗ kit c 6 ∗ kit c 7)

/-- The barrier's linear part: the two tokens c pays with, its two wait rights, its three units of credit. -/
def barKit (c : Dev nD) : sProp 𝕄 :=
  iprop(tX (F := F) (xp c) ∗ tY (F := F) (yp c) ∗ tW1 (F := F) c ∗ tW2 (F := F) c
    ∗ cred (tallyAt (barCell c) () 2) ∗ cred (tallyAt (barCell c) () 1))

/-- The ghost state device c starts from, at some names. -/
def ghost (c : Dev nD) : sProp 𝕄 := iprop(Pers m K KB c ∗ kits c ∗ barKit c)

def start (c : Dev nD) : sProp 𝕄 := iprop(∃ K KB, ghost m K KB c)

/-- The four scratch buffers whole, at any contents. -/
def scratch (c : Dev nD) : sProp 𝕄 :=
  iprop((∃ f, xsM.view.loc (c : Thread nD τ) ↦{fullShare} f) ∗ (∃ f, xrM.view.loc (c : Thread nD τ) ↦{fullShare} f)
    ∗ (∃ f, ysM.view.loc (c : Thread nD τ) ↦{fullShare} f) ∗ (∃ f, yrM.view.loc (c : Thread nD τ) ↦{fullShare} f))

/-- The 32 own cells' counters back at zero. -/
def zeros (c : Dev nD) : sProp 𝕄 :=
  bigSep Finset.univ fun k : Fin 8 => iprop(semVal (xsCell c k) 0 ∗ semVal (xrCell c k) 0 ∗ semVal (ysCell c k) 0 ∗ semVal (yrCell c k) 0)

def Φ₀ (c : Dev nD) : sProp 𝕄 := iprop(start m c ∗ scratch c)
def Φ₁ (c : Dev nD) : sProp 𝕄 := iprop(scratch c ∗ zeros c)

/-! ## The pipeline's proof data -/

/-- One grid point. After it the block of partial sums and gamma are as staged, and the result block's staging buffer
    holds the sixteen slabs; before it the core holds its ghost state and the scratch buffers, after it the scratch
    buffers and its 32 counters at zero; it owes everything before and nothing after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outFinal m c
  Φ t := match t with
    | ⟨0, _⟩ => Φ₀ m c
    | ⟨_ + 1, _⟩ => Φ₁ c
  q _ := fullShare
  owed t := match t with
    | ⟨0, _⟩ => owedAt c 0
    | ⟨_ + 1, _⟩ => 0

end Cert.Kernel.Hand

end
-- ==== Proof.Bits.Ledger.lean ====
/-
  The ledger of one device: what it still owes after each of its eighteen payments, at which levels the owed units
  sit, and hence that each of its waits is below everything it still owes.
  A device pays, in order: 2 units to the x-partner's barrier, 1 to the y-partner's, a chunk's credit to each of the
  x-partner's eight x-receive cells, then to each of the y-partner's eight y-receive cells. Barrier cells sit at
  level 1, x-receive cells at 2, y-receive cells at 3, every other semaphore at 0. So whatever is owed sits at level 1
  or above; after the two signals at 2 or above; after the eight x transfers at 3. The staging waits (level 0) come
  first, the barrier waits (level 1) after the signals, the x-receive waits (level 2) after the x transfers, and the
  waits on send cells (level 0) and y-receive cells owe nothing that matters: every wait is below what is owed.
  At launch the owed units are matched by credit on the cells they are owed to: a device's barrier holds the 2 units
  of its x-partner and the 1 of its y-partner, each receive cell a chunk's credit.
-/
import proofs.«900597_g7700000000000598_dist_rsrms_v7x_xy2x2_x_m512_d512_f32_1_alg».proof.Proof.Bits.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The eighteen payments -/

theorem owed_s0 (c : Dev nD) : owedAt c 0 = owedAt c 1 + tallyAt (barCell (xp c)) () 2 := rfl
theorem owed_s1 (c : Dev nD) : owedAt c 1 = owedAt c 2 + tallyAt (barCell (yp c)) () 1 := rfl
theorem owed_x (c : Dev nD) (k : Fin 8) :
    owedAt c (2 + k.val) = owedAt c (3 + k.val) + tallyAt (xrCell (xp c) k) () N32 := by
  fin_cases k <;> rfl
theorem owed_y (c : Dev nD) (k : Fin 8) :
    owedAt c (10 + k.val) = owedAt c (11 + k.val) + tallyAt (yrCell (yp c) k) () N32 := by
  fin_cases k <;> rfl
theorem owed_end (c : Dev nD) : owedAt c 18 = 0 := rfl

/-! ## The levels at the cells -/

theorem L_tc (c : Dev nD) (sm : SemLoc sig) : L ((c : Thread nD τ), sm) = {()} := if_pos rfl
theorem L_of_tc {g : GSem nD τ sig} (h : g.1.2 = .tc) : L g = {()} := if_pos h

theorem lv_bar (d : Dev nD) : lv (barCell d) () = 1 := if_pos rfl
theorem lv_xs (d : Dev nD) (k : Fin 8) : lv (xsCell d k) () = 0 := by revert d k; decide
theorem lv_xr (d : Dev nD) (k : Fin 8) : lv (xrCell d k) () = 2 := by revert d k; decide
theorem lv_ys (d : Dev nD) (k : Fin 8) : lv (ysCell d k) () = 0 := by revert d k; decide
theorem lv_yr (d : Dev nD) (k : Fin 8) : lv (yrCell d k) () = 3 := by revert d k; decide
theorem lv_stage (d : Dev nD) (q : DmaSem sig) (hq : q = cc0_sem0_0 ∨ q = cc0_sem1_0 ∨ q = cc0_sem2_0) :
    lv ((d : Thread nD τ), .dma q) () = 0 := by
  rcases hq with rfl | rfl | rfl <;> rfl

/-! ## Where the owed units sit -/

/-- A positive entry of the tallies of a list of payments is at the cell of one of them. -/
theorem owedFrom_pos {l : List (GSem nD τ sig × ℕ)} {g : GSem nD τ sig} {u : Unit} (h : 0 < owedFrom l g u) :
    ∃ s ∈ l, g = s.1 := by
  induction l with
  | nil => exact absurd h (Nat.lt_irrefl 0)
  | cons s l ih =>
    have e : owedFrom (s :: l) = owedFrom l + tallyAt s.1 () s.2 := rfl
    rw [e, Pi.add_apply, Finsupp.add_apply, tallyAt_apply] at h
    by_cases hg : g = s.1 ∧ u = ()
    · exact ⟨s, List.mem_cons_self, hg.1⟩
    · rw [if_neg hg, Nat.add_zero] at h
      obtain ⟨s', hs', e'⟩ := ih h
      exact ⟨s', List.mem_cons_of_mem _ hs', e'⟩

/-- Every payment goes to a TensorCore's cell at level 1 or above; from the third on at 2 or above; from the
    eleventh on at 3. -/
theorem steps_lv (c : Dev nD) : ∀ s ∈ steps c, s.1.1.2 = .tc ∧ 1 ≤ lv s.1 () := by revert c; decide
theorem steps_lv2 (c : Dev nD) : ∀ s ∈ (steps c).drop 2, s.1.1.2 = .tc ∧ 2 ≤ lv s.1 () := by revert c; decide
theorem steps_lv10 (c : Dev nD) : ∀ s ∈ (steps c).drop 10, s.1.1.2 = .tc ∧ 3 ≤ lv s.1 () := by revert c; decide

/-- Where a device's owed units sit after its first i payments. -/
theorem owed_pos (c : Dev nD) (i : ℕ) {g : GSem nD τ sig} {u : Unit} (h : 0 < owedAt c i g u) :
    g.1.2 = .tc ∧ 1 ≤ lv g u ∧ (2 ≤ i → 2 ≤ lv g u) ∧ (10 ≤ i → 3 ≤ lv g u) := by
  obtain ⟨s, hs, rfl⟩ := owedFrom_pos h
  refine ⟨(steps_lv c s (List.mem_of_mem_drop hs)).1, (steps_lv c s (List.mem_of_mem_drop hs)).2, fun hi => ?_, fun hi => ?_⟩
  · have e : (steps c).drop i = ((steps c).drop 2).drop (i - 2) := by rw [List.drop_drop]; congr 1; omega
    rw [e] at hs
    exact (steps_lv2 c s (List.mem_of_mem_drop hs)).2
  · have e : (steps c).drop i = ((steps c).drop 10).drop (i - 10) := by rw [List.drop_drop]; congr 1; omega
    rw [e] at hs
    exact (steps_lv10 c s (List.mem_of_mem_drop hs)).2

/-! ## Every wait is below what is owed -/

omit [FloatOps F] in
/-- A wait at level b or below, owing the tallies after i payments, all of which sit above b. -/
theorem mayWait_of_lv (c : Dev nD) (sm : SemLoc sig) (i b : ℕ) (hsm : lv ((c : Thread nD τ), sm) () ≤ b)
    (hb : ∀ {g : GSem nD τ sig} {u : Unit}, 0 < owedAt c i g u → b < lv g u) :
    (levAts L lv : sProp 𝕄) ⊢ MayWait (c : Thread nD τ) sm () (owedAt c i) :=
  MayOwe.of_cut (L := L) (lev := lv) b
    (fun p hp => by rw [Finset.mem_singleton.mp hp, L_tc]; exact Finset.mem_singleton_self _)
    (fun g u hg => by rw [L_of_tc (owed_pos c i hg).1]; exact Finset.mem_singleton_self _)
    (fun p hp => by rw [Finset.mem_singleton.mp hp]; exact hsm)
    (fun g u hg => hb hg)

omit [FloatOps F] in
/-- The wait for the x-partner's two units comes after both signals: only receive cells are owed. -/
theorem mayWait_bar2 (c : Dev nD) : (levAts L lv : sProp 𝕄) ⊢ MayWait (c : Thread nD τ) (.reg barS) () (owedAt c 2) :=
  mayWait_of_lv c _ 2 1 (le_of_eq (lv_bar c)) fun hg => (owed_pos c 2 hg).2.2.1 (le_refl 2)

omit [FloatOps F] in
/-- The wait for the y-partner's unit comes after the eight x transfers: only y-receive cells are owed. -/
theorem mayWait_bar1 (c : Dev nD) : (levAts L lv : sProp 𝕄) ⊢ MayWait (c : Thread nD τ) (.reg barS) () (owedAt c 10) :=
  mayWait_of_lv c _ 10 1 (le_of_eq (lv_bar c)) fun hg => lt_of_lt_of_le (by decide) ((owed_pos c 10 hg).2.2.2 (le_refl 10))

omit [FloatOps F] in
/-- The waits on the x-receive cells come after the eight x transfers too. -/
theorem mayWait_xr (c : Dev nD) (k : Fin 8) (i : ℕ) (hi : 10 ≤ i) :
    (levAts L lv : sProp 𝕄) ⊢ MayWait (c : Thread nD τ) (.dma (sm cc0_scratch5 k)) () (owedAt c i) :=
  mayWait_of_lv c _ i 2 (le_of_eq (lv_xr c k)) fun hg => (owed_pos c i hg).2.2.2 hi

omit [FloatOps F] in
/-- The staging waits sit at level 0, below everything a device ever owes. -/
theorem mayWait_stage (c : Dev nD) (q : DmaSem sig) (hq : q = cc0_sem0_0 ∨ q = cc0_sem1_0 ∨ q = cc0_sem2_0)
    (O : CellTallies nD τ sig Unit) (hO : O = owedAt c 0 ∨ O = 0) :
    (levAts L lv : sProp 𝕄) ⊢ MayWait (c : Thread nD τ) (.dma q) () O := by
  rcases hO with rfl | rfl
  · exact mayWait_of_lv c _ 0 0 (le_of_eq (lv_stage c q hq)) fun hg => (owed_pos c 0 hg).2.1
  · rw [MayWait_zero]; iintro -; iempintro

/-- The pipeline's own waits are staging waits, before the body owing everything and after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch credit

What the four devices owe one cell, summed: a device's barrier is owed 2 by its x-partner and 1 by its y-partner,
its x-receive cell k a chunk's credit by its x-partner, its y-receive cell k by its y-partner. -/

omit [FloatOps F] in
theorem bar_eq_iff {a b : Dev nD} : barCell a = barCell b ↔ a = b :=
  ⟨fun h => Fin.ext (congrArg (fun g : GSem nD τ sig => g.1.1.val) h), fun h => h ▸ rfl⟩

theorem sm5_inj : ∀ k j : Fin 8, sm cc0_scratch5 k = sm cc0_scratch5 j → k = j := by decide
theorem sm7_inj : ∀ k j : Fin 8, sm cc0_scratch7 k = sm cc0_scratch7 j → k = j := by decide
theorem sm5_ne_sm7 : ∀ k j : Fin 8, sm cc0_scratch5 k ≠ sm cc0_scratch7 j := by decide

theorem xr_eq_iff {a b : Dev nD} {k j : Fin 8} : xrCell a k = xrCell b j ↔ a = b ∧ k = j :=
  ⟨fun h => ⟨Fin.ext (congrArg (fun g : GSem nD τ sig => g.1.1.val) h), sm5_inj k j (SemLoc.dma.inj (congrArg Prod.snd h))⟩,
    fun ⟨h1, h2⟩ => h1 ▸ h2 ▸ rfl⟩
theorem yr_eq_iff {a b : Dev nD} {k j : Fin 8} : yrCell a k = yrCell b j ↔ a = b ∧ k = j :=
  ⟨fun h => ⟨Fin.ext (congrArg (fun g : GSem nD τ sig => g.1.1.val) h), sm7_inj k j (SemLoc.dma.inj (congrArg Prod.snd h))⟩,
    fun ⟨h1, h2⟩ => h1 ▸ h2 ▸ rfl⟩

theorem bar_ne_xr (a b : Dev nD) (k : Fin 8) : barCell a ≠ xrCell b k := fun h => by
  have e : (SemLoc.reg barS : SemLoc sig) = .dma (sm cc0_scratch5 k) := congrArg Prod.snd h
  cases e
theorem bar_ne_yr (a b : Dev nD) (k : Fin 8) : barCell a ≠ yrCell b k := fun h => by
  have e : (SemLoc.reg barS : SemLoc sig) = .dma (sm cc0_scratch7 k) := congrArg Prod.snd h
  cases e
theorem xr_ne_yr (a b : Dev nD) (k j : Fin 8) : xrCell a k ≠ yrCell b j := fun h =>
  sm5_ne_sm7 k j (SemLoc.dma.inj (congrArg Prod.snd h))

/-- Everything a device owes at launch, family by family. -/
theorem owedAt0_eq (d : Dev nD) :
    owedAt d 0 = tallyAt (barCell (xp d)) () 2 + tallyAt (barCell (yp d)) () 1
      + (∑ k : Fin 8, tallyAt (xrCell (xp d) k) () N32) + ∑ k : Fin 8, tallyAt (yrCell (yp d) k) () N32 := by
  show owedFrom (steps d) = _
  rw [Fin.sum_univ_eight, Fin.sum_univ_eight]
  simp only [owedFrom, steps, List.foldr]
  abel

/-- What device d owes device c's barrier: 2 if d is c's x-partner, 1 if it is c's y-partner. -/
theorem owed0_bar (d c : Dev nD) :
    owedAt d 0 (barCell c) () = (if d = xp c then 2 else 0) + (if d = yp c then 1 else 0) := by
  rw [owedAt0_eq]
  simp only [Pi.add_apply, Finsupp.add_apply, Finset.sum_apply, Finsupp.finsetSum_apply]
  rw [Finset.sum_eq_zero (fun k _ => by rw [tallyAt_ne_cell (bar_ne_xr _ _ _)]; rfl),
    Finset.sum_eq_zero (fun k _ => by rw [tallyAt_ne_cell (bar_ne_yr _ _ _)]; rfl), Nat.add_zero, Nat.add_zero,
    tallyAt_apply, tallyAt_apply]
  congr 1
  · by_cases h : d = xp c
    · subst h; rw [xp_xp, if_pos ⟨rfl, rfl⟩, if_pos rfl]
    · rw [if_neg (fun ⟨h1, _⟩ => h (by rw [← xp_xp d]; exact congrArg xp (bar_eq_iff.mp h1).symm)), if_neg h]
  · by_cases h : d = yp c
    · subst h; rw [yp_yp, if_pos ⟨rfl, rfl⟩, if_pos rfl]
    · rw [if_neg (fun ⟨h1, _⟩ => h (by rw [← yp_yp d]; exact congrArg yp (bar_eq_iff.mp h1).symm)), if_neg h]

/-- What device d owes device c's x-receive cell k: a chunk's credit if d is c's x-partner. -/
theorem owed0_xr (d c : Dev nD) (k : Fin 8) : owedAt d 0 (xrCell c k) () = if d = xp c then N32 else 0 := by
  rw [owedAt0_eq]
  simp only [Pi.add_apply, Finsupp.add_apply, Finset.sum_apply, Finsupp.finsetSum_apply]
  rw [tallyAt_ne_cell (bar_ne_xr _ _ _).symm, tallyAt_ne_cell (bar_ne_xr _ _ _).symm,
    Finset.sum_eq_zero (s := Finset.univ) (f := fun j : Fin 8 => tallyAt (yrCell (yp d) j) () N32 (xrCell c k) ())
      (fun j _ => by rw [tallyAt_ne_cell (xr_ne_yr _ _ _ _)]; rfl),
    Finsupp.zero_apply, Nat.zero_add, Nat.zero_add, Nat.add_zero]
  by_cases h : d = xp c
  · subst h
    rw [if_pos rfl, Finset.sum_eq_single k (fun j _ hj => by
      rw [tallyAt_apply, if_neg (fun ⟨h1, _⟩ => hj (xr_eq_iff.mp h1).2.symm)]) (fun hk => absurd (Finset.mem_univ k) hk),
      xp_xp, tallyAt_self]
  · rw [if_neg h]
    exact Finset.sum_eq_zero fun j _ => by
      rw [tallyAt_apply, if_neg (fun ⟨h1, _⟩ => h (by rw [← xp_xp d]; exact congrArg xp (xr_eq_iff.mp h1).1.symm))]

/-- What device d owes device c's y-receive cell k: a chunk's credit if d is c's y-partner. -/
theorem owed0_yr (d c : Dev nD) (k : Fin 8) : owedAt d 0 (yrCell c k) () = if d = yp c then N32 else 0 := by
  rw [owedAt0_eq]
  simp only [Pi.add_apply, Finsupp.add_apply, Finset.sum_apply, Finsupp.finsetSum_apply]
  rw [tallyAt_ne_cell (bar_ne_yr _ _ _).symm, tallyAt_ne_cell (bar_ne_yr _ _ _).symm,
    Finset.sum_eq_zero (s := Finset.univ) (f := fun j : Fin 8 => tallyAt (xrCell (xp d) j) () N32 (yrCell c k) ())
      (fun j _ => by rw [tallyAt_ne_cell (xr_ne_yr _ _ _ _).symm]; rfl),
    Finsupp.zero_apply, Nat.zero_add, Nat.zero_add, Nat.zero_add]
  by_cases h : d = yp c
  · subst h
    rw [if_pos rfl, Finset.sum_eq_single k (fun j _ hj => by
      rw [tallyAt_apply, if_neg (fun ⟨h1, _⟩ => hj (yr_eq_iff.mp h1).2.symm)]) (fun hk => absurd (Finset.mem_univ k) hk),
      yp_yp, tallyAt_self]
  · rw [if_neg h]
    exact Finset.sum_eq_zero fun j _ => by
      rw [tallyAt_apply, if_neg (fun ⟨h1, _⟩ => h (by rw [← yp_yp d]; exact congrArg yp (yr_eq_iff.mp h1).1.symm))]

theorem launch_bar (c : Dev nD) :
    tallyOn (barCell c) (launchCredit (Pipeline.owing fun d => owedAt d 0) 0 (barCell c))
      = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib,
    Finset.sum_ite_eq' Finset.univ (xp c) fun _ => 2, Finset.sum_ite_eq' Finset.univ (yp c) fun _ => 1,
    if_pos (Finset.mem_univ _), if_pos (Finset.mem_univ _)]

theorem launch_xr (c : Dev nD) (k : Fin 8) :
    tallyOn (xrCell c k) (launchCredit (Pipeline.owing fun d => owedAt d 0) 0 (xrCell c k))
      = (tallyAt (xrCell c k) () N32 : CellTallies nD τ sig Unit) := by
  unfold tallyAt; refine congrArg _ (Finsupp.ext fun u => ?_); cases u
  rw [Pipeline.launchCredit_owing, Finsupp.single_eq_same, Finset.sum_congr rfl fun d _ => owed0_xr d c k,
    Finset.sum_ite_eq' Finset.univ (xp c) fun _ => N32, if_pos (Finset.mem_univ _)]

theorem launch_yr (c : Dev nD) (k : Fin 8) :
    tallyOn (yrCell c k) (launchCredit (Pipeline.owing fun d => owedAt d 0) 0 (yrCell c k))
      = (tallyAt (yrCell c k) () N32 : CellTallies nD τ sig Unit) := by
  unfold tallyAt; refine congrArg _ (Finsupp.ext fun u => ?_); cases u
  rw [Pipeline.launchCredit_owing, Finsupp.single_eq_same, Finset.sum_congr rfl fun d _ => owed0_yr d c k,
    Finset.sum_ite_eq' Finset.univ (yp c) fun _ => N32, if_pos (Finset.mem_univ _)]

/-- The sixteen receive semaphores: eight across x, eight across y. -/
def rcvSem : Fin 8 ⊕ Fin 8 → SemLoc sig :=
  Sum.elim (fun k => .dma (sm cc0_scratch5 k)) (fun k => .dma (sm cc0_scratch7 k))

theorem rcvSem_inj : Function.Injective rcvSem := by
  rintro (k | k) (j | j) h
  · exact congrArg Sum.inl (sm5_inj k j (SemLoc.dma.inj h))
  · exact absurd (SemLoc.dma.inj h) (sm5_ne_sm7 k j)
  · exact absurd (SemLoc.dma.inj h).symm (sm5_ne_sm7 j k)
  · exact congrArg Sum.inr (sm7_inj k j (SemLoc.dma.inj h))

theorem rcvSem_ne_bar (p : Fin 8 ⊕ Fin 8) : rcvSem p ≠ .reg barS := by
  rcases p with k | k <;> exact fun h => by cases h

omit [FloatOps F] in
/-- The credit on the sixteen receive cells out of a device's launch credit without its barrier's. -/
theorem creds_recv (c : Dev nD) :
    (bigSep ((Finset.univ : Finset (SemLoc sig)).erase (.reg barS)) fun sm : SemLoc sig =>
        cred (tallyOn ((c.tc : Thread nD τ), sm) (launchCredit (Pipeline.owing fun d => owedAt d 0) 0 ((c.tc : Thread nD τ), sm))) : sProp 𝕄)
      ⊢ bigSep Finset.univ fun k : Fin 8 => iprop(cred (tallyAt (xrCell c k) () N32) ∗ cred (tallyAt (yrCell c k) () N32)) := by
  refine (bigSep_subset (t := Finset.univ.map ⟨rcvSem, rcvSem_inj⟩) (fun x hx => ?_)).trans ?_
  · obtain ⟨p, -, rfl⟩ := Finset.mem_map.mp hx
    exact Finset.mem_erase.mpr ⟨rcvSem_ne_bar p, Finset.mem_univ _⟩
  · rw [bigSep_map, bigSep_univ_sum, bigSep_sep']
    refine sep_mono (bigSep_mono fun k _ => ?_) (bigSep_mono fun k _ => ?_)
    · show (cred (tallyOn (xrCell c k) (launchCredit (Pipeline.owing fun d => owedAt d 0) 0 (xrCell c k))) : sProp 𝕄) ⊢ _
      rw [launch_xr]
    · show (cred (tallyOn (yrCell c k) (launchCredit (Pipeline.owing fun d => owedAt d 0) 0 (yrCell c k))) : sProp 𝕄) ⊢ _
      rw [launch_yr]

omit [FloatOps F] in
/-- A device's launch credit: its barrier's three units as 2 + 1, and a chunk's credit on each receive cell. -/
theorem creds (c : Dev nD) :
    (Pipeline.launchCred (fun d => owedAt d 0) c : sProp 𝕄) ⊢ iprop(cred (tallyAt (barCell c) () 2) ∗ cred (tallyAt (barCell c) () 1)
      ∗ bigSep Finset.univ fun k : Fin 8 => iprop(cred (tallyAt (xrCell c k) () N32) ∗ cred (tallyAt (yrCell c k) () N32))) := by
  unfold Pipeline.launchCred
  rw [bigSep_univ_at _ (SemLoc.reg barS), launch_bar, ← tallyAt_add (barCell c) () 2 1]
  iintro ⟨Hb, Hrest⟩
  ihave Hb' := (cred_add _ _).1 $$ Hb; icases Hb' with ⟨H2, H1⟩
  iframe H2 H1
  iapply (creds_recv c) $$ Hrest

end Cert.Kernel.Hand

end
-- ==== Proof.Bits.Launch.lean ====
/-
  The launch: from "each device's kernel body is proved" to the run of the whole program on the 2 × 2 mesh, every
  result array named.
  The launch element mints, for every device, the round state, the owner's position and the one duty token of each
  of its 32 DMA cells, and the five one-shot tokens of its barrier cell. One update for the whole mesh allocates every
  cell's invariant — the 32 rounds cells of each device from their counters at zero, its barrier cell from its
  counter at zero and the token that marks the first wait as not yet done — and deals the tokens across the mesh:
  the arrival token of an x-receive cell goes to the x partner, that of a y-receive cell to the y partner, the two
  signal tokens of a barrier cell to the two partners.
-/
import proofs.«900597_g7700000000000598_dist_rsrms_v7x_xy2x2_x_m512_d512_f32_1_alg».proof.Proof.Bits.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own cells -/

/-- The kernel's own 32 DMA semaphores, by chunk and family: x-send, x-receive, y-send, y-receive. -/
abbrev osem (kf : Fin 8 × Fin 4) : SemLoc sig := match kf.2 with
  | 0 => .dma (sm cc0_scratch4 kf.1) | 1 => .dma (sm cc0_scratch5 kf.1) | 2 => .dma (sm cc0_scratch6 kf.1) | 3 => .dma (sm cc0_scratch7 kf.1)

theorem ownSemFacts : Pipeline.OwnSemFacts cfg0.spec osem := by decide

abbrev dcell (x : Dev nD × (Fin 8 × Fin 4)) : GSem nD τ sig := ((x.1 : Thread nD τ), osem x.2)

/-- The four families are the four cells of a chunk. -/
example (c : Dev nD) (k : Fin 8) : dcell (c, (k, 0)) = xsCell c k := rfl
example (c : Dev nD) (k : Fin 8) : dcell (c, (k, 1)) = xrCell c k := rfl
example (c : Dev nD) (k : Fin 8) : dcell (c, (k, 2)) = ysCell c k := rfl
example (c : Dev nD) (k : Fin 8) : dcell (c, (k, 3)) = yrCell c k := rfl

theorem osem_injective : Function.Injective osem := by decide

theorem dcell_injective : Function.Injective dcell := by
  rintro ⟨c, kf⟩ ⟨c', kf'⟩ h
  have h1 : c = c' := by have := congrArg (fun g : GSem nD τ sig => g.1.1) h; exact this
  subst h1
  have h2 : osem kf = osem kf' := congrArg Prod.snd h
  rw [osem_injective h2]

def dmaCells : Finset (GSem nD τ sig) := Finset.univ.map ⟨dcell, dcell_injective⟩

/-! ## The tokens the launch element mints -/

/-- The (cell, round, duty) triples minted: the one duty of each DMA cell, and the five one-shot tokens of each
    barrier cell. -/
abbrev tokOf : (Dev nD × (Fin 8 × Fin 4)) ⊕ (Dev nD × Fin 5) → GSem nD τ sig × ℕ × Unit
  | .inl x => (dcell x, 0, ())
  | .inr y => (barCell y.1, y.2.val, ())

theorem tokOf_injective : Function.Injective tokOf := by
  rintro (x | y) (x' | y') h
  · exact congrArg Sum.inl (dcell_injective (congrArg (fun t : GSem nD τ sig × ℕ × Unit => t.1) h))
  · exfalso
    have h2 : osem x.2 = .reg barS := congrArg (fun t : GSem nD τ sig × ℕ × Unit => t.1.2) h
    revert h2; generalize x.2 = kf; revert kf; decide
  · exfalso
    have h2 : SemLoc.reg barS = osem x'.2 := congrArg (fun t : GSem nD τ sig × ℕ × Unit => t.1.2) h
    revert h2; generalize x'.2 = kf; revert kf; decide
  · obtain ⟨c, r⟩ := y
    obtain ⟨c', r'⟩ := y'
    have h1 : c = c' := by have := congrArg (fun t : GSem nD τ sig × ℕ × Unit => t.1.1.1) h; exact this
    have h2 : r.val = r'.val := congrArg (fun t : GSem nD τ sig × ℕ × Unit => t.2.1) h
    rw [h1, Fin.ext h2]

def allToks : Finset (GSem nD τ sig × ℕ × Unit) := Finset.univ.map ⟨tokOf, tokOf_injective⟩

/-- The launch element: the pipeline library's copy, and the protocol's. -/
def u₀ : UU :=
  (initOf (Pipeline.cells cfgs cellOf_inj) (Pipeline.launchToks cfgs cellOf_inj), initOf dmaCells allToks)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Over a device's 32 DMA cells: chunk by chunk, the four families in turn. -/
theorem bigSep_cells (c : Dev nD) (Φ : GSem nD τ sig → sProp 𝕄) :
    (bigSep Finset.univ fun kf : Fin 8 × Fin 4 => Φ (dcell (c, kf)))
      = bigSep Finset.univ fun k : Fin 8 => iprop(Φ (xsCell c k) ∗ Φ (xrCell c k) ∗ Φ (ysCell c k) ∗ Φ (yrCell c k)) := by
  rw [bigSep_univ_prod]
  exact bigSep_congr fun k _ => by rw [bigSep_fin4]

/-- Over all the mesh's DMA cells: device by device. -/
theorem bigSep_dmaCells (Φ : GSem nD τ sig → sProp 𝕄) :
    bigSep dmaCells Φ = bigSep Finset.univ fun c : Dev nD => bigSep Finset.univ fun kf : Fin 8 × Fin 4 => Φ (dcell (c, kf)) := by
  unfold dmaCells; rw [bigSep_map, bigSep_univ_prod]; rfl

variable (m : (ℓ : Loc nD τ sig) → Buf (Elt F) ℓ)

/-- The five one-shot tokens of device c's barrier cell. -/
def barMint (c : Dev nD) : sProp 𝕄 := iprop(tX (F := F) c ∗ tY (F := F) c ∗ tW1 (F := F) c ∗ tW2 (F := F) c ∗ tZ (F := F) c)

/-- What the launch element deals device c: of each of its 32 DMA cells the round state at counter zero, the owner's
    position with the fact that round 0 is reached and the duty token, and the five tokens of its barrier cell. -/
def G (c : Dev nD) : sProp 𝕄 :=
  iprop((bigSep Finset.univ fun kf : Fin 8 × Fin 4 => roundState ER (dmaRd m) (dcell (c, kf)) 0)
    ∗ (bigSep Finset.univ fun kf : Fin 8 × Fin 4 => iprop(atPos ER (dcell (c, kf)) 0 ∅ 0 ∗ reached ER (dcell (c, kf)) 0))
    ∗ (bigSep Finset.univ fun kf : Fin 8 × Fin 4 => dutyTok ER (dcell (c, kf)) 0 ())
    ∗ barMint (F := F) c)

theorem fund_all : BI.own (ER (initOf dmaCells allToks)) ⊢ (|==> bigSep Finset.univ (G m) : sProp 𝕄) := by
  have hT : bigSep allToks (fun x => (dutyTok ER x.1 x.2.1 x.2.2 : sProp 𝕄))
      = iprop((bigSep Finset.univ fun c : Dev nD => bigSep Finset.univ fun kf : Fin 8 × Fin 4 => dutyTok ER (dcell (c, kf)) 0 ())
          ∗ bigSep Finset.univ fun c : Dev nD => barMint (F := F) c) := by
    unfold allToks; rw [bigSep_map, bigSep_univ_sum, bigSep_univ_prod, bigSep_univ_prod]
    congr 1
    exact bigSep_congr fun c _ => by unfold barMint; rw [bigSep_fin5] <;> rfl
  iintro HX
  imod (Rounds.fund ER (dmaRd m) dmaCells allToks) $$ HX with ⟨Hst, Hr, Hat, Htok⟩
  imodintro
  ihave Hst' := (Entails.of_eq (bigSep_dmaCells fun g => roundState ER (dmaRd m) g 0)) $$ Hst
  ihave Hat' := (Entails.of_eq (bigSep_dmaCells fun g => atPos ER g 0 ∅ 0)) $$ Hat
  ihave Hr' := (Entails.of_eq (bigSep_dmaCells fun g => reached ER g 0)) $$ Hr
  ihave Htok' := (Entails.of_eq hT) $$ Htok
  icases Htok' with ⟨Ht1, Ht2⟩
  unfold G; simp only [bigSep_sep']
  isplitl [Hst']; · iexact Hst'
  isplitl [Hat' Hr']
  · isplitl [Hat'] <;> iassumption
  isplitl [Ht1]; · iexact Ht1
  iexact Ht2

/-! ## Allocation: every cell's invariant -/

instance payOf_storable (c : Dev nD) (fk : Fin 4 × Fin 8) : BI.Storable (upEmb : UEmb _ 𝕄) (payOf m c fk) := by
  obtain ⟨f, k⟩ := fk
  fin_cases f <;> exact chunkAt_storable _ _ _ _

instance cellPay_storable (g : GSem nD τ sig) : BI.Storable (upEmb : UEmb _ 𝕄) (cellPay m g) := by
  unfold cellPay
  split
  · split
    · exact payOf_storable m _ _
    · infer_instance
  · infer_instance

instance dmaRd_payload_storable (g : GSem nD τ sig) (r : ℕ) (d : Unit) :
    BI.Storable (upEmb : UEmb _ 𝕄) ((dmaRd m).payload g r d) := cellPay_storable m g

omit [FloatOps F] in
/-- The kernel's own semaphores are the 32 DMA cells; -/
theorem ownSems0_eq (c : Dev nD) : (Pipeline.ownSems0 (Ix := Unit) (Name := ℕ) (U := UU) (Lvl := ℕ) (Val := Elt F) (τ := τ) osem c : sProp 𝕄)
    = bigSep Finset.univ fun kf : Fin 8 × Fin 4 => semVal (dcell (c, kf)) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The tokens of device c's barrier cell that are dealt on: the two signal tokens and the two wait rights. -/
def barOwn (c : Dev nD) : sProp 𝕄 := iprop(tX (F := F) c ∗ tY (F := F) c ∗ tW1 (F := F) c ∗ tW2 (F := F) c)

/-- Device c's cells allocated: each of its 32 DMA cells from its counter and round state at zero, its barrier cell
    from its counter at zero and the token that marks the first wait as not yet done. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun kf : Fin 8 × Fin 4 => iprop(∃ κ : ℕ, cellInv ER (dmaRd m) κ (dcell (c, kf))))
          ∗ (∃ κ : ℕ, barInv (F := F) PX PY κ c)
          ∗ (bigSep Finset.univ fun kf : Fin 8 × Fin 4 => iprop(atPos ER (dcell (c, kf)) 0 ∅ 0 ∗ reached ER (dcell (c, kf)) 0))
          ∗ (bigSep Finset.univ fun kf : Fin 8 × Fin 4 => dutyTok ER (dcell (c, kf)) 0 ())
          ∗ barOwn (F := F) c) := by
  unfold G barMint barOwn
  rw [ownSems0_eq, unscopedSems0_eq]
  iintro ⟨Hos, Hus, Hst, Hat, Htok, HtX, HtY, HtW1, HtW2, HtZ⟩
  imod (show iprop((bigSep Finset.univ fun kf : Fin 8 × Fin 4 => semVal (dcell (c, kf)) 0)
        ∗ bigSep Finset.univ fun kf : Fin 8 × Fin 4 => roundState ER (dmaRd m) (dcell (c, kf)) 0)
      ⊢ (|={Set.univ}=> bigSep Finset.univ fun kf : Fin 8 × Fin 4 => iprop(∃ κ : ℕ, cellInv ER (dmaRd m) κ (dcell (c, kf))) : sProp 𝕄) from by
        rw [← bigSep_sep']
        exact (bigSep_mono fun kf _ => (Rounds.body_intro ER (dmaRd m) (dcell (c, kf))).trans inv_alloc).trans (bigSep_fupd _ _)) $$ [Hos Hst] with Hinv
  · isplitl [Hos] <;> iassumption
  imod (bar_alloc (F := F) PX PY c) $$ [Hus HtZ] with Hbar
  · isplitl [Hus] <;> iassumption
  imodintro
  isplitl [Hinv]; · iexact Hinv
  isplitl [Hbar]; · iexact Hbar
  isplitl [Hat]; · iexact Hat
  isplitl [Htok]; · iexact Htok
  isplitl [HtX]; · iexact HtX
  isplitl [HtY]; · iexact HtY
  isplitl [HtW1] <;> iassumption

/-! ## The records every device reads -/

variable (K : GSem nD τ sig → ℕ) (KB : Dev nD → ℕ)

/-- At the names K and KB: every DMA cell's invariant, that round 0 of every DMA cell is reached, every barrier
    cell's invariant. -/
def records : sProp 𝕄 :=
  iprop((bigSep dmaCells fun g => cellInv ER (dmaRd m) (K g) g) ∗ (bigSep dmaCells fun g => reached ER g 0)
    ∗ bigSep Finset.univ fun c : Dev nD => barInv (F := F) PX PY (KB c) c)

instance records_persistent : BI.Persistent (records m K KB) := by unfold records; infer_instance

theorem mem_dmaCells (x : Dev nD × (Fin 8 × Fin 4)) : dcell x ∈ dmaCells := Finset.mem_map.mpr ⟨x, Finset.mem_univ _, rfl⟩
theorem xs_mem (c : Dev nD) (k : Fin 8) : xsCell c k ∈ dmaCells := mem_dmaCells (c, (k, 0))
theorem xr_mem (c : Dev nD) (k : Fin 8) : xrCell c k ∈ dmaCells := mem_dmaCells (c, (k, 1))
theorem ys_mem (c : Dev nD) (k : Fin 8) : ysCell c k ∈ dmaCells := mem_dmaCells (c, (k, 2))
theorem yr_mem (c : Dev nD) (k : Fin 8) : yrCell c k ∈ dmaCells := mem_dmaCells (c, (k, 3))

theorem inv_at {g : GSem nD τ sig} (hg : g ∈ dmaCells) : records m K KB ⊢ cellInv ER (dmaRd m) (K g) g := by
  unfold records
  iintro ⟨H, -⟩
  iapply (show (bigSep dmaCells fun g => cellInv ER (dmaRd m) (K g) g) ⊢ cellInv ER (dmaRd m) (K g) g from bigSep_elim hg) $$ H

theorem reached_at {g : GSem nD τ sig} (hg : g ∈ dmaCells) : records m K KB ⊢ reached ER g 0 := by
  unfold records
  iintro ⟨-, H, -⟩
  iapply (show (bigSep dmaCells fun g => (reached ER g 0 : sProp 𝕄)) ⊢ reached ER g 0 from bigSep_elim hg) $$ H

theorem bar_at (c : Dev nD) : records m K KB ⊢ barInv (F := F) PX PY (KB c) c := by
  unfold records
  iintro ⟨-, -, H⟩
  iapply (show (bigSep Finset.univ fun c : Dev nD => barInv (F := F) PX PY (KB c) c) ⊢ barInv (F := F) PX PY (KB c) c from bigSep_elim (Finset.mem_univ c)) $$ H

theorem persAt_intro (c : Dev nD) (k : Fin 8) : records m K KB ⊢ persAt m K c k := by
  unfold persAt
  iintro #H
  isplitr; · iapply (inv_at m K KB (xs_mem c k)); iexact H
  isplitr; · iapply (inv_at m K KB (xr_mem c k)); iexact H
  isplitr; · iapply (inv_at m K KB (ys_mem c k)); iexact H
  isplitr; · iapply (inv_at m K KB (yr_mem c k)); iexact H
  isplitr; · iapply (inv_at m K KB (xr_mem (xp c) k)); iexact H
  isplitr; · iapply (inv_at m K KB (yr_mem (yp c) k)); iexact H
  isplitr; · iapply (reached_at m K KB (xs_mem c k)); iexact H
  isplitr; · iapply (reached_at m K KB (ys_mem c k)); iexact H
  isplitr; · iapply (reached_at m K KB (xr_mem (xp c) k)); iexact H
  iapply (reached_at m K KB (yr_mem (yp c) k)); iexact H

/-- The persistent part of a device's ghost state but for the level facts, which arrive device by device. -/
def Pers₀ (c : Dev nD) : sProp 𝕄 :=
  iprop((bigSep Finset.univ fun k : Fin 8 => persAt m K c k)
    ∗ barInv PX PY (KB c) c ∗ barInv PX PY (KB (xp c)) (xp c) ∗ barInv PX PY (KB (yp c)) (yp c))

instance Pers₀_persistent (c : Dev nD) : BI.Persistent (Pers₀ m K KB c) := by unfold Pers₀; infer_instance

theorem Pers₀_intro (c : Dev nD) : records m K KB ⊢ Pers₀ m K KB c := by
  unfold Pers₀
  iintro #H
  isplitr; · iapply (bigSep_intro_persistent (R := records m K KB) fun k _ => persAt_intro m K KB c k); iexact H
  isplitr; · iapply (bar_at m K KB c); iexact H
  isplitr; · iapply (bar_at m K KB (xp c)); iexact H
  iapply (bar_at m K KB (yp c)); iexact H

/-! ## The dealing across the mesh -/

/-- The four duty tokens device c pays chunk k with: the departure tokens of its own two send cells, the arrival
    tokens of its partners' receive cells. -/
def payTok (c : Dev nD) (k : Fin 8) : sProp 𝕄 :=
  iprop(dutyTok ER (xsCell c k) 0 () ∗ dutyTok ER (xrCell (xp c) k) 0 () ∗ dutyTok ER (ysCell c k) 0 () ∗ dutyTok ER (yrCell (yp c) k) 0 ())

/-- The barrier's tokens in c's hand: the two it pays with and its two wait rights. -/
def barToks (c : Dev nD) : sProp 𝕄 :=
  iprop(tX (F := F) (xp c) ∗ tY (F := F) (yp c) ∗ tW1 (F := F) c ∗ tW2 (F := F) c)

/-- An x-receive cell's token goes to the x partner, a y-receive cell's to the y partner. -/
theorem toks_around :
    (bigSep Finset.univ fun c : Dev nD => bigSep Finset.univ fun kf : Fin 8 × Fin 4 => (dutyTok ER (dcell (c, kf)) 0 () : sProp 𝕄))
      ⊢ bigSep Finset.univ fun c : Dev nD => bigSep Finset.univ fun k : Fin 8 => payTok (F := F) c k := by
  rw [bigSep_congr (s := Finset.univ) fun (c : Dev nD) _ => bigSep_cells c fun g => (dutyTok ER g 0 () : sProp 𝕄)]
  unfold payTok
  simp only [bigSep_sep']
  rw [bigSep_univ_equiv xpE (fun c : Dev nD => bigSep Finset.univ fun k : Fin 8 => (dutyTok ER (xrCell c k) 0 () : sProp 𝕄)),
    bigSep_univ_equiv ypE (fun c : Dev nD => bigSep Finset.univ fun k : Fin 8 => (dutyTok ER (yrCell c k) 0 () : sProp 𝕄))]
  iintro ⟨H1, H2, H3, H4⟩
  isplitl [H1]; · iexact H1
  isplitl [H2]; · iexact H2
  isplitl [H3]; · iexact H3
  iexact H4

/-- A barrier cell's two signal tokens go to its two partners. -/
theorem bar_around :
    (bigSep Finset.univ fun c : Dev nD => barOwn (F := F) c) ⊢ bigSep Finset.univ fun c : Dev nD => barToks (F := F) c := by
  unfold barOwn barToks
  simp only [bigSep_sep']
  rw [bigSep_univ_equiv xpE (fun c : Dev nD => tX (F := F) c), bigSep_univ_equiv ypE (fun c : Dev nD => tY (F := F) c)]
  iintro ⟨H1, H2, H3, H4⟩
  isplitl [H1]; · iexact H1
  isplitl [H2]; · iexact H2
  isplitl [H3]; · iexact H3
  iexact H4

/-! ## The global step -/

/-- What the global step makes of the dealt resources: at some names, the invariants device c works with, its
    positions on its 32 cells and the tokens of the duties it pays. -/
def G' (c : Dev nD) : sProp 𝕄 :=
  iprop(∃ K KB, Pers₀ m K KB c
    ∗ (bigSep Finset.univ fun kf : Fin 8 × Fin 4 => atPos ER (dcell (c, kf)) 0 ∅ 0)
    ∗ (bigSep Finset.univ fun k : Fin 8 => payTok (F := F) c k) ∗ barToks (F := F) c)

/-- What stays with device c, or comes to it, of the linear resources. -/
def linear (c : Dev nD) : sProp 𝕄 :=
  iprop((bigSep Finset.univ fun kf : Fin 8 × Fin 4 => atPos ER (dcell (c, kf)) 0 ∅ 0)
    ∗ (bigSep Finset.univ fun k : Fin 8 => payTok (F := F) c k) ∗ barToks (F := F) c)

theorem ghost_intro (c : Dev nD) : iprop(records m K KB ∗ linear (F := F) c) ⊢ G' m c := by
  unfold linear G'
  iintro ⟨#HR, Hat, Hpay, Hbar⟩
  iexists K, KB
  isplitr; · iapply (Pers₀_intro m K KB c); iexact HR
  isplitl [Hat]; · iexact Hat
  isplitl [Hpay] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun kf : Fin 8 × Fin 4 => iprop(∃ κ : ℕ, cellInv ER (dmaRd m) κ (dcell (c, kf))))
          ∗ (∃ κ : ℕ, barInv (F := F) PX PY κ c)
          ∗ (bigSep Finset.univ fun kf : Fin 8 × Fin 4 => iprop(atPos ER (dcell (c, kf)) 0 ∅ 0 ∗ reached ER (dcell (c, kf)) 0))
          ∗ (bigSep Finset.univ fun kf : Fin 8 × Fin 4 => dutyTok ER (dcell (c, kf)) 0 ())
          ∗ barOwn (F := F) c) : sProp 𝕄)
      ⊢ bigSep Finset.univ (G' m) := by
  simp only [bigSep_sep']
  rw [← bigSep_dmaCells (fun g => iprop(∃ κ : ℕ, cellInv ER (dmaRd m) κ g)), ← bigSep_dmaCells (fun g => (reached ER g 0 : sProp 𝕄))]
  iintro ⟨HI, HB, ⟨Hat, #HR⟩, Htok, Hbar⟩
  ihave HK := (BI.bigSep_exists_pi dmaCells (fun (g : GSem nD τ sig) (κ : ℕ) => (cellInv ER (dmaRd m) κ g : sProp 𝕄))) $$ HI
  icases HK with ⟨%K, #HI⟩
  ihave HKB := (BI.bigSep_exists_pi Finset.univ (fun (c : Dev nD) (κ : ℕ) => (barInv (F := F) PX PY κ c : sProp 𝕄))) $$ HB
  icases HKB with ⟨%KB, #HB⟩
  ihave Htk := (toks_around (F := F)) $$ Htok
  ihave Hbk := (bar_around (F := F)) $$ Hbar
  iapply (bigSep_with_persistent (R := records m K KB) fun c _ => ghost_intro m K KB c)
  isplitr
  · unfold records
    isplitr; · iexact HI
    isplitr; · iexact HR
    iexact HB
  · unfold linear
    simp only [bigSep_sep']
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem share_eq (c : Dev nD) (w : Fin cfg0.W) : (dats m 0 c).share w = fullShare := by unfold Dat.share; split <;> rfl

omit [FloatOps F] in
/-- Chunk k's linear part from its three pieces. -/
theorem kit_intro (c : Dev nD) (k : Fin 8) :
    iprop((atPos ER (xsCell c k) 0 ∅ 0 ∗ atPos ER (xrCell c k) 0 ∅ 0 ∗ atPos ER (ysCell c k) 0 ∅ 0 ∗ atPos ER (yrCell c k) 0 ∅ 0)
        ∗ payTok (F := F) c k ∗ (cred (tallyAt (xrCell c k) () N32) ∗ cred (tallyAt (yrCell c k) () N32)))
      ⊢ kit (F := F) c k := by
  unfold payTok kit
  iintro ⟨⟨A1, A2, A3, A4⟩, ⟨T1, T2, T3, T4⟩, C1, C2⟩
  isplitl [A1]; · iexact A1
  isplitl [A2]; · iexact A2
  isplitl [A3]; · iexact A3
  isplitl [A4]; · iexact A4
  isplitl [T1]; · iexact T1
  isplitl [T2]; · iexact T2
  isplitl [T3]; · iexact T3
  isplitl [T4]; · iexact T4
  isplitl [C1] <;> iassumption

theorem kits_intro (c : Dev nD) :
    iprop((bigSep Finset.univ fun kf : Fin 8 × Fin 4 => atPos ER (dcell (c, kf)) 0 ∅ 0)
        ∗ (bigSep Finset.univ fun k : Fin 8 => payTok (F := F) c k)
        ∗ (bigSep Finset.univ fun k : Fin 8 => iprop(cred (tallyAt (xrCell c k) () N32) ∗ cred (tallyAt (yrCell c k) () N32))))
      ⊢ kits (F := F) c := by
  rw [bigSep_cells c (fun g => (atPos ER g 0 ∅ 0 : sProp 𝕄)), ← bigSep_sep', ← bigSep_sep']
  have e : (bigSep Finset.univ fun k : Fin 8 => kit (F := F) c k) = kits c := by unfold kits; rw [bigSep_fin8]
  rw [← e]
  exact bigSep_mono fun k _ => kit_intro c k

/-- Each device sorts what it is handed: the level facts complete its persistent part, its launch credit its linear
    parts. -/
theorem start_intro (ρ : Dev nD → PrngReg)
    (creds : ∀ c, (Pipeline.launchCred (fun d => owedAt d 0) c : sProp 𝕄)
      ⊢ iprop(cred (tallyAt (barCell c) () 2) ∗ cred (tallyAt (barCell c) () 1)
          ∗ bigSep Finset.univ fun k : Fin 8 => iprop(cred (tallyAt (xrCell c k) () N32) ∗ cred (tallyAt (yrCell c k) () N32))))
    (c : Dev nD) :
    iprop(Pipeline.unscopedRestP Pipeline.Prefetch.none cfg0.spec c (fun b => m ((c : Thread nD τ).loc b)) ∗ levAts L lv
        ∗ Pipeline.launchCred (fun d => owedAt d 0) c ∗ prngReg c (ρ c) ∗ G' m c)
      ⊢ |={Set.univ}=> iprop(start m c ∗ emp) := by
  unfold G'
  iintro ⟨-, #Hlev, Hcr, -, ⟨%K, %KB, #HP, Hat, Hpay, Hbar⟩⟩
  ihave Hc := (creds c) $$ Hcr
  icases Hc with ⟨H2, H1, HN⟩
  imodintro
  isplitl
  · unfold start ghost
    iexists K, KB
    isplitr
    · unfold Pers Pers₀
      icases HP with ⟨P1, P2, P3, P4⟩
      isplitr; · iexact P1
      isplitr; · iexact P2
      isplitr; · iexact P3
      isplitr; · iexact P4
      iexact Hlev
    isplitl [Hat Hpay HN]
    · iapply (kits_intro (F := F) c)
      isplitl [Hat]; · iexact Hat
      isplitl [Hpay] <;> iassumption
    · unfold barKit barToks
      icases Hbar with ⟨B1, B2, B3, B4⟩
      isplitl [B1]; · iexact B1
      isplitl [B2]; · iexact B2
      isplitl [B3]; · iexact B3
      isplitl [B4]; · iexact B4
      isplitl [H2] <;> iassumption
  · iempintro

/-- The first point's invariant: what the device starts from, and its four scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; iexact H0
  isplitl [H1]; · iexists f1; iexact H1
  isplitl [H2]; · iexists f2; iexact H2
  iexists f3; iexact H3

/-- The last point's invariant gives back the kernel's own semaphores at zero and the scratch buffers. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq, bigSep_cells c (fun g => (semVal g 0 : sProp 𝕄))]
  unfold Φ₁ scratch zeros
  iintro ⟨⟨⟨%f0, H0⟩, ⟨%f1, H1⟩, ⟨%f2, H2⟩, ⟨%f3, H3⟩⟩, Hz⟩
  isplitr; · iempintro
  isplitl [Hz]; · iexact Hz
  isplitl [H0]; · iexists f0; iexact H0
  isplitl [H1]; · iexists f1; iexact H1
  isplitl [H2]; · iexists f2; iexact H2
  iexists f3; iexact H3

/-! ## The run -/

set_option maxRecDepth 8000 in
/-- At the compiled 2 × 2 mesh, for any float values, from any memory with zero counters: given each device's body
    obligation, its launch credit and its level facts, every weakly fair execution of @main terminates, and every
    final state has each windowed array of each device at the contents the proof data name. -/
theorem run_main (ρ : Dev nD → PrngReg)
    (creds : ∀ c, (Pipeline.launchCred (fun d => owedAt d 0) c : sProp 𝕄)
      ⊢ iprop(cred (tallyAt (barCell c) () 2) ∗ cred (tallyAt (barCell c) () 1)
          ∗ bigSep Finset.univ fun k : Fin 8 => iprop(cred (tallyAt (xrCell c k) () N32) ∗ cred (tallyAt (yrCell c k) () N32))))
    (waits : ∀ c, (levAts L lv : sProp 𝕄) ⊢ Pipeline.cellsWaits cfgs (dats m) () 0 c)
    (hbody : ∀ c, BodyObligation (dats (F := F) m 0 c) (defs₀ (F := F)) Variants.none () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := fun d => owedAt d 0) (howed₀ := fun _ => rfl) (howedN := fun _ => rfl)
    (L := L) (lv := lv) (hL := fun g h => if_neg h) (hwaits := waits)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ creds) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The block of partial sums and gamma hold after the run what they held. -/
theorem finalA_x (c : Dev nD) : (dats m 0 c).arrAt (0 : Fin 3) cfg0.N = m ((c : Thread nD τ).loc main_arg0) :=
  (dats (F := F) m 0 c).arrAt_in (0 : Fin 3) rfl _
theorem finalA_g (c : Dev nD) : (dats m 0 c).arrAt (1 : Fin 3) cfg0.N = m ((c : Thread nD τ).loc main_arg1) :=
  (dats (F := F) m 0 c).arrAt_in (1 : Fin 3) rfl _

/-- The result array holds after the run the sixteen slabs: the one grid point writes the whole staged result block
    back over the whole array. -/
theorem finalA_out (c : Dev nD) : (dats m 0 c).arrAt (2 : Fin 3) cfg0.N = outFinal m c := by
  have h := (dats (F := F) m 0 c).arrAt_succ (2 : Fin 3) t0_0
  rw [flush0_2 t0_0, if_pos rfl] at h
  refine (show (dats m 0 c).arrAt (2 : Fin 3) cfg0.N = (dats m 0 c).arrAt (2 : Fin 3) (t0_0.val + 1) from by rw [show cfg0.N = t0_0.val + 1 from N_0]).trans (h.trans ?_)
  exact Memref.write_access_unit_zero_univ (Elt F) main_v1 (funext fun a => by fin_cases a <;> rfl) _ _ _

/-- info: 'Cert.Kernel.Hand.run_main' depends on axioms: [propext, Classical.choice, Quot.sound] -/
#guard_msgs in #print axioms run_main

/-- info: 'Cert.Kernel.Hand.finalA_x' depends on axioms: [propext, Classical.choice, Quot.sound] -/
#guard_msgs in #print axioms finalA_x

/-- info: 'Cert.Kernel.Hand.finalA_g' depends on axioms: [propext, Classical.choice, Quot.sound] -/
#guard_msgs in #print axioms finalA_g

/-- info: 'Cert.Kernel.Hand.finalA_out' depends on axioms: [propext, Classical.choice, Quot.sound] -/
#guard_msgs in #print axioms finalA_out

end Cert.Kernel.Hand

end
-- ==== Proof.Bits.Moves.lean ====
/-
  The moves of the protocol on chunk k, each one rule: the transfer of the chunk across x and across y, and the wait on
  each of the four cells, which also closes the cell (its one round is over) and hands its counter back at zero.
-/
import proofs.«900597_g7700000000000598_dist_rsrms_v7x_xy2x2_x_m512_d512_f32_1_alg».proof.Proof.Bits.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The four families -/

theorem famOf_xs (k : Fin 8) : famOf (sm cc0_scratch4 k) = some (0, k) := by revert k; decide
theorem famOf_xr (k : Fin 8) : famOf (sm cc0_scratch5 k) = some (1, k) := by revert k; decide
theorem famOf_ys (k : Fin 8) : famOf (sm cc0_scratch6 k) = some (2, k) := by revert k; decide
theorem famOf_yr (k : Fin 8) : famOf (sm cc0_scratch7 k) = some (3, k) := by revert k; decide

theorem isXfer_xs (c : Dev nD) (k : Fin 8) : IsXfer (xsCell c k) := ⟨rfl, _, rfl, by rw [famOf_xs]; rfl⟩
theorem isXfer_xr (c : Dev nD) (k : Fin 8) : IsXfer (xrCell c k) := ⟨rfl, _, rfl, by rw [famOf_xr]; rfl⟩
theorem isXfer_ys (c : Dev nD) (k : Fin 8) : IsXfer (ysCell c k) := ⟨rfl, _, rfl, by rw [famOf_ys]; rfl⟩
theorem isXfer_yr (c : Dev nD) (k : Fin 8) : IsXfer (yrCell c k) := ⟨rfl, _, rfl, by rw [famOf_yr]; rfl⟩

theorem cellPay_xs (c : Dev nD) (k : Fin 8) : cellPay m (xsCell c k) = chunkAt c xsM k (XS m c k) := by
  unfold cellPay; dsimp only; rw [famOf_xs]; rfl
theorem cellPay_xr (c : Dev nD) (k : Fin 8) : cellPay m (xrCell c k) = chunkAt c xrM k (XR m c k) := by
  unfold cellPay; dsimp only; rw [famOf_xr]; rfl
theorem cellPay_ys (c : Dev nD) (k : Fin 8) : cellPay m (ysCell c k) = chunkAt c ysM k (YS m c k) := by
  unfold cellPay; dsimp only; rw [famOf_ys]; rfl
theorem cellPay_yr (c : Dev nD) (k : Fin 8) : cellPay m (yrCell c k) = chunkAt c yrM k (YR m c k) := by
  unfold cellPay; dsimp only; rw [famOf_yr]; rfl

/-! ## The wait on a DMA cell, closing it -/

/-- The wait on one of the device's own DMA cells: its one round is consumed, its payload taken, and — no later round
    having a duty — the cell is closed and its counter comes back at zero. -/
theorem wp_dma_wait_close (c : Dev nD) (s : DmaSem sig) (h : IsXfer ((c : Thread nD τ), .dma s)) {κ : ℕ}
    {sp sp' : Space} {sh sh' : Shape} {e e' : EltTy} {src : Memref sig .tc sp' sh' e'} {κ' : Kind} {dst : Memref sig κ' sp sh e}
    {hsrc : src.view.WordExact} {hdst : dst.view.WordExact} (hcr : dst.view.dmaCredit = N32)
    {O : CellTallies nD τ sig Unit} {W : Waits sig Unit}
    {α : Type} {kk : PUnit → Prog (TpuEff nD τ sig (Elt F) Λ₀ .tc) α} {Q : α → sProp 𝕄} :
    iprop(cellInv ER (dmaRd m) κ ((c : Thread nD τ), .dma s) ∗ cred (tallyAt ((c : Thread nD τ), .dma s) () N32) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ semVal ((c : Thread nD τ), .dma s) 0 ∗ cellPay m ((c : Thread nD τ), .dma s))
            -∗ wp frame (wpE (defs₀ (F := F)) 𝒱₀ c none) Set.univ (kk ⟨⟩) Q)
          -∗ wp frame (wpE (defs₀ (F := F)) 𝒱₀ c none) Set.univ (.op (.waitDma2 s src dst hsrc hdst) kk) Q) := by
  iintro ⟨#HI, Hc, HO, Hw, Hat⟩ Hk
  iapply (wp_dma_wait m c s h (κ := κ) hcr (O := O) (W := W)) $$ [Hc HO Hw Hat]
  · isplitr; · iexact HI
    isplitl [Hc]; · iexact Hc
    isplitl [HO]; · iexact HO
    isplitl [Hw]; · iexact Hw
    iexact Hat
  iintro ⟨HO, Hat, Hpay⟩
  imod (Rounds.cell_close ER (dmaRd m) (Set.mem_univ κ) (fun h => h) (R := 0 + 1) (duties_later m _)) $$ [Hat] with Hz
  · isplitr; · iexact HI
    iexact Hat
  iapply Hk
  isplitl [HO]; · iexact HO
  isplitl [Hz]; · iexact Hz
  iexact Hpay

end Cert.Kernel.Hand

end
-- ==== Proof.Bits.MovesXY.lean ====
/- The transfer of chunk k across each mesh axis, and the wait on each of the four cells of chunk k, from chunk k's persistent facts. -/
import proofs.«900597_g7700000000000598_dist_rsrms_v7x_xy2x2_x_m512_d512_f32_1_alg».proof.Proof.Bits.Moves

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The transfers -/

/-- The transfer of chunk k across x: c's chunk, reading as the vector it is to send, goes into the partner's chunk. -/
theorem wp_xsend (K : GSem nD τ sig → ℕ) (c : Dev nD) (k : Fin 8) (n : Dev nD) (hn : n = xp c)
    {hsc : (sl xrM k : Memref sig (Dev.tc n : Thread nD τ).2.kind .vmem S32x512 .bf16).view.ref.isScScratch = false}
    {hsrc : (sl xsM k).view.WordExact} {hdst : (sl xrM k).view.WordExact}
    {hsem : DmaTarget.Typed .vmem (.dma (sm cc0_scratch5 k)) (.remote (Dev.tc n : Thread nD τ) (sl xrM k) (.dma (sm cc0_scratch4 k)) hsc)}
    {fs : Buf (Elt F) ((xsM.access (ck k)).loc (c : Thread nD τ))} {fd : Buf (Elt F) ((xrM.access (ck k)).loc (xp c : Thread nD τ))}
    (O : CellTallies nD τ sig Unit) {W : Waits sig Unit}
    {α : Type} {kk : PUnit → Prog (TpuEff nD τ sig (Elt F) Λ₀ .tc) α} {Q : α → sProp 𝕄} :
    iprop((persAt m K c k ∗ chk c xsM k fs ∗ chk (xp c) xrM k fd
        ∗ owes (c : Thread nD τ) (O + tallyAt (xrCell (xp c) k) () N32) W
        ∗ dutyTok ER (xsCell c k) 0 () ∗ dutyTok ER (xrCell (xp c) k) 0 ())
        ∗ ⌜(xsM.access (ck k)).read (Elt F) fs = XS m c k⌝)
      ⊢ iprop(((cred (tallyAt (xsCell c k) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl xsM k) (.remote (Dev.tc n : Thread nD τ) (sl xrM k) (.dma (sm cc0_scratch4 k)) hsc) (.dma (sm cc0_scratch5 k)) hsrc hdst hsem) kk) Q) := by
  unfold persAt
  iintro ⟨⟨⟨#I1, #I2, #I3, #I4, #I5, #I6, #R1, #R2, #R3, #R4⟩, Hs, Hd, HO, T1, T2⟩, %hv⟩ Hk
  iapply (wp_chunk_send m c (xp c) n hn xsM xrM k (sm cc0_scratch4 k) (sm cc0_scratch5 k) (isXfer_xs c k) (isXfer_xr (xp c) k) fs fd (XS m c k) hv
      (Entails.of_eq (cellPay_xs m c k).symm)
      (Entails.of_eq (by rw [cellPay_xr]; unfold XR; rw [xp_xp])) (κ₁ := K (xsCell c k)) (κ₂ := K (xrCell (xp c) k)) O (W := W)) $$ [Hs Hd HO T1 T2]
  · isplitr; · iexact I1
    isplitr; · iexact I5
    isplitl [Hs]; · iexact Hs
    isplitl [Hd]; · iexact Hd
    isplitl [HO]; · iexact HO
    isplitl [T1]; · iexact T1
    isplitr; · iexact R1
    isplitl [T2]; · iexact T2
    iexact R3
  iexact Hk

/-- The transfer of chunk k across y: c's chunk, reading as the vector it is to send, goes into the partner's chunk. -/
theorem wp_ysend (K : GSem nD τ sig → ℕ) (c : Dev nD) (k : Fin 8) (n : Dev nD) (hn : n = yp c)
    {hsc : (sl yrM k : Memref sig (Dev.tc n : Thread nD τ).2.kind .vmem S32x512 .bf16).view.ref.isScScratch = false}
    {hsrc : (sl ysM k).view.WordExact} {hdst : (sl yrM k).view.WordExact}
    {hsem : DmaTarget.Typed .vmem (.dma (sm cc0_scratch7 k)) (.remote (Dev.tc n : Thread nD τ) (sl yrM k) (.dma (sm cc0_scratch6 k)) hsc)}
    {fs : Buf (Elt F) ((ysM.access (ck k)).loc (c : Thread nD τ))} {fd : Buf (Elt F) ((yrM.access (ck k)).loc (yp c : Thread nD τ))}
    (O : CellTallies nD τ sig Unit) {W : Waits sig Unit}
    {α : Type} {kk : PUnit → Prog (TpuEff nD τ sig (Elt F) Λ₀ .tc) α} {Q : α → sProp 𝕄} :
    iprop((persAt m K c k ∗ chk c ysM k fs ∗ chk (yp c) yrM k fd
        ∗ owes (c : Thread nD τ) (O + tallyAt (yrCell (yp c) k) () N32) W
        ∗ dutyTok ER (ysCell c k) 0 () ∗ dutyTok ER (yrCell (yp c) k) 0 ())
        ∗ ⌜(ysM.access (ck k)).read (Elt F) fs = YS m c k⌝)
      ⊢ iprop(((cred (tallyAt (ysCell c k) () N32) ∗ owes (c : Thread nD τ) O W) -∗ wp frame (wpE (defs₀ (F := F)) 𝒱₀ c none) Set.univ (kk ⟨⟩) Q)
          -∗ wp frame (wpE (defs₀ (F := F)) 𝒱₀ c none) Set.univ
              (.op (.enqueueDma (sl ysM k) (.remote (Dev.tc n : Thread nD τ) (sl yrM k) (.dma (sm cc0_scratch6 k)) hsc) (.dma (sm cc0_scratch7 k)) hsrc hdst hsem) kk) Q) := by
  unfold persAt
  iintro ⟨⟨⟨#I1, #I2, #I3, #I4, #I5, #I6, #R1, #R2, #R3, #R4⟩, Hs, Hd, HO, T1, T2⟩, %hv⟩ Hk
  iapply (wp_chunk_send m c (yp c) n hn ysM yrM k (sm cc0_scratch6 k) (sm cc0_scratch7 k) (isXfer_ys c k) (isXfer_yr (yp c) k) fs fd (YS m c k) hv
      (Entails.of_eq (cellPay_ys m c k).symm)
      (Entails.of_eq (by rw [cellPay_yr]; unfold YR; rw [yp_yp])) (κ₁ := K (ysCell c k)) (κ₂ := K (yrCell (yp c) k)) O (W := W)) $$ [Hs Hd HO T1 T2]
  · isplitr; · iexact I3
    isplitr; · iexact I6
    isplitl [Hs]; · iexact Hs
    isplitl [Hd]; · iexact Hd
    isplitl [HO]; · iexact HO
    isplitl [T1]; · iexact T1
    isplitr; · iexact R2
    isplitl [T2]; · iexact T2
    iexact R4
  iexact Hk

/-! ## The waits -/

/-- The wait on c's xs cell of chunk k, owing nothing: the chunk comes with it, the cell's counter back at zero. -/
theorem wp_wait_xs (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (xsCell c k) () N32) ∗ owes (c : Thread nD τ) O W
        ∗ MayWait (c : Thread nD τ) (.dma (sm cc0_scratch4 k)) () O ∗ atPos ER (xsCell c k) 0 ∅ 0)
      ⊢ iprop(((owes (c : Thread nD τ) O (insert (SemLoc.dma (sm cc0_scratch4 k), ()) W) ∗ semVal (xsCell c k) 0 ∗ chunkAt c xsM k (XS m c k))
            -∗ wp frame (wpE (defs₀ (F := F)) 𝒱₀ c none) Set.univ (kk ⟨⟩) Q)
          -∗ wp frame (wpE (defs₀ (F := F)) 𝒱₀ c none) Set.univ (.op (.waitDma2 (sm cc0_scratch4 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch4 k) (isXfer_xs c k) (κ := K (xsCell c k)) (show dst.view.dmaCredit = N32 from rfl) (O := O) (W := W)) $$ [Hc HO Hw Hat]
  · isplitr; · iexact I1
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_xs m c k)); iexact Hpay

/-- The wait on c's xr cell of chunk k, below what c still owes: the chunk comes with it, the cell's counter back at zero. -/
theorem wp_wait_xr (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (xrCell c k) () N32) ∗ owes (c : Thread nD τ) O W
        ∗ MayWait (c : Thread nD τ) (.dma (sm cc0_scratch5 k)) () O ∗ atPos ER (xrCell c k) 0 ∅ 0)
      ⊢ iprop(((owes (c : Thread nD τ) O (insert (SemLoc.dma (sm cc0_scratch5 k), ()) W) ∗ semVal (xrCell c k) 0 ∗ chunkAt c xrM k (XR m c k))
            -∗ wp frame (wpE (defs₀ (F := F)) 𝒱₀ c none) Set.univ (kk ⟨⟩) Q)
          -∗ wp frame (wpE (defs₀ (F := F)) 𝒱₀ c none) Set.univ (.op (.waitDma2 (sm cc0_scratch5 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch5 k) (isXfer_xr c k) (κ := K (xrCell c k)) (show dst.view.dmaCredit = N32 from rfl) (O := O) (W := W)) $$ [Hc HO Hw Hat]
  · isplitr; · iexact I2
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_xr m c k)); iexact Hpay

/-- The wait on c's ys cell of chunk k, owing nothing: the chunk comes with it, the cell's counter back at zero. -/
theorem wp_wait_ys (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (ysCell c k) () N32) ∗ owes (c : Thread nD τ) O W
        ∗ MayWait (c : Thread nD τ) (.dma (sm cc0_scratch6 k)) () O ∗ atPos ER (ysCell c k) 0 ∅ 0)
      ⊢ iprop(((owes (c : Thread nD τ) O (insert (SemLoc.dma (sm cc0_scratch6 k), ()) W) ∗ semVal (ysCell c k) 0 ∗ chunkAt c ysM k (YS m c k))
            -∗ wp frame (wpE (defs₀ (F := F)) 𝒱₀ c none) Set.univ (kk ⟨⟩) Q)
          -∗ wp frame (wpE (defs₀ (F := F)) 𝒱₀ c none) Set.univ (.op (.waitDma2 (sm cc0_scratch6 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch6 k) (isXfer_ys c k) (κ := K (ysCell c k)) (show dst.view.dmaCredit = N32 from rfl) (O := O) (W := W)) $$ [Hc HO Hw Hat]
  · isplitr; · iexact I3
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_ys m c k)); iexact Hpay

/-- The wait on c's yr cell of chunk k, below what c still owes: the chunk comes with it, the cell's counter back at zero. -/
theorem wp_wait_yr (K : GSem nD τ sig → ℕ) (c : Dev nD) (k : Fin 8)
    {src dst : Memref sig .tc .vmem S32x512 .bf16}
    {hsrc : src.view.WordExact} {hdst : dst.view.WordExact}
    {O : CellTallies nD τ sig Unit} {W : Waits sig Unit}
    {α : Type} {kk : PUnit → Prog (TpuEff nD τ sig (Elt F) Λ₀ .tc) α} {Q : α → sProp 𝕄} :
    iprop(persAt m K c k ∗ cred (tallyAt (yrCell c k) () N32) ∗ owes (c : Thread nD τ) O W
        ∗ MayWait (c : Thread nD τ) (.dma (sm cc0_scratch7 k)) () O ∗ atPos ER (yrCell c k) 0 ∅ 0)
      ⊢ iprop(((owes (c : Thread nD τ) O (insert (SemLoc.dma (sm cc0_scratch7 k), ()) W) ∗ semVal (yrCell c k) 0 ∗ chunkAt c yrM k (YR m c k))
            -∗ wp frame (wpE (defs₀ (F := F)) 𝒱₀ c none) Set.univ (kk ⟨⟩) Q)
          -∗ wp frame (wpE (defs₀ (F := F)) 𝒱₀ c none) Set.univ (.op (.waitDma2 (sm cc0_scratch7 k) src dst hsrc hdst) kk) Q) := by
  unfold persAt
  iintro ⟨⟨#I1, #I2, #I3, #I4, #I5, #I6, #R1, #R2, #R3, #R4⟩, Hc, HO, Hw, Hat⟩ Hk
  iapply (wp_dma_wait_close m c (sm cc0_scratch7 k) (isXfer_yr c k) (κ := K (yrCell c k)) (show dst.view.dmaCredit = N32 from rfl) (O := O) (W := W)) $$ [Hc HO Hw Hat]
  · isplitr; · iexact I4
    isplitl [Hc]; · iexact Hc
    isplitl [HO]; · iexact HO
    isplitl [Hw]; · iexact Hw
    iexact Hat
  iintro ⟨HO, Hz, Hpay⟩
  iapply Hk
  isplitl [HO]; · iexact HO
  isplitl [Hz]; · iexact Hz
  iapply (Entails.of_eq (cellPay_yr m c k)); iexact Hpay

end Cert.Kernel.Hand

end
-- ==== Proof.Bits.Vals.lean ====
/-
  What the loads read. The printed row offsets are the closed forms offP / offM (and the result block's offO / offG),
  so a load of 32 rows of the staged block at a printed offset reads rowsP c k or rowsM c k, and the load of the
  staged gamma reads gamma.
-/
import proofs.«900597_g7700000000000598_dist_rsrms_v7x_xy2x2_x_m512_d512_f32_1_alg».proof.Proof.Bits.MovesXY

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The printed offsets in closed form -/

theorem off1_P : ∀ c : Dev nD, k0_off1 c = offP c 0 := by decide +kernel
theorem off2_P : ∀ (c : Dev nD) (r : Fin 7), k0_off2 c (BitVec.ofNat 32 (32 + 32 * r.val)) = offP c ⟨r.val + 1, by omega⟩ := by decide +kernel
theorem off3_M : ∀ (c : Dev nD) (r : Fin 8), k0_off3 c (BitVec.ofNat 32 (32 * r.val)) = offM c r := by decide +kernel
theorem off4_O : ∀ (c : Dev nD) (r : Fin 8), k0_off4 c (BitVec.ofNat 32 (32 * r.val)) = offO c r := by decide +kernel
theorem off5_G : ∀ (c : Dev nD) (r : Fin 8), k0_off5 c (BitVec.ofNat 32 (32 * r.val)) = offG c r := by decide +kernel

/-! ## The row loads -/

/-- A load of 32 rows depends on the row offset only through its value. -/
theorem readAt_rows_congr {off off' : Fin 3 → Nat} (e : off = off') (h : ∀ a, off a + S1x32x512.size a ≤ S1x1024x512.size a)
    (h' : ∀ a, off' a + S1x32x512.size a ≤ S1x1024x512.size a) {c : Dev nD} (f : Buf (Elt F) (xM.view.loc (c : Thread nD τ))) :
    View.readAt (Elt F) (xM : Memref sig .tc .vmem S1x1024x512 .f32).view (Rect.unit (s := S1x1024x512) off S1x32x512.size h).toLoadRect f
      = View.readAt (Elt F) (xM : Memref sig .tc .vmem S1x1024x512 .f32).view (Rect.unit (s := S1x1024x512) off' S1x32x512.size h').toLoadRect f := by
  subst e; rfl

theorem rows_off1 (c : Dev nD) (h : ∀ a, k0_off1 c a + S1x32x512.size a ≤ S1x1024x512.size a) (f : Buf (Elt F) (xM.view.loc (c : Thread nD τ))) (hf : f = xstg m c) :
    View.readAt (Elt F) (xM : Memref sig .tc .vmem S1x1024x512 .f32).view (Rect.unit (s := S1x1024x512) (k0_off1 c) S1x32x512.size h).toLoadRect f = rowsP m c 0 := by
  subst hf; exact readAt_rows_congr (c := c) (off1_P c) h (offP_inb c 0) _

theorem rows_off2 (c : Dev nD) (r : Fin 7) (h : ∀ a, k0_off2 c (BitVec.ofNat 32 (32 + 32 * r.val)) a + S1x32x512.size a ≤ S1x1024x512.size a)
    (f : Buf (Elt F) (xM.view.loc (c : Thread nD τ))) (hf : f = xstg m c) :
    View.readAt (Elt F) (xM : Memref sig .tc .vmem S1x1024x512 .f32).view (Rect.unit (s := S1x1024x512) (k0_off2 c (BitVec.ofNat 32 (32 + 32 * r.val))) S1x32x512.size h).toLoadRect f
      = rowsP m c ⟨r.val + 1, by omega⟩ := by
  subst hf; exact readAt_rows_congr (c := c) (off2_P c r) h (offP_inb c _) _

theorem rows_off3 (c : Dev nD) (r : Fin 8) (h : ∀ a, k0_off3 c (BitVec.ofNat 32 (32 * r.val)) a + S1x32x512.size a ≤ S1x1024x512.size a)
    (f : Buf (Elt F) (xM.view.loc (c : Thread nD τ))) (hf : f = xstg m c) :
    View.readAt (Elt F) (xM : Memref sig .tc .vmem S1x1024x512 .f32).view (Rect.unit (s := S1x1024x512) (k0_off3 c (BitVec.ofNat 32 (32 * r.val))) S1x32x512.size h).toLoadRect f
      = rowsM m c r := by
  subst hf; exact readAt_rows_congr (c := c) (off3_M c r) h (offM_inb c r) _

end Cert.Kernel.Hand

end
-- ==== Proof.Bits.Chunks.lean ====
/-
  Buffers held chunk by chunk. Each of the four 256-row scratch buffers is the disjoint union of its eight 32-row
  chunks, and the 512-row result block is the disjoint union of sixteen 32-row slabs: the eight of the device's own
  quarter and the eight of its partner's. So a buffer held whole is its chunks held side by side, and chunks held
  side by side, at whatever contents each, are the buffer held whole at the contents glued from them.
-/
import proofs.«900597_g7700000000000598_dist_rsrms_v7x_xy2x2_x_m512_d512_f32_1_alg».proof.Proof.Bits.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Eight summands, sixteen summands -/

/-- A separating conjunction over eight indices, written out. -/
theorem bigSep_univ_eight {M : Type _} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-! ## A location's elements in eight disjoint parts -/

/-- Elements in eight pairwise disjoint parts, held at one valuation: the union held is the parts held side by side. -/
theorem pt_split8 {ℓ : Loc nD τ sig} (K : Fin 8 → Finset (Idx ℓ)) (hd : ∀ k k', k ≠ k' → Disjoint (K k) (K k'))
    (q : PosShare TreeShare) (f : Buf (Elt F) ℓ) :
    (ℓ ↦[Finset.univ.biUnion K]{q} f : sProp 𝕄)
      = iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f)
          ∗ (ℓ ↦[K 6]{q} f) ∗ (ℓ ↦[K 7]{q} f)) := by
  rw [pointsTo_biUnion Finset.univ K (fun t _ t' _ h => hd t t' h), bigSep_univ_eight]

/-- Eight pairwise disjoint parts held side by side, each at its own valuation: the union is held at some valuation
    that agrees with each on its part. -/
theorem pt_join8 {ℓ : Loc nD τ sig} (K : Fin 8 → Finset (Idx ℓ)) (hd : ∀ k k', k ≠ k' → Disjoint (K k) (K k'))
    (q : PosShare TreeShare) (fs : Fin 8 → Buf (Elt F) ℓ) :
    (iprop((ℓ ↦[K 0]{q} fs 0) ∗ (ℓ ↦[K 1]{q} fs 1) ∗ (ℓ ↦[K 2]{q} fs 2) ∗ (ℓ ↦[K 3]{q} fs 3) ∗ (ℓ ↦[K 4]{q} fs 4)
          ∗ (ℓ ↦[K 5]{q} fs 5) ∗ (ℓ ↦[K 6]{q} fs 6) ∗ (ℓ ↦[K 7]{q} fs 7)) : sProp 𝕄)
      ⊢ iprop(∃ g, ⌜∀ t, ∀ i ∈ K t, g i = fs t i⌝ ∗ ℓ ↦[Finset.univ.biUnion K]{q} g) := by
  rw [← bigSep_univ_eight (fun t => (ℓ ↦[K t]{q} fs t : sProp 𝕄))]
  refine (pointsTo_biUnion_join Finset.univ K fs (fs 0) (fun t _ t' _ h => hd t t' h)).trans ?_
  iintro ⟨%g, %hg, H⟩
  iexists g
  isplitr
  · ipureintro; exact fun t i hi => hg t (Finset.mem_univ t) i hi
  · iexact H

/-! ## The eight chunks of a 256-row buffer -/

/-- Different chunks have no row in common. -/
theorem ck_disjoint (k k' : Fin 8) (h : k ≠ k') : Disjoint (ck k).set (ck k').set :=
  Rect.unit_disjoint (⟨0, by decide⟩ : Fin S256x512.rank) (by revert k k'; decide)

/-- Every row is in chunk (row / 32). -/
theorem ck_cover (x : S256x512.Idx) : ∃ k : Fin 8, x ∈ (ck k).set := by
  have h0 : (x 0).val < 256 := (x 0).isLt
  have h1 : (x 1).val < 512 := (x 1).isLt
  refine ⟨⟨(x 0).val / 32, by omega⟩, Rect.mem_set_unit.mpr ?_⟩
  refine Fin.forall_fin_two.mpr ⟨?_, ?_⟩
  · show 32 * ((x 0).val / 32) ≤ (x 0).val ∧ (x 0).val < 32 * ((x 0).val / 32) + 32
    omega
  · show 0 ≤ (x 1).val ∧ (x 1).val < 0 + 512
    omega

/-- The elements of a buffer under its eight chunks: pairwise disjoint, and together the elements under the buffer. -/
theorem chk_disjoint (M : Memref sig .tc .vmem S256x512 .bf16) (k k' : Fin 8) (h : k ≠ k') :
    Disjoint (M.access (ck k)).set (M.access (ck k')).set := by
  rw [View.set_slice, View.set_slice]
  exact (Finset.disjoint_map _).mpr (ck_disjoint k k' h)

theorem chk_cover (M : Memref sig .tc .vmem S256x512 .bf16) :
    (Finset.univ : Finset (Fin 8)).biUnion (fun k => (M.access (ck k)).set) = M.view.set := by
  ext i
  constructor
  · intro hi
    obtain ⟨k, -, hk⟩ := Finset.mem_biUnion.mp hi
    exact View.set_slice_subset _ _ hk
  · intro hi
    obtain ⟨x, -, rfl⟩ := Finset.mem_map.mp hi
    obtain ⟨k, hk⟩ := ck_cover x
    refine Finset.mem_biUnion.mpr ⟨k, Finset.mem_univ k, ?_⟩
    rw [View.set_slice]
    exact Finset.mem_map_of_mem _ hk

/-! ## A 256-row buffer and its eight chunks -/

/-- A buffer held whole is its eight chunks held side by side. -/
theorem split8 (c : Dev nD) (M : Memref sig .tc .vmem S256x512 .bf16) (hM : M.IsWhole)
    (f : Buf (Elt F) (M.view.loc (c : Thread nD τ))) :
    (M.view.loc (c : Thread nD τ) ↦{fullShare} f : sProp 𝕄)
      ⊢ iprop(chk c M 0 f ∗ chk c M 1 f ∗ chk c M 2 f ∗ chk c M 3 f ∗ chk c M 4 f ∗ chk c M 5 f ∗ chk c M 6 f ∗ chk c M 7 f) := by
  refine Entails.of_eq ?_
  rw [← hM.set_eq_univ, ← chk_cover M]
  exact pt_split8 (ℓ := M.view.loc (c : Thread nD τ)) (fun k => (M.access (ck k)).set) (chk_disjoint M) fullShare f

/-- Eight chunks held side by side, each at its own contents, are the buffer held whole at some contents. -/
theorem join8 (c : Dev nD) (M : Memref sig .tc .vmem S256x512 .bf16) (hM : M.IsWhole)
    (f : Fin 8 → Buf (Elt F) (M.view.loc (c : Thread nD τ))) :
    (iprop(chk c M 0 (f 0) ∗ chk c M 1 (f 1) ∗ chk c M 2 (f 2) ∗ chk c M 3 (f 3) ∗ chk c M 4 (f 4) ∗ chk c M 5 (f 5)
        ∗ chk c M 6 (f 6) ∗ chk c M 7 (f 7)) : sProp 𝕄)
      ⊢ iprop(∃ g, M.view.loc (c : Thread nD τ) ↦{fullShare} g) := by
  refine (pt_join8 (ℓ := M.view.loc (c : Thread nD τ)) (fun k => (M.access (ck k)).set) (chk_disjoint M) fullShare f).trans ?_
  iintro ⟨%g, -, H⟩
  iexists g
  rw [chk_cover M, hM.set_eq_univ]
  iexact H

/-! ## The sixteen slabs of the result block -/

/-- Separating conjunction is associative, as an equation. -/
theorem sep_assoc_eq {M : Type _} [URA M] (a b c : sProp M) : iprop((a ∗ b) ∗ c) = iprop(a ∗ b ∗ c) :=
  Entails.antisymm Idealize.SL.BI.sep_assoc Idealize.SL.BI.sep_assoc'

/-- A cast along a type equation is injective. -/
theorem cast_cancel {α β : Type} (h : α = β) {a b : α} (e : cast h a = cast h b) : a = b := by
  subst h; exact e

/-- Contents that read the same through a view agree on every element under the view. -/
theorem agree_of_read_eq {κ : Kind} {sp : Space} {S : Shape} {e : EltTy} (v : View sig κ sp S e)
    {f g : v.ty.Contents (Elt F)} (h : v.read (Elt F) f = v.read (Elt F) g) : ∀ i ∈ v.set, f i = g i := by
  intro i hi
  obtain ⟨y, rfl⟩ := View.exists_emb_of_mem_set v hi
  have hy := congrFun h y
  rw [View.read_apply, View.read_apply] at hy
  exact cast_cancel _ hy

/-- A slab of the result block on device c: the elements of the rectangle r, at the full share. -/
abbrev slab (c : Dev nD) (r : Rect S512x512) (f : Buf (Elt F) ((oM.access r).loc (c : Thread nD τ))) : sProp 𝕄 :=
  (oM.access r).loc (c : Thread nD τ) ↦[(oM.access r).set]{fullShare} f

/-- Slabs of one quarter at different chunks, and slabs of different quarters, share no row. -/
theorem slO_disjoint (c : Dev nD) (k k' : Fin 8) (h : k ≠ k') : Disjoint (slO c k).set (slO c k').set :=
  Rect.unit_disjoint (⟨0, by decide⟩ : Fin S512x512.rank) (by revert c k k'; decide)
theorem slG_disjoint (c : Dev nD) (k k' : Fin 8) (h : k ≠ k') : Disjoint (slG c k).set (slG c k').set :=
  Rect.unit_disjoint (⟨0, by decide⟩ : Fin S512x512.rank) (by revert c k k'; decide)
theorem slO_slG_disjoint (c : Dev nD) (k k' : Fin 8) : Disjoint (slO c k).set (slG c k').set :=
  Rect.unit_disjoint (⟨0, by decide⟩ : Fin S512x512.rank) (by revert c k k'; decide)

/-- Row r is in the own quarter's slab (r mod 256) / 32 when r / 256 is the device's y coordinate, else in the
    other quarter's slab of that number. -/
theorem sl_cover (c : Dev nD) (x : S512x512.Idx) : (∃ k : Fin 8, x ∈ (slO c k).set) ∨ (∃ k : Fin 8, x ∈ (slG c k).set) := by
  have h0 : (x 0).val < 512 := (x 0).isLt
  have h1 : (x 1).val < 512 := (x 1).isLt
  have hy : c.val % 2 < 2 := Nat.mod_lt _ (by decide)
  by_cases hq : (x 0).val / 256 = c.val % 2
  · refine Or.inl ⟨⟨((x 0).val % 256) / 32, by omega⟩, Rect.mem_set_unit.mpr (Fin.forall_fin_two.mpr ⟨?_, ?_⟩)⟩
    · show 256 * (c.val % 2) + 32 * (((x 0).val % 256) / 32) ≤ (x 0).val
        ∧ (x 0).val < 256 * (c.val % 2) + 32 * (((x 0).val % 256) / 32) + 32
      omega
    · show 0 ≤ (x 1).val ∧ (x 1).val < 0 + 512
      omega
  · refine Or.inr ⟨⟨((x 0).val % 256) / 32, by omega⟩, Rect.mem_set_unit.mpr (Fin.forall_fin_two.mpr ⟨?_, ?_⟩)⟩
    · show (32 * (((x 0).val % 256) / 32) + 256) - 256 * (c.val % 2) ≤ (x 0).val
        ∧ (x 0).val < (32 * (((x 0).val % 256) / 32) + 256) - 256 * (c.val % 2) + 32
      omega
    · show 0 ≤ (x 1).val ∧ (x 1).val < 0 + 512
      omega

/-- The elements of the result block under the own quarter's eight slabs, and under the other quarter's. -/
abbrev QO (c : Dev nD) : Finset (Idx (oM.view.loc (c : Thread nD τ))) :=
  (Finset.univ : Finset (Fin 8)).biUnion (fun k => (oM.access (slO c k)).set)
abbrev QG (c : Dev nD) : Finset (Idx (oM.view.loc (c : Thread nD τ))) :=
  (Finset.univ : Finset (Fin 8)).biUnion (fun k => (oM.access (slG c k)).set)

theorem slabO_disjoint (c : Dev nD) (k k' : Fin 8) (h : k ≠ k') :
    Disjoint (oM.access (slO c k)).set (oM.access (slO c k')).set := by
  rw [View.set_slice_whole, View.set_slice_whole]; exact slO_disjoint c k k' h
theorem slabG_disjoint (c : Dev nD) (k k' : Fin 8) (h : k ≠ k') :
    Disjoint (oM.access (slG c k)).set (oM.access (slG c k')).set := by
  rw [View.set_slice_whole, View.set_slice_whole]; exact slG_disjoint c k k' h

theorem QO_QG_disjoint (c : Dev nD) : Disjoint (QO c) (QG c) := by
  refine (Finset.disjoint_biUnion_left _ _ _).mpr fun k _ => (Finset.disjoint_biUnion_right _ _ _).mpr fun k' _ => ?_
  rw [View.set_slice_whole, View.set_slice_whole]; exact slO_slG_disjoint c k k'

theorem QO_QG_cover (c : Dev nD) : QO c ∪ QG c = Finset.univ := by
  refine Finset.eq_univ_iff_forall.mpr fun x => ?_
  rcases sl_cover c x with ⟨k, hk⟩ | ⟨k, hk⟩
  · refine Finset.mem_union_left _ (Finset.mem_biUnion.mpr ⟨k, Finset.mem_univ k, ?_⟩)
    rw [View.set_slice_whole]; exact hk
  · refine Finset.mem_union_right _ (Finset.mem_biUnion.mpr ⟨k, Finset.mem_univ k, ?_⟩)
    rw [View.set_slice_whole]; exact hk

/-- The result block held whole is its sixteen slabs held side by side: the own quarter's eight, then the other's. -/
theorem split16_eq (c : Dev nD) (f : Buf (Elt F) (oM.view.loc (c : Thread nD τ))) :
    (oM.view.loc (c : Thread nD τ) ↦{fullShare} f : sProp 𝕄)
      = iprop(slab c (slO c 0) f ∗ slab c (slO c 1) f ∗ slab c (slO c 2) f ∗ slab c (slO c 3) f ∗ slab c (slO c 4) f
          ∗ slab c (slO c 5) f ∗ slab c (slO c 6) f ∗ slab c (slO c 7) f
          ∗ slab c (slG c 0) f ∗ slab c (slG c 1) f ∗ slab c (slG c 2) f ∗ slab c (slG c 3) f ∗ slab c (slG c 4) f
          ∗ slab c (slG c 5) f ∗ slab c (slG c 6) f ∗ slab c (slG c 7) f) := by
  have hu : (oM.view.loc (c : Thread nD τ) ↦[QO c ∪ QG c]{fullShare} f : sProp 𝕄)
      ⊣⊢ iprop((oM.view.loc (c : Thread nD τ) ↦[QO c]{fullShare} f) ∗ oM.view.loc (c : Thread nD τ) ↦[QG c]{fullShare} f) :=
    pointsTo_union (QO_QG_disjoint c)
  rw [← QO_QG_cover c, BI.equiv_iff.mp ⟨hu.1, hu.2⟩,
    pt_split8 (ℓ := oM.view.loc (c : Thread nD τ)) (fun k => (oM.access (slO c k)).set) (slabO_disjoint c) fullShare f,
    pt_split8 (ℓ := oM.view.loc (c : Thread nD τ)) (fun k => (oM.access (slG c k)).set) (slabG_disjoint c) fullShare f]
  simp only [sep_assoc_eq]

theorem split16 (c : Dev nD) (f : Buf (Elt F) (oM.view.loc (c : Thread nD τ))) :
    (oM.view.loc (c : Thread nD τ) ↦{fullShare} f : sProp 𝕄)
      ⊢ iprop(slab c (slO c 0) f ∗ slab c (slO c 1) f ∗ slab c (slO c 2) f ∗ slab c (slO c 3) f ∗ slab c (slO c 4) f
          ∗ slab c (slO c 5) f ∗ slab c (slO c 6) f ∗ slab c (slO c 7) f
          ∗ slab c (slG c 0) f ∗ slab c (slG c 1) f ∗ slab c (slG c 2) f ∗ slab c (slG c 3) f ∗ slab c (slG c 4) f
          ∗ slab c (slG c 5) f ∗ slab c (slG c 6) f ∗ slab c (slG c 7) f) :=
  Entails.of_eq (split16_eq c f)

/-! ## What the sixteen slabs read in the end -/

variable (m : (ℓ : Loc nD τ sig) → Buf (Elt F) ℓ)

/-- The final contents at row 256 y + 32 k + r of the own quarter: row r of the rows the device normalised at chunk k. -/
theorem outFinal_O (c : Dev nD) (k : Fin 8) (x : S32x512.Idx) (i : (cc0_stg2_0 : Ref sig .tc).ty.Idx)
    (h0 : (i 0).val = 256 * (c.val % 2) + 32 * k.val + (x 0).val) (h1 : (i 1).val = (x 1).val) :
    outFinal m c i = OUT m c k x := by
  have hx0 : (x 0).val < 32 := (x 0).isLt
  have hk : k.val < 8 := k.isLt
  have hy : c.val % 2 < 2 := Nat.mod_lt _ (by decide)
  have hc : ∀ (k' : Fin 8) (x' : S32x512.Idx), k' = k → x' = x → OUT m c k' x' = OUT m c k x := by
    rintro _ _ rfl rfl; rfl
  unfold outFinal
  rw [if_pos (by omega)]
  refine hc _ _ (Fin.ext (by show ((i 0).val % 256) / 32 = k.val; omega)) ?_
  rw [ValueIdx.eq_ix2 x]
  congr 1
  · exact Fin.ext (by show (i 0).val % 32 = (x 0).val; omega)
  · exact Fin.ext h1

/-- At row 256 (1 − y) + 32 k + r of the other quarter: row r of what the partner across y normalised at chunk k,
    cast to bf16 and back. -/
theorem outFinal_G (c : Dev nD) (k : Fin 8) (x : S32x512.Idx) (i : (cc0_stg2_0 : Ref sig .tc).ty.Idx)
    (h0 : (i 0).val = (32 * k.val + 256) - 256 * (c.val % 2) + (x 0).val) (h1 : (i 1).val = (x 1).val) :
    outFinal m c i = ext (YR m c k) x := by
  have hx0 : (x 0).val < 32 := (x 0).isLt
  have hk : k.val < 8 := k.isLt
  have hy : c.val % 2 < 2 := Nat.mod_lt _ (by decide)
  have hc : ∀ (k' : Fin 8) (x' : S32x512.Idx), k' = k → x' = x → ext (YR m c k') x' = ext (YR m c k) x := by
    rintro _ _ rfl rfl; rfl
  unfold outFinal
  rw [if_neg (by omega)]
  refine hc _ _ (Fin.ext (by show ((i 0).val % 256) / 32 = k.val; omega)) ?_
  rw [ValueIdx.eq_ix2 x]
  congr 1
  · exact Fin.ext (by show (i 0).val % 32 = (x 0).val; omega)
  · exact Fin.ext h1

/-- Through the own quarter's slab k the final contents read as the 32 rows normalised at chunk k. -/
theorem read_outFinal_O (c : Dev nD) (k : Fin 8) : (oM.access (slO c k)).read (Elt F) (outFinal m c) = OUT m c k := by
  funext x
  rw [View.read_apply]
  refine (cast_eq _ _).trans ?_
  exact outFinal_O m c k x _ (by show 256 * (c.val % 2) + 32 * k.val + 1 * (x 0).val = _; omega)
    (by show 0 + 1 * (x 1).val = _; omega)

/-- Through the other quarter's slab k they read as the 32 rows received across y at chunk k, cast back. -/
theorem read_outFinal_G (c : Dev nD) (k : Fin 8) : (oM.access (slG c k)).read (Elt F) (outFinal m c) = ext (YR m c k) := by
  funext x
  rw [View.read_apply]
  refine (cast_eq _ _).trans ?_
  exact outFinal_G m c k x _ (by show (32 * k.val + 256) - 256 * (c.val % 2) + 1 * (x 0).val = _; omega)
    (by show 0 + 1 * (x 1).val = _; omega)

/-- Sixteen slabs held side by side, the own quarter's reading as the normalised rows and the other quarter's as the
    rows received across y, are the result block held whole at its final contents. -/
theorem join16 (c : Dev nD) (f g : Fin 8 → Buf (Elt F) (oM.view.loc (c : Thread nD τ)))
    (hO : ∀ k, (oM.access (slO c k)).read (Elt F) (f k) = OUT m c k)
    (hG : ∀ k, (oM.access (slG c k)).read (Elt F) (g k) = ext (YR m c k)) :
    (iprop(slab c (slO c 0) (f 0) ∗ slab c (slO c 1) (f 1) ∗ slab c (slO c 2) (f 2) ∗ slab c (slO c 3) (f 3)
        ∗ slab c (slO c 4) (f 4) ∗ slab c (slO c 5) (f 5) ∗ slab c (slO c 6) (f 6) ∗ slab c (slO c 7) (f 7)
        ∗ slab c (slG c 0) (g 0) ∗ slab c (slG c 1) (g 1) ∗ slab c (slG c 2) (g 2) ∗ slab c (slG c 3) (g 3)
        ∗ slab c (slG c 4) (g 4) ∗ slab c (slG c 5) (g 5) ∗ slab c (slG c 6) (g 6) ∗ slab c (slG c 7) (g 7)) : sProp 𝕄)
      ⊢ (oM.view.loc (c : Thread nD τ) ↦{fullShare} outFinal m c) := by
  have eO : ∀ k, (slab c (slO c k) (f k) : sProp 𝕄) = slab c (slO c k) (outFinal m c) := fun k =>
    pointsTo_congr (agree_of_read_eq _ ((hO k).trans (read_outFinal_O m c k).symm))
  have eG : ∀ k, (slab c (slG c k) (g k) : sProp 𝕄) = slab c (slG c k) (outFinal m c) := fun k =>
    pointsTo_congr (agree_of_read_eq _ ((hG k).trans (read_outFinal_G m c k).symm))
  rw [eO 0, eO 1, eO 2, eO 3, eO 4, eO 5, eO 6, eO 7, eG 0, eG 1, eG 2, eG 3, eG 4, eG 5, eG 6, eG 7]
  exact Entails.of_eq (split16_eq c (outFinal m c)).symm

end Cert.Kernel.Hand

end
-- ==== Proof.Bits.BodyDefs.lean ====
/-
  The body's precondition and postcondition at the one grid point, as the pipeline's body obligation states them:
  the invariant before, what the core owes, and the three staged buffers whole at their named contents.
-/
import proofs.«900597_g7700000000000598_dist_rsrms_v7x_xy2x2_x_m512_d512_f32_1_alg».proof.Proof.Bits.Vals
import proofs.«900597_g7700000000000598_dist_rsrms_v7x_xy2x2_x_m512_d512_f32_1_alg».proof.Proof.Bits.Chunks
import proofs.«900597_g7700000000000598_dist_rsrms_v7x_xy2x2_x_m512_d512_f32_1_alg».proof.Proof.Bits.Ledger

noncomputable section

namespace Cert.Kernel.Hand

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staged buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, and what it must leave. -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (gstg m c) ∗ stg c cc0_stg2_0 (outFinal m c))

theorem Pers_bar (K : GSem nD τ sig → ℕ) (KB : Dev nD → ℕ) (c : Dev nD) :
    Pers m K KB c ⊢ iprop(barInv PX PY (KB c) c ∗ barInv PX PY (KB (xp c)) (xp c) ∗ barInv PX PY (KB (yp c)) (yp c) ∗ levAts L lv) := by
  unfold Pers
  iintro ⟨-, H⟩
  iexact H

end Cert.Kernel.Hand

end
-- ==== Proof.Bits.Slabs.lean ====
/-
  The loads and stores of the kernel body on the 512-row result block, held as sixteen 32-row slabs. A load or a
  store names its 32 rows by a row offset computed from the device's coordinates; the slab in hand is named by the
  offset in closed form. The two offsets are equal, and a step depends on the offset only through its value: each
  rule here is the step's rule at the offset in hand, stated for any offset equal to it.
  Also here: three reading facts — the staged gamma read whole, and a slab or a chunk read back after a store of
  all its elements.
-/
import proofs.«900597_g7700000000000598_dist_rsrms_v7x_xy2x2_x_m512_d512_f32_1_alg».proof.Proof.Bits.BodyDefs

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores on a slab -/

/-- A load of 32 rows of the result block at an offset equal to the one the slab in hand is named by reads the
    slab's contents. -/
theorem wp_slab_load (c : Dev nD) {off : Fin 2 → Nat} {h : ∀ a, off a + S32x512.size a ≤ S512x512.size a}
    (off' : Fin 2 → Nat) (h' : ∀ a, off' a + S32x512.size a ≤ S512x512.size a) (e : off = off')
    {hl : oM.view.LoadsAt (Rect.unit (s := S512x512) off S32x512.size h).toLoadRect}
    {α : Type} {kk : ((Rect.unit (s := S512x512) off S32x512.size h).toLoadRect.shape.Idx → Elt F .f32) → Prog (TpuEff nD τ sig (Elt F) Λ₀ .tc) α}
    {Q : α → sProp 𝕄}
    (f : Buf (Elt F) ((oM.access (Rect.unit (s := S512x512) off' S32x512.size h')).loc (c : Thread nD τ))) :
    slab c (Rect.unit (s := S512x512) off' S32x512.size h') f
      ⊢ iprop((slab c (Rect.unit (s := S512x512) off' S32x512.size h') f
            -∗ wp frame (wpE (defs₀ (F := F)) 𝒱₀ c none) Set.univ (kk ((oM.access (Rect.unit (s := S512x512) off' S32x512.size h')).read (Elt F) f)) Q)
          -∗ wp frame (wpE (defs₀ (F := F)) 𝒱₀ c none) Set.univ (.op (.load oM (Rect.unit (s := S512x512) off S32x512.size h).toLoadRect hl) kk) Q) := by
  subst e
  exact wp_load_rect 𝒱₀ (c : Thread nD τ) none Set.univ subset_rfl

/-- A store of 32 whole rows of the result block at an offset equal to the one the slab in hand is named by: the
    slab then holds what was stored. -/
theorem wp_slab_store (c : Dev nD) {off : Fin 2 → Nat} {h : ∀ a, off a + S32x512.size a ≤ S512x512.size a}
    (off' : Fin 2 → Nat) (h' : ∀ a, off' a + S32x512.size a ≤ S512x512.size a) (e : off = off')
    {w : (Rect.unit (s := S512x512) off S32x512.size h).shape.Idx → Elt F .f32}
    {hx : (oM.access (Rect.unit (s := S512x512) off S32x512.size h)).Stores Finset.univ}
    {hm : (Finset.univ : Finset (Rect.unit (s := S512x512) off S32x512.size h).shape.Idx) = Finset.univ ∨ ∀ a, (Rect.unit (s := S512x512) off S32x512.size h).stride a = 1}
    {α : Type} {kk : PUnit → Prog (TpuEff nD τ sig (Elt F) Λ₀ .tc) α} {Q : α → sProp 𝕄}
    (f : Buf (Elt F) ((oM.access (Rect.unit (s := S512x512) off' S32x512.size h')).loc (c : Thread nD τ))) :
    slab c (Rect.unit (s := S512x512) off' S32x512.size h') f
      ⊢ iprop((slab c (Rect.unit (s := S512x512) off' S32x512.size h') ((oM.access (Rect.unit (s := S512x512) off' S32x512.size h')).write (Elt F) f w Finset.univ)
            -∗ wp frame (wpE (defs₀ (F := F)) 𝒱₀ c none) Set.univ (kk ⟨⟩) Q)
          -∗ wp frame (wpE (defs₀ (F := F)) 𝒱₀ c none) Set.univ (.op (.store oM (Rect.unit (s := S512x512) off S32x512.size h) w Finset.univ hx hm) kk) Q) := by
  subst e
  exact wp_store 𝒱₀ (c : Thread nD τ) none Set.univ (by rw [View.setOn_univ])

/-! ## Reading facts -/

variable (m : (ℓ : Loc nD τ sig) → Buf (Elt F) ℓ)

omit [FloatOps F] in
theorem hz1 : (![0] : Fin 1 → Nat) = fun _ => 0 := funext fun a => by fin_cases a; rfl

/-- The staged gamma read whole is the staged gamma. -/
theorem read_gamma (c : Dev nD) (h : ∀ a, (![0] : Fin 1 → Nat) a + S512.size a ≤ S512.size a) :
    View.readAt (Elt F) gM.view (Rect.unit (s := S512) ![0] S512.size h).toLoadRect (gstg m c) = gstg m c :=
  Memref.readAt_unit_zero (Elt F) cc0_stg1_0 hz1 _ _

omit [FloatOps F] in
/-- A slab read back after a store of all its elements holds what was stored. -/
theorem slab_read_write (r : Rect S512x512) (f : (oM.access r).ty.Contents (Elt F)) (w : r.shape.Idx → Elt F .f32) :
    (oM.access r).read (Elt F) ((oM.access r).write (Elt F) f w Finset.univ) = w :=
  View.read_write_univ f w

omit [FloatOps F] in
/-- A chunk read back after a store of all its elements holds what was stored. -/
theorem chunk_read_write (M : Memref sig .tc .vmem S256x512 .bf16) (k : Fin 8) (f : (M.access (ck k)).ty.Contents (Elt F))
    (w : (ck k).shape.Idx → Elt F .bf16) :
    (M.access (ck k)).read (Elt F) ((M.access (ck k)).write (Elt F) f w Finset.univ) = w :=
  View.read_write_univ f w

/-! ## A slab at named contents -/

/-- The slab r of the result block on device c holds the vector v. -/
def slabAt (c : Dev nD) (r : Rect S512x512) (v : r.shape.Idx → Elt F .f32) : sProp 𝕄 :=
  iprop(∃ f : Buf (Elt F) ((oM.access r).loc (c : Thread nD τ)), ⌜(oM.access r).read (Elt F) f = v⌝ ∗ slab c r f)

omit [FloatOps F] in
/-- A slab held at contents that read as v is the slab at v. -/
theorem slabAt_of (c : Dev nD) (r : Rect S512x512) (v : r.shape.Idx → Elt F .f32)
    {f : Buf (Elt F) ((oM.access r).loc (c : Thread nD τ))} :
    iprop(slab c r f ∗ ⌜(oM.access r).read (Elt F) f = v⌝) ⊢ slabAt c r v := by
  unfold slabAt
  iintro ⟨H, %hv⟩
  iexists f
  isplitr
  · ipureintro; exact hv
  · iexact H

omit [FloatOps F] in
/-- The slab at v is held at some contents that read as v. -/
theorem slabAt_open (c : Dev nD) (r : Rect S512x512) (v : r.shape.Idx → Elt F .f32) :
    slabAt c r v ⊢ iprop(∃ f : Buf (Elt F) ((oM.access r).loc (c : Thread nD τ)), ⌜(oM.access r).read (Elt F) f = v⌝ ∗ slab c r f) := by
  unfold slabAt
  exact BIBase.Entails.rfl

/-- The two uses: the own quarter's slab at the rows the device normalised, the other quarter's at the rows received. -/
example (m : (ℓ : Loc nD τ sig) → Buf (Elt F) ℓ) (c : Dev nD) (k : Fin 8) : sProp 𝕄 := slabAt c (slO c k) (OUT m c k)
example (m : (ℓ : Loc nD τ sig) → Buf (Elt F) ℓ) (c : Dev nD) (k : Fin 8) : sProp 𝕄 := slabAt c (slG c k) (ext (YR m c k))

/-- info: 'Cert.Kernel.Hand.wp_slab_load' depends on axioms: [propext, Classical.choice, Quot.sound] -/
#guard_msgs in #print axioms wp_slab_load

/-- info: 'Cert.Kernel.Hand.wp_slab_store' depends on axioms: [propext, Classical.choice, Quot.sound] -/
#guard_msgs in #print axioms wp_slab_store

/-- info: 'Cert.Kernel.Hand.read_gamma' depends on axioms: [propext, Classical.choice, Quot.sound] -/
#guard_msgs in #print axioms read_gamma

/-- info: 'Cert.Kernel.Hand.slab_read_write' depends on axioms: [propext, Classical.choice, Quot.sound] -/
#guard_msgs in #print axioms slab_read_write

/-- info: 'Cert.Kernel.Hand.chunk_read_write' depends on axioms: [propext, Classical.choice, Quot.sound] -/
#guard_msgs in #print axioms chunk_read_write

/-- info: 'Cert.Kernel.Hand.slabAt_of' depends on axioms: [propext, Classical.choice, Quot.sound] -/
#guard_msgs in #print axioms slabAt_of

/-- info: 'Cert.Kernel.Hand.slabAt_open' depends on axioms: [propext, Classical.choice, Quot.sound] -/
#guard_msgs in #print axioms slabAt_open

end Cert.Kernel.Hand

end
-- ==== Proof.Bits.Finish.lean ====
/-
  The end of the body. When the program has returned, the core holds the staged block of partial sums and the staged
  weights untouched, the result block as its sixteen slabs, each of the four scratch buffers as its eight chunks, its
  32 counters at zero, and owes nothing. Glued together these are what the body must leave: the scratch buffers whole
  at whatever contents, the counters, the three staged buffers whole at their named contents, and nothing owed.
-/
import proofs.«900597_g7700000000000598_dist_rsrms_v7x_xy2x2_x_m512_d512_f32_1_alg».proof.Proof.Bits.Slabs

noncomputable section

namespace Cert.Kernel.Hand

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Eight chunks of a buffer held side by side, each at some named contents, are the buffer held whole at some contents. -/
theorem chunks_whole (c : Dev nD) (M : Memref sig .tc .vmem S256x512 .bf16) (hM : M.IsWhole) (v : Fin 8 → FVec F S32x512 .bf16) :
    (iprop(chunkAt c M 0 (v 0) ∗ chunkAt c M 1 (v 1) ∗ chunkAt c M 2 (v 2) ∗ chunkAt c M 3 (v 3) ∗ chunkAt c M 4 (v 4) ∗ chunkAt c M 5 (v 5) ∗ chunkAt c M 6 (v 6) ∗ chunkAt c M 7 (v 7)) : sProp 𝕄)
      ⊢ iprop(∃ g, M.view.loc (c : Thread nD τ) ↦{fullShare} g) := by
  unfold chunkAt
  iintro ⟨⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩⟩
  iapply (join8 c M hM ![f0, f1, f2, f3, f4, f5, f6, f7])
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the core holds when the program has returned is what the body must leave. -/
theorem finish (c : Dev nD) (W' : Waits sig Unit) (fo fg : Fin 8 → Buf (Elt F) (oM.view.loc (c : Thread nD τ)))
    (hO : ∀ k, (oM.access (slO c k)).read (Elt F) (fo k) = OUT m c k)
    (hG : ∀ k, (oM.access (slG c k)).read (Elt F) (fg k) = ext (YR m c k)) :
    (iprop((xM.view.loc (c : Thread nD τ) ↦{fullShare} xstg m c) ∗ (gM.view.loc (c : Thread nD τ) ↦{fullShare} gstg m c)
      ∗ (slab c (slO c 0) (fo 0) ∗ slab c (slO c 1) (fo 1) ∗ slab c (slO c 2) (fo 2) ∗ slab c (slO c 3) (fo 3) ∗ slab c (slO c 4) (fo 4) ∗ slab c (slO c 5) (fo 5) ∗ slab c (slO c 6) (fo 6) ∗ slab c (slO c 7) (fo 7)
        ∗ slab c (slG c 0) (fg 0) ∗ slab c (slG c 1) (fg 1) ∗ slab c (slG c 2) (fg 2) ∗ slab c (slG c 3) (fg 3) ∗ slab c (slG c 4) (fg 4) ∗ slab c (slG c 5) (fg 5) ∗ slab c (slG c 6) (fg 6) ∗ slab c (slG c 7) (fg 7))
      ∗ (chunkAt c xsM 0 (XS m c 0) ∗ chunkAt c xsM 1 (XS m c 1) ∗ chunkAt c xsM 2 (XS m c 2) ∗ chunkAt c xsM 3 (XS m c 3) ∗ chunkAt c xsM 4 (XS m c 4) ∗ chunkAt c xsM 5 (XS m c 5) ∗ chunkAt c xsM 6 (XS m c 6) ∗ chunkAt c xsM 7 (XS m c 7))
      ∗ (chunkAt c xrM 0 (XR m c 0) ∗ chunkAt c xrM 1 (XR m c 1) ∗ chunkAt c xrM 2 (XR m c 2) ∗ chunkAt c xrM 3 (XR m c 3) ∗ chunkAt c xrM 4 (XR m c 4) ∗ chunkAt c xrM 5 (XR m c 5) ∗ chunkAt c xrM 6 (XR m c 6) ∗ chunkAt c xrM 7 (XR m c 7))
      ∗ (chunkAt c ysM 0 (YS m c 0) ∗ chunkAt c ysM 1 (YS m c 1) ∗ chunkAt c ysM 2 (YS m c 2) ∗ chunkAt c ysM 3 (YS m c 3) ∗ chunkAt c ysM 4 (YS m c 4) ∗ chunkAt c ysM 5 (YS m c 5) ∗ chunkAt c ysM 6 (YS m c 6) ∗ chunkAt c ysM 7 (YS m c 7))
      ∗ (chunkAt c yrM 0 (YR m c 0) ∗ chunkAt c yrM 1 (YR m c 1) ∗ chunkAt c yrM 2 (YR m c 2) ∗ chunkAt c yrM 3 (YR m c 3) ∗ chunkAt c yrM 4 (YR m c 4) ∗ chunkAt c yrM 5 (YR m c 5) ∗ chunkAt c yrM 6 (YR m c 6) ∗ chunkAt c yrM 7 (YR m c 7))
      ∗ ((semVal (xsCell c 0) 0 ∗ semVal (xrCell c 0) 0 ∗ semVal (ysCell c 0) 0 ∗ semVal (yrCell c 0) 0) ∗ (semVal (xsCell c 1) 0 ∗ semVal (xrCell c 1) 0 ∗ semVal (ysCell c 1) 0 ∗ semVal (yrCell c 1) 0) ∗ (semVal (xsCell c 2) 0 ∗ semVal (xrCell c 2) 0 ∗ semVal (ysCell c 2) 0 ∗ semVal (yrCell c 2) 0) ∗ (semVal (xsCell c 3) 0 ∗ semVal (xrCell c 3) 0 ∗ semVal (ysCell c 3) 0 ∗ semVal (yrCell c 3) 0) ∗ (semVal (xsCell c 4) 0 ∗ semVal (xrCell c 4) 0 ∗ semVal (ysCell c 4) 0 ∗ semVal (yrCell c 4) 0) ∗ (semVal (xsCell c 5) 0 ∗ semVal (xrCell c 5) 0 ∗ semVal (ysCell c 5) 0 ∗ semVal (yrCell c 5) 0) ∗ (semVal (xsCell c 6) 0 ∗ semVal (xrCell c 6) 0 ∗ semVal (ysCell c 6) 0 ∗ semVal (yrCell c 6) 0) ∗ (semVal (xsCell c 7) 0 ∗ semVal (xrCell c 7) 0 ∗ semVal (ysCell c 7) 0 ∗ semVal (yrCell c 7) 0))
      ∗ owes (c : Thread nD τ) (owedAt c 18) W') : sProp 𝕄)
      ⊢ bodyPost m c := by
  unfold bodyPost Φ₁ scratch zeros Dat.owesAt Pipeline.owesWithin
  rw [show (dats m 0 c).owed t0_0.succ = 0 from rfl, owed_end, bigSep_univ_eight]
  iintro ⟨Hx, Hg, Hsl, Hxs, Hxr, Hys, Hyr, Hz, HO⟩
  ihave Hout := (join16 m c fo fg hO hG) $$ Hsl
  ihave Hxs' := (chunks_whole c xsM (Memref.isWhole_whole _) (XS m c)) $$ Hxs
  ihave Hxr' := (chunks_whole c xrM (Memref.isWhole_whole _) (XR m c)) $$ Hxr
  ihave Hys' := (chunks_whole c ysM (Memref.isWhole_whole _) (YS m c)) $$ Hys
  ihave Hyr' := (chunks_whole c yrM (Memref.isWhole_whole _) (YR m c)) $$ Hyr
  isplitl [Hxs' Hxr' Hys' Hyr' Hz]
  · isplitl [Hxs' Hxr' Hys' Hyr']
    · isplitl [Hxs']; · iexact Hxs'
      isplitl [Hxr']; · iexact Hxr'
      isplitl [Hys']; · iexact Hys'
      iexact Hyr'
    · iexact Hz
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

/-- The same, with the sixteen slabs each held at contents that read as its named rows. -/
theorem finish2 (c : Dev nD) (W' : Waits sig Unit) :
    (iprop((xM.view.loc (c : Thread nD τ) ↦{fullShare} xstg m c) ∗ (gM.view.loc (c : Thread nD τ) ↦{fullShare} gstg m c)
      ∗ (slabAt c (slO c 0) (OUT m c 0) ∗ slabAt c (slO c 1) (OUT m c 1) ∗ slabAt c (slO c 2) (OUT m c 2) ∗ slabAt c (slO c 3) (OUT m c 3) ∗ slabAt c (slO c 4) (OUT m c 4) ∗ slabAt c (slO c 5) (OUT m c 5) ∗ slabAt c (slO c 6) (OUT m c 6) ∗ slabAt c (slO c 7) (OUT m c 7) ∗ slabAt c (slG c 0) (ext (YR m c 0)) ∗ slabAt c (slG c 1) (ext (YR m c 1)) ∗ slabAt c (slG c 2) (ext (YR m c 2)) ∗ slabAt c (slG c 3) (ext (YR m c 3)) ∗ slabAt c (slG c 4) (ext (YR m c 4)) ∗ slabAt c (slG c 5) (ext (YR m c 5)) ∗ slabAt c (slG c 6) (ext (YR m c 6)) ∗ slabAt c (slG c 7) (ext (YR m c 7)))
      ∗ (chunkAt c xsM 0 (XS m c 0) ∗ chunkAt c xsM 1 (XS m c 1) ∗ chunkAt c xsM 2 (XS m c 2) ∗ chunkAt c xsM 3 (XS m c 3) ∗ chunkAt c xsM 4 (XS m c 4) ∗ chunkAt c xsM 5 (XS m c 5) ∗ chunkAt c xsM 6 (XS m c 6) ∗ chunkAt c xsM 7 (XS m c 7))
      ∗ (chunkAt c xrM 0 (XR m c 0) ∗ chunkAt c xrM 1 (XR m c 1) ∗ chunkAt c xrM 2 (XR m c 2) ∗ chunkAt c xrM 3 (XR m c 3) ∗ chunkAt c xrM 4 (XR m c 4) ∗ chunkAt c xrM 5 (XR m c 5) ∗ chunkAt c xrM 6 (XR m c 6) ∗ chunkAt c xrM 7 (XR m c 7))
      ∗ (chunkAt c ysM 0 (YS m c 0) ∗ chunkAt c ysM 1 (YS m c 1) ∗ chunkAt c ysM 2 (YS m c 2) ∗ chunkAt c ysM 3 (YS m c 3) ∗ chunkAt c ysM 4 (YS m c 4) ∗ chunkAt c ysM 5 (YS m c 5) ∗ chunkAt c ysM 6 (YS m c 6) ∗ chunkAt c ysM 7 (YS m c 7))
      ∗ (chunkAt c yrM 0 (YR m c 0) ∗ chunkAt c yrM 1 (YR m c 1) ∗ chunkAt c yrM 2 (YR m c 2) ∗ chunkAt c yrM 3 (YR m c 3) ∗ chunkAt c yrM 4 (YR m c 4) ∗ chunkAt c yrM 5 (YR m c 5) ∗ chunkAt c yrM 6 (YR m c 6) ∗ chunkAt c yrM 7 (YR m c 7))
      ∗ ((semVal (xsCell c 0) 0 ∗ semVal (xrCell c 0) 0 ∗ semVal (ysCell c 0) 0 ∗ semVal (yrCell c 0) 0) ∗ (semVal (xsCell c 1) 0 ∗ semVal (xrCell c 1) 0 ∗ semVal (ysCell c 1) 0 ∗ semVal (yrCell c 1) 0) ∗ (semVal (xsCell c 2) 0 ∗ semVal (xrCell c 2) 0 ∗ semVal (ysCell c 2) 0 ∗ semVal (yrCell c 2) 0) ∗ (semVal (xsCell c 3) 0 ∗ semVal (xrCell c 3) 0 ∗ semVal (ysCell c 3) 0 ∗ semVal (yrCell c 3) 0) ∗ (semVal (xsCell c 4) 0 ∗ semVal (xrCell c 4) 0 ∗ semVal (ysCell c 4) 0 ∗ semVal (yrCell c 4) 0) ∗ (semVal (xsCell c 5) 0 ∗ semVal (xrCell c 5) 0 ∗ semVal (ysCell c 5) 0 ∗ semVal (yrCell c 5) 0) ∗ (semVal (xsCell c 6) 0 ∗ semVal (xrCell c 6) 0 ∗ semVal (ysCell c 6) 0 ∗ semVal (yrCell c 6) 0) ∗ (semVal (xsCell c 7) 0 ∗ semVal (xrCell c 7) 0 ∗ semVal (ysCell c 7) 0 ∗ semVal (yrCell c 7) 0))
      ∗ owes (c : Thread nD τ) (owedAt c 18) W') : sProp 𝕄)
      ⊢ bodyPost m c := by
  iintro ⟨Hx, Hg, ⟨S0, S1, S2, S3, S4, S5, S6, S7, G0, G1, G2, G3, G4, G5, G6, G7⟩, Hxs, Hxr, Hys, Hyr, Hz, HO⟩
  ihave S0' := (slabAt_open c (slO c 0) (OUT m c 0)) $$ S0; icases S0' with ⟨%f0, %hf0, S0⟩
  ihave S1' := (slabAt_open c (slO c 1) (OUT m c 1)) $$ S1; icases S1' with ⟨%f1, %hf1, S1⟩
  ihave S2' := (slabAt_open c (slO c 2) (OUT m c 2)) $$ S2; icases S2' with ⟨%f2, %hf2, S2⟩
  ihave S3' := (slabAt_open c (slO c 3) (OUT m c 3)) $$ S3; icases S3' with ⟨%f3, %hf3, S3⟩
  ihave S4' := (slabAt_open c (slO c 4) (OUT m c 4)) $$ S4; icases S4' with ⟨%f4, %hf4, S4⟩
  ihave S5' := (slabAt_open c (slO c 5) (OUT m c 5)) $$ S5; icases S5' with ⟨%f5, %hf5, S5⟩
  ihave S6' := (slabAt_open c (slO c 6) (OUT m c 6)) $$ S6; icases S6' with ⟨%f6, %hf6, S6⟩
  ihave S7' := (slabAt_open c (slO c 7) (OUT m c 7)) $$ S7; icases S7' with ⟨%f7, %hf7, S7⟩
  ihave G0' := (slabAt_open c (slG c 0) (ext (YR m c 0))) $$ G0; icases G0' with ⟨%g0, %hg0, G0⟩
  ihave G1' := (slabAt_open c (slG c 1) (ext (YR m c 1))) $$ G1; icases G1' with ⟨%g1, %hg1, G1⟩
  ihave G2' := (slabAt_open c (slG c 2) (ext (YR m c 2))) $$ G2; icases G2' with ⟨%g2, %hg2, G2⟩
  ihave G3' := (slabAt_open c (slG c 3) (ext (YR m c 3))) $$ G3; icases G3' with ⟨%g3, %hg3, G3⟩
  ihave G4' := (slabAt_open c (slG c 4) (ext (YR m c 4))) $$ G4; icases G4' with ⟨%g4, %hg4, G4⟩
  ihave G5' := (slabAt_open c (slG c 5) (ext (YR m c 5))) $$ G5; icases G5' with ⟨%g5, %hg5, G5⟩
  ihave G6' := (slabAt_open c (slG c 6) (ext (YR m c 6))) $$ G6; icases G6' with ⟨%g6, %hg6, G6⟩
  ihave G7' := (slabAt_open c (slG c 7) (ext (YR m c 7))) $$ G7; icases G7' with ⟨%g7, %hg7, G7⟩
  iapply (finish m c W' (fun k : Fin 8 => match k with | ⟨0, _⟩ => f0 | ⟨1, _⟩ => f1 | ⟨2, _⟩ => f2 | ⟨3, _⟩ => f3 | ⟨4, _⟩ => f4 | ⟨5, _⟩ => f5 | ⟨6, _⟩ => f6 | ⟨7, _⟩ => f7)
    (fun k : Fin 8 => match k with | ⟨0, _⟩ => g0 | ⟨1, _⟩ => g1 | ⟨2, _⟩ => g2 | ⟨3, _⟩ => g3 | ⟨4, _⟩ => g4 | ⟨5, _⟩ => g5 | ⟨6, _⟩ => g6 | ⟨7, _⟩ => g7)
    (by intro k; fin_cases k <;> assumption) (by intro k; fin_cases k <;> assumption))
  isplitl [Hx]; · iexact Hx
  isplitl [Hg]; · iexact Hg
  isplitl [S0 S1 S2 S3 S4 S5 S6 S7 G0 G1 G2 G3 G4 G5 G6 G7]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [Hxs]; · iexact Hxs
  isplitl [Hxr]; · iexact Hxr
  isplitl [Hys]; · iexact Hys
  isplitl [Hyr]; · iexact Hyr
  isplitl [Hz]; · iexact Hz
  iexact HO

end Cert.Kernel.Hand

end
-- ==== Proof.Bits.Body.lean ====
/-
  The kernel body on device c, from the invariant before the one grid point to the invariant after it.
  Device c signals 2 units to xp c's barrier, handing over its own x-receive buffer, and 1 unit to yp c's, handing over
  its y-receive buffer. It casts the first 32 rows of xp c's quarter of its block into chunk 0 of its x-send buffer and
  waits 2 on its own barrier: the 2-unit signal must have landed, so xp c's x-receive buffer is now c's to write. Chunk
  by chunk it sends those rows across x. Then, chunk by chunk: it waits for xp c's rows (they hold xp c's partial sums of
  the rows c owns), adds them to its own, normalises the 32 rows, stores them into its quarter of the result block and,
  cast to bf16, into its y-send buffer, and sends that chunk across y — before the first such transfer it waits 1 on its
  barrier, which yields yp c's y-receive buffer. Then, chunk by chunk, it waits for yp c's normalised rows and stores
  them, cast back, into the other quarter of the result block. Last it waits for its sixteen transfers to have left.
  Every wait sits below what c still owes: the barrier while only receive cells are owed, an x-receive cell while only
  y-receive cells are owed, everything else owing nothing. What each buffer holds is named at every step, so the result
  block ends at outFinal m c.
-/
import proofs.«900597_g7700000000000598_dist_rsrms_v7x_xy2x2_x_m512_d512_f32_1_alg».proof.Proof.Bits.BodyDefs
import proofs.«900597_g7700000000000598_dist_rsrms_v7x_xy2x2_x_m512_d512_f32_1_alg».proof.Proof.Bits.Slabs
import proofs.«900597_g7700000000000598_dist_rsrms_v7x_xy2x2_x_m512_d512_f32_1_alg».proof.Proof.Bits.Finish

noncomputable section

namespace Cert.Kernel.Hand

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The payloads of the barrier and of a DMA cell, opened. -/
theorem PX_open (c : Dev nD) : (PX (F := F) c) ⊢ iprop(∃ f0 f1 f2 f3 f4 f5 f6 f7, chk (xp c) xrM 0 f0 ∗ chk (xp c) xrM 1 f1 ∗ chk (xp c) xrM 2 f2 ∗ chk (xp c) xrM 3 f3
    ∗ chk (xp c) xrM 4 f4 ∗ chk (xp c) xrM 5 f5 ∗ chk (xp c) xrM 6 f6 ∗ chk (xp c) xrM 7 f7) := by
  unfold PX anyChunks chunkAny
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists f0, f1, f2, f3, f4, f5, f6, f7
  iframe ∗
theorem PY_open (c : Dev nD) : (PY (F := F) c) ⊢ iprop(∃ f0 f1 f2 f3 f4 f5 f6 f7, chk (yp c) yrM 0 f0 ∗ chk (yp c) yrM 1 f1 ∗ chk (yp c) yrM 2 f2 ∗ chk (yp c) yrM 3 f3
    ∗ chk (yp c) yrM 4 f4 ∗ chk (yp c) yrM 5 f5 ∗ chk (yp c) yrM 6 f6 ∗ chk (yp c) yrM 7 f7) := by
  unfold PY anyChunks chunkAny
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists f0, f1, f2, f3, f4, f5, f6, f7
  iframe ∗
theorem chunkAt_open (c : Dev nD) (M : Memref sig .tc .vmem S256x512 .bf16) (k : Fin 8) (v : FVec F S32x512 .bf16) :
    chunkAt c M k v ⊢ iprop(∃ f : Buf (Elt F) ((M.access (ck k)).loc (c : Thread nD τ)), ⌜(M.access (ck k)).read (Elt F) f = v⌝ ∗ chk c M k f) := by
  unfold chunkAt; exact .rfl

/-- The normalised rows and their bf16 copy, from the gamma row and c's own rows as the program spells them. -/
theorem OUT_of (c : Dev nD) (k : Fin 8) (g : FVec F S1x512 .f32) (xa : Vec F S1x32x512 .f32) (hg : g = gRow (gstg m c)) (hxa : xa = rowsM m c k) :
    outRows g xa (XR m c k) = OUT m c k := by subst hg; subst hxa; rfl
theorem YS_of (c : Dev nD) (k : Fin 8) (g : FVec F S1x512 .f32) (xa : Vec F S1x32x512 .f32) (hg : g = gRow (gstg m c)) (hxa : xa = rowsM m c k) :
    ysRows g xa (XR m c k) = YS m c k := by subst hg; subst hxa; rfl

/-- Owing nothing, every wait is allowed. -/
theorem mayWait_end_eq (c : Dev nD) (sm : SemLoc sig) : (MayWait (c : Thread nD τ) sm () (owedAt c 18) : sProp 𝕄) = iprop(emp) := by
  rw [owed_end c, MayWait_zero]; rfl

/-- Run the straight-line stretch at the head of the program, if there is one. -/
local macro "sx" : tactic => `(tactic| first | sl_exec_parts | skip)

/-- A returned value bound into a continuation is the continuation at that value. -/
theorem ret_bind_eq {E : Type → Type} {α β : Type} (a : α) (k : α → Prog E β) : (Prog.ret a).bind k = k a := rfl

set_option maxHeartbeats 16000000 in
set_option maxRecDepth 8192 in
/-- The body, run from bodyPre to bodyPost: the straight-line stretches by symbolic execution, each step on a chunk and
    each step of the protocol by its rule, in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body xM (Memref.isWhole_whole _) gM (Memref.isWhole_whole _) oM (Memref.isWhole_whole _) xsM (Memref.isWhole_whole _) xrM (Memref.isWhole_whole _)
            ysM (Memref.isWhole_whole _) yrM (Memref.isWhole_whole _) cc0_scratch4 cc0_scratch5 cc0_scratch6 cc0_scratch7) Kt := by
  unfold bodyPre Φ₀ start ghost kits kit barKit scratch
  iintro ⟨⟨⟨⟨%K, %KB, #HP,
      ⟨⟨Pxs0, Pxr0, Pys0, Pyr0, Txs0, Txr0, Tys0, Tyr0, Cxr0, Cyr0⟩, ⟨Pxs1, Pxr1, Pys1, Pyr1, Txs1, Txr1, Tys1, Tyr1, Cxr1, Cyr1⟩,
       ⟨Pxs2, Pxr2, Pys2, Pyr2, Txs2, Txr2, Tys2, Tyr2, Cxr2, Cyr2⟩, ⟨Pxs3, Pxr3, Pys3, Pyr3, Txs3, Txr3, Tys3, Tyr3, Cxr3, Cyr3⟩,
       ⟨Pxs4, Pxr4, Pys4, Pyr4, Txs4, Txr4, Tys4, Tyr4, Cxr4, Cyr4⟩, ⟨Pxs5, Pxr5, Pys5, Pyr5, Txs5, Txr5, Tys5, Tyr5, Cxr5, Cyr5⟩,
       ⟨Pxs6, Pxr6, Pys6, Pyr6, Txs6, Txr6, Tys6, Tyr6, Cxr6, Cyr6⟩, ⟨Pxs7, Pxr7, Pys7, Pyr7, Txs7, Txr7, Tys7, Tyr7, Cxr7, Cyr7⟩⟩,
      ⟨HtX, HtY, HtW1, HtW2, HcB2, HcB1⟩⟩, ⟨%fxs, Hxs⟩, ⟨%fxr, Hxr⟩, ⟨%fys, Hys⟩, ⟨%fyr, Hyr⟩⟩,
    Ho, ⟨%d0, %g0, %hg0, Hx⟩, ⟨%d1, %g1, %hg1, Hg⟩, ⟨%d2, %g2, %hg2, Hout⟩⟩, Hk⟩
  have hx : g0 = xstg m c := by rw [hg0]; unfold Dat.before; rw [if_pos (fetch0_0 t0_0)]; rfl
  have hgm : g1 = gstg m c := by rw [hg1]; unfold Dat.before; rw [if_pos (fetch0_1 t0_0)]; rfl
  subst hx; subst hgm
  ihave #HP0 := (Pers_at m K KB c 0) $$ HP
  ihave #HP1 := (Pers_at m K KB c 1) $$ HP
  ihave #HP2 := (Pers_at m K KB c 2) $$ HP
  ihave #HP3 := (Pers_at m K KB c 3) $$ HP
  ihave #HP4 := (Pers_at m K KB c 4) $$ HP
  ihave #HP5 := (Pers_at m K KB c 5) $$ HP
  ihave #HP6 := (Pers_at m K KB c 6) $$ HP
  ihave #HP7 := (Pers_at m K KB c 7) $$ HP
  ihave HB := (Pers_bar m K KB c) $$ HP
  icases HB with ⟨#HIb, #HIbx, #HIby, #Hlev⟩
  unfold Dat.owesAt Pipeline.owesWithin
  icases Ho with ⟨%W, %hW, HO⟩
  rw [show (dats m 0 c).owed t0_0.castSucc = owedAt c 0 from rfl]
  ihave H8 := (split8 c xsM (Memref.isWhole_whole _) fxs) $$ Hxs
  icases H8 with ⟨Hxs0, Hxs1, Hxs2, Hxs3, Hxs4, Hxs5, Hxs6, Hxs7⟩
  ihave H8 := (split8 c xrM (Memref.isWhole_whole _) fxr) $$ Hxr
  icases H8 with ⟨Hxr0, Hxr1, Hxr2, Hxr3, Hxr4, Hxr5, Hxr6, Hxr7⟩
  ihave H8 := (split8 c ysM (Memref.isWhole_whole _) fys) $$ Hys
  icases H8 with ⟨Hys0, Hys1, Hys2, Hys3, Hys4, Hys5, Hys6, Hys7⟩
  ihave H8 := (split8 c yrM (Memref.isWhole_whole _) fyr) $$ Hyr
  icases H8 with ⟨Hyr0, Hyr1, Hyr2, Hyr3, Hyr4, Hyr5, Hyr6, Hyr7⟩
  have hd1 : (⟨k0_dev1 (c : Thread nD τ).1, k0_dev1_lt _⟩ : Dev nD) = xp c := dev1_eq c
  have hd2 : (⟨k0_dev2 (c : Thread nD τ).1, k0_dev2_lt _⟩ : Dev nD) = yp c := dev2_eq c
  ihave Hx := (Entails.of_eq (show (((c : Thread nD τ).loc cc0_stg0_0 ↦{fullShare} xstg m c) : sProp 𝕄) = (xM.view.loc (c : Thread nD τ) ↦{fullShare} xstg m c) from rfl)) $$ Hx
  ihave Hg := (Entails.of_eq (show (((c : Thread nD τ).loc cc0_stg1_0 ↦{fullShare} gstg m c) : sProp 𝕄) = (gM.view.loc (c : Thread nD τ) ↦{fullShare} gstg m c) from rfl)) $$ Hg
  ihave Hout := (Entails.of_eq (show (((c : Thread nD τ).loc cc0_stg2_0 ↦{fullShare} g2) : sProp 𝕄) = (oM.view.loc (c : Thread nD τ) ↦{fullShare} g2) from rfl)) $$ Hout
  sl_exec_parts
  rw [hd1]
  -- the signal of 2 units to xp c: with it go c's own x-receive chunks
  iapply (wp_bar_signalX 𝒱₀ PX PY (c : Thread nD τ) none (d := xp c) (κ := KB (xp c)) (owedAt c 1) (owed_s0 c)) $$ [HO HtX Hxr0 Hxr1 Hxr2 Hxr3 Hxr4 Hxr5 Hxr6 Hxr7]
  · isplitr; · iexact HIbx
    isplitl [HO]; · iexact HO
    isplitl [HtX]; · iexact HtX
    rw [show PX (F := F) (xp c) = anyChunks c xrM from by unfold PX; rw [xp_xp]]
    iapply (anyChunks_of c xrM fxr fxr fxr fxr fxr fxr fxr fxr)
    iframe
  iintro HO
  sl_exec_parts
  rw [hd2]
  -- the signal of 1 unit to yp c: with it go c's own y-receive chunks
  iapply (wp_bar_signalY 𝒱₀ PX PY (c : Thread nD τ) none (d := yp c) (κ := KB (yp c)) (owedAt c 2) (owed_s1 c)) $$ [HO HtY Hyr0 Hyr1 Hyr2 Hyr3 Hyr4 Hyr5 Hyr6 Hyr7]
  · isplitr; · iexact HIby
    isplitl [HO]; · iexact HO
    isplitl [HtY]; · iexact HtY
    rw [show PY (F := F) (yp c) = anyChunks c yrM from by unfold PY; rw [yp_yp]]
    iapply (anyChunks_of c yrM fyr fyr fyr fyr fyr fyr fyr fyr)
    iframe
  iintro HO
  sl_exec_parts
  -- chunk 0 of the send buffer: the 32 partner rows, cast
  iapply (wp_chunk_load c xsM 0 fxs) $$ Hxs0; iintro Hxs0
  iapply (wp_chunk_store c xsM 0 fxs) $$ Hxs0; iintro Hxs0
  rw [ret_bind_eq]
  sl_exec_parts
  -- the wait of 2 on c's own barrier: xp c's x-receive chunks come with it
  iapply (wp_bar_wait2 𝒱₀ PX PY c none (wpE_semWait_eq 𝒱₀ (c : Thread nD τ) none Set.univ) (Set.mem_univ _) (κ := KB c)) $$ [HcB2 HO HtW1]
  · isplitr; · iexact HIb
    isplitl [HcB2]; · iexact HcB2
    isplitl [HO]; · iexact HO
    isplitr; · iapply (mayWait_bar2 c); iexact Hlev
    iexact HtW1
  iintro ⟨HO, HtZ, HPX⟩
  ihave HPX := (PX_open c) $$ HPX
  icases HPX with ⟨%fp0, %fp1, %fp2, %fp3, %fp4, %fp5, %fp6, %fp7, Hp0, Hp1, Hp2, Hp3, Hp4, Hp5, Hp6, Hp7⟩
  sl_exec_parts
  -- the eight transfers across x: chunk k of the send buffer is the 32 rows 32 k … of the partner's quarter, cast
  rw [show owedAt c 2 = owedAt c 3 + tallyAt (xrCell (xp c) 0) () N32 from owed_x c 0]
  iapply (wp_xsend m K c 0 _ (dev3_eq c) (owedAt c 3)) $$ [Hxs0 Hp0 HO Txs0 Txr0]
  · isplitl [Hxs0 Hp0 HO Txs0 Txr0]; · iframe # ∗
    ipureintro; rw [chunk_read_write, pay1_eq]; exact congrArg cvt (rows_off1 m c _ _ rfl)
  iintro ⟨Cxs0, HO⟩
  sx
  iapply (wp_chunk_load c xsM 1 fxs) $$ Hxs1; iintro Hxs1
  iapply (wp_chunk_store c xsM 1 fxs) $$ Hxs1; iintro Hxs1
  rw [ret_bind_eq]
  sx
  rw [show owedAt c 3 = owedAt c 4 + tallyAt (xrCell (xp c) 1) () N32 from owed_x c 1]
  iapply (wp_xsend m K c 1 _ (dev4_eq c) (owedAt c 4)) $$ [Hxs1 Hp1 HO Txs1 Txr1]
  · isplitl [Hxs1 Hp1 HO Txs1 Txr1]; · iframe # ∗
    ipureintro; rw [chunk_read_write, pay2_eq]; exact congrArg cvt (rows_off2 m c 0 _ _ rfl)
  iintro ⟨Cxs1, HO⟩
  sx
  iapply (wp_chunk_load c xsM 2 fxs) $$ Hxs2; iintro Hxs2
  iapply (wp_chunk_store c xsM 2 fxs) $$ Hxs2; iintro Hxs2
  rw [ret_bind_eq]
  sx
  rw [show owedAt c 4 = owedAt c 5 + tallyAt (xrCell (xp c) 2) () N32 from owed_x c 2]
  iapply (wp_xsend m K c 2 _ (dev5_eq c) (owedAt c 5)) $$ [Hxs2 Hp2 HO Txs2 Txr2]
  · isplitl [Hxs2 Hp2 HO Txs2 Txr2]; · iframe # ∗
    ipureintro; rw [chunk_read_write]; unfold sound_body.sl.r; rw [pay4_pay3_eq]; exact congrArg cvt (rows_off2 m c 1 _ _ rfl)
  iintro ⟨Cxs2, HO⟩
  sx
  iapply (wp_chunk_load c xsM 3 fxs) $$ Hxs3; iintro Hxs3
  iapply (wp_chunk_store c xsM 3 fxs) $$ Hxs3; iintro Hxs3
  rw [ret_bind_eq]
  sx
  rw [show owedAt c 5 = owedAt c 6 + tallyAt (xrCell (xp c) 3) () N32 from owed_x c 3]
  iapply (wp_xsend m K c 3 _ (dev6_eq c) (owedAt c 6)) $$ [Hxs3 Hp3 HO Txs3 Txr3]
  · isplitl [Hxs3 Hp3 HO Txs3 Txr3]; · iframe # ∗
    ipureintro; rw [chunk_read_write, pay5_eq]; exact congrArg cvt (rows_off2 m c 2 _ _ rfl)
  iintro ⟨Cxs3, HO⟩
  sx
  iapply (wp_chunk_load c xsM 4 fxs) $$ Hxs4; iintro Hxs4
  iapply (wp_chunk_store c xsM 4 fxs) $$ Hxs4; iintro Hxs4
  rw [ret_bind_eq]
  sx
  rw [show owedAt c 6 = owedAt c 7 + tallyAt (xrCell (xp c) 4) () N32 from owed_x c 4]
  iapply (wp_xsend m K c 4 _ (dev7_eq c) (owedAt c 7)) $$ [Hxs4 Hp4 HO Txs4 Txr4]
  · isplitl [Hxs4 Hp4 HO Txs4 Txr4]; · iframe # ∗
    ipureintro; rw [chunk_read_write, pay6_eq]; exact congrArg cvt (rows_off2 m c 3 _ _ rfl)
  iintro ⟨Cxs4, HO⟩
  sx
  iapply (wp_chunk_load c xsM 5 fxs) $$ Hxs5; iintro Hxs5
  iapply (wp_chunk_store c xsM 5 fxs) $$ Hxs5; iintro Hxs5
  rw [ret_bind_eq]
  sx
  rw [show owedAt c 7 = owedAt c 8 + tallyAt (xrCell (xp c) 5) () N32 from owed_x c 5]
  iapply (wp_xsend m K c 5 _ (dev8_eq c) (owedAt c 8)) $$ [Hxs5 Hp5 HO Txs5 Txr5]
  · isplitl [Hxs5 Hp5 HO Txs5 Txr5]; · iframe # ∗
    ipureintro; rw [chunk_read_write, pay7_eq]; exact congrArg cvt (rows_off2 m c 4 _ _ rfl)
  iintro ⟨Cxs5, HO⟩
  sx
  iapply (wp_chunk_load c xsM 6 fxs) $$ Hxs6; iintro Hxs6
  iapply (wp_chunk_store c xsM 6 fxs) $$ Hxs6; iintro Hxs6
  rw [ret_bind_eq]
  sx
  rw [show owedAt c 8 = owedAt c 9 + tallyAt (xrCell (xp c) 6) () N32 from owed_x c 6]
  iapply (wp_xsend m K c 6 _ (dev9_eq c) (owedAt c 9)) $$ [Hxs6 Hp6 HO Txs6 Txr6]
  · isplitl [Hxs6 Hp6 HO Txs6 Txr6]; · iframe # ∗
    ipureintro; rw [chunk_read_write, pay8_eq]; exact congrArg cvt (rows_off2 m c 5 _ _ rfl)
  iintro ⟨Cxs6, HO⟩
  sx
  iapply (wp_chunk_load c xsM 7 fxs) $$ Hxs7; iintro Hxs7
  iapply (wp_chunk_store c xsM 7 fxs) $$ Hxs7; iintro Hxs7
  rw [ret_bind_eq]
  sx
  rw [show owedAt c 9 = owedAt c 10 + tallyAt (xrCell (xp c) 7) () N32 from owed_x c 7]
  iapply (wp_xsend m K c 7 _ (dev10_eq c) (owedAt c 10)) $$ [Hxs7 Hp7 HO Txs7 Txr7]
  · isplitl [Hxs7 Hp7 HO Txs7 Txr7]; · iframe # ∗
    ipureintro; rw [chunk_read_write, pay9_eq]; exact congrArg cvt (rows_off2 m c 6 _ _ rfl)
  iintro ⟨Cxs7, HO⟩
  sx
  -- the result block in sixteen slabs
  ihave H16 := (split16 c g2) $$ Hout
  icases H16 with ⟨Ho0, Ho1, Ho2, Ho3, Ho4, Ho5, Ho6, Ho7, Hg0, Hg1, Hg2, Hg3, Hg4, Hg5, Hg6, Hg7⟩
  -- chunk 0: xp's rows arrive, are added to c's own, normalised, stored and sent on across y
  iapply (wp_wait_xr m K c 0 (O := owedAt c 10)) $$ [Cxr0 HO Pxr0]
  · isplitr; · iexact HP0
    isplitl [Cxr0]; · iexact Cxr0
    isplitl [HO]; · iexact HO
    isplitr; · iapply (mayWait_xr c 0 10 (by omega)); iexact Hlev
    iexact Pxr0
  iintro ⟨HO, Zxr0, Hc⟩
  ihave Hc := (chunkAt_open c xrM 0 (XR m c 0)) $$ Hc
  icases Hc with ⟨%fr0, %hfr0, Hxr0⟩
  sx
  iapply (wp_chunk_load c xrM 0 fr0) $$ Hxr0; iintro Hxr0
  rw [hfr0]
  sx
  iapply (wp_slab_load c (offO c 0) (offO_inb c 0) (off4_O c 0) g2) $$ Ho0; iintro Ho0
  iapply (wp_slab_store c (offO c 0) (offO_inb c 0) (off4_O c 0) g2) $$ Ho0; iintro Ho0
  rw [ret_bind_eq]
  have hG : sound_body.sl.r_1 m c = gRow (gstg m c) := (pay10_eq _).trans (congrArg gRow (read_gamma m c _))
  ihave Ho0 := (slabAt_of c (slO c 0) (OUT m c 0)) $$ [Ho0]
  · isplitl [Ho0]; · iexact Ho0
    ipureintro; rw [slab_read_write]; exact (pay14_eq _ _ _).trans (OUT_of m c 0 _ _ hG (rows_off3 m c 0 _ _ rfl))
  sx
  iapply (wp_chunk_load c ysM 0 fys) $$ Hys0; iintro Hys0
  iapply (wp_chunk_store c ysM 0 fys) $$ Hys0; iintro Hys0
  rw [ret_bind_eq]
  sx
  -- the wait of 1 on c's own barrier: yp c's y-receive chunks come with it
  iapply (wp_bar_wait1 𝒱₀ PX PY c none (wpE_semWait_eq 𝒱₀ (c : Thread nD τ) none Set.univ) (Set.mem_univ _) (κ := KB c)) $$ [HcB1 HO HtW2 HtZ]
  · isplitr; · iexact HIb
    isplitl [HcB1]; · iexact HcB1
    isplitl [HO]; · iexact HO
    isplitr; · iapply (mayWait_bar1 c); iexact Hlev
    isplitl [HtW2]; · iexact HtW2
    iexact HtZ
  iintro ⟨HO, HPY⟩
  ihave HPY := (PY_open c) $$ HPY
  icases HPY with ⟨%fq0, %fq1, %fq2, %fq3, %fq4, %fq5, %fq6, %fq7, Hq0, Hq1, Hq2, Hq3, Hq4, Hq5, Hq6, Hq7⟩
  sx
  rw [show owedAt c 10 = owedAt c 11 + tallyAt (yrCell (yp c) 0) () N32 from owed_y c 0]
  iapply (wp_ysend m K c 0 _ (dev11_eq c) (owedAt c 11)) $$ [Hys0 Hq0 HO Tys0 Tyr0]
  · isplitl [Hys0 Hq0 HO Tys0 Tyr0]; · iframe # ∗
    ipureintro; rw [chunk_read_write]; exact (pay15_eq _ _ _).trans (YS_of m c 0 _ _ hG (rows_off3 m c 0 _ _ rfl))
  iintro ⟨Cys0, HO⟩
  sx
  -- chunk 1
  iapply (wp_wait_xr m K c 1 (O := owedAt c 11)) $$ [Cxr1 HO Pxr1]
  · isplitr; · iexact HP1
    isplitl [Cxr1]; · iexact Cxr1
    isplitl [HO]; · iexact HO
    isplitr; · iapply (mayWait_xr c 1 11 (by omega)); iexact Hlev
    iexact Pxr1
  iintro ⟨HO, Zxr1, Hc⟩
  ihave Hc := (chunkAt_open c xrM 1 (XR m c 1)) $$ Hc
  icases Hc with ⟨%fr1, %hfr1, Hxr1⟩
  sx
  iapply (wp_chunk_load c xrM 1 fr1) $$ Hxr1; iintro Hxr1
  rw [hfr1]
  sx
  iapply (wp_slab_load c (offO c 1) (offO_inb c 1) (off4_O c 1) g2) $$ Ho1; iintro Ho1
  iapply (wp_slab_store c (offO c 1) (offO_inb c 1) (off4_O c 1) g2) $$ Ho1; iintro Ho1
  rw [ret_bind_eq]
  ihave Ho1 := (slabAt_of c (slO c 1) (OUT m c 1)) $$ [Ho1]
  · isplitl [Ho1]; · iexact Ho1
    ipureintro; rw [slab_read_write]; exact (pay16_eq _ _ _).trans (OUT_of m c 1 _ _ hG (rows_off3 m c 1 _ _ rfl))
  sx
  iapply (wp_chunk_load c ysM 1 fys) $$ Hys1; iintro Hys1
  iapply (wp_chunk_store c ysM 1 fys) $$ Hys1; iintro Hys1
  rw [ret_bind_eq]
  sx
  rw [show owedAt c 11 = owedAt c 12 + tallyAt (yrCell (yp c) 1) () N32 from owed_y c 1]
  iapply (wp_ysend m K c 1 _ (dev12_eq c) (owedAt c 12)) $$ [Hys1 Hq1 HO Tys1 Tyr1]
  · isplitl [Hys1 Hq1 HO Tys1 Tyr1]; · iframe # ∗
    ipureintro; rw [chunk_read_write]; exact (pay17_eq _ _ _).trans (YS_of m c 1 _ _ hG (rows_off3 m c 1 _ _ rfl))
  iintro ⟨Cys1, HO⟩
  sx
  -- chunk 2
  iapply (wp_wait_xr m K c 2 (O := owedAt c 12)) $$ [Cxr2 HO Pxr2]
  · isplitr; · iexact HP2
    isplitl [Cxr2]; · iexact Cxr2
    isplitl [HO]; · iexact HO
    isplitr; · iapply (mayWait_xr c 2 12 (by omega)); iexact Hlev
    iexact Pxr2
  iintro ⟨HO, Zxr2, Hc⟩
  ihave Hc := (chunkAt_open c xrM 2 (XR m c 2)) $$ Hc
  icases Hc with ⟨%fr2, %hfr2, Hxr2⟩
  sx
  iapply (wp_chunk_load c xrM 2 fr2) $$ Hxr2; iintro Hxr2
  rw [hfr2]
  sx
  iapply (wp_slab_load c (offO c 2) (offO_inb c 2) (off4_O c 2) g2) $$ Ho2; iintro Ho2
  iapply (wp_slab_store c (offO c 2) (offO_inb c 2) (off4_O c 2) g2) $$ Ho2; iintro Ho2
  rw [ret_bind_eq]
  ihave Ho2 := (slabAt_of c (slO c 2) (OUT m c 2)) $$ [Ho2]
  · isplitl [Ho2]; · iexact Ho2
    ipureintro; rw [slab_read_write]; exact (pay18_eq _ _ _).trans (OUT_of m c 2 _ _ hG (rows_off3 m c 2 _ _ rfl))
  sx
  iapply (wp_chunk_load c ysM 2 fys) $$ Hys2; iintro Hys2
  iapply (wp_chunk_store c ysM 2 fys) $$ Hys2; iintro Hys2
  rw [ret_bind_eq]
  sx
  rw [show owedAt c 12 = owedAt c 13 + tallyAt (yrCell (yp c) 2) () N32 from owed_y c 2]
  iapply (wp_ysend m K c 2 _ (dev13_eq c) (owedAt c 13)) $$ [Hys2 Hq2 HO Tys2 Tyr2]
  · isplitl [Hys2 Hq2 HO Tys2 Tyr2]; · iframe # ∗
    ipureintro; rw [chunk_read_write]; exact (pay20_pay19_eq _ _ _).trans (YS_of m c 2 _ _ hG (rows_off3 m c 2 _ _ rfl))
  iintro ⟨Cys2, HO⟩
  sx
  -- chunk 3
  iapply (wp_wait_xr m K c 3 (O := owedAt c 13)) $$ [Cxr3 HO Pxr3]
  · isplitr; · iexact HP3
    isplitl [Cxr3]; · iexact Cxr3
    isplitl [HO]; · iexact HO
    isplitr; · iapply (mayWait_xr c 3 13 (by omega)); iexact Hlev
    iexact Pxr3
  iintro ⟨HO, Zxr3, Hc⟩
  ihave Hc := (chunkAt_open c xrM 3 (XR m c 3)) $$ Hc
  icases Hc with ⟨%fr3, %hfr3, Hxr3⟩
  sx
  iapply (wp_chunk_load c xrM 3 fr3) $$ Hxr3; iintro Hxr3
  rw [hfr3]
  sx
  iapply (wp_slab_load c (offO c 3) (offO_inb c 3) (off4_O c 3) g2) $$ Ho3; iintro Ho3
  iapply (wp_slab_store c (offO c 3) (offO_inb c 3) (off4_O c 3) g2) $$ Ho3; iintro Ho3
  rw [ret_bind_eq]
  ihave Ho3 := (slabAt_of c (slO c 3) (OUT m c 3)) $$ [Ho3]
  · isplitl [Ho3]; · iexact Ho3
    ipureintro; rw [slab_read_write]; exact (pay24_eq _ _ _).trans (OUT_of m c 3 _ _ hG (rows_off3 m c 3 _ _ rfl))
  sx
  iapply (wp_chunk_load c ysM 3 fys) $$ Hys3; iintro Hys3
  iapply (wp_chunk_store c ysM 3 fys) $$ Hys3; iintro Hys3
  rw [ret_bind_eq]
  sx
  rw [show owedAt c 13 = owedAt c 14 + tallyAt (yrCell (yp c) 3) () N32 from owed_y c 3]
  iapply (wp_ysend m K c 3 _ (dev14_eq c) (owedAt c 14)) $$ [Hys3 Hq3 HO Tys3 Tyr3]
  · isplitl [Hys3 Hq3 HO Tys3 Tyr3]; · iframe # ∗
    ipureintro; rw [chunk_read_write]; exact (pay25_eq _ _ _).trans (YS_of m c 3 _ _ hG (rows_off3 m c 3 _ _ rfl))
  iintro ⟨Cys3, HO⟩
  sx
  -- chunk 4
  iapply (wp_wait_xr m K c 4 (O := owedAt c 14)) $$ [Cxr4 HO Pxr4]
  · isplitr; · iexact HP4
    isplitl [Cxr4]; · iexact Cxr4
    isplitl [HO]; · iexact HO
    isplitr; · iapply (mayWait_xr c 4 14 (by omega)); iexact Hlev
    iexact Pxr4
  iintro ⟨HO, Zxr4, Hc⟩
  ihave Hc := (chunkAt_open c xrM 4 (XR m c 4)) $$ Hc
  icases Hc with ⟨%fr4, %hfr4, Hxr4⟩
  sx
  iapply (wp_chunk_load c xrM 4 fr4) $$ Hxr4; iintro Hxr4
  rw [hfr4]
  sx
  iapply (wp_slab_load c (offO c 4) (offO_inb c 4) (off4_O c 4) g2) $$ Ho4; iintro Ho4
  iapply (wp_slab_store c (offO c 4) (offO_inb c 4) (off4_O c 4) g2) $$ Ho4; iintro Ho4
  rw [ret_bind_eq]
  ihave Ho4 := (slabAt_of c (slO c 4) (OUT m c 4)) $$ [Ho4]
  · isplitl [Ho4]; · iexact Ho4
    ipureintro; rw [slab_read_write]; exact (pay26_eq _ _ _).trans (OUT_of m c 4 _ _ hG (rows_off3 m c 4 _ _ rfl))
  sx
  iapply (wp_chunk_load c ysM 4 fys) $$ Hys4; iintro Hys4
  iapply (wp_chunk_store c ysM 4 fys) $$ Hys4; iintro Hys4
  rw [ret_bind_eq]
  sx
  rw [show owedAt c 14 = owedAt c 15 + tallyAt (yrCell (yp c) 4) () N32 from owed_y c 4]
  iapply (wp_ysend m K c 4 _ (dev15_eq c) (owedAt c 15)) $$ [Hys4 Hq4 HO Tys4 Tyr4]
  · isplitl [Hys4 Hq4 HO Tys4 Tyr4]; · iframe # ∗
    ipureintro; rw [chunk_read_write]; exact (pay27_eq _ _ _).trans (YS_of m c 4 _ _ hG (rows_off3 m c 4 _ _ rfl))
  iintro ⟨Cys4, HO⟩
  sx
  -- chunk 5
  iapply (wp_wait_xr m K c 5 (O := owedAt c 15)) $$ [Cxr5 HO Pxr5]
  · isplitr; · iexact HP5
    isplitl [Cxr5]; · iexact Cxr5
    isplitl [HO]; · iexact HO
    isplitr; · iapply (mayWait_xr c 5 15 (by omega)); iexact Hlev
    iexact Pxr5
  iintro ⟨HO, Zxr5, Hc⟩
  ihave Hc := (chunkAt_open c xrM 5 (XR m c 5)) $$ Hc
  icases Hc with ⟨%fr5, %hfr5, Hxr5⟩
  sx
  iapply (wp_chunk_load c xrM 5 fr5) $$ Hxr5; iintro Hxr5
  rw [hfr5]
  sx
  iapply (wp_slab_load c (offO c 5) (offO_inb c 5) (off4_O c 5) g2) $$ Ho5; iintro Ho5
  iapply (wp_slab_store c (offO c 5) (offO_inb c 5) (off4_O c 5) g2) $$ Ho5; iintro Ho5
  rw [ret_bind_eq]
  ihave Ho5 := (slabAt_of c (slO c 5) (OUT m c 5)) $$ [Ho5]
  · isplitl [Ho5]; · iexact Ho5
    ipureintro; rw [slab_read_write]; exact (pay28_eq _ _ _).trans (OUT_of m c 5 _ _ hG (rows_off3 m c 5 _ _ rfl))
  sx
  iapply (wp_chunk_load c ysM 5 fys) $$ Hys5; iintro Hys5
  iapply (wp_chunk_store c ysM 5 fys) $$ Hys5; iintro Hys5
  rw [ret_bind_eq]
  sx
  rw [show owedAt c 15 = owedAt c 16 + tallyAt (yrCell (yp c) 5) () N32 from owed_y c 5]
  iapply (wp_ysend m K c 5 _ (dev16_eq c) (owedAt c 16)) $$ [Hys5 Hq5 HO Tys5 Tyr5]
  · isplitl [Hys5 Hq5 HO Tys5 Tyr5]; · iframe # ∗
    ipureintro; rw [chunk_read_write]; exact (pay30_pay29_eq _ _ _).trans (YS_of m c 5 _ _ hG (rows_off3 m c 5 _ _ rfl))
  iintro ⟨Cys5, HO⟩
  sx
  -- chunk 6
  iapply (wp_wait_xr m K c 6 (O := owedAt c 16)) $$ [Cxr6 HO Pxr6]
  · isplitr; · iexact HP6
    isplitl [Cxr6]; · iexact Cxr6
    isplitl [HO]; · iexact HO
    isplitr; · iapply (mayWait_xr c 6 16 (by omega)); iexact Hlev
    iexact Pxr6
  iintro ⟨HO, Zxr6, Hc⟩
  ihave Hc := (chunkAt_open c xrM 6 (XR m c 6)) $$ Hc
  icases Hc with ⟨%fr6, %hfr6, Hxr6⟩
  sx
  iapply (wp_chunk_load c xrM 6 fr6) $$ Hxr6; iintro Hxr6
  rw [hfr6]
  sx
  iapply (wp_slab_load c (offO c 6) (offO_inb c 6) (off4_O c 6) g2) $$ Ho6; iintro Ho6
  iapply (wp_slab_store c (offO c 6) (offO_inb c 6) (off4_O c 6) g2) $$ Ho6; iintro Ho6
  rw [ret_bind_eq]
  ihave Ho6 := (slabAt_of c (slO c 6) (OUT m c 6)) $$ [Ho6]
  · isplitl [Ho6]; · iexact Ho6
    ipureintro; rw [slab_read_write]; exact (pay34_eq _ _ _).trans (OUT_of m c 6 _ _ hG (rows_off3 m c 6 _ _ rfl))
  sx
  iapply (wp_chunk_load c ysM 6 fys) $$ Hys6; iintro Hys6
  iapply (wp_chunk_store c ysM 6 fys) $$ Hys6; iintro Hys6
  rw [ret_bind_eq]
  sx
  rw [show owedAt c 16 = owedAt c 17 + tallyAt (yrCell (yp c) 6) () N32 from owed_y c 6]
  iapply (wp_ysend m K c 6 _ (dev17_eq c) (owedAt c 17)) $$ [Hys6 Hq6 HO Tys6 Tyr6]
  · isplitl [Hys6 Hq6 HO Tys6 Tyr6]; · iframe # ∗
    ipureintro; rw [chunk_read_write]; exact (pay35_eq _ _ _).trans (YS_of m c 6 _ _ hG (rows_off3 m c 6 _ _ rfl))
  iintro ⟨Cys6, HO⟩
  sx
  -- chunk 7
  iapply (wp_wait_xr m K c 7 (O := owedAt c 17)) $$ [Cxr7 HO Pxr7]
  · isplitr; · iexact HP7
    isplitl [Cxr7]; · iexact Cxr7
    isplitl [HO]; · iexact HO
    isplitr; · iapply (mayWait_xr c 7 17 (by omega)); iexact Hlev
    iexact Pxr7
  iintro ⟨HO, Zxr7, Hc⟩
  ihave Hc := (chunkAt_open c xrM 7 (XR m c 7)) $$ Hc
  icases Hc with ⟨%fr7, %hfr7, Hxr7⟩
  sx
  iapply (wp_chunk_load c xrM 7 fr7) $$ Hxr7; iintro Hxr7
  rw [hfr7]
  sx
  iapply (wp_slab_load c (offO c 7) (offO_inb c 7) (off4_O c 7) g2) $$ Ho7; iintro Ho7
  iapply (wp_slab_store c (offO c 7) (offO_inb c 7) (off4_O c 7) g2) $$ Ho7; iintro Ho7
  rw [ret_bind_eq]
  ihave Ho7 := (slabAt_of c (slO c 7) (OUT m c 7)) $$ [Ho7]
  · isplitl [Ho7]; · iexact Ho7
    ipureintro; rw [slab_read_write]; exact (pay36_eq _ _ _).trans (OUT_of m c 7 _ _ hG (rows_off3 m c 7 _ _ rfl))
  sx
  iapply (wp_chunk_load c ysM 7 fys) $$ Hys7; iintro Hys7
  iapply (wp_chunk_store c ysM 7 fys) $$ Hys7; iintro Hys7
  rw [ret_bind_eq]
  sx
  rw [show owedAt c 17 = owedAt c 18 + tallyAt (yrCell (yp c) 7) () N32 from owed_y c 7]
  iapply (wp_ysend m K c 7 _ (dev18_eq c) (owedAt c 18)) $$ [Hys7 Hq7 HO Tys7 Tyr7]
  · isplitl [Hys7 Hq7 HO Tys7 Tyr7]; · iframe # ∗
    ipureintro; rw [chunk_read_write]; exact (pay37_eq _ _ _).trans (YS_of m c 7 _ _ hG (rows_off3 m c 7 _ _ rfl))
  iintro ⟨Cys7, HO⟩
  sx
  -- the eight chunks from yp: each is waited for, loaded, cast back and stored into the other quarter of the result block
  iapply (wp_wait_yr m K c 0 (O := owedAt c 18)) $$ [Cyr0 HO Pyr0]
  · isplitr; · iexact HP0
    isplitl [Cyr0]; · iexact Cyr0
    isplitl [HO]; · iexact HO
    isplitr; · rw [mayWait_end_eq]; iempintro
    iexact Pyr0
  iintro ⟨HO, Zyr0, Hc⟩
  ihave Hc := (chunkAt_open c yrM 0 (YR m c 0)) $$ Hc
  icases Hc with ⟨%fy0, %hfy0, Hyr0⟩
  iapply (wp_chunk_load c yrM 0 fy0) $$ Hyr0; iintro Hyr0
  rw [hfy0]
  sx
  iapply (wp_slab_load c (offG c 0) (offG_inb c 0) (off5_G c 0) g2) $$ Hg0; iintro Hg0
  iapply (wp_slab_store c (offG c 0) (offG_inb c 0) (off5_G c 0) g2) $$ Hg0; iintro Hg0
  rw [ret_bind_eq]
  ihave Hg0 := (slabAt_of c (slG c 0) (ext (YR m c 0))) $$ [Hg0]
  · isplitl [Hg0]; · iexact Hg0
    ipureintro; rw [slab_read_write]; exact pay38_eq _
  sx
  iapply (wp_wait_yr m K c 1 (O := owedAt c 18)) $$ [Cyr1 HO Pyr1]
  · isplitr; · iexact HP1
    isplitl [Cyr1]; · iexact Cyr1
    isplitl [HO]; · iexact HO
    isplitr; · rw [mayWait_end_eq]; iempintro
    iexact Pyr1
  iintro ⟨HO, Zyr1, Hc⟩
  ihave Hc := (chunkAt_open c yrM 1 (YR m c 1)) $$ Hc
  icases Hc with ⟨%fy1, %hfy1, Hyr1⟩
  iapply (wp_chunk_load c yrM 1 fy1) $$ Hyr1; iintro Hyr1
  rw [hfy1]
  rw [ret_bind_eq]
  sx
  iapply (wp_slab_load c (offG c 1) (offG_inb c 1) (off5_G c 1) g2) $$ Hg1; iintro Hg1
  iapply (wp_slab_store c (offG c 1) (offG_inb c 1) (off5_G c 1) g2) $$ Hg1; iintro Hg1
  rw [ret_bind_eq]
  ihave Hg1 := (slabAt_of c (slG c 1) (ext (YR m c 1))) $$ [Hg1]
  · isplitl [Hg1]; · iexact Hg1
    ipureintro; rw [slab_read_write]; exact pay39_eq _
  sx
  iapply (wp_wait_yr m K c 2 (O := owedAt c 18)) $$ [Cyr2 HO Pyr2]
  · isplitr; · iexact HP2
    isplitl [Cyr2]; · iexact Cyr2
    isplitl [HO]; · iexact HO
    isplitr; · rw [mayWait_end_eq]; iempintro
    iexact Pyr2
  iintro ⟨HO, Zyr2, Hc⟩
  ihave Hc := (chunkAt_open c yrM 2 (YR m c 2)) $$ Hc
  icases Hc with ⟨%fy2, %hfy2, Hyr2⟩
  iapply (wp_chunk_load c yrM 2 fy2) $$ Hyr2; iintro Hyr2
  rw [hfy2]
  sx
  iapply (wp_slab_load c (offG c 2) (offG_inb c 2) (off5_G c 2) g2) $$ Hg2; iintro Hg2
  iapply (wp_slab_store c (offG c 2) (offG_inb c 2) (off5_G c 2) g2) $$ Hg2; iintro Hg2
  rw [ret_bind_eq]
  ihave Hg2 := (slabAt_of c (slG c 2) (ext (YR m c 2))) $$ [Hg2]
  · isplitl [Hg2]; · iexact Hg2
    ipureintro; rw [slab_read_write]; exact pay40_eq _
  sx
  iapply (wp_wait_yr m K c 3 (O := owedAt c 18)) $$ [Cyr3 HO Pyr3]
  · isplitr; · iexact HP3
    isplitl [Cyr3]; · iexact Cyr3
    isplitl [HO]; · iexact HO
    isplitr; · rw [mayWait_end_eq]; iempintro
    iexact Pyr3
  iintro ⟨HO, Zyr3, Hc⟩
  ihave Hc := (chunkAt_open c yrM 3 (YR m c 3)) $$ Hc
  icases Hc with ⟨%fy3, %hfy3, Hyr3⟩
  iapply (wp_chunk_load c yrM 3 fy3) $$ Hyr3; iintro Hyr3
  rw [hfy3]
  rw [ret_bind_eq]
  sx
  iapply (wp_slab_load c (offG c 3) (offG_inb c 3) (off5_G c 3) g2) $$ Hg3; iintro Hg3
  iapply (wp_slab_store c (offG c 3) (offG_inb c 3) (off5_G c 3) g2) $$ Hg3; iintro Hg3
  rw [ret_bind_eq]
  ihave Hg3 := (slabAt_of c (slG c 3) (ext (YR m c 3))) $$ [Hg3]
  · isplitl [Hg3]; · iexact Hg3
    ipureintro; rw [slab_read_write]; exact pay41_eq _
  sx
  iapply (wp_wait_yr m K c 4 (O := owedAt c 18)) $$ [Cyr4 HO Pyr4]
  · isplitr; · iexact HP4
    isplitl [Cyr4]; · iexact Cyr4
    isplitl [HO]; · iexact HO
    isplitr; · rw [mayWait_end_eq]; iempintro
    iexact Pyr4
  iintro ⟨HO, Zyr4, Hc⟩
  ihave Hc := (chunkAt_open c yrM 4 (YR m c 4)) $$ Hc
  icases Hc with ⟨%fy4, %hfy4, Hyr4⟩
  iapply (wp_chunk_load c yrM 4 fy4) $$ Hyr4; iintro Hyr4
  rw [hfy4]
  sx
  iapply (wp_slab_load c (offG c 4) (offG_inb c 4) (off5_G c 4) g2) $$ Hg4; iintro Hg4
  iapply (wp_slab_store c (offG c 4) (offG_inb c 4) (off5_G c 4) g2) $$ Hg4; iintro Hg4
  rw [ret_bind_eq]
  ihave Hg4 := (slabAt_of c (slG c 4) (ext (YR m c 4))) $$ [Hg4]
  · isplitl [Hg4]; · iexact Hg4
    ipureintro; rw [slab_read_write]; exact pay42_eq _
  sx
  iapply (wp_wait_yr m K c 5 (O := owedAt c 18)) $$ [Cyr5 HO Pyr5]
  · isplitr; · iexact HP5
    isplitl [Cyr5]; · iexact Cyr5
    isplitl [HO]; · iexact HO
    isplitr; · rw [mayWait_end_eq]; iempintro
    iexact Pyr5
  iintro ⟨HO, Zyr5, Hc⟩
  ihave Hc := (chunkAt_open c yrM 5 (YR m c 5)) $$ Hc
  icases Hc with ⟨%fy5, %hfy5, Hyr5⟩
  iapply (wp_chunk_load c yrM 5 fy5) $$ Hyr5; iintro Hyr5
  rw [hfy5]
  rw [ret_bind_eq]
  sx
  iapply (wp_slab_load c (offG c 5) (offG_inb c 5) (off5_G c 5) g2) $$ Hg5; iintro Hg5
  iapply (wp_slab_store c (offG c 5) (offG_inb c 5) (off5_G c 5) g2) $$ Hg5; iintro Hg5
  rw [ret_bind_eq]
  ihave Hg5 := (slabAt_of c (slG c 5) (ext (YR m c 5))) $$ [Hg5]
  · isplitl [Hg5]; · iexact Hg5
    ipureintro; rw [slab_read_write]; exact pay43_eq _
  sx
  iapply (wp_wait_yr m K c 6 (O := owedAt c 18)) $$ [Cyr6 HO Pyr6]
  · isplitr; · iexact HP6
    isplitl [Cyr6]; · iexact Cyr6
    isplitl [HO]; · iexact HO
    isplitr; · rw [mayWait_end_eq]; iempintro
    iexact Pyr6
  iintro ⟨HO, Zyr6, Hc⟩
  ihave Hc := (chunkAt_open c yrM 6 (YR m c 6)) $$ Hc
  icases Hc with ⟨%fy6, %hfy6, Hyr6⟩
  iapply (wp_chunk_load c yrM 6 fy6) $$ Hyr6; iintro Hyr6
  rw [hfy6]
  sx
  iapply (wp_slab_load c (offG c 6) (offG_inb c 6) (off5_G c 6) g2) $$ Hg6; iintro Hg6
  iapply (wp_slab_store c (offG c 6) (offG_inb c 6) (off5_G c 6) g2) $$ Hg6; iintro Hg6
  rw [ret_bind_eq]
  ihave Hg6 := (slabAt_of c (slG c 6) (ext (YR m c 6))) $$ [Hg6]
  · isplitl [Hg6]; · iexact Hg6
    ipureintro; rw [slab_read_write]; exact pay44_eq _
  sx
  iapply (wp_wait_yr m K c 7 (O := owedAt c 18)) $$ [Cyr7 HO Pyr7]
  · isplitr; · iexact HP7
    isplitl [Cyr7]; · iexact Cyr7
    isplitl [HO]; · iexact HO
    isplitr; · rw [mayWait_end_eq]; iempintro
    iexact Pyr7
  iintro ⟨HO, Zyr7, Hc⟩
  ihave Hc := (chunkAt_open c yrM 7 (YR m c 7)) $$ Hc
  icases Hc with ⟨%fy7, %hfy7, Hyr7⟩
  iapply (wp_chunk_load c yrM 7 fy7) $$ Hyr7; iintro Hyr7
  rw [hfy7]
  rw [ret_bind_eq]
  sx
  iapply (wp_slab_load c (offG c 7) (offG_inb c 7) (off5_G c 7) g2) $$ Hg7; iintro Hg7
  iapply (wp_slab_store c (offG c 7) (offG_inb c 7) (off5_G c 7) g2) $$ Hg7; iintro Hg7
  rw [ret_bind_eq]
  ihave Hg7 := (slabAt_of c (slG c 7) (ext (YR m c 7))) $$ [Hg7]
  · isplitl [Hg7]; · iexact Hg7
    ipureintro; rw [slab_read_write]; exact pay45_eq _
  sx
  -- the sixteen send waits, chunk by chunk y then x: each send buffer's chunk comes back, each cell closes
  iapply (wp_wait_ys m K c 0 (O := owedAt c 18)) $$ [Cys0 HO Pys0]
  · isplitr; · iexact HP0
    isplitl [Cys0]; · iexact Cys0
    isplitl [HO]; · iexact HO
    isplitr; · rw [mayWait_end_eq]; iempintro
    iexact Pys0
  iintro ⟨HO, Zys0, Sys0⟩
  sx
  iapply (wp_wait_xs m K c 0 (O := owedAt c 18)) $$ [Cxs0 HO Pxs0]
  · isplitr; · iexact HP0
    isplitl [Cxs0]; · iexact Cxs0
    isplitl [HO]; · iexact HO
    isplitr; · rw [mayWait_end_eq]; iempintro
    iexact Pxs0
  iintro ⟨HO, Zxs0, Sxs0⟩
  sx
  iapply (wp_wait_ys m K c 1 (O := owedAt c 18)) $$ [Cys1 HO Pys1]
  · isplitr; · iexact HP1
    isplitl [Cys1]; · iexact Cys1
    isplitl [HO]; · iexact HO
    isplitr; · rw [mayWait_end_eq]; iempintro
    iexact Pys1
  iintro ⟨HO, Zys1, Sys1⟩
  sx
  iapply (wp_wait_xs m K c 1 (O := owedAt c 18)) $$ [Cxs1 HO Pxs1]
  · isplitr; · iexact HP1
    isplitl [Cxs1]; · iexact Cxs1
    isplitl [HO]; · iexact HO
    isplitr; · rw [mayWait_end_eq]; iempintro
    iexact Pxs1
  iintro ⟨HO, Zxs1, Sxs1⟩
  sx
  iapply (wp_wait_ys m K c 2 (O := owedAt c 18)) $$ [Cys2 HO Pys2]
  · isplitr; · iexact HP2
    isplitl [Cys2]; · iexact Cys2
    isplitl [HO]; · iexact HO
    isplitr; · rw [mayWait_end_eq]; iempintro
    iexact Pys2
  iintro ⟨HO, Zys2, Sys2⟩
  sx
  iapply (wp_wait_xs m K c 2 (O := owedAt c 18)) $$ [Cxs2 HO Pxs2]
  · isplitr; · iexact HP2
    isplitl [Cxs2]; · iexact Cxs2
    isplitl [HO]; · iexact HO
    isplitr; · rw [mayWait_end_eq]; iempintro
    iexact Pxs2
  iintro ⟨HO, Zxs2, Sxs2⟩
  sx
  iapply (wp_wait_ys m K c 3 (O := owedAt c 18)) $$ [Cys3 HO Pys3]
  · isplitr; · iexact HP3
    isplitl [Cys3]; · iexact Cys3
    isplitl [HO]; · iexact HO
    isplitr; · rw [mayWait_end_eq]; iempintro
    iexact Pys3
  iintro ⟨HO, Zys3, Sys3⟩
  sx
  iapply (wp_wait_xs m K c 3 (O := owedAt c 18)) $$ [Cxs3 HO Pxs3]
  · isplitr; · iexact HP3
    isplitl [Cxs3]; · iexact Cxs3
    isplitl [HO]; · iexact HO
    isplitr; · rw [mayWait_end_eq]; iempintro
    iexact Pxs3
  iintro ⟨HO, Zxs3, Sxs3⟩
  sx
  iapply (wp_wait_ys m K c 4 (O := owedAt c 18)) $$ [Cys4 HO Pys4]
  · isplitr; · iexact HP4
    isplitl [Cys4]; · iexact Cys4
    isplitl [HO]; · iexact HO
    isplitr; · rw [mayWait_end_eq]; iempintro
    iexact Pys4
  iintro ⟨HO, Zys4, Sys4⟩
  sx
  iapply (wp_wait_xs m K c 4 (O := owedAt c 18)) $$ [Cxs4 HO Pxs4]
  · isplitr; · iexact HP4
    isplitl [Cxs4]; · iexact Cxs4
    isplitl [HO]; · iexact HO
    isplitr; · rw [mayWait_end_eq]; iempintro
    iexact Pxs4
  iintro ⟨HO, Zxs4, Sxs4⟩
  sx
  iapply (wp_wait_ys m K c 5 (O := owedAt c 18)) $$ [Cys5 HO Pys5]
  · isplitr; · iexact HP5
    isplitl [Cys5]; · iexact Cys5
    isplitl [HO]; · iexact HO
    isplitr; · rw [mayWait_end_eq]; iempintro
    iexact Pys5
  iintro ⟨HO, Zys5, Sys5⟩
  sx
  iapply (wp_wait_xs m K c 5 (O := owedAt c 18)) $$ [Cxs5 HO Pxs5]
  · isplitr; · iexact HP5
    isplitl [Cxs5]; · iexact Cxs5
    isplitl [HO]; · iexact HO
    isplitr; · rw [mayWait_end_eq]; iempintro
    iexact Pxs5
  iintro ⟨HO, Zxs5, Sxs5⟩
  sx
  iapply (wp_wait_ys m K c 6 (O := owedAt c 18)) $$ [Cys6 HO Pys6]
  · isplitr; · iexact HP6
    isplitl [Cys6]; · iexact Cys6
    isplitl [HO]; · iexact HO
    isplitr; · rw [mayWait_end_eq]; iempintro
    iexact Pys6
  iintro ⟨HO, Zys6, Sys6⟩
  sx
  iapply (wp_wait_xs m K c 6 (O := owedAt c 18)) $$ [Cxs6 HO Pxs6]
  · isplitr; · iexact HP6
    isplitl [Cxs6]; · iexact Cxs6
    isplitl [HO]; · iexact HO
    isplitr; · rw [mayWait_end_eq]; iempintro
    iexact Pxs6
  iintro ⟨HO, Zxs6, Sxs6⟩
  sx
  iapply (wp_wait_ys m K c 7 (O := owedAt c 18)) $$ [Cys7 HO Pys7]
  · isplitr; · iexact HP7
    isplitl [Cys7]; · iexact Cys7
    isplitl [HO]; · iexact HO
    isplitr; · rw [mayWait_end_eq]; iempintro
    iexact Pys7
  iintro ⟨HO, Zys7, Sys7⟩
  sx
  iapply (wp_wait_xs m K c 7 (O := owedAt c 18)) $$ [Cxs7 HO Pxs7]
  · isplitr; · iexact HP7
    isplitl [Cxs7]; · iexact Cxs7
    isplitl [HO]; · iexact HO
    isplitr; · rw [mayWait_end_eq]; iempintro
    iexact Pxs7
  iintro ⟨HO, Zxs7, Sxs7⟩
  sx
  -- the receive chunks, held since their loads, at their named contents again
  ihave Hxr0 := (chunkAt_intro c xrM 0 fr0 (XR m c 0) hfr0) $$ Hxr0
  ihave Hxr1 := (chunkAt_intro c xrM 1 fr1 (XR m c 1) hfr1) $$ Hxr1
  ihave Hxr2 := (chunkAt_intro c xrM 2 fr2 (XR m c 2) hfr2) $$ Hxr2
  ihave Hxr3 := (chunkAt_intro c xrM 3 fr3 (XR m c 3) hfr3) $$ Hxr3
  ihave Hxr4 := (chunkAt_intro c xrM 4 fr4 (XR m c 4) hfr4) $$ Hxr4
  ihave Hxr5 := (chunkAt_intro c xrM 5 fr5 (XR m c 5) hfr5) $$ Hxr5
  ihave Hxr6 := (chunkAt_intro c xrM 6 fr6 (XR m c 6) hfr6) $$ Hxr6
  ihave Hxr7 := (chunkAt_intro c xrM 7 fr7 (XR m c 7) hfr7) $$ Hxr7
  ihave Hyr0 := (chunkAt_intro c yrM 0 fy0 (YR m c 0) hfy0) $$ Hyr0
  ihave Hyr1 := (chunkAt_intro c yrM 1 fy1 (YR m c 1) hfy1) $$ Hyr1
  ihave Hyr2 := (chunkAt_intro c yrM 2 fy2 (YR m c 2) hfy2) $$ Hyr2
  ihave Hyr3 := (chunkAt_intro c yrM 3 fy3 (YR m c 3) hfy3) $$ Hyr3
  ihave Hyr4 := (chunkAt_intro c yrM 4 fy4 (YR m c 4) hfy4) $$ Hyr4
  ihave Hyr5 := (chunkAt_intro c yrM 5 fy5 (YR m c 5) hfy5) $$ Hyr5
  ihave Hyr6 := (chunkAt_intro c yrM 6 fy6 (YR m c 6) hfy6) $$ Hyr6
  ihave Hyr7 := (chunkAt_intro c yrM 7 fy7 (YR m c 7) hfy7) $$ Hyr7
  -- the return
  sl_step
  iapply Hk
  iapply (finish2 m c _)
  iframe ∗

end Cert.Kernel.Hand

end
-- ==== Proof.Bits.Oblig.lean ====
/-
  The body obligation of the pipeline at the one grid point, from the body's own triple: the obligation's
  precondition is the body's, its postcondition the body's, and the pipeline calls the body at the three staged
  buffers and the four scratch buffers the triple is stated over.
-/
import proofs.«900597_g7700000000000598_dist_rsrms_v7x_xy2x2_x_m512_d512_f32_1_alg».proof.Proof.Bits.Body

noncomputable section

namespace Cert.Kernel.Hand

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A whole buffer owned at named contents is the buffer held at all its elements, at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8192 in
/-- The pipeline's body obligation on device c. -/
theorem body_obligation (c : Dev nD) : BodyObligation (dats (F := F) m 0 c) (defs₀ (F := F)) Variants.none () Set.univ := fun t => by
  rw [fin_N0 t]
  rw [bigSep_W0, bigSep_W0]
  simp only [owns_whole_eq]
  show bodyPre m c ⊢ wp frame (wpE (defs₀ (F := F)) 𝒱₀ c none) Set.univ
    (cc0_body xM (Memref.isWhole_whole _) gM (Memref.isWhole_whole _) oM (Memref.isWhole_whole _)
      xsM (Memref.isWhole_whole _) xrM (Memref.isWhole_whole _) ysM (Memref.isWhole_whole _) yrM (Memref.isWhole_whole _)
      cc0_scratch4 cc0_scratch5 cc0_scratch6 cc0_scratch7) (fun _ => bodyPost m c)
  iintro H
  iapply (sound_body m c fun _ => bodyPost m c)
  isplitl [H]
  · iexact H
  · iintro H; iexact H

end Cert.Kernel.Hand

end
-- ==== Proof.RefSide.lean ====
/-
  The reference, as one function of its two argument arrays.

  The reference adds the two 1024 × 512 slices of its first argument, and normalises every row of the sum:
  entry (R, j) of the result is  s j / sqrt ((Σ s²) / 512 + ε) · γ j  with s = row R of the sum. Its eighteen
  host operations are read back one at a time, each at an index, down to the entries of the arguments; the two
  sums start from the zero word, which is the real number zero. The run of the reference then ends with its
  result array at that function of the arguments it was started with, and with the arguments unchanged.
-/
import proofs.«900597_g7700000000000598_dist_rsrms_v7x_xy2x2_x_m512_d512_f32_1_alg».proof.Defs
import proofs.«900597_g7700000000000598_dist_rsrms_v7x_xy2x2_x_m512_d512_f32_1_alg».proof.Proof.Gen.ReferenceIdeal
import proofs.«900597_g7700000000000598_dist_rsrms_v7x_xy2x2_x_m512_d512_f32_1_alg».proof.Proof.Gen.Pre_finite_inputs_ReferenceIdeal
import proofs.«900597_g7700000000000598_dist_rsrms_v7x_xy2x2_x_m512_d512_f32_1_alg».proof.Proof.Gen.ReferenceIdeal.Run
import proofs.«900597_g7700000000000598_dist_rsrms_v7x_xy2x2_x_m512_d512_f32_1_alg».proof.Proof.Gen.ReferenceIdeal.Read
import proofs.«900597_g7700000000000598_dist_rsrms_v7x_xy2x2_x_m512_d512_f32_1_alg».proof.Proof.Spec
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

/-! ## The specification -/

/-- Entry j of row R of the sum of the two slices. -/
def rowSum (X : (⟨S2x1024x512, .f32⟩ : BufTy).Contents (Elt Ideal)) (R : Fin 1024) (j : Fin 512) : EReal :=
  X (ix3 (0 : Fin 2) R j) + X (ix3 (1 : Fin 2) R j)

/-- The reference's result: every row of the sum, normalised and weighted. -/
def refOut (X : (⟨S2x1024x512, .f32⟩ : BufTy).Contents (Elt Ideal)) (γ : (⟨S512, .f32⟩ : BufTy).Contents (Elt Ideal)) :
    (⟨S1024x512, .f32⟩ : BufTy).Contents (Elt Ideal) :=
  fun i => Cert.Spec.normEntry (fun j => rowSum X (i 0) j) (fun j => γ (ix1 j)) (i 1)

/-! ## The index maps of the layout operations, by coordinates -/

/-- The summed axis is the first: slice k, at the result's row and column. -/
theorem idx_slice (i : S1024x512.Idx) (k : Fin 2) :
    Read.idx_main_v0 i k = ix3 (n0 := 2) (n1 := 1024) (n2 := 512) k (i 0) (i 1) := by
  funext a; match a with | ⟨0, _⟩ => rfl | ⟨1, _⟩ => rfl | ⟨2, _⟩ => rfl

/-- The mean of squares of the row of entry i runs over that row: the column of i is forgotten. -/
theorem idx_row (i : S1024x512.Idx) (k' : Fin 512) :
    Read.idx_main_v2 (Read.idx_main_v3 (Read.idx_main_v9 i)) k' = ix2 (n0 := 1024) (n1 := 512) (i 0) k' := by
  funext a; match a with | ⟨0, _⟩ => rfl | ⟨1, _⟩ => rfl

/-- The weight of entry i is the weight of its column. -/
theorem idx_col (i : S1024x512.Idx) :
    Read.idx_main_v11 (Read.idx_main_v12 i) = ix1 (n := 512) (i 1) := by
  funext a; match a with | ⟨0, _⟩ => rfl

/-! ## The reference computes the specification -/

/-- The composed term of the reference's operations is the specification, entry by entry. -/
theorem val_eq (X : (⟨S2x1024x512, .f32⟩ : BufTy).Contents (Elt Ideal)) (γ : (⟨S512, .f32⟩ : BufTy).Contents (Elt Ideal)) :
    Read.val_main_v13 (F := Ideal) X γ = refOut X γ := by
  funext i
  rw [Read.val_main_v13_apply, Read.val_main_v10_apply, Read.val_main_v12_apply, Read.val_main_v11_apply,
    Read.val_main_v9_apply, Read.val_main_v8_apply, Read.val_main_v7_apply, Read.val_main_v5_apply,
    Read.val_main_v6_apply, Read.val_main_cst_2_apply, Read.val_main_v3_apply, Read.val_main_v4_apply,
    Read.val_main_cst_1_apply, Read.val_main_v2_apply, Read.val_main_cst_0_apply]
  simp only [Read.val_main_v1_apply, Read.val_main_v0_apply, Read.val_main_cst_apply, idx_slice, idx_row, idx_col,
    Fin.sum_univ_two, Ideal.ofBits_def, Ideal.ofBits_zero_f32, zero_add, Ideal.mulf_def, Ideal.addf_def,
    Ideal.hostDivf_def, Ideal.hostUnary_sqrt_def]
  rfl

/-! ## The run -/

/-- Every weakly fair execution of the reference ends with its result at the specification of the arguments it
    started with, and the arguments unchanged. -/
theorem run_ref (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev nD).tc : Thread nD τ).loc main_v13)
          = refOut (m' (((0 : Dev nD).tc : Thread nD τ).loc main_arg0)) (m' (((0 : Dev nD).tc : Thread nD τ).loc main_arg1))
        ∧ r.2.mem (((0 : Dev nD).tc : Thread nD τ).loc main_arg0) = m' (((0 : Dev nD).tc : Thread nD τ).loc main_arg0)
        ∧ r.2.mem (((0 : Dev nD).tc : Thread nD τ).loc main_arg1) = m' (((0 : Dev nD).tc : Thread nD τ).loc main_arg1)) :=
  (θ_run Cert.ReferenceIdeal.defs _ _).mono
    (fun _ h => ⟨(h 0).1.trans ((Read.val_main_v13_eq _ _).trans (val_eq _ _)), (h 0).2⟩)
    (Cert.ReferenceIdeal.Value.run (F := Ideal) m' ρ')

/-- The reference runs and leaves its arguments as they were. -/
theorem frame_ref : Cert.frame_ReferenceIdeal := fun m ρ _ =>
  (θ_run Cert.ReferenceIdeal.defs _ _).mono (fun _ h c => (h c).2) (Cert.ReferenceIdeal.Value.run (F := Ideal) m ρ)

end Cert.ReferenceIdeal.Hand

end
-- ==== Proof.PreFinite.lean ====
/-
  Finiteness of the inputs, entry by entry.

  The precondition says: on every device, all entries of the block of partial sums and all entries of the
  weights have an absolute value below +∞. On the extended reals that leaves exactly the real numbers:
  |⊤| = |⊥| = ⊤ is not below ⊤. The two "all" are conjunctions over every index, read back entry by entry.
-/
import proofs.«900597_g7700000000000598_dist_rsrms_v7x_xy2x2_x_m512_d512_f32_1_alg».proof.Defs
import proofs.«900597_g7700000000000598_dist_rsrms_v7x_xy2x2_x_m512_d512_f32_1_alg».proof.Proof.Gen.Pre_finite_inputs_Kernel
import Idealize.ShloMosaic.Lib.ReduceAll
import Idealize.ShloMosaic.Lib.ValueIdx
import Idealize.ShloMosaic.PureOps.Ideal.Laws

noncomputable section

namespace Cert.KernelIdeal.Hand

open Cert.KernelIdeal Idealize.ShloMosaic Idealize.ShloMosaic.TcCoe Idealize.SL.Sem

/-- The scalar shape has one index. -/
instance : Subsingleton Cert.Pre_finite_inputs_Kernel.S_.Idx := ⟨fun a b => funext fun d => d.elim0⟩

/-- An extended real whose absolute value is below +∞ is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- The precondition on one device's two arrays: every entry of both is a real number. -/
theorem real_of_finite_inputs (x : FVec Ideal Cert.Pre_finite_inputs_Kernel.S1x1024x512 .f32)
    (g : FVec Ideal Cert.Pre_finite_inputs_Kernel.S512 .f32)
    (h : Cert.Pre_finite_inputs_Kernel.fn (F := Ideal) x g = fun _ => 1#1) :
    (∀ i, ∃ r : ℝ, x i = (r : EReal)) ∧ (∀ j, ∃ r : ℝ, g j = (r : EReal)) := by
  have h0 := congrFun h ValueIdx.ix0
  dsimp only [Cert.Pre_finite_inputs_Kernel.fn] at h0
  obtain ⟨h1, h2⟩ := IntOp.andi_eq_one.1 h0
  exact ⟨fun i => real_of_abs_lt_inf _ (Host.reduce_andi_all _ _ _ _ _ h1 i),
    fun j => real_of_abs_lt_inf _ (Host.reduce_andi_all _ _ _ _ _ h2 j)⟩

/-- Under the precondition every entry of every device's block of partial sums is a real number. -/
theorem pre_real_x (m : (ℓ : Loc nD τ sig) → Buf (Elt Ideal) ℓ) (hpre : Cert.Pre_KernelIdeal m) (c : Dev nD)
    (i : S1x1024x512.Idx) : ∃ r : ℝ, m ((c.tc : Thread nD τ).loc main_arg0) i = (r : EReal) :=
  (real_of_finite_inputs _ _ (hpre c)).1 i

/-- Under the precondition every weight on every device is a real number. -/
theorem pre_real_g (m : (ℓ : Loc nD τ sig) → Buf (Elt Ideal) ℓ) (hpre : Cert.Pre_KernelIdeal m) (c : Dev nD)
    (j : S512.Idx) : ∃ r : ℝ, m ((c.tc : Thread nD τ).loc main_arg1) j = (r : EReal) :=
  (real_of_finite_inputs _ _ (hpre c)).2 j

end Cert.KernelIdeal.Hand

end
-- ==== Proof.ValueTop.lean ====
/-
  The value of the kernel's result, joined to the reference's.

  Device (x, y) of the 2 × 2 mesh holds slice x of the reference's first argument (its block of 1024 rows) and the
  whole weight vector. Chunk k of its own quarter starts at row 512 x + 256 y + 32 k of the block, and the chunk its
  x-partner sends it starts at the SAME row of the partner's block, which is the other slice. So row r of the sum the
  device normalises is global row R = 512 x + 256 y + 32 k + r of slice x plus slice 1 − x: the reference's summed row R,
  whichever of the two slices is the device's own, since the sum of two extended reals commutes. Under the precondition
  every entry is a real number, so the kernel's arithmetic on that row (a product with the reciprocal root) is the
  reference's (a quotient by the root). The rows of the other quarter are what the y-partner — same x, other y —
  normalised, cast to bf16 and back, which on the extended reals changes nothing. Row i of the result block is
  therefore row 512 x + i of the reference's result: block x of it.
-/
import proofs.«900597_g7700000000000598_dist_rsrms_v7x_xy2x2_x_m512_d512_f32_1_alg».proof.Proof.Proto
import proofs.«900597_g7700000000000598_dist_rsrms_v7x_xy2x2_x_m512_d512_f32_1_alg».proof.Proof.RefSide
import proofs.«900597_g7700000000000598_dist_rsrms_v7x_xy2x2_x_m512_d512_f32_1_alg».proof.Proof.PreFinite
import proofs.«900597_g7700000000000598_dist_rsrms_v7x_xy2x2_x_m512_d512_f32_1_alg».proof.Defs
import Idealize.ShloMosaic.Lib.Layout

noncomputable section

namespace Cert.KernelIdeal.Hand

open Cert.KernelIdeal Cert.KernelIdeal.Gen
open Idealize.ShloMosaic Idealize.ShloMosaic.TcCoe Idealize.SL.Sem
open Idealize.ShloMosaic.ValueIdx
open Cert.ReferenceIdeal.Hand (refOut rowSum)

/-! ## The mesh coordinates of a device and of its partners -/

theorem dev_lt (d : Dev nD) : d.val < 4 := d.isLt

/-- The slice of the first argument that device d holds: its x coordinate. -/
def slc (d : Dev nD) : Fin 2 := ⟨d.val / 2, by have := dev_lt d; omega⟩
/-- The slice its x-partner holds: the other one. -/
def slc' (d : Dev nD) : Fin 2 := ⟨1 - d.val / 2, by omega⟩

theorem slc_cases (d : Dev nD) : (slc d = 0 ∧ slc' d = 1) ∨ (slc d = 1 ∧ slc' d = 0) := by revert d; decide
theorem slc_xp (d : Dev nD) : slc (xp d) = slc' d := by revert d; decide
theorem offP_xp (d : Dev nD) (k : Fin 8) : offP (xp d) k = offM d k := by revert d k; decide
theorem yp_div (d : Dev nD) : (yp d).val / 2 = d.val / 2 := by revert d; decide
theorem yp_mod (d : Dev nD) : (yp d).val % 2 = 1 - d.val % 2 := by revert d; decide

/-- The block coordinates of device d along the three dimensions of the first argument, and the two of the result. -/
theorem meshLin_x (d : Dev nD) : Layout.meshLin [2, 2] d.val [0] = d.val / 2 := by revert d; decide

/-- The global row of row r of chunk k of device d's own quarter. -/
def gRowIdx (d : Dev nD) (k : Fin 8) (r : Fin 32) : Fin 1024 :=
  ⟨512 * (d.val / 2) + 256 * (d.val % 2) + 32 * k.val + r.val, by have := dev_lt d; have := k.isLt; have := r.isLt; omega⟩

/-! ## The staged arrays are the launch contents of the arguments -/

theorem xstg_eq {F : FTy → Type} [FloatOps F] (m : (ℓ : Loc nD τ sig) → Buf (Elt F) ℓ) (c : Dev nD) :
    xstg m c = m ((c : Thread nD τ).loc main_arg0) := by
  unfold xstg
  exact Memref.read_access_unit_zero (Elt F) main_arg0 (funext fun a => Nat.zero_mul _) _ _

theorem gstg_eq {F : FTy → Type} [FloatOps F] (m : (ℓ : Loc nD τ sig) → Buf (Elt F) ℓ) (c : Dev nD) :
    gstg m c = m ((c : Thread nD τ).loc main_arg1) := by
  unfold gstg
  exact Memref.read_access_unit_zero (Elt F) main_arg1 (funext fun a => Nat.zero_mul _) _ _

/-! ## Rows of a device's block, as entries of the first argument -/

section Value

variable (m : (ℓ : Loc nD τ sig) → Buf (Elt Ideal) ℓ)
  (X : (⟨⟨3, ![2, 1024, 512]⟩, .f32⟩ : BufTy).Contents (Elt Ideal))
  (γ : (⟨⟨1, ![512]⟩, .f32⟩ : BufTy).Contents (Elt Ideal))

/-- 32 rows read out of a block of 1024 rows at row offset o: row r of them is row o + r of the block. -/
theorem readRows_apply (f : (cc0_stg0_0 : Ref sig .tc).ty.Contents (Elt Ideal)) (off : Fin 3 → Nat)
    (inb : ∀ a, off a + S1x32x512.size a ≤ S1x1024x512.size a) (h0 : off 0 = 0) (h2 : off 2 = 0)
    (R : Fin 1024) (r : Fin 32) (hR : R.val = off 1 + r.val) (j : Fin 512) :
    (xM : Memref sig .tc .vmem S1x1024x512 .f32).view.readAt (Elt Ideal)
        (Rect.unit (s := S1x1024x512) off S1x32x512.size inb).toLoadRect f (ix3 (0 : Fin 1) r j)
      = f (ix3 (0 : Fin 1) R j) := by
  show f _ = f _
  refine congrArg f (funext fun a => Fin.ext ?_)
  match a with
  | ⟨0, _⟩ => show off 0 + 1 * 0 = 0; omega
  | ⟨1, _⟩ => show off 1 + 1 * r.val = R.val; omega
  | ⟨2, _⟩ => show off 2 + 1 * j.val = j.val; omega

/-- Entry (0, R, j) of device d's block is entry (x, R, j) of the whole array, x the device's first mesh coordinate. -/
theorem block_apply
    (hx : ∀ c : Dev nD, m ((c.tc : Thread nD τ).loc main_arg0) = Layout.blockN ⟨3, ![1, 1024, 512]⟩ ⟨3, ![2, 1024, 512]⟩ (Layout.meshBlock [2, 2] ![[0], [], []] c) X)
    (d : Dev nD) (R : Fin 1024) (j : Fin 512) :
    m ((d.tc : Thread nD τ).loc main_arg0) (ix3 (0 : Fin 1) R j) = X (ix3 (slc d) R j) := by
  rw [hx d]
  show X _ = X _
  refine congrArg X (funext fun a => Fin.ext ?_)
  match a with
  | ⟨0, _⟩ => show Layout.meshLin [2, 2] d.val [0] * 1 + 0 = d.val / 2; rw [meshLin_x]; omega
  | ⟨1, _⟩ => show 0 * 1024 + R.val = R.val; omega
  | ⟨2, _⟩ => show 0 * 512 + j.val = j.val; omega

end Value

/-! ## One normalised entry, in the reference's form -/

/-- On two rows of reals the kernel's arithmetic on their sum is the reference's, -/
theorem entry_eq (a b g : Fin 512 → EReal) (ha : ∀ j, ∃ r : ℝ, a j = (r : EReal)) (hb : ∀ j, ∃ r : ℝ, b j = (r : EReal))
    (j : Fin 512) :
    Cert.Spec.kernEntry (fun j' => a j' + b j') g j = Cert.Spec.normEntry (fun j' => a j' + b j') g j :=
  Cert.Spec.kernEntry_eq_normEntry _ _ (fun j' => Cert.Spec.real_add _ _ (ha j') (hb j')) j

/-- and it does not matter which of the two rows is the device's own. -/
theorem entry_eq' (a b g : Fin 512 → EReal) (ha : ∀ j, ∃ r : ℝ, a j = (r : EReal)) (hb : ∀ j, ∃ r : ℝ, b j = (r : EReal))
    (j : Fin 512) :
    Cert.Spec.kernEntry (fun j' => b j' + a j') g j = Cert.Spec.normEntry (fun j' => a j' + b j') g j := by
  rw [show (fun j' => b j' + a j') = fun j' => a j' + b j' from funext fun j' => add_comm _ _]
  exact entry_eq a b g ha hb j

section Assembly

variable (m : (ℓ : Loc nD τ sig) → Buf (Elt Ideal) ℓ)
  (X : (⟨⟨3, ![2, 1024, 512]⟩, .f32⟩ : BufTy).Contents (Elt Ideal))
  (γ : (⟨⟨1, ![512]⟩, .f32⟩ : BufTy).Contents (Elt Ideal))
  (hpre : Cert.Pre_KernelIdeal m)
  (hx : ∀ c : Dev nD, m ((c.tc : Thread nD τ).loc main_arg0) = Layout.blockN ⟨3, ![1, 1024, 512]⟩ ⟨3, ![2, 1024, 512]⟩ (Layout.meshBlock [2, 2] ![[0], [], []] c) X)
  (hg : ∀ c : Dev nD, m ((c.tc : Thread nD τ).loc main_arg1) = γ)

include hx in
/-- Row r of chunk k of device d's own quarter of its block is global row 512 x + 256 y + 32 k + r of slice x. -/
theorem rowsM_X (d : Dev nD) (k : Fin 8) (r : Fin 32) (j : Fin 512) :
    rowsM m d k (ix3 (0 : Fin 1) r j) = X (ix3 (slc d) (gRowIdx d k r) j) := by
  unfold rowsM
  rw [readRows_apply (xstg m d) (offM d k) (offM_inb d k) rfl rfl (gRowIdx d k r) r rfl j, xstg_eq]
  exact block_apply m X hx d _ j

include hx in
/-- The x-partner's row r of chunk k of the quarter it sends is the same global row of the other slice. -/
theorem rowsP_X (d : Dev nD) (k : Fin 8) (r : Fin 32) (j : Fin 512) :
    rowsP m (xp d) k (ix3 (0 : Fin 1) r j) = X (ix3 (slc' d) (gRowIdx d k r) j) := by
  unfold rowsP
  rw [readRows_apply (xstg m (xp d)) (offP (xp d) k) (offP_inb (xp d) k) rfl rfl (gRowIdx d k r) r
      (by rw [offP_xp]; rfl) j, xstg_eq, block_apply m X hx (xp d), slc_xp]

theorem slc_dev (s : Fin 2) : slc (⟨2 * s.val, by have := s.isLt; show 2 * s.val < 4; omega⟩ : Dev nD) = s := by
  revert s; decide

include hpre hx in
/-- Every entry of the first argument is a real number: some device holds it. -/
theorem X_real (s : Fin 2) (R : Fin 1024) (j : Fin 512) : ∃ r : ℝ, X (ix3 s R j) = (r : EReal) := by
  rw [← slc_dev s, ← block_apply m X hx]
  exact pre_real_x m hpre _ _

include hpre hx hg in
/-- Row r of the chunk k that device d normalises is global row 512 x + 256 y + 32 k + r of the reference's result. -/
theorem OUT_apply (d : Dev nD) (k : Fin 8) (r : Fin 32) (j : Fin 512) :
    OUT m d k (ix2 r j) = refOut X γ (ix2 (n0 := 1024) (n1 := 512) (gRowIdx d k r) j) := by
  unfold OUT XR XS
  rw [outRows_apply]
  simp only [rowsM_X m X hx, rowsP_X m X hx, gstg_eq, hg d]
  rcases slc_cases d with ⟨h1, h2⟩ | ⟨h1, h2⟩ <;> rw [h1, h2]
  · exact entry_eq (fun j' => X (ix3 (0 : Fin 2) (gRowIdx d k r) j')) (fun j' => X (ix3 (1 : Fin 2) (gRowIdx d k r) j')) _
      (fun j' => X_real m X hpre hx 0 _ j') (fun j' => X_real m X hpre hx 1 _ j') j
  · exact entry_eq' (fun j' => X (ix3 (0 : Fin 2) (gRowIdx d k r) j')) (fun j' => X (ix3 (1 : Fin 2) (gRowIdx d k r) j')) _
      (fun j' => X_real m X hpre hx 0 _ j') (fun j' => X_real m X hpre hx 1 _ j') j

end Assembly

/-! ## The result block is the device's block of the reference's result -/

theorem meshLin_none (d : Dev nD) : Layout.meshLin [2, 2] d.val [] = 0 := rfl

/-- What device c's result block holds in the end is block x of the reference's result: its own quarter of the 512
    rows it normalised itself, the other quarter its y-partner normalised, cast to bf16 and back on the way. -/
theorem outFinal_eq_block (m : (ℓ : Loc nD τ sig) → Buf (Elt Ideal) ℓ)
    (X : (⟨⟨3, ![2, 1024, 512]⟩, .f32⟩ : BufTy).Contents (Elt Ideal))
    (γ : (⟨⟨1, ![512]⟩, .f32⟩ : BufTy).Contents (Elt Ideal))
    (hpre : Cert.Pre_KernelIdeal m)
    (hx : ∀ c : Dev nD, m ((c.tc : Thread nD τ).loc main_arg0) = Layout.blockN ⟨3, ![1, 1024, 512]⟩ ⟨3, ![2, 1024, 512]⟩ (Layout.meshBlock [2, 2] ![[0], [], []] c) X)
    (hg : ∀ c : Dev nD, m ((c.tc : Thread nD τ).loc main_arg1) = γ) (c : Dev nD) :
    outFinal m c = Layout.blockN ⟨2, ![512, 512]⟩ ⟨2, ![1024, 512]⟩ (Layout.meshBlock [2, 2] ![[0], []] c) (refOut X γ) := by
  funext i
  have hi : (i 0).val < 512 := (i 0).isLt
  have hc := dev_lt c
  show outFinal m c i = refOut X γ _
  unfold outFinal
  split
  · rename_i h
    rw [OUT_apply m X γ hpre hx hg c]
    refine congrArg (refOut X γ) (funext fun a => Fin.ext ?_)
    match a with
    | ⟨0, _⟩ =>
      show 512 * (c.val / 2) + 256 * (c.val % 2) + 32 * ((i 0).val % 256 / 32) + (i 0).val % 32
        = Layout.meshLin [2, 2] c.val [0] * 512 + (i 0).val
      rw [meshLin_x]; omega
    | ⟨1, _⟩ => show (i 1).val = 0 * 512 + (i 1).val; omega
  · rename_i h
    unfold YR YS
    rw [ext_ysRows]
    show OUT m (yp c) _ _ = _
    rw [OUT_apply m X γ hpre hx hg (yp c)]
    refine congrArg (refOut X γ) (funext fun a => Fin.ext ?_)
    match a with
    | ⟨0, _⟩ =>
      show 512 * ((yp c).val / 2) + 256 * ((yp c).val % 2) + 32 * ((i 0).val % 256 / 32) + (i 0).val % 32
        = Layout.meshLin [2, 2] c.val [0] * 512 + (i 0).val
      rw [meshLin_x, yp_div, yp_mod]; omega
    | ⟨1, _⟩ => show (i 1).val = 0 * 512 + (i 1).val; omega

end Cert.KernelIdeal.Hand

end
-- ==== Proof.lean ====
/-
  The five conjuncts of the claim, assembled.

  Both printed programs of the kernel — the word-level one and its reading over the extended reals — run by the same
  argument: the protocol of the barrier and of the 32 transfer semaphores of each device is a schedule in which every
  wait is below what the waiting device still owes, so every weakly fair execution terminates; at the end the two
  argument arrays are as they were launched and each device's result block holds the sixteen slabs of 32 normalised
  rows. The two frame conjuncts are that run with the result dropped. The reference's frame is its run with the result
  dropped. The idealization rewrote no operation, so it has nothing to preserve. For the algebraic conjunct the value
  both programs agree on is the reference's result as one function of its two argument arrays: the reference's run
  ends at it, and under the precondition (every entry a real number) each device's result block is its block of it.
-/
import proofs.«900597_g7700000000000598_dist_rsrms_v7x_xy2x2_x_m512_d512_f32_1_alg».proof.Defs
import proofs.«900597_g7700000000000598_dist_rsrms_v7x_xy2x2_x_m512_d512_f32_1_alg».proof.Proof.Gen.Kernel
import proofs.«900597_g7700000000000598_dist_rsrms_v7x_xy2x2_x_m512_d512_f32_1_alg».proof.Proof.Gen.Kernel.Skeleton
import proofs.«900597_g7700000000000598_dist_rsrms_v7x_xy2x2_x_m512_d512_f32_1_alg».proof.Proof.Gen.Kernel.Launch
import proofs.«900597_g7700000000000598_dist_rsrms_v7x_xy2x2_x_m512_d512_f32_1_alg».proof.Proof.Gen.Kernel.Points
import proofs.«900597_g7700000000000598_dist_rsrms_v7x_xy2x2_x_m512_d512_f32_1_alg».proof.Proof.Gen.Kernel.Frame
import proofs.«900597_g7700000000000598_dist_rsrms_v7x_xy2x2_x_m512_d512_f32_1_alg».proof.Proof.Gen.KernelIdeal
import proofs.«900597_g7700000000000598_dist_rsrms_v7x_xy2x2_x_m512_d512_f32_1_alg».proof.Proof.Gen.KernelIdeal.Skeleton
import proofs.«900597_g7700000000000598_dist_rsrms_v7x_xy2x2_x_m512_d512_f32_1_alg».proof.Proof.Gen.KernelIdeal.Launch
import proofs.«900597_g7700000000000598_dist_rsrms_v7x_xy2x2_x_m512_d512_f32_1_alg».proof.Proof.Gen.KernelIdeal.Points
import proofs.«900597_g7700000000000598_dist_rsrms_v7x_xy2x2_x_m512_d512_f32_1_alg».proof.Proof.Gen.KernelIdeal.Frame
import proofs.«900597_g7700000000000598_dist_rsrms_v7x_xy2x2_x_m512_d512_f32_1_alg».proof.Proof.Gen.ReferenceIdeal
import proofs.«900597_g7700000000000598_dist_rsrms_v7x_xy2x2_x_m512_d512_f32_1_alg».proof.Proof.Gen.Pre_finite_inputs_Kernel
import proofs.«900597_g7700000000000598_dist_rsrms_v7x_xy2x2_x_m512_d512_f32_1_alg».proof.Proof.Gen.Pre_finite_inputs_ReferenceIdeal
import proofs.«900597_g7700000000000598_dist_rsrms_v7x_xy2x2_x_m512_d512_f32_1_alg».proof.Proof.Ledger
import proofs.«900597_g7700000000000598_dist_rsrms_v7x_xy2x2_x_m512_d512_f32_1_alg».proof.Proof.Launch
import proofs.«900597_g7700000000000598_dist_rsrms_v7x_xy2x2_x_m512_d512_f32_1_alg».proof.Proof.Oblig
import proofs.«900597_g7700000000000598_dist_rsrms_v7x_xy2x2_x_m512_d512_f32_1_alg».proof.Proof.Bits.Ledger
import proofs.«900597_g7700000000000598_dist_rsrms_v7x_xy2x2_x_m512_d512_f32_1_alg».proof.Proof.Bits.Launch
import proofs.«900597_g7700000000000598_dist_rsrms_v7x_xy2x2_x_m512_d512_f32_1_alg».proof.Proof.Bits.Oblig
import proofs.«900597_g7700000000000598_dist_rsrms_v7x_xy2x2_x_m512_d512_f32_1_alg».proof.Proof.RefSide
import proofs.«900597_g7700000000000598_dist_rsrms_v7x_xy2x2_x_m512_d512_f32_1_alg».proof.Proof.ValueTop
import Idealize.ShloMosaic.Adequacy
import Idealize.ShloMosaic.Init

noncomputable section

namespace Cert.Proof

open Idealize.ShloMosaic Idealize.ShloMosaic.TcCoe Idealize.SL.Sem

/-- The word-level program runs and leaves its two argument arrays as they were: its run, the result dropped. -/
theorem frame_kernel : Cert.frame_Kernel := fun m ρ _ =>
  (θ_run Cert.Kernel.defs _ _).mono
    (fun _ h c => ⟨(h c 0).trans (Cert.Kernel.Hand.finalA_x m c), (h c 1).trans (Cert.Kernel.Hand.finalA_g m c)⟩)
    (Cert.Kernel.Hand.run_main m ρ Cert.Kernel.Hand.creds (Cert.Kernel.Hand.waits m) (Cert.Kernel.Hand.body_obligation m))

/-- So does its reading over the extended reals. -/
theorem frame_kernelIdeal : Cert.frame_KernelIdeal := fun m ρ _ =>
  (θ_run Cert.KernelIdeal.defs _ _).mono
    (fun _ h c => ⟨(h c 0).trans (Cert.KernelIdeal.Hand.finalA_x m c), (h c 1).trans (Cert.KernelIdeal.Hand.finalA_g m c)⟩)
    (Cert.KernelIdeal.Hand.run_main m ρ Cert.KernelIdeal.Hand.creds (Cert.KernelIdeal.Hand.waits m) (Cert.KernelIdeal.Hand.body_obligation m))

/-- Over the extended reals, from real inputs laid out across the mesh, each device's result block ends as its block
    of the reference's result, which is one function of the reference's two argument arrays. -/
theorem algebraic : Cert.algebraic_KernelIdeal_ReferenceIdeal := fun m ρ m' ρ' hpre hagree =>
  ⟨Cert.ReferenceIdeal.Hand.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c =>
        ⟨(h c 2).trans ((Cert.KernelIdeal.Hand.finalA_out m c).trans
            (Cert.KernelIdeal.Hand.outFinal_eq_block m _ _ hpre (fun c => (hagree c).1) (fun c => (hagree c).2) c)),
          (h c 0).trans (Cert.KernelIdeal.Hand.finalA_x m c), (h c 1).trans (Cert.KernelIdeal.Hand.finalA_g m c)⟩)
      (Cert.KernelIdeal.Hand.run_main m ρ Cert.KernelIdeal.Hand.creds (Cert.KernelIdeal.Hand.waits m) (Cert.KernelIdeal.Hand.body_obligation m)),
    Cert.ReferenceIdeal.Hand.run_ref m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.ReferenceIdeal.Hand.frame_ref, trivial, algebraic⟩

end Cert.Proof

end
